-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v180) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x32 : Shape := ⟨2, ![800000, 32]⟩
abbrev S2x800000 : Shape := ⟨2, ![2, 800000]⟩
abbrev S128x64 : Shape := ⟨2, ![128, 64]⟩
abbrev S64 : Shape := ⟨1, ![64]⟩
abbrev S32x64 : Shape := ⟨2, ![32, 64]⟩
abbrev S4x128x64 : Shape := ⟨3, ![4, 128, 64]⟩
abbrev S4x64 : Shape := ⟨2, ![4, 64]⟩
abbrev S4x64x64 : Shape := ⟨3, ![4, 64, 64]⟩
abbrev S64x1 : Shape := ⟨2, ![64, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S4x128x64 : S_.BroadcastsInDim S4x128x64 (![] : Fin 0 → Fin S4x128x64.rank)
  reducesTo_S4x128x64_S_d0_1_2 : S4x128x64.ReducesTo [0, 1, 2] S_
  bcast_S_S4x64 : S_.BroadcastsInDim S4x64 (![] : Fin 0 → Fin S4x64.rank)
  reducesTo_S4x64_S_d0_1 : S4x64.ReducesTo [0, 1] S_
  bcast_S_S4x64x64 : S_.BroadcastsInDim S4x64x64 (![] : Fin 0 → Fin S4x64x64.rank)
  reducesTo_S4x64x64_S_d0_1_2 : S4x64x64.ReducesTo [0, 1, 2] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S2x800000 : S_.BroadcastsInDim S2x800000 (![] : Fin 0 → Fin S2x800000.rank)
  reducesTo_S2x800000_S_d0_1 : S2x800000.ReducesTo [0, 1] S_

variable [Facts]

def fn_part4 {F : FTy → Type} [FloatOps F] (main_arg2 : IVec S2x800000 32) (main_v63 : IVec S_ 1) (main_v67 : IVec S_ 1) : IVec S_ 1 :=
  let main_v68 : IVec S_ 1 := andi main_v63 main_v67
  let main_c_26 : IVec S_ 32 := constantI S_ 32 0#32
  let main_v69 : IVec S2x800000 32 := broadcastInDim S2x800000 ![] bcast_S_S2x800000 main_c_26
  let main_v70 : IVec S2x800000 1 := cmpi .sge main_arg2 main_v69
  let main_c_27 : IVec S_ 1 := constantI S_ 1 1#1
  let main_v71 : IVec S_ 1 := (fun x v => Host.reduce IntOp.andi x v reducesTo_S2x800000_S_d0_1 h_S_) main_v70 main_c_27
  let main_v72 : IVec S_ 1 := andi main_v68 main_v71
  let main_c_28 : IVec S_ 32 := constantI S_ 32 50000#32
  let main_v73 : IVec S2x800000 32 := broadcastInDim S2x800000 ![] bcast_S_S2x800000 main_c_28
  let main_v74 : IVec S2x800000 1 := cmpi .slt main_arg2 main_v73
  let main_c_29 : IVec S_ 1 := constantI S_ 1 1#1
  let main_v75 : IVec S_ 1 := (fun x v => Host.reduce IntOp.andi x v reducesTo_S2x800000_S_d0_1 h_S_) main_v74 main_c_29
  let main_v76 : IVec S_ 1 := andi main_v72 main_v75
  main_v76

def fn_part3 {F : FTy → Type} [FloatOps F] (main_arg2 : IVec S2x800000 32) (main_arg12 : FVec F S64 .f32) (main_arg13 : FVec F S64x1 .f32) (main_arg14 : FVec F S1 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x1 .f32 := Host.absf main_arg13
  let main_cst_22 : FVec F S_ .f32 := constant S_ .f32 0x7F800000#32
  let main_v60 : FVec F S64x1 .f32 := broadcastInDim S64x1 ![] bcast_S_S64x1 main_cst_22
  let main_v61 : IVec S64x1 1 := cmpf .olt main_v59 main_v60
  let main_c_23 : IVec S_ 1 := constantI S_ 1 1#1
  let main_v62 : IVec S_ 1 := (fun x v => Host.reduce IntOp.andi x v reducesTo_S64x1_S_d0_1 h_S_) main_v61 main_c_23
  let main_v63 : IVec S_ 1 := andi main_v58 main_v62
  let main_v64 : FVec F S1 .f32 := Host.absf main_arg14
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_arg2 main_v63 main_v67

def fn_part2 {F : FTy → Type} [FloatOps F] (main_arg2 : IVec S2x800000 32) (main_arg8 : FVec F S4x64 .f32) (main_arg9 : FVec F S4x64x64 .f32) (main_arg10 : FVec F S4x64 .f32) (main_arg11 : FVec F S128x64 .f32) (main_arg12 : FVec F S64 .f32) (main_arg13 : FVec F S64x1 .f32) (main_arg14 : FVec F S1 .f32) (main_v33 : IVec S_ 1) : IVec S_ 1 :=
  let main_v34 : FVec F S4x64 .f32 := Host.absf main_arg8
  let main_cst_12 : FVec F S_ .f32 := constant S_ .f32 0x7F800000#32
  let main_v35 : FVec F S4x64 .f32 := broadcastInDim S4x64 ![] bcast_S_S4x64 main_cst_12
  let main_v36 : IVec S4x64 1 := cmpf .olt main_v34 main_v35
  let main_c_13 : IVec S_ 1 := constantI S_ 1 1#1
  let main_v37 : IVec S_ 1 := (fun x v => Host.reduce IntOp.andi x v reducesTo_S4x64_S_d0_1 h_S_) main_v36 main_c_13
  let main_v38 : IVec S_ 1 := andi main_v33 main_v37
  let main_v39 : FVec F S4x64x64 .f32 := Host.absf main_arg9
  let main_cst_14 : FVec F S_ .f32 := constant S_ .f32 0x7F800000#32
  let main_v40 : FVec F S4x64x64 .f32 := broadcastInDim S4x64x64 ![] bcast_S_S4x64x64 main_cst_14
  let main_v41 : IVec S4x64x64 1 := cmpf .olt main_v39 main_v40
  let main_c_15 : IVec S_ 1 := constantI S_ 1 1#1
  let main_v42 : IVec S_ 1 := (fun x v => Host.reduce IntOp.andi x v reducesTo_S4x64x64_S_d0_1_2 h_S_) main_v41 main_c_15
  let main_v43 : IVec S_ 1 := andi main_v38 main_v42
  let main_v44 : FVec F S4x64 .f32 := Host.absf main_arg10
  let main_cst_16 : FVec F S_ .f32 := constant S_ .f32 0x7F800000#32
  let main_v45 : FVec F S4x64 .f32 := broadcastInDim S4x64 ![] bcast_S_S4x64 main_cst_16
  let main_v46 : IVec S4x64 1 := cmpf .olt main_v44 main_v45
  let main_c_17 : IVec S_ 1 := constantI S_ 1 1#1
  let main_v47 : IVec S_ 1 := (fun x v => Host.reduce IntOp.andi x v reducesTo_S4x64_S_d0_1 h_S_) main_v46 main_c_17
  let main_v48 : IVec S_ 1 := andi main_v43 main_v47
  let main_v49 : FVec F S128x64 .f32 := Host.absf main_arg11
  let main_cst_18 : FVec F S_ .f32 := constant S_ .f32 0x7F800000#32
  let main_v50 : FVec F S128x64 .f32 := broadcastInDim S128x64 ![] bcast_S_S128x64 main_cst_18
  fn_part3 (F := F) main_arg2 main_arg12 main_arg13 main_arg14 main_v48 main_v49 main_v50

def fn_part1 {F : FTy → Type} [FloatOps F] (main_arg2 : IVec S2x800000 32) (main_arg5 : FVec F S32x64 .f32) (main_arg6 : FVec F S64 .f32) (main_arg7 : FVec F S4x128x64 .f32) (main_arg8 : FVec F S4x64 .f32) (main_arg9 : FVec F S4x64x64 .f32) (main_arg10 : FVec F S4x64 .f32) (main_arg11 : FVec F S128x64 .f32) (main_arg12 : FVec F S64 .f32) (main_arg13 : FVec F S64x1 .f32) (main_arg14 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S32x64 .f32 := Host.absf main_arg5
  let main_cst_6 : FVec F S_ .f32 := constant S_ .f32 0x7F800000#32
  let main_v20 : FVec F S32x64 .f32 := broadcastInDim S32x64 ![] bcast_S_S32x64 main_cst_6
  let main_v21 : IVec S32x64 1 := cmpf .olt main_v19 main_v20
  let main_c_7 : IVec S_ 1 := constantI S_ 1 1#1
  let main_v22 : IVec S_ 1 := (fun x v => Host.reduce IntOp.andi x v reducesTo_S32x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S4x128x64 .f32 := Host.absf main_arg7
  let main_cst_10 : FVec F S_ .f32 := constant S_ .f32 0x7F800000#32
  let main_v30 : FVec F S4x128x64 .f32 := broadcastInDim S4x128x64 ![] bcast_S_S4x128x64 main_cst_10
  let main_v31 : IVec S4x128x64 1 := cmpf .olt main_v29 main_v30
  let main_c_11 : IVec S_ 1 := constantI S_ 1 1#1
  let main_v32 : IVec S_ 1 := (fun x v => Host.reduce IntOp.andi x v reducesTo_S4x128x64_S_d0_1_2 h_S_) main_v31 main_c_11
  let main_v33 : IVec S_ 1 := andi main_v28 main_v32
  fn_part2 (F := F) main_arg2 main_arg8 main_arg9 main_arg10 main_arg11 main_arg12 main_arg13 main_arg14 main_v33

def fn {F : FTy → Type} [FloatOps F] (main_arg0 : FVec F S50000x128 .f32) (main_arg1 : FVec F S800000x32 .f32) (main_arg2 : IVec S2x800000 32) (main_arg3 : FVec F S128x64 .f32) (main_arg4 : FVec F S64 .f32) (main_arg5 : FVec F S32x64 .f32) (main_arg6 : FVec F S64 .f32) (main_arg7 : FVec F S4x128x64 .f32) (main_arg8 : FVec F S4x64 .f32) (main_arg9 : FVec F S4x64x64 .f32) (main_arg10 : FVec F S4x64 .f32) (main_arg11 : FVec F S128x64 .f32) (main_arg12 : FVec F S64 .f32) (main_arg13 : FVec F S64x1 .f32) (main_arg14 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x32 .f32 := Host.absf main_arg1
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg2 main_arg5 main_arg6 main_arg7 main_arg8 main_arg9 main_arg10 main_arg11 main_arg12 main_arg13 main_arg14 main_v13 main_v16
-- ==== Kernel.lean ====
abbrev S50000x128 : Shape := ⟨2, ![50000, 128]⟩
abbrev S800000x32 : Shape := ⟨2, ![800000, 32]⟩
abbrev S2x800000 : Shape := ⟨2, ![2, 800000]⟩
abbrev S128x64 : Shape := ⟨2, ![128, 64]⟩
abbrev S64 : Shape := ⟨1, ![64]⟩
abbrev S32x64 : Shape := ⟨2, ![32, 64]⟩
abbrev S4x128x64 : Shape := ⟨3, ![4, 128, 64]⟩
abbrev S4x64 : Shape := ⟨2, ![4, 64]⟩
abbrev S4x64x64 : Shape := ⟨3, ![4, 64, 64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S1x64 : Shape := ⟨2, ![1, 64]⟩
abbrev S50000x64 : Shape := ⟨2, ![50000, 64]⟩
abbrev S5000x128 : Shape := ⟨2, ![5000, 128]⟩
abbrev S5000x64 : Shape := ⟨2, ![5000, 64]⟩
abbrev S800000x64 : Shape := ⟨2, ![800000, 64]⟩
abbrev S8000x32 : Shape := ⟨2, ![8000, 32]⟩
abbrev S8000x64 : Shape := ⟨2, ![8000, 64]⟩
abbrev S_ : Shape := ⟨0, ![]⟩
abbrev S800000x1 : Shape := ⟨2, ![800000, 1]⟩
abbrev S1x1 : Shape := ⟨2, ![1, 1]⟩
abbrev S1x128x64 : Shape := ⟨3, ![1, 128, 64]⟩
abbrev S64x64 : Shape := ⟨2, ![64, 64]⟩
abbrev S1x64x64 : Shape := ⟨3, ![1, 64, 64]⟩
abbrev S4000x64 : Shape := ⟨2, ![4000, 64]⟩
abbrev S8000x1 : Shape := ⟨2, ![8000, 1]⟩

abbrev nBuf : Space → Nat
  | .hbm => 327
  | .vmem => 75
  | .smem => 0
  | _ => 0

abbrev hbmTy0_0 (i : Nat) : BufTy := match i % 128 with
  | 0 => ⟨S50000x128, .f32⟩
  | 1 => ⟨S800000x32, .f32⟩
  | 2 => ⟨S2x800000, .i32⟩
  | 3 => ⟨S128x64, .f32⟩
  | 4 => ⟨S64, .f32⟩
  | 5 => ⟨S32x64, .f32⟩
  | 6 => ⟨S64, .f32⟩
  | 7 => ⟨S4x128x64, .f32⟩
  | 8 => ⟨S4x64, .f32⟩
  | 9 => ⟨S4x64x64, .f32⟩
  | 10 => ⟨S4x64, .f32⟩
  | 11 => ⟨S128x64, .f32⟩
  | 12 => ⟨S64, .f32⟩
  | 13 => ⟨S64x1, .f32⟩
  | 14 => ⟨S1, .f32⟩
  | 15 => ⟨S1x800000, .i32⟩
  | 16 => ⟨S800000, .i32⟩
  | 17 => ⟨S1x800000, .i32⟩
  | 18 => ⟨S800000, .i32⟩
  | 19 => ⟨S1x64, .f32⟩
  | 20 => ⟨S50000x64, .f32⟩
  | 21 => ⟨S1x64, .f32⟩
  | 22 => ⟨S800000x64, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S1, .i32⟩
  | 32 => ⟨S_, .i32⟩
  | 33 => ⟨S800000x1, .i32⟩
  | 34 => ⟨S800000x1, .i1⟩
  | 35 => ⟨S1x1, .i32⟩
  | 36 => ⟨S800000x1, .i32⟩
  | 37 => ⟨S800000x1, .i1⟩
  | 38 => ⟨S800000x1, .i1⟩
  | 39 => ⟨S_, .i1⟩
  | 40 => ⟨S800000, .i1⟩
  | 41 => ⟨S800000x64, .f32⟩
  | 42 => ⟨S800000x64, .i1⟩
  | 43 => ⟨S_, .f32⟩
  | 44 => ⟨S800000x64, .f32⟩
  | 45 => ⟨S800000x64, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S1, .i32⟩
  | 55 => ⟨S_, .i32⟩
  | 56 => ⟨S800000x1, .i32⟩
  | 57 => ⟨S800000x1, .i1⟩
  | 58 => ⟨S1x1, .i32⟩
  | 59 => ⟨S800000x1, .i32⟩
  | 60 => ⟨S800000x1, .i1⟩
  | 61 => ⟨S800000x1, .i1⟩
  | 62 => ⟨S_, .i1⟩
  | 63 => ⟨S800000, .i1⟩
  | 64 => ⟨S800000x64, .f32⟩
  | 65 => ⟨S800000x64, .i1⟩
  | 66 => ⟨S_, .f32⟩
  | 67 => ⟨S800000x64, .f32⟩
  | 68 => ⟨S800000x64, .f32⟩
  | 69 => ⟨S1x128x64, .f32⟩
  | 70 => ⟨S128x64, .f32⟩
  | 71 => ⟨S64x64, .f32⟩
  | 72 => ⟨S64x64, .f32⟩
  | 73 => ⟨S1x64, .f32⟩
  | 74 => ⟨S64, .f32⟩
  | 75 => ⟨S1x64x64, .f32⟩
  | 76 => ⟨S64x64, .f32⟩
  | 77 => ⟨S1x64, .f32⟩
  | 78 => ⟨S64, .f32⟩
  | 79 => ⟨S1x64, .f32⟩
  | 80 => ⟨S1x64, .f32⟩
  | 81 => ⟨S800000x64, .f32⟩
  | 82 => ⟨S_, .f32⟩
  | 83 => ⟨S50000x64, .f32⟩
  | 84 => ⟨S800000x1, .i32⟩
  | 85 => ⟨S50000x64, .f32⟩
  | 86 => ⟨S_, .i32⟩
  | 87 => ⟨S800000, .i32⟩
  | 88 => ⟨S800000, .i1⟩
  | 89 => ⟨S_, .i32⟩
  | 90 => ⟨S800000, .i32⟩
  | 91 => ⟨S800000, .i32⟩
  | 92 => ⟨S800000, .i32⟩
  | 93 => ⟨S800000x1, .i32⟩
  | 94 => ⟨S1, .i32⟩
  | 95 => ⟨S_, .i32⟩
  | 96 => ⟨S800000x1, .i32⟩
  | 97 => ⟨S800000x1, .i1⟩
  | 98 => ⟨S1x1, .i32⟩
  | 99 => ⟨S800000x1, .i32⟩
  | 100 => ⟨S800000x1, .i1⟩
  | 101 => ⟨S800000x1, .i1⟩
  | 102 => ⟨S_, .i1⟩
  | 103 => ⟨S800000, .i1⟩
  | 104 => ⟨S800000x64, .f32⟩
  | 105 => ⟨S800000x64, .i1⟩
  | 106 => ⟨S_, .f32⟩
  | 107 => ⟨S800000x64, .f32⟩
  | 108 => ⟨S800000x64, .f32⟩
  | 109 => ⟨S_, .i32⟩
  | 110 => ⟨S800000, .i32⟩
  | 111 => ⟨S800000, .i1⟩
  | 112 => ⟨S_, .i32⟩
  | 113 => ⟨S800000, .i32⟩
  | 114 => ⟨S800000, .i32⟩
  | 115 => ⟨S800000, .i32⟩
  | 116 => ⟨S800000x1, .i32⟩
  | 117 => ⟨S1, .i32⟩
  | 118 => ⟨S_, .i32⟩
  | 119 => ⟨S800000x1, .i32⟩
  | 120 => ⟨S800000x1, .i1⟩
  | 121 => ⟨S1x1, .i32⟩
  | 122 => ⟨S800000x1, .i32⟩
  | 123 => ⟨S800000x1, .i1⟩
  | 124 => ⟨S800000x1, .i1⟩
  | 125 => ⟨S_, .i1⟩
  | 126 => ⟨S800000, .i1⟩
  | 127 => ⟨S800000x64, .f32⟩
  | _ => ⟨S50000x128, .f32⟩

abbrev hbmTy0_1 (i : Nat) : BufTy := match i % 128 with
  | 0 => ⟨S800000x64, .i1⟩
  | 1 => ⟨S_, .f32⟩
  | 2 => ⟨S800000x64, .f32⟩
  | 3 => ⟨S800000x64, .f32⟩
  | 4 => ⟨S1x128x64, .f32⟩
  | 5 => ⟨S128x64, .f32⟩
  | 6 => ⟨S64x64, .f32⟩
  | 7 => ⟨S64x64, .f32⟩
  | 8 => ⟨S1x64, .f32⟩
  | 9 => ⟨S64, .f32⟩
  | 10 => ⟨S1x64x64, .f32⟩
  | 11 => ⟨S64x64, .f32⟩
  | 12 => ⟨S1x64, .f32⟩
  | 13 => ⟨S64, .f32⟩
  | 14 => ⟨S1x64, .f32⟩
  | 15 => ⟨S1x64, .f32⟩
  | 16 => ⟨S800000x64, .f32⟩
  | 17 => ⟨S_, .f32⟩
  | 18 => ⟨S50000x64, .f32⟩
  | 19 => ⟨S800000x1, .i32⟩
  | 20 => ⟨S50000x64, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S1, .i32⟩
  | 30 => ⟨S_, .i32⟩
  | 31 => ⟨S800000x1, .i32⟩
  | 32 => ⟨S800000x1, .i1⟩
  | 33 => ⟨S1x1, .i32⟩
  | 34 => ⟨S800000x1, .i32⟩
  | 35 => ⟨S800000x1, .i1⟩
  | 36 => ⟨S800000x1, .i1⟩
  | 37 => ⟨S_, .i1⟩
  | 38 => ⟨S800000, .i1⟩
  | 39 => ⟨S800000x64, .f32⟩
  | 40 => ⟨S800000x64, .i1⟩
  | 41 => ⟨S_, .f32⟩
  | 42 => ⟨S800000x64, .f32⟩
  | 43 => ⟨S800000x64, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S1, .i32⟩
  | 53 => ⟨S_, .i32⟩
  | 54 => ⟨S800000x1, .i32⟩
  | 55 => ⟨S800000x1, .i1⟩
  | 56 => ⟨S1x1, .i32⟩
  | 57 => ⟨S800000x1, .i32⟩
  | 58 => ⟨S800000x1, .i1⟩
  | 59 => ⟨S800000x1, .i1⟩
  | 60 => ⟨S_, .i1⟩
  | 61 => ⟨S800000, .i1⟩
  | 62 => ⟨S800000x64, .f32⟩
  | 63 => ⟨S800000x64, .i1⟩
  | 64 => ⟨S_, .f32⟩
  | 65 => ⟨S800000x64, .f32⟩
  | 66 => ⟨S800000x64, .f32⟩
  | 67 => ⟨S1x128x64, .f32⟩
  | 68 => ⟨S128x64, .f32⟩
  | 69 => ⟨S64x64, .f32⟩
  | 70 => ⟨S64x64, .f32⟩
  | 71 => ⟨S1x64, .f32⟩
  | 72 => ⟨S64, .f32⟩
  | 73 => ⟨S1x64x64, .f32⟩
  | 74 => ⟨S64x64, .f32⟩
  | 75 => ⟨S1x64, .f32⟩
  | 76 => ⟨S64, .f32⟩
  | 77 => ⟨S1x64, .f32⟩
  | 78 => ⟨S1x64, .f32⟩
  | 79 => ⟨S800000x64, .f32⟩
  | 80 => ⟨S_, .f32⟩
  | 81 => ⟨S50000x64, .f32⟩
  | 82 => ⟨S800000x1, .i32⟩
  | 83 => ⟨S50000x64, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S1, .i32⟩
  | 93 => ⟨S_, .i32⟩
  | 94 => ⟨S800000x1, .i32⟩
  | 95 => ⟨S800000x1, .i1⟩
  | 96 => ⟨S1x1, .i32⟩
  | 97 => ⟨S800000x1, .i32⟩
  | 98 => ⟨S800000x1, .i1⟩
  | 99 => ⟨S800000x1, .i1⟩
  | 100 => ⟨S_, .i1⟩
  | 101 => ⟨S800000, .i1⟩
  | 102 => ⟨S800000x64, .f32⟩
  | 103 => ⟨S800000x64, .i1⟩
  | 104 => ⟨S_, .f32⟩
  | 105 => ⟨S800000x64, .f32⟩
  | 106 => ⟨S800000x64, .f32⟩
  | 107 => ⟨S_, .i32⟩
  | 108 => ⟨S800000, .i32⟩
  | 109 => ⟨S800000, .i1⟩
  | 110 => ⟨S_, .i32⟩
  | 111 => ⟨S800000, .i32⟩
  | 112 => ⟨S800000, .i32⟩
  | 113 => ⟨S800000, .i32⟩
  | 114 => ⟨S800000x1, .i32⟩
  | 115 => ⟨S1, .i32⟩
  | 116 => ⟨S_, .i32⟩
  | 117 => ⟨S800000x1, .i32⟩
  | 118 => ⟨S800000x1, .i1⟩
  | 119 => ⟨S1x1, .i32⟩
  | 120 => ⟨S800000x1, .i32⟩
  | 121 => ⟨S800000x1, .i1⟩
  | 122 => ⟨S800000x1, .i1⟩
  | 123 => ⟨S_, .i1⟩
  | 124 => ⟨S800000, .i1⟩
  | 125 => ⟨S800000x64, .f32⟩
  | 126 => ⟨S800000x64, .i1⟩
  | 127 => ⟨S_, .f32⟩
  | _ => ⟨S50000x128, .f32⟩

abbrev hbmTy0_2 (i : Nat) : BufTy := match i % 128 with
  | 0 => ⟨S800000x64, .f32⟩
  | 1 => ⟨S800000x64, .f32⟩
  | 2 => ⟨S1x128x64, .f32⟩
  | 3 => ⟨S128x64, .f32⟩
  | 4 => ⟨S64x64, .f32⟩
  | 5 => ⟨S64x64, .f32⟩
  | 6 => ⟨S1x64, .f32⟩
  | 7 => ⟨S64, .f32⟩
  | 8 => ⟨S1x64x64, .f32⟩
  | 9 => ⟨S64x64, .f32⟩
  | 10 => ⟨S1x64, .f32⟩
  | 11 => ⟨S64, .f32⟩
  | 12 => ⟨S1x64, .f32⟩
  | 13 => ⟨S1x64, .f32⟩
  | 14 => ⟨S800000x64, .f32⟩
  | 15 => ⟨S_, .f32⟩
  | 16 => ⟨S50000x64, .f32⟩
  | 17 => ⟨S800000x1, .i32⟩
  | 18 => ⟨S50000x64, .f32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S1, .i32⟩
  | 28 => ⟨S_, .i32⟩
  | 29 => ⟨S800000x1, .i32⟩
  | 30 => ⟨S800000x1, .i1⟩
  | 31 => ⟨S1x1, .i32⟩
  | 32 => ⟨S800000x1, .i32⟩
  | 33 => ⟨S800000x1, .i1⟩
  | 34 => ⟨S800000x1, .i1⟩
  | 35 => ⟨S_, .i1⟩
  | 36 => ⟨S800000, .i1⟩
  | 37 => ⟨S800000x64, .f32⟩
  | 38 => ⟨S800000x64, .i1⟩
  | 39 => ⟨S_, .f32⟩
  | 40 => ⟨S800000x64, .f32⟩
  | 41 => ⟨S800000x64, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S1, .i32⟩
  | 51 => ⟨S_, .i32⟩
  | 52 => ⟨S800000x1, .i32⟩
  | 53 => ⟨S800000x1, .i1⟩
  | 54 => ⟨S1x1, .i32⟩
  | 55 => ⟨S800000x1, .i32⟩
  | 56 => ⟨S800000x1, .i1⟩
  | 57 => ⟨S800000x1, .i1⟩
  | 58 => ⟨S_, .i1⟩
  | 59 => ⟨S800000, .i1⟩
  | 60 => ⟨S800000x64, .f32⟩
  | 61 => ⟨S800000x64, .i1⟩
  | 62 => ⟨S_, .f32⟩
  | 63 => ⟨S800000x64, .f32⟩
  | 64 => ⟨S800000x64, .f32⟩
  | 65 => ⟨S64x64, .f32⟩
  | 66 => ⟨S64x64, .f32⟩
  | 67 => ⟨S1x64, .f32⟩
  | 68 => ⟨S1x1, .f32⟩
  | 69 => ⟨S800000x1, .f32⟩
  | 70 => ⟨S800000, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S8000x32, .f32⟩
  | .local _ .vmem, ⟨7, _⟩ => ⟨S8000x32, .f32⟩
  | .local _ .vmem, ⟨8, _⟩ => ⟨S32x64, .f32⟩
  | .local _ .vmem, ⟨9, _⟩ => ⟨S1x64, .f32⟩
  | .local _ .vmem, ⟨10, _⟩ => ⟨S8000x64, .f32⟩
  | .local _ .vmem, ⟨11, _⟩ => ⟨S8000x64, .f32⟩
  | .local _ .vmem, ⟨12, _⟩ => ⟨S4000x64, .f32⟩
  | .local _ .vmem, ⟨13, _⟩ => ⟨S4000x64, .f32⟩
  | .local _ .vmem, ⟨14, _⟩ => ⟨S4000x64, .f32⟩
  | .local _ .vmem, ⟨15, _⟩ => ⟨S4000x64, .f32⟩
  | .local _ .vmem, ⟨16, _⟩ => ⟨S4000x64, .f32⟩
  | .local _ .vmem, ⟨17, _⟩ => ⟨S4000x64, .f32⟩
  | .local _ .vmem, ⟨18, _⟩ => ⟨S64x64, .f32⟩
  | .local _ .vmem, ⟨19, _⟩ => ⟨S64x64, .f32⟩
  | .local _ .vmem, ⟨20, _⟩ => ⟨S1x64, .f32⟩
  | .local _ .vmem, ⟨21, _⟩ => ⟨S64x64, .f32⟩
  | .local _ .vmem, ⟨22, _⟩ => ⟨S1x64, .f32⟩
  | .local _ .vmem, ⟨23, _⟩ => ⟨S4000x64, .f32⟩
  | .local _ .vmem, ⟨24, _⟩ => ⟨S4000x64, .f32⟩
  | .local _ .vmem, ⟨25, _⟩ => ⟨S4000x64, .f32⟩
  | .local _ .vmem, ⟨26, _⟩ => ⟨S4000x64, .f32⟩
  | .local _ .vmem, ⟨27, _⟩ => ⟨S4000x64, .f32⟩
  | .local _ .vmem, ⟨28, _⟩ => ⟨S4000x64, .f32⟩
  | .local _ .vmem, ⟨29, _⟩ => ⟨S4000x64, .f32⟩
  | .local _ .vmem, ⟨30, _⟩ => ⟨S4000x64, .f32⟩
  | .local _ .vmem, ⟨31, _⟩ => ⟨S64x64, .f32⟩
  | .local _ .vmem, ⟨32, _⟩ => ⟨S64x64, .f32⟩
  | .local _ .vmem, ⟨33, _⟩ => ⟨S1x64, .f32⟩
  | .local _ .vmem, ⟨34, _⟩ => ⟨S64x64, .f32⟩
  | .local _ .vmem, ⟨35, _⟩ => ⟨S1x64, .f32⟩
  | .local _ .vmem, ⟨36, _⟩ => ⟨S4000x64, .f32⟩
  | .local _ .vmem, ⟨37, _⟩ => ⟨S4000x64, .f32⟩
  | .local _ .vmem, ⟨38, _⟩ => ⟨S4000x64, .f32⟩
  | .local _ .vmem, ⟨39, _⟩ => ⟨S4000x64, .f32⟩
  | .local _ .vmem, ⟨40, _⟩ => ⟨S4000x64, .f32⟩
  | .local _ .vmem, ⟨41, _⟩ => ⟨S4000x64, .f32⟩
  | .local _ .vmem, ⟨42, _⟩ => ⟨S4000x64, .f32⟩
  | .local _ .vmem, ⟨43, _⟩ => ⟨S4000x64, .f32⟩
  | .local _ .vmem, ⟨44, _⟩ => ⟨S64x64, .f32⟩
  | .local _ .vmem, ⟨45, _⟩ => ⟨S64x64, .f32⟩
  | .local _ .vmem, ⟨46, _⟩ => ⟨S1x64, .f32⟩
  | .local _ .vmem, ⟨47, _⟩ => ⟨S64x64, .f32⟩
  | .local _ .vmem, ⟨48, _⟩ => ⟨S1x64, .f32⟩
  | .local _ .vmem, ⟨49, _⟩ => ⟨S4000x64, .f32⟩
  | .local _ .vmem, ⟨50, _⟩ => ⟨S4000x64, .f32⟩
  | .local _ .vmem, ⟨51, _⟩ => ⟨S4000x64, .f32⟩
  | .local _ .vmem, ⟨52, _⟩ => ⟨S4000x64, .f32⟩
  | .local _ .vmem, ⟨53, _⟩ => ⟨S4000x64, .f32⟩
  | .local _ .vmem, ⟨54, _⟩ => ⟨S4000x64, .f32⟩
  | .local _ .vmem, ⟨55, _⟩ => ⟨S4000x64, .f32⟩
  | .local _ .vmem, ⟨56, _⟩ => ⟨S4000x64, .f32⟩
  | .local _ .vmem, ⟨57, _⟩ => ⟨S64x64, .f32⟩
  | .local _ .vmem, ⟨58, _⟩ => ⟨S64x64, .f32⟩
  | .local _ .vmem, ⟨59, _⟩ => ⟨S1x64, .f32⟩
  | .local _ .vmem, ⟨60, _⟩ => ⟨S64x64, .f32⟩
  | .local _ .vmem, ⟨61, _⟩ => ⟨S1x64, .f32⟩
  | .local _ .vmem, ⟨62, _⟩ => ⟨S4000x64, .f32⟩
  | .local _ .vmem, ⟨63, _⟩ => ⟨S4000x64, .f32⟩
  | .local _ .vmem, ⟨64, _⟩ => ⟨S8000x64, .f32⟩
  | .local _ .vmem, ⟨65, _⟩ => ⟨S8000x64, .f32⟩
  | .local _ .vmem, ⟨66, _⟩ => ⟨S8000x64, .f32⟩
  | .local _ .vmem, ⟨67, _⟩ => ⟨S8000x64, .f32⟩
  | .local _ .vmem, ⟨68, _⟩ => ⟨S64x64, .f32⟩
  | .local _ .vmem, ⟨69, _⟩ => ⟨S64x64, .f32⟩
  | .local _ .vmem, ⟨70, _⟩ => ⟨S1x64, .f32⟩
  | .local _ .vmem, ⟨71, _⟩ => ⟨S64x1, .f32⟩
  | .local _ .vmem, ⟨72, _⟩ => ⟨S1x1, .f32⟩
  | .local _ .vmem, ⟨73, _⟩ => ⟨S8000x1, .f32⟩
  | .local _ .vmem, ⟨74, _⟩ => ⟨S8000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | _, _ => false

abbrev semScoped : Fin 0 → Bool
  | ⟨_, h⟩ => absurd h (Nat.not_lt_zero _)

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  ofTc nBuf bufTy 0 75 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_call0_cst : Ref sig .tc := ⟨.hbm, 43, rfl⟩
abbrev main_call0_v15 : Ref sig .tc := ⟨.hbm, 44, rfl⟩
abbrev main_v8 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_c_1 : Ref sig .tc := ⟨.hbm, 54, rfl⟩
abbrev main_call1_c_2 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_3 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_call1_cst : Ref sig .tc := ⟨.hbm, 66, rfl⟩
abbrev main_call1_v15 : Ref sig .tc := ⟨.hbm, 67, rfl⟩
abbrev main_v9 : Ref sig .tc := ⟨.hbm, 68, rfl⟩
abbrev main_v10 : Ref sig .tc := ⟨.hbm, 69, rfl⟩
abbrev main_v11 : Ref sig .tc := ⟨.hbm, 70, rfl⟩
abbrev main_v12 : Ref sig .tc := ⟨.hbm, 71, rfl⟩
abbrev main_v13 : Ref sig .tc := ⟨.hbm, 72, rfl⟩
abbrev main_v14 : Ref sig .tc := ⟨.hbm, 73, rfl⟩
abbrev main_v15 : Ref sig .tc := ⟨.hbm, 74, rfl⟩
abbrev main_v16 : Ref sig .tc := ⟨.hbm, 75, rfl⟩
abbrev main_v17 : Ref sig .tc := ⟨.hbm, 76, rfl⟩
abbrev main_v18 : Ref sig .tc := ⟨.hbm, 77, rfl⟩
abbrev main_v19 : Ref sig .tc := ⟨.hbm, 78, rfl⟩
abbrev main_v20 : Ref sig .tc := ⟨.hbm, 79, rfl⟩
abbrev main_v21 : Ref sig .tc := ⟨.hbm, 80, rfl⟩
abbrev main_v22 : Ref sig .tc := ⟨.hbm, 81, rfl⟩
abbrev main_cst : Ref sig .tc := ⟨.hbm, 82, rfl⟩
abbrev main_v23 : Ref sig .tc := ⟨.hbm, 83, rfl⟩
abbrev main_v24 : Ref sig .tc := ⟨.hbm, 84, rfl⟩
abbrev main_v25 : Ref sig .tc := ⟨.hbm, 85, rfl⟩
abbrev main_call2_c : Ref sig .tc := ⟨.hbm, 86, rfl⟩
abbrev main_call2_v0 : Ref sig .tc := ⟨.hbm, 87, rfl⟩
abbrev main_call2_v1 : Ref sig .tc := ⟨.hbm, 88, rfl⟩
abbrev main_call2_c_0 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_call2_v5 : Ref sig .tc := ⟨.hbm, 93, rfl⟩
abbrev main_call2_c_1 : Ref sig .tc := ⟨.hbm, 94, rfl⟩
abbrev main_call2_c_2 : Ref sig .tc := ⟨.hbm, 95, rfl⟩
abbrev main_call2_v6 : Ref sig .tc := ⟨.hbm, 96, rfl⟩
abbrev main_call2_v7 : Ref sig .tc := ⟨.hbm, 97, rfl⟩
abbrev main_call2_v8 : Ref sig .tc := ⟨.hbm, 98, rfl⟩
abbrev main_call2_v9 : Ref sig .tc := ⟨.hbm, 99, rfl⟩
abbrev main_call2_v10 : Ref sig .tc := ⟨.hbm, 100, rfl⟩
abbrev main_call2_v11 : Ref sig .tc := ⟨.hbm, 101, rfl⟩
abbrev main_call2_c_3 : Ref sig .tc := ⟨.hbm, 102, rfl⟩
abbrev main_call2_v12 : Ref sig .tc := ⟨.hbm, 103, rfl⟩
abbrev main_call2_v13 : Ref sig .tc := ⟨.hbm, 104, rfl⟩
abbrev main_call2_v14 : Ref sig .tc := ⟨.hbm, 105, rfl⟩
abbrev main_call2_cst : Ref sig .tc := ⟨.hbm, 106, rfl⟩
abbrev main_call2_v15 : Ref sig .tc := ⟨.hbm, 107, rfl⟩
abbrev main_v26 : Ref sig .tc := ⟨.hbm, 108, rfl⟩
abbrev main_call3_c : Ref sig .tc := ⟨.hbm, 109, rfl⟩
abbrev main_call3_v0 : Ref sig .tc := ⟨.hbm, 110, rfl⟩
abbrev main_call3_v1 : Ref sig .tc := ⟨.hbm, 111, rfl⟩
abbrev main_call3_c_0 : Ref sig .tc := ⟨.hbm, 112, rfl⟩
abbrev main_call3_v2 : Ref sig .tc := ⟨.hbm, 113, rfl⟩
abbrev main_call3_v3 : Ref sig .tc := ⟨.hbm, 114, rfl⟩
abbrev main_call3_v4 : Ref sig .tc := ⟨.hbm, 115, rfl⟩
abbrev main_call3_v5 : Ref sig .tc := ⟨.hbm, 116, rfl⟩
abbrev main_call3_c_1 : Ref sig .tc := ⟨.hbm, 117, rfl⟩
abbrev main_call3_c_2 : Ref sig .tc := ⟨.hbm, 118, rfl⟩
abbrev main_call3_v6 : Ref sig .tc := ⟨.hbm, 119, rfl⟩
abbrev main_call3_v7 : Ref sig .tc := ⟨.hbm, 120, rfl⟩
abbrev main_call3_v8 : Ref sig .tc := ⟨.hbm, 121, rfl⟩
abbrev main_call3_v9 : Ref sig .tc := ⟨.hbm, 122, rfl⟩
abbrev main_call3_v10 : Ref sig .tc := ⟨.hbm, 123, rfl⟩
abbrev main_call3_v11 : Ref sig .tc := ⟨.hbm, 124, rfl⟩
abbrev main_call3_c_3 : Ref sig .tc := ⟨.hbm, 125, rfl⟩
abbrev main_call3_v12 : Ref sig .tc := ⟨.hbm, 126, rfl⟩
abbrev main_call3_v13 : Ref sig .tc := ⟨.hbm, 127, rfl⟩
abbrev main_call3_v14 : Ref sig .tc := ⟨.hbm, 128, rfl⟩
abbrev main_call3_cst : Ref sig .tc := ⟨.hbm, 129, rfl⟩
abbrev main_call3_v15 : Ref sig .tc := ⟨.hbm, 130, rfl⟩
abbrev main_v27 : Ref sig .tc := ⟨.hbm, 131, rfl⟩
abbrev main_v28 : Ref sig .tc := ⟨.hbm, 132, rfl⟩
abbrev main_v29 : Ref sig .tc := ⟨.hbm, 133, rfl⟩
abbrev main_v30 : Ref sig .tc := ⟨.hbm, 134, rfl⟩
abbrev main_v31 : Ref sig .tc := ⟨.hbm, 135, rfl⟩
abbrev main_v32 : Ref sig .tc := ⟨.hbm, 136, rfl⟩
abbrev main_v33 : Ref sig .tc := ⟨.hbm, 137, rfl⟩
abbrev main_v34 : Ref sig .tc := ⟨.hbm, 138, rfl⟩
abbrev main_v35 : Ref sig .tc := ⟨.hbm, 139, rfl⟩
abbrev main_v36 : Ref sig .tc := ⟨.hbm, 140, rfl⟩
abbrev main_v37 : Ref sig .tc := ⟨.hbm, 141, rfl⟩
abbrev main_v38 : Ref sig .tc := ⟨.hbm, 142, rfl⟩
abbrev main_v39 : Ref sig .tc := ⟨.hbm, 143, rfl⟩
abbrev main_v40 : Ref sig .tc := ⟨.hbm, 144, rfl⟩
abbrev main_cst_0 : Ref sig .tc := ⟨.hbm, 145, rfl⟩
abbrev main_v41 : Ref sig .tc := ⟨.hbm, 146, rfl⟩
abbrev main_v42 : Ref sig .tc := ⟨.hbm, 147, rfl⟩
abbrev main_v43 : Ref sig .tc := ⟨.hbm, 148, rfl⟩
abbrev main_call4_c : Ref sig .tc := ⟨.hbm, 149, rfl⟩
abbrev main_call4_v0 : Ref sig .tc := ⟨.hbm, 150, rfl⟩
abbrev main_call4_v1 : Ref sig .tc := ⟨.hbm, 151, rfl⟩
abbrev main_call4_c_0 : Ref sig .tc := ⟨.hbm, 152, rfl⟩
abbrev main_call4_v2 : Ref sig .tc := ⟨.hbm, 153, rfl⟩
abbrev main_call4_v3 : Ref sig .tc := ⟨.hbm, 154, rfl⟩
abbrev main_call4_v4 : Ref sig .tc := ⟨.hbm, 155, rfl⟩
abbrev main_call4_v5 : Ref sig .tc := ⟨.hbm, 156, rfl⟩
abbrev main_call4_c_1 : Ref sig .tc := ⟨.hbm, 157, rfl⟩
abbrev main_call4_c_2 : Ref sig .tc := ⟨.hbm, 158, rfl⟩
abbrev main_call4_v6 : Ref sig .tc := ⟨.hbm, 159, rfl⟩
abbrev main_call4_v7 : Ref sig .tc := ⟨.hbm, 160, rfl⟩
abbrev main_call4_v8 : Ref sig .tc := ⟨.hbm, 161, rfl⟩
abbrev main_call4_v9 : Ref sig .tc := ⟨.hbm, 162, rfl⟩
abbrev main_call4_v10 : Ref sig .tc := ⟨.hbm, 163, rfl⟩
abbrev main_call4_v11 : Ref sig .tc := ⟨.hbm, 164, rfl⟩
abbrev main_call4_c_3 : Ref sig .tc := ⟨.hbm, 165, rfl⟩
abbrev main_call4_v12 : Ref sig .tc := ⟨.hbm, 166, rfl⟩
abbrev main_call4_v13 : Ref sig .tc := ⟨.hbm, 167, rfl⟩
abbrev main_call4_v14 : Ref sig .tc := ⟨.hbm, 168, rfl⟩
abbrev main_call4_cst : Ref sig .tc := ⟨.hbm, 169, rfl⟩
abbrev main_call4_v15 : Ref sig .tc := ⟨.hbm, 170, rfl⟩
abbrev main_v44 : Ref sig .tc := ⟨.hbm, 171, rfl⟩
abbrev main_call5_c : Ref sig .tc := ⟨.hbm, 172, rfl⟩
abbrev main_call5_v0 : Ref sig .tc := ⟨.hbm, 173, rfl⟩
abbrev main_call5_v1 : Ref sig .tc := ⟨.hbm, 174, rfl⟩
abbrev main_call5_c_0 : Ref sig .tc := ⟨.hbm, 175, rfl⟩
abbrev main_call5_v2 : Ref sig .tc := ⟨.hbm, 176, rfl⟩
abbrev main_call5_v3 : Ref sig .tc := ⟨.hbm, 177, rfl⟩
abbrev main_call5_v4 : Ref sig .tc := ⟨.hbm, 178, rfl⟩
abbrev main_call5_v5 : Ref sig .tc := ⟨.hbm, 179, rfl⟩
abbrev main_call5_c_1 : Ref sig .tc := ⟨.hbm, 180, rfl⟩
abbrev main_call5_c_2 : Ref sig .tc := ⟨.hbm, 181, rfl⟩
abbrev main_call5_v6 : Ref sig .tc := ⟨.hbm, 182, rfl⟩
abbrev main_call5_v7 : Ref sig .tc := ⟨.hbm, 183, rfl⟩
abbrev main_call5_v8 : Ref sig .tc := ⟨.hbm, 184, rfl⟩
abbrev main_call5_v9 : Ref sig .tc := ⟨.hbm, 185, rfl⟩
abbrev main_call5_v10 : Ref sig .tc := ⟨.hbm, 186, rfl⟩
abbrev main_call5_v11 : Ref sig .tc := ⟨.hbm, 187, rfl⟩
abbrev main_call5_c_3 : Ref sig .tc := ⟨.hbm, 188, rfl⟩
abbrev main_call5_v12 : Ref sig .tc := ⟨.hbm, 189, rfl⟩
abbrev main_call5_v13 : Ref sig .tc := ⟨.hbm, 190, rfl⟩
abbrev main_call5_v14 : Ref sig .tc := ⟨.hbm, 191, rfl⟩
abbrev main_call5_cst : Ref sig .tc := ⟨.hbm, 192, rfl⟩
abbrev main_call5_v15 : Ref sig .tc := ⟨.hbm, 193, rfl⟩
abbrev main_v45 : Ref sig .tc := ⟨.hbm, 194, rfl⟩
abbrev main_v46 : Ref sig .tc := ⟨.hbm, 195, rfl⟩
abbrev main_v47 : Ref sig .tc := ⟨.hbm, 196, rfl⟩
abbrev main_v48 : Ref sig .tc := ⟨.hbm, 197, rfl⟩
abbrev main_v49 : Ref sig .tc := ⟨.hbm, 198, rfl⟩
abbrev main_v50 : Ref sig .tc := ⟨.hbm, 199, rfl⟩
abbrev main_v51 : Ref sig .tc := ⟨.hbm, 200, rfl⟩
abbrev main_v52 : Ref sig .tc := ⟨.hbm, 201, rfl⟩
abbrev main_v53 : Ref sig .tc := ⟨.hbm, 202, rfl⟩
abbrev main_v54 : Ref sig .tc := ⟨.hbm, 203, rfl⟩
abbrev main_v55 : Ref sig .tc := ⟨.hbm, 204, rfl⟩
abbrev main_v56 : Ref sig .tc := ⟨.hbm, 205, rfl⟩
abbrev main_v57 : Ref sig .tc := ⟨.hbm, 206, rfl⟩
abbrev main_v58 : Ref sig .tc := ⟨.hbm, 207, rfl⟩
abbrev main_cst_1 : Ref sig .tc := ⟨.hbm, 208, rfl⟩
abbrev main_v59 : Ref sig .tc := ⟨.hbm, 209, rfl⟩
abbrev main_v60 : Ref sig .tc := ⟨.hbm, 210, rfl⟩
abbrev main_v61 : Ref sig .tc := ⟨.hbm, 211, rfl⟩
abbrev main_call6_c : Ref sig .tc := ⟨.hbm, 212, rfl⟩
abbrev main_call6_v0 : Ref sig .tc := ⟨.hbm, 213, rfl⟩
abbrev main_call6_v1 : Ref sig .tc := ⟨.hbm, 214, rfl⟩
abbrev main_call6_c_0 : Ref sig .tc := ⟨.hbm, 215, rfl⟩
abbrev main_call6_v2 : Ref sig .tc := ⟨.hbm, 216, rfl⟩
abbrev main_call6_v3 : Ref sig .tc := ⟨.hbm, 217, rfl⟩
abbrev main_call6_v4 : Ref sig .tc := ⟨.hbm, 218, rfl⟩
abbrev main_call6_v5 : Ref sig .tc := ⟨.hbm, 219, rfl⟩
abbrev main_call6_c_1 : Ref sig .tc := ⟨.hbm, 220, rfl⟩
abbrev main_call6_c_2 : Ref sig .tc := ⟨.hbm, 221, rfl⟩
abbrev main_call6_v6 : Ref sig .tc := ⟨.hbm, 222, rfl⟩
abbrev main_call6_v7 : Ref sig .tc := ⟨.hbm, 223, rfl⟩
abbrev main_call6_v8 : Ref sig .tc := ⟨.hbm, 224, rfl⟩
abbrev main_call6_v9 : Ref sig .tc := ⟨.hbm, 225, rfl⟩
abbrev main_call6_v10 : Ref sig .tc := ⟨.hbm, 226, rfl⟩
abbrev main_call6_v11 : Ref sig .tc := ⟨.hbm, 227, rfl⟩
abbrev main_call6_c_3 : Ref sig .tc := ⟨.hbm, 228, rfl⟩
abbrev main_call6_v12 : Ref sig .tc := ⟨.hbm, 229, rfl⟩
abbrev main_call6_v13 : Ref sig .tc := ⟨.hbm, 230, rfl⟩
abbrev main_call6_v14 : Ref sig .tc := ⟨.hbm, 231, rfl⟩
abbrev main_call6_cst : Ref sig .tc := ⟨.hbm, 232, rfl⟩
abbrev main_call6_v15 : Ref sig .tc := ⟨.hbm, 233, rfl⟩
abbrev main_v62 : Ref sig .tc := ⟨.hbm, 234, rfl⟩
abbrev main_call7_c : Ref sig .tc := ⟨.hbm, 235, rfl⟩
abbrev main_call7_v0 : Ref sig .tc := ⟨.hbm, 236, rfl⟩
abbrev main_call7_v1 : Ref sig .tc := ⟨.hbm, 237, rfl⟩
abbrev main_call7_c_0 : Ref sig .tc := ⟨.hbm, 238, rfl⟩
abbrev main_call7_v2 : Ref sig .tc := ⟨.hbm, 239, rfl⟩
abbrev main_call7_v3 : Ref sig .tc := ⟨.hbm, 240, rfl⟩
abbrev main_call7_v4 : Ref sig .tc := ⟨.hbm, 241, rfl⟩
abbrev main_call7_v5 : Ref sig .tc := ⟨.hbm, 242, rfl⟩
abbrev main_call7_c_1 : Ref sig .tc := ⟨.hbm, 243, rfl⟩
abbrev main_call7_c_2 : Ref sig .tc := ⟨.hbm, 244, rfl⟩
abbrev main_call7_v6 : Ref sig .tc := ⟨.hbm, 245, rfl⟩
abbrev main_call7_v7 : Ref sig .tc := ⟨.hbm, 246, rfl⟩
abbrev main_call7_v8 : Ref sig .tc := ⟨.hbm, 247, rfl⟩
abbrev main_call7_v9 : Ref sig .tc := ⟨.hbm, 248, rfl⟩
abbrev main_call7_v10 : Ref sig .tc := ⟨.hbm, 249, rfl⟩
abbrev main_call7_v11 : Ref sig .tc := ⟨.hbm, 250, rfl⟩
abbrev main_call7_c_3 : Ref sig .tc := ⟨.hbm, 251, rfl⟩
abbrev main_call7_v12 : Ref sig .tc := ⟨.hbm, 252, rfl⟩
abbrev main_call7_v13 : Ref sig .tc := ⟨.hbm, 253, rfl⟩
abbrev main_call7_v14 : Ref sig .tc := ⟨.hbm, 254, rfl⟩
abbrev main_call7_cst : Ref sig .tc := ⟨.hbm, 255, rfl⟩
abbrev main_call7_v15 : Ref sig .tc := ⟨.hbm, 256, rfl⟩
abbrev main_v63 : Ref sig .tc := ⟨.hbm, 257, rfl⟩
abbrev main_v64 : Ref sig .tc := ⟨.hbm, 258, rfl⟩
abbrev main_v65 : Ref sig .tc := ⟨.hbm, 259, rfl⟩
abbrev main_v66 : Ref sig .tc := ⟨.hbm, 260, rfl⟩
abbrev main_v67 : Ref sig .tc := ⟨.hbm, 261, rfl⟩
abbrev main_v68 : Ref sig .tc := ⟨.hbm, 262, rfl⟩
abbrev main_v69 : Ref sig .tc := ⟨.hbm, 263, rfl⟩
abbrev main_v70 : Ref sig .tc := ⟨.hbm, 264, rfl⟩
abbrev main_v71 : Ref sig .tc := ⟨.hbm, 265, rfl⟩
abbrev main_v72 : Ref sig .tc := ⟨.hbm, 266, rfl⟩
abbrev main_v73 : Ref sig .tc := ⟨.hbm, 267, rfl⟩
abbrev main_v74 : Ref sig .tc := ⟨.hbm, 268, rfl⟩
abbrev main_v75 : Ref sig .tc := ⟨.hbm, 269, rfl⟩
abbrev main_v76 : Ref sig .tc := ⟨.hbm, 270, rfl⟩
abbrev main_cst_2 : Ref sig .tc := ⟨.hbm, 271, rfl⟩
abbrev main_v77 : Ref sig .tc := ⟨.hbm, 272, rfl⟩
abbrev main_v78 : Ref sig .tc := ⟨.hbm, 273, rfl⟩
abbrev main_v79 : Ref sig .tc := ⟨.hbm, 274, rfl⟩
abbrev main_call8_c : Ref sig .tc := ⟨.hbm, 275, rfl⟩
abbrev main_call8_v0 : Ref sig .tc := ⟨.hbm, 276, rfl⟩
abbrev main_call8_v1 : Ref sig .tc := ⟨.hbm, 277, rfl⟩
abbrev main_call8_c_0 : Ref sig .tc := ⟨.hbm, 278, rfl⟩
abbrev main_call8_v2 : Ref sig .tc := ⟨.hbm, 279, rfl⟩
abbrev main_call8_v3 : Ref sig .tc := ⟨.hbm, 280, rfl⟩
abbrev main_call8_v4 : Ref sig .tc := ⟨.hbm, 281, rfl⟩
abbrev main_call8_v5 : Ref sig .tc := ⟨.hbm, 282, rfl⟩
abbrev main_call8_c_1 : Ref sig .tc := ⟨.hbm, 283, rfl⟩
abbrev main_call8_c_2 : Ref sig .tc := ⟨.hbm, 284, rfl⟩
abbrev main_call8_v6 : Ref sig .tc := ⟨.hbm, 285, rfl⟩
abbrev main_call8_v7 : Ref sig .tc := ⟨.hbm, 286, rfl⟩
abbrev main_call8_v8 : Ref sig .tc := ⟨.hbm, 287, rfl⟩
abbrev main_call8_v9 : Ref sig .tc := ⟨.hbm, 288, rfl⟩
abbrev main_call8_v10 : Ref sig .tc := ⟨.hbm, 289, rfl⟩
abbrev main_call8_v11 : Ref sig .tc := ⟨.hbm, 290, rfl⟩
abbrev main_call8_c_3 : Ref sig .tc := ⟨.hbm, 291, rfl⟩
abbrev main_call8_v12 : Ref sig .tc := ⟨.hbm, 292, rfl⟩
abbrev main_call8_v13 : Ref sig .tc := ⟨.hbm, 293, rfl⟩
abbrev main_call8_v14 : Ref sig .tc := ⟨.hbm, 294, rfl⟩
abbrev main_call8_cst : Ref sig .tc := ⟨.hbm, 295, rfl⟩
abbrev main_call8_v15 : Ref sig .tc := ⟨.hbm, 296, rfl⟩
abbrev main_v80 : Ref sig .tc := ⟨.hbm, 297, rfl⟩
abbrev main_call9_c : Ref sig .tc := ⟨.hbm, 298, rfl⟩
abbrev main_call9_v0 : Ref sig .tc := ⟨.hbm, 299, rfl⟩
abbrev main_call9_v1 : Ref sig .tc := ⟨.hbm, 300, rfl⟩
abbrev main_call9_c_0 : Ref sig .tc := ⟨.hbm, 301, rfl⟩
abbrev main_call9_v2 : Ref sig .tc := ⟨.hbm, 302, rfl⟩
abbrev main_call9_v3 : Ref sig .tc := ⟨.hbm, 303, rfl⟩
abbrev main_call9_v4 : Ref sig .tc := ⟨.hbm, 304, rfl⟩
abbrev main_call9_v5 : Ref sig .tc := ⟨.hbm, 305, rfl⟩
abbrev main_call9_c_1 : Ref sig .tc := ⟨.hbm, 306, rfl⟩
abbrev main_call9_c_2 : Ref sig .tc := ⟨.hbm, 307, rfl⟩
abbrev main_call9_v6 : Ref sig .tc := ⟨.hbm, 308, rfl⟩
abbrev main_call9_v7 : Ref sig .tc := ⟨.hbm, 309, rfl⟩
abbrev main_call9_v8 : Ref sig .tc := ⟨.hbm, 310, rfl⟩
abbrev main_call9_v9 : Ref sig .tc := ⟨.hbm, 311, rfl⟩
abbrev main_call9_v10 : Ref sig .tc := ⟨.hbm, 312, rfl⟩
abbrev main_call9_v11 : Ref sig .tc := ⟨.hbm, 313, rfl⟩
abbrev main_call9_c_3 : Ref sig .tc := ⟨.hbm, 314, rfl⟩
abbrev main_call9_v12 : Ref sig .tc := ⟨.hbm, 315, rfl⟩
abbrev main_call9_v13 : Ref sig .tc := ⟨.hbm, 316, rfl⟩
abbrev main_call9_v14 : Ref sig .tc := ⟨.hbm, 317, rfl⟩
abbrev main_call9_cst : Ref sig .tc := ⟨.hbm, 318, rfl⟩
abbrev main_call9_v15 : Ref sig .tc := ⟨.hbm, 319, rfl⟩
abbrev main_v81 : Ref sig .tc := ⟨.hbm, 320, rfl⟩
abbrev main_v82 : Ref sig .tc := ⟨.hbm, 321, rfl⟩
abbrev main_v83 : Ref sig .tc := ⟨.hbm, 322, rfl⟩
abbrev main_v84 : Ref sig .tc := ⟨.hbm, 323, rfl⟩
abbrev main_v85 : Ref sig .tc := ⟨.hbm, 324, rfl⟩
abbrev main_v86 : Ref sig .tc := ⟨.hbm, 325, rfl⟩
abbrev main_v87 : Ref sig .tc := ⟨.hbm, 326, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg8_0 : Ref sig .tc := ⟨.vmem, 23, rfl⟩
abbrev cc2_stg8_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg7_0 : Ref sig .tc := ⟨.vmem, 35, rfl⟩
abbrev cc3_stg8_0 : Ref sig .tc := ⟨.vmem, 36, rfl⟩
abbrev cc3_stg8_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg2_1 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg5_0 : Ref sig .tc := ⟨.vmem, 46, rfl⟩
abbrev cc4_stg6_0 : Ref sig .tc := ⟨.vmem, 47, rfl⟩
abbrev cc4_stg7_0 : Ref sig .tc := ⟨.vmem, 48, rfl⟩
abbrev cc4_stg8_0 : Ref sig .tc := ⟨.vmem, 49, rfl⟩
abbrev cc4_stg8_1 : Ref sig .tc := ⟨.vmem, 50, rfl⟩
abbrev cc5_stg0_0 : Ref sig .tc := ⟨.vmem, 51, rfl⟩
abbrev cc5_stg0_1 : Ref sig .tc := ⟨.vmem, 52, rfl⟩
abbrev cc5_stg1_0 : Ref sig .tc := ⟨.vmem, 53, rfl⟩
abbrev cc5_stg1_1 : Ref sig .tc := ⟨.vmem, 54, rfl⟩
abbrev cc5_stg2_0 : Ref sig .tc := ⟨.vmem, 55, rfl⟩
abbrev cc5_stg2_1 : Ref sig .tc := ⟨.vmem, 56, rfl⟩
abbrev cc5_stg3_0 : Ref sig .tc := ⟨.vmem, 57, rfl⟩
abbrev cc5_stg4_0 : Ref sig .tc := ⟨.vmem, 58, rfl⟩
abbrev cc5_stg5_0 : Ref sig .tc := ⟨.vmem, 59, rfl⟩
abbrev cc5_stg6_0 : Ref sig .tc := ⟨.vmem, 60, rfl⟩
abbrev cc5_stg7_0 : Ref sig .tc := ⟨.vmem, 61, rfl⟩
abbrev cc5_stg8_0 : Ref sig .tc := ⟨.vmem, 62, rfl⟩
abbrev cc5_stg8_1 : Ref sig .tc := ⟨.vmem, 63, rfl⟩
abbrev cc6_stg0_0 : Ref sig .tc := ⟨.vmem, 64, rfl⟩
abbrev cc6_stg0_1 : Ref sig .tc := ⟨.vmem, 65, rfl⟩
abbrev cc6_stg1_0 : Ref sig .tc := ⟨.vmem, 66, rfl⟩
abbrev cc6_stg1_1 : Ref sig .tc := ⟨.vmem, 67, rfl⟩
abbrev cc6_stg2_0 : Ref sig .tc := ⟨.vmem, 68, rfl⟩
abbrev cc6_stg3_0 : Ref sig .tc := ⟨.vmem, 69, rfl⟩
abbrev cc6_stg4_0 : Ref sig .tc := ⟨.vmem, 70, rfl⟩
abbrev cc6_stg5_0 : Ref sig .tc := ⟨.vmem, 71, rfl⟩
abbrev cc6_stg6_0 : Ref sig .tc := ⟨.vmem, 72, rfl⟩
abbrev cc6_stg7_0 : Ref sig .tc := ⟨.vmem, 73, rfl⟩
abbrev cc6_stg7_1 : Ref sig .tc := ⟨.vmem, 74, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem8_0 : DmaSem sig := 23
abbrev cc2_sem8_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem2_1 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem7_0 : DmaSem sig := 35
abbrev cc3_sem8_0 : DmaSem sig := 36
abbrev cc3_sem8_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem2_1 : DmaSem sig := 43
abbrev cc4_sem3_0 : DmaSem sig := 44
abbrev cc4_sem4_0 : DmaSem sig := 45
abbrev cc4_sem5_0 : DmaSem sig := 46
abbrev cc4_sem6_0 : DmaSem sig := 47
abbrev cc4_sem7_0 : DmaSem sig := 48
abbrev cc4_sem8_0 : DmaSem sig := 49
abbrev cc4_sem8_1 : DmaSem sig := 50
abbrev cc5_sem0_0 : DmaSem sig := 51
abbrev cc5_sem0_1 : DmaSem sig := 52
abbrev cc5_sem1_0 : DmaSem sig := 53
abbrev cc5_sem1_1 : DmaSem sig := 54
abbrev cc5_sem2_0 : DmaSem sig := 55
abbrev cc5_sem2_1 : DmaSem sig := 56
abbrev cc5_sem3_0 : DmaSem sig := 57
abbrev cc5_sem4_0 : DmaSem sig := 58
abbrev cc5_sem5_0 : DmaSem sig := 59
abbrev cc5_sem6_0 : DmaSem sig := 60
abbrev cc5_sem7_0 : DmaSem sig := 61
abbrev cc5_sem8_0 : DmaSem sig := 62
abbrev cc5_sem8_1 : DmaSem sig := 63
abbrev cc6_sem0_0 : DmaSem sig := 64
abbrev cc6_sem0_1 : DmaSem sig := 65
abbrev cc6_sem1_0 : DmaSem sig := 66
abbrev cc6_sem1_1 : DmaSem sig := 67
abbrev cc6_sem2_0 : DmaSem sig := 68
abbrev cc6_sem3_0 : DmaSem sig := 69
abbrev cc6_sem4_0 : DmaSem sig := 70
abbrev cc6_sem5_0 : DmaSem sig := 71
abbrev cc6_sem6_0 : DmaSem sig := 72
abbrev cc6_sem7_0 : DmaSem sig := 73
abbrev cc6_sem7_1 : DmaSem sig := 74

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S4000x64 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![200], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S64x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S4000x64 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![200], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S64x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 2 → Memref sig .tc .vmem S4000x64 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨1, ![200], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S4000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S64x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S64x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S64x64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x64 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 2 → Memref sig .tc .vmem S4000x64 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev grid6 : Pipeline.Grid := ⟨1, ![100], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S8000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S8000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S64x1 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x1 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S8000x1 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  inb_S8000x32_S8000x32_0_0 : ∀ a, (![0, 0] : Fin 2 → Nat) a + S8000x32.size a ≤ S8000x32.size a
  h_S8000x32 : 0 < S8000x32.numel
  inb_S32x64_S32x64_0_0 : ∀ a, (![0, 0] : Fin 2 → Nat) a + S32x64.size a ≤ S32x64.size a
  h_S32x64 : 0 < S32x64.numel
  broadcasts_S1x64_S8000x64 : S1x64.Broadcasts S8000x64
  inb_S8000x64_S8000x64_0_0 : ∀ a, (![0, 0] : Fin 2 → Nat) a + S8000x64.size a ≤ S8000x64.size a
  h_S8000x64 : 0 < S8000x64.numel
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  slices_S4x128x64_S1x128x64_0_0_0 : S4x128x64.Slices ![0, 0, 0] S1x128x64
  shapeCasts_S1x128x64_S128x64 : S1x128x64.ShapeCasts S128x64
  slices_S128x64_S64x64_0_0 : S128x64.Slices ![0, 0] S64x64
  slices_S128x64_S64x64_64_0 : S128x64.Slices ![64, 0] S64x64
  slices_S4x64_S1x64_0_0 : S4x64.Slices ![0, 0] S1x64
  shapeCasts_S1x64_S64 : S1x64.ShapeCasts S64
  slices_S4x64x64_S1x64x64_0_0_0 : S4x64x64.Slices ![0, 0, 0] S1x64x64
  shapeCasts_S1x64x64_S64x64 : S1x64x64.ShapeCasts S64x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  broadcasts_S1x64_S4000x64 : S1x64.Broadcasts S4000x64
  bcast_S_S50000x64 : S_.BroadcastsInDim S50000x64 (![] : Fin 0 → Fin S50000x64.rank)
  slices_S4x128x64_S1x128x64_1_0_0 : S4x128x64.Slices ![1, 0, 0] S1x128x64
  slices_S4x64_S1x64_1_0 : S4x64.Slices ![1, 0] S1x64
  slices_S4x64x64_S1x64x64_1_0_0 : S4x64x64.Slices ![1, 0, 0] S1x64x64
  slices_S4x128x64_S1x128x64_2_0_0 : S4x128x64.Slices ![2, 0, 0] S1x128x64
  slices_S4x64_S1x64_2_0 : S4x64.Slices ![2, 0] S1x64
  slices_S4x64x64_S1x64x64_2_0_0 : S4x64x64.Slices ![2, 0, 0] S1x64x64
  slices_S4x128x64_S1x128x64_3_0_0 : S4x128x64.Slices ![3, 0, 0] S1x128x64
  slices_S4x64_S1x64_3_0 : S4x64.Slices ![3, 0] S1x64
  slices_S4x64x64_S1x64x64_3_0_0 : S4x64x64.Slices ![3, 0, 0] S1x64x64
  shapeCasts_S1_S1x1 : S1.ShapeCasts S1x1
  shapeCasts_S8000x64_S8000x64 : S8000x64.ShapeCasts S8000x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8000x1 : S1x1.Broadcasts S8000x1
  inb_S8000x1_S8000x1_0_0 : ∀ a, (![0, 0] : Fin 2 → Nat) a + S8000x1.size a ≤ S8000x1.size a
  h_S8000x1 : 0 < S8000x1.numel
  shapeCasts_S800000x1_S800000 : S800000x1.ShapeCasts S800000
  dot_S5000x128_S128x64_S5000x64_1_0_0_1_n_n_wf : DotDims.WF S5000x128 S128x64 S5000x64 [1] [0] [0] [1] [] []
  dot_S8000x32_S32x64_S8000x64_1_0_0_1_n_n_wf : DotDims.WF S8000x32 S32x64 S8000x64 [1] [0] [0] [1] [] []
  gather_S50000x64_S800000x1_S800000x64_1_0_n_n_0_1_164_wf : GatherDims.WF S50000x64 S800000x1 S800000x64 [1] [0] [] [0] [] 1 ![1, 64]
  dot_S4000x64_S64x64_S4000x64_1_0_0_1_n_n_wf : DotDims.WF S4000x64 S64x64 S4000x64 [1] [0] [0] [1] [] []
  scatter_S50000x64_S800000x1_S800000x64_1_0_0_1_wf : ScatterDims.WF S50000x64 S800000x1 S800000x64 [1] [0] [0] 1
  dot_S8000x64_S64x64_S8000x64_1_0_0_1_n_n_wf : DotDims.WF S8000x64 S64x64 S8000x64 [1] [0] [0] [1] [] []
  dot_S8000x64_S64x1_S8000x1_1_0_0_1_n_n_wf : DotDims.WF S8000x64 S64x1 S8000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x32.size a ≤ S800000x32.size a
  hwx1_0 : ∀ i : grid1.Coords, EltTy.bits .f32 = 32 ∨ (Rect.block (s := S800000x32) S8000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x64.size a ≤ S32x64.size a
  hwx1_1 : ∀ i : grid1.Coords, EltTy.bits .f32 = 32 ∨ (Rect.block (s := S32x64) S32x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x64.size a ≤ S800000x64.size a
  hwx1_3 : ∀ i : grid1.Coords, EltTy.bits .f32 = 32 ∨ (Rect.block (s := S800000x64) S8000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S800000x64.size a
  hwx2_0 : ∀ i : grid2.Coords, EltTy.bits .f32 = 32 ∨ (Rect.block (s := S800000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x64.size a ≤ S800000x64.size a
  hwx2_1 : ∀ i : grid2.Coords, EltTy.bits .f32 = 32 ∨ (Rect.block (s := S800000x64) S4000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x64.size a ≤ S800000x64.size a
  hwx2_2 : ∀ i : grid2.Coords, EltTy.bits .f32 = 32 ∨ (Rect.block (s := S800000x64) S4000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x64.size a ≤ S64x64.size a
  hwx2_6 : ∀ i : grid2.Coords, EltTy.bits .f32 = 32 ∨ (Rect.block (s := S64x64) S64x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S4000x64.size a ≤ S800000x64.size a
  hwx2_8 : ∀ i : grid2.Coords, EltTy.bits .f32 = 32 ∨ (Rect.block (s := S800000x64) S4000x64.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S800000x64.size a
  hwx3_0 : ∀ i : grid3.Coords, EltTy.bits .f32 = 32 ∨ (Rect.block (s := S800000x64) S4000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x64.size a ≤ S800000x64.size a
  hwx3_1 : ∀ i : grid3.Coords, EltTy.bits .f32 = 32 ∨ (Rect.block (s := S800000x64) S4000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x64.size a ≤ S800000x64.size a
  hwx3_2 : ∀ i : grid3.Coords, EltTy.bits .f32 = 32 ∨ (Rect.block (s := S800000x64) S4000x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S64x64.size a ≤ S64x64.size a
  hwx3_6 : ∀ i : grid3.Coords, EltTy.bits .f32 = 32 ∨ (Rect.block (s := S64x64) S64x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x64.size a ≤ S1x64.size a
  hwx3_7 : ∀ i : grid3.Coords, EltTy.bits .f32 = 32 ∨ (Rect.block (s := S1x64) S1x64.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S4000x64.size a ≤ S800000x64.size a
  hwx3_8 : ∀ i : grid3.Coords, EltTy.bits .f32 = 32 ∨ (Rect.block (s := S800000x64) S4000x64.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x64.size a ≤ S800000x64.size a
  hwx4_0 : ∀ i : grid4.Coords, EltTy.bits .f32 = 32 ∨ (Rect.block (s := S800000x64) S4000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x64.size a ≤ S800000x64.size a
  hwx4_1 : ∀ i : grid4.Coords, EltTy.bits .f32 = 32 ∨ (Rect.block (s := S800000x64) S4000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x64.size a ≤ S800000x64.size a
  hwx4_2 : ∀ i : grid4.Coords, EltTy.bits .f32 = 32 ∨ (Rect.block (s := S800000x64) S4000x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S64x64.size a ≤ S64x64.size a
  hwx4_6 : ∀ i : grid4.Coords, EltTy.bits .f32 = 32 ∨ (Rect.block (s := S64x64) S64x64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x64.size a ≤ S1x64.size a
  hwx4_7 : ∀ i : grid4.Coords, EltTy.bits .f32 = 32 ∨ (Rect.block (s := S1x64) S1x64.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S4000x64.size a ≤ S800000x64.size a
  hwx4_8 : ∀ i : grid4.Coords, EltTy.bits .f32 = 32 ∨ (Rect.block (s := S800000x64) S4000x64.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x64.size a ≤ S800000x64.size a
  hwx5_0 : ∀ i : grid5.Coords, EltTy.bits .f32 = 32 ∨ (Rect.block (s := S800000x64) S4000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x64.size a ≤ S800000x64.size a
  hwx5_1 : ∀ i : grid5.Coords, EltTy.bits .f32 = 32 ∨ (Rect.block (s := S800000x64) S4000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4000x64.size a ≤ S800000x64.size a
  hwx5_2 : ∀ i : grid5.Coords, EltTy.bits .f32 = 32 ∨ (Rect.block (s := S800000x64) S4000x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x64.size a ≤ S64x64.size a
  hwx5_3 : ∀ i : grid5.Coords, EltTy.bits .f32 = 32 ∨ (Rect.block (s := S64x64) S64x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S64x64.size a ≤ S64x64.size a
  hwx5_4 : ∀ i : grid5.Coords, EltTy.bits .f32 = 32 ∨ (Rect.block (s := S64x64) S64x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x64.size a ≤ S1x64.size a
  hwx5_5 : ∀ i : grid5.Coords, EltTy.bits .f32 = 32 ∨ (Rect.block (s := S1x64) S1x64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S64x64.size a ≤ S64x64.size a
  hwx5_6 : ∀ i : grid5.Coords, EltTy.bits .f32 = 32 ∨ (Rect.block (s := S64x64) S64x64.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x64.size a ≤ S1x64.size a
  hwx5_7 : ∀ i : grid5.Coords, EltTy.bits .f32 = 32 ∨ (Rect.block (s := S1x64) S1x64.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S4000x64.size a ≤ S800000x64.size a
  hwx5_8 : ∀ i : grid5.Coords, EltTy.bits .f32 = 32 ∨ (Rect.block (s := S800000x64) S4000x64.size (cc5_transform_8 i) (hinb5_8 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S8000x64.size a ≤ S800000x64.size a
  hwx6_0 : ∀ i : grid6.Coords, EltTy.bits .f32 = 32 ∨ (Rect.block (s := S800000x64) S8000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S8000x64.size a ≤ S800000x64.size a
  hwx6_1 : ∀ i : grid6.Coords, EltTy.bits .f32 = 32 ∨ (Rect.block (s := S800000x64) S8000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x64.size a ≤ S64x64.size a
  hwx6_2 : ∀ i : grid6.Coords, EltTy.bits .f32 = 32 ∨ (Rect.block (s := S64x64) S64x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x64.size a ≤ S64x64.size a
  hwx6_3 : ∀ i : grid6.Coords, EltTy.bits .f32 = 32 ∨ (Rect.block (s := S64x64) S64x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S64x1.size a ≤ S64x1.size a
  hwx6_5 : ∀ i : grid6.Coords, EltTy.bits .f32 = 32 ∨ (Rect.block (s := S64x1) S64x1.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x1.size a ≤ S1x1.size a
  hwx6_6 : ∀ i : grid6.Coords, EltTy.bits .f32 = 32 ∨ (Rect.block (s := S1x1) S1x1.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S8000x1.size a ≤ S800000x1.size a
  hwx6_7 : ∀ i : grid6.Coords, EltTy.bits .f32 = 32 ∨ (Rect.block (s := S800000x1) S8000x1.size (cc6_transform_7 i) (hinb6_7 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S8000x32_S32x64_S8000x64_1_0_0_1_n_n : DotDims S8000x32 S32x64 S8000x64 where
  lhsContracting := [1]
  rhsContracting := [0]
  lhsNonContracting := [0]
  rhsNonContracting := [1]
  lhsBatch := []
  rhsBatch := []
  wf := dot_S8000x32_S32x64_S8000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def dot_S8000x64_S64x1_S8000x1_1_0_0_1_n_n : DotDims S8000x64 S64x1 S8000x1 where
  lhsContracting := [1]
  rhsContracting := [0]
  lhsNonContracting := [0]
  rhsNonContracting := [1]
  lhsBatch := []
  rhsBatch := []
  wf := dot_S8000x64_S64x1_S8000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S8000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S32x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S8000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v8) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S4000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v7) S4000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v12) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v13) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v20) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v17) S64x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v21) S1x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v22) S4000x64.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v26) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v27) S4000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v7) S4000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v30) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v31) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v38) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v35) S64x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v39) S1x64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v40) S4000x64.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v44) S4000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v45) S4000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v7) S4000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v48) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v49) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v56) S1x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v53) S64x64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v57) S1x64.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v58) S4000x64.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v62) S4000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v63) S4000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v7) S4000x64.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v66) S64x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v67) S64x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v74) S1x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v71) S64x64.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v75) S1x64.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v76) S4000x64.size cc5_transform_8 reads5_8 true false 2 stage5_8 sem5_8
    hrank5 hreads5_8 hinb5_8 nbuf5_8 (Memref.isWhole_whole _) hwx5_8 hstage5_8

abbrev win5 : Fin 9 → Pipeline.Window sig grid5 := fun | 0 => win5_0 | 1 => win5_1 | 2 => win5_2 | 3 => win5_3 | 4 => win5_4 | 5 => win5_5 | 6 => win5_6 | 7 => win5_7 | 8 => win5_8 | ⟨_ + 9, h⟩ => absurd h (Nat.not_lt.2 (Nat.le_add_left _ _))
abbrev spec5 : Fin 9 → Pipeline.WinSpec sig grid5.rank := fun w => (win5 w).toWinSpec

abbrev win6_0 : Pipeline.Window sig grid6 :=
  Pipeline.Window.ofSpec (Memref.whole main_v80) S8000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v81) S8000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v82) S64x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v83) S64x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v84) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg13) S64x1.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v85) S1x1.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v86) S8000x1.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

class Facts : Prop extends Facts₀ where

variable [Facts]
-- ==== ReferenceIdeal.lean ====
abbrev S50000x128 : Shape := ⟨2, ![50000, 128]⟩
abbrev S800000x32 : Shape := ⟨2, ![800000, 32]⟩
abbrev S2x800000 : Shape := ⟨2, ![2, 800000]⟩
abbrev S128x64 : Shape := ⟨2, ![128, 64]⟩
abbrev S64 : Shape := ⟨1, ![64]⟩
abbrev S32x64 : Shape := ⟨2, ![32, 64]⟩
abbrev S4x128x64 : Shape := ⟨3, ![4, 128, 64]⟩
abbrev S4x64 : Shape := ⟨2, ![4, 64]⟩
abbrev S4x64x64 : Shape := ⟨3, ![4, 64, 64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S50000x64 : Shape := ⟨2, ![50000, 64]⟩
abbrev S1x64 : Shape := ⟨2, ![1, 64]⟩
abbrev S800000x64 : Shape := ⟨2, ![800000, 64]⟩
abbrev S_ : Shape := ⟨0, ![]⟩
abbrev S800000x1 : Shape := ⟨2, ![800000, 1]⟩
abbrev S800000x128 : Shape := ⟨2, ![800000, 128]⟩
abbrev S1x128x64 : Shape := ⟨3, ![1, 128, 64]⟩
abbrev S1x64x64 : Shape := ⟨3, ![1, 64, 64]⟩
abbrev S64x64 : Shape := ⟨2, ![64, 64]⟩
abbrev S1x1 : Shape := ⟨2, ![1, 1]⟩

abbrev nBuf : Space → Nat
  | .hbm => 230
  | .vmem => 0
  | .smem => 0
  | _ => 0

abbrev hbmTy0_0 (i : Nat) : BufTy := match i % 128 with
  | 0 => ⟨S50000x128, .f32⟩
  | 1 => ⟨S800000x32, .f32⟩
  | 2 => ⟨S2x800000, .i32⟩
  | 3 => ⟨S128x64, .f32⟩
  | 4 => ⟨S64, .f32⟩
  | 5 => ⟨S32x64, .f32⟩
  | 6 => ⟨S64, .f32⟩
  | 7 => ⟨S4x128x64, .f32⟩
  | 8 => ⟨S4x64, .f32⟩
  | 9 => ⟨S4x64x64, .f32⟩
  | 10 => ⟨S4x64, .f32⟩
  | 11 => ⟨S128x64, .f32⟩
  | 12 => ⟨S64, .f32⟩
  | 13 => ⟨S64x1, .f32⟩
  | 14 => ⟨S1, .f32⟩
  | 15 => ⟨S1x800000, .i32⟩
  | 16 => ⟨S800000, .i32⟩
  | 17 => ⟨S1x800000, .i32⟩
  | 18 => ⟨S800000, .i32⟩
  | 19 => ⟨S50000x64, .f32⟩
  | 20 => ⟨S1x64, .f32⟩
  | 21 => ⟨S50000x64, .f32⟩
  | 22 => ⟨S50000x64, .f32⟩
  | 23 => ⟨S800000x64, .f32⟩
  | 24 => ⟨S1x64, .f32⟩
  | 25 => ⟨S800000x64, .f32⟩
  | 26 => ⟨S800000x64, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x64, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000x64, .f32⟩
  | 45 => ⟨S800000x64, .f32⟩
  | 46 => ⟨S800000x128, .f32⟩
  | 47 => ⟨S1x128x64, .f32⟩
  | 48 => ⟨S128x64, .f32⟩
  | 49 => ⟨S800000x64, .f32⟩
  | 50 => ⟨S1x64, .f32⟩
  | 51 => ⟨S64, .f32⟩
  | 52 => ⟨S1x64, .f32⟩
  | 53 => ⟨S800000x64, .f32⟩
  | 54 => ⟨S800000x64, .f32⟩
  | 55 => ⟨S_, .f32⟩
  | 56 => ⟨S800000x64, .f32⟩
  | 57 => ⟨S800000x64, .f32⟩
  | 58 => ⟨S1x64x64, .f32⟩
  | 59 => ⟨S64x64, .f32⟩
  | 60 => ⟨S800000x64, .f32⟩
  | 61 => ⟨S1x64, .f32⟩
  | 62 => ⟨S64, .f32⟩
  | 63 => ⟨S1x64, .f32⟩
  | 64 => ⟨S800000x64, .f32⟩
  | 65 => ⟨S800000x64, .f32⟩
  | 66 => ⟨S_, .f32⟩
  | 67 => ⟨S50000x64, .f32⟩
  | 68 => ⟨S800000x1, .i32⟩
  | 69 => ⟨S50000x64, .f32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S800000x64, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000x64, .f32⟩
  | 88 => ⟨S800000x64, .f32⟩
  | 89 => ⟨S800000x128, .f32⟩
  | 90 => ⟨S1x128x64, .f32⟩
  | 91 => ⟨S128x64, .f32⟩
  | 92 => ⟨S800000x64, .f32⟩
  | 93 => ⟨S1x64, .f32⟩
  | 94 => ⟨S64, .f32⟩
  | 95 => ⟨S1x64, .f32⟩
  | 96 => ⟨S800000x64, .f32⟩
  | 97 => ⟨S800000x64, .f32⟩
  | 98 => ⟨S_, .f32⟩
  | 99 => ⟨S800000x64, .f32⟩
  | 100 => ⟨S800000x64, .f32⟩
  | 101 => ⟨S1x64x64, .f32⟩
  | 102 => ⟨S64x64, .f32⟩
  | 103 => ⟨S800000x64, .f32⟩
  | 104 => ⟨S1x64, .f32⟩
  | 105 => ⟨S64, .f32⟩
  | 106 => ⟨S1x64, .f32⟩
  | 107 => ⟨S800000x64, .f32⟩
  | 108 => ⟨S800000x64, .f32⟩
  | 109 => ⟨S_, .f32⟩
  | 110 => ⟨S50000x64, .f32⟩
  | 111 => ⟨S800000x1, .i32⟩
  | 112 => ⟨S50000x64, .f32⟩
  | 113 => ⟨S_, .i32⟩
  | 114 => ⟨S800000, .i32⟩
  | 115 => ⟨S800000, .i1⟩
  | 116 => ⟨S_, .i32⟩
  | 117 => ⟨S800000, .i32⟩
  | 118 => ⟨S800000, .i32⟩
  | 119 => ⟨S800000, .i32⟩
  | 120 => ⟨S800000x1, .i32⟩
  | 121 => ⟨S800000x64, .f32⟩
  | 122 => ⟨S_, .i32⟩
  | 123 => ⟨S800000, .i32⟩
  | 124 => ⟨S800000, .i1⟩
  | 125 => ⟨S_, .i32⟩
  | 126 => ⟨S800000, .i32⟩
  | 127 => ⟨S800000, .i32⟩
  | _ => ⟨S50000x128, .f32⟩

abbrev hbmTy0_1 (i : Nat) : BufTy := match i % 128 with
  | 0 => ⟨S800000, .i32⟩
  | 1 => ⟨S800000x1, .i32⟩
  | 2 => ⟨S800000x64, .f32⟩
  | 3 => ⟨S800000x64, .f32⟩
  | 4 => ⟨S800000x128, .f32⟩
  | 5 => ⟨S1x128x64, .f32⟩
  | 6 => ⟨S128x64, .f32⟩
  | 7 => ⟨S800000x64, .f32⟩
  | 8 => ⟨S1x64, .f32⟩
  | 9 => ⟨S64, .f32⟩
  | 10 => ⟨S1x64, .f32⟩
  | 11 => ⟨S800000x64, .f32⟩
  | 12 => ⟨S800000x64, .f32⟩
  | 13 => ⟨S_, .f32⟩
  | 14 => ⟨S800000x64, .f32⟩
  | 15 => ⟨S800000x64, .f32⟩
  | 16 => ⟨S1x64x64, .f32⟩
  | 17 => ⟨S64x64, .f32⟩
  | 18 => ⟨S800000x64, .f32⟩
  | 19 => ⟨S1x64, .f32⟩
  | 20 => ⟨S64, .f32⟩
  | 21 => ⟨S1x64, .f32⟩
  | 22 => ⟨S800000x64, .f32⟩
  | 23 => ⟨S800000x64, .f32⟩
  | 24 => ⟨S_, .f32⟩
  | 25 => ⟨S50000x64, .f32⟩
  | 26 => ⟨S800000x1, .i32⟩
  | 27 => ⟨S50000x64, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x64, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000x64, .f32⟩
  | 46 => ⟨S800000x64, .f32⟩
  | 47 => ⟨S800000x128, .f32⟩
  | 48 => ⟨S1x128x64, .f32⟩
  | 49 => ⟨S128x64, .f32⟩
  | 50 => ⟨S800000x64, .f32⟩
  | 51 => ⟨S1x64, .f32⟩
  | 52 => ⟨S64, .f32⟩
  | 53 => ⟨S1x64, .f32⟩
  | 54 => ⟨S800000x64, .f32⟩
  | 55 => ⟨S800000x64, .f32⟩
  | 56 => ⟨S_, .f32⟩
  | 57 => ⟨S800000x64, .f32⟩
  | 58 => ⟨S800000x64, .f32⟩
  | 59 => ⟨S1x64x64, .f32⟩
  | 60 => ⟨S64x64, .f32⟩
  | 61 => ⟨S800000x64, .f32⟩
  | 62 => ⟨S1x64, .f32⟩
  | 63 => ⟨S64, .f32⟩
  | 64 => ⟨S1x64, .f32⟩
  | 65 => ⟨S800000x64, .f32⟩
  | 66 => ⟨S800000x64, .f32⟩
  | 67 => ⟨S_, .f32⟩
  | 68 => ⟨S50000x64, .f32⟩
  | 69 => ⟨S800000x1, .i32⟩
  | 70 => ⟨S50000x64, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000x64, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S800000x64, .f32⟩
  | 89 => ⟨S800000x128, .f32⟩
  | 90 => ⟨S800000x64, .f32⟩
  | 91 => ⟨S1x64, .f32⟩
  | 92 => ⟨S800000x64, .f32⟩
  | 93 => ⟨S800000x64, .f32⟩
  | 94 => ⟨S_, .f32⟩
  | 95 => ⟨S800000x64, .f32⟩
  | 96 => ⟨S800000x64, .f32⟩
  | 97 => ⟨S800000x1, .f32⟩
  | 98 => ⟨S1x1, .f32⟩
  | 99 => ⟨S800000x1, .f32⟩
  | 100 => ⟨S800000x1, .f32⟩
  | 101 => ⟨S800000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_1 : Ref sig .tc := ⟨.hbm, 36, rfl⟩
abbrev main_v19 : Ref sig .tc := ⟨.hbm, 37, rfl⟩
abbrev main_v20 : Ref sig .tc := ⟨.hbm, 38, rfl⟩
abbrev main_c_2 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_call0_cst : Ref sig .tc := ⟨.hbm, 55, rfl⟩
abbrev main_call0_v0 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_3 : Ref sig .tc := ⟨.hbm, 70, rfl⟩
abbrev main_v48 : Ref sig .tc := ⟨.hbm, 71, rfl⟩
abbrev main_v49 : Ref sig .tc := ⟨.hbm, 72, rfl⟩
abbrev main_c_4 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_c_5 : Ref sig .tc := ⟨.hbm, 79, rfl⟩
abbrev main_v55 : Ref sig .tc := ⟨.hbm, 80, rfl⟩
abbrev main_v56 : Ref sig .tc := ⟨.hbm, 81, rfl⟩
abbrev main_c_6 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_call1_cst : Ref sig .tc := ⟨.hbm, 98, rfl⟩
abbrev main_call1_v0 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_7 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_c_8 : Ref sig .tc := ⟨.hbm, 113, rfl⟩
abbrev main_v84 : Ref sig .tc := ⟨.hbm, 114, rfl⟩
abbrev main_v85 : Ref sig .tc := ⟨.hbm, 115, rfl⟩
abbrev main_c_9 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_c_10 : Ref sig .tc := ⟨.hbm, 122, rfl⟩
abbrev main_v91 : Ref sig .tc := ⟨.hbm, 123, rfl⟩
abbrev main_v92 : Ref sig .tc := ⟨.hbm, 124, rfl⟩
abbrev main_c_11 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_call2_cst : Ref sig .tc := ⟨.hbm, 141, rfl⟩
abbrev main_call2_v0 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_cst_12 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_c_13 : Ref sig .tc := ⟨.hbm, 156, rfl⟩
abbrev main_v120 : Ref sig .tc := ⟨.hbm, 157, rfl⟩
abbrev main_v121 : Ref sig .tc := ⟨.hbm, 158, rfl⟩
abbrev main_c_14 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_c_15 : Ref sig .tc := ⟨.hbm, 165, rfl⟩
abbrev main_v127 : Ref sig .tc := ⟨.hbm, 166, rfl⟩
abbrev main_v128 : Ref sig .tc := ⟨.hbm, 167, rfl⟩
abbrev main_c_16 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_call3_cst : Ref sig .tc := ⟨.hbm, 184, rfl⟩
abbrev main_call3_v0 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_cst_17 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_c_18 : Ref sig .tc := ⟨.hbm, 199, rfl⟩
abbrev main_v156 : Ref sig .tc := ⟨.hbm, 200, rfl⟩
abbrev main_v157 : Ref sig .tc := ⟨.hbm, 201, rfl⟩
abbrev main_c_19 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_c_20 : Ref sig .tc := ⟨.hbm, 208, rfl⟩
abbrev main_v163 : Ref sig .tc := ⟨.hbm, 209, rfl⟩
abbrev main_v164 : Ref sig .tc := ⟨.hbm, 210, rfl⟩
abbrev main_c_21 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_call4_cst : Ref sig .tc := ⟨.hbm, 222, rfl⟩
abbrev main_call4_v0 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S1x64_S800000x64_0_1 : S1x64.BroadcastsInDim S800000x64 (![0, 1] : Fin 2 → Fin S800000x64.rank)
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x128_d1 : Shape.Concatenates [S800000x64, S800000x64] S800000x128 1
  slices_S4x128x64_S1x128x64_0_0_0 : S4x128x64.Slices ![0, 0, 0] S1x128x64
  shapeCasts_S1x128x64_S128x64 : S1x128x64.ShapeCasts S128x64
  slices_S4x64_S1x64_0_0 : S4x64.Slices ![0, 0] S1x64
  shapeCasts_S1x64_S64 : S1x64.ShapeCasts S64
  bcast_S_S800000x64 : S_.BroadcastsInDim S800000x64 (![] : Fin 0 → Fin S800000x64.rank)
  slices_S4x64x64_S1x64x64_0_0_0 : S4x64x64.Slices ![0, 0, 0] S1x64x64
  shapeCasts_S1x64x64_S64x64 : S1x64x64.ShapeCasts S64x64
  bcast_S_S50000x64 : S_.BroadcastsInDim S50000x64 (![] : Fin 0 → Fin S50000x64.rank)
  slices_S4x128x64_S1x128x64_1_0_0 : S4x128x64.Slices ![1, 0, 0] S1x128x64
  slices_S4x64_S1x64_1_0 : S4x64.Slices ![1, 0] S1x64
  slices_S4x64x64_S1x64x64_1_0_0 : S4x64x64.Slices ![1, 0, 0] S1x64x64
  slices_S4x128x64_S1x128x64_2_0_0 : S4x128x64.Slices ![2, 0, 0] S1x128x64
  slices_S4x64_S1x64_2_0 : S4x64.Slices ![2, 0] S1x64
  slices_S4x64x64_S1x64x64_2_0_0 : S4x64x64.Slices ![2, 0, 0] S1x64x64
  slices_S4x128x64_S1x128x64_3_0_0 : S4x128x64.Slices ![3, 0, 0] S1x128x64
  slices_S4x64_S1x64_3_0 : S4x64.Slices ![3, 0] S1x64
  slices_S4x64x64_S1x64x64_3_0_0 : S4x64x64.Slices ![3, 0, 0] S1x64x64
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  shapeCasts_S800000x1_S800000 : S800000x1.ShapeCasts S800000
  dot_S50000x128_S128x64_S50000x64_1_0_0_1_n_n_wf : DotDims.WF S50000x128 S128x64 S50000x64 [1] [0] [0] [1] [] []
  dot_S800000x32_S32x64_S800000x64_1_0_0_1_n_n_wf : DotDims.WF S800000x32 S32x64 S800000x64 [1] [0] [0] [1] [] []
  gather_S50000x64_S800000x1_S800000x64_1_0_n_n_0_1_164_wf : GatherDims.WF S50000x64 S800000x1 S800000x64 [1] [0] [] [0] [] 1 ![1, 64]
  dot_S800000x128_S128x64_S800000x64_1_0_0_1_n_n_wf : DotDims.WF S800000x128 S128x64 S800000x64 [1] [0] [0] [1] [] []
  dot_S800000x64_S64x64_S800000x64_1_0_0_1_n_n_wf : DotDims.WF S800000x64 S64x64 S800000x64 [1] [0] [0] [1] [] []
  scatter_S50000x64_S800000x1_S800000x64_1_0_0_1_wf : ScatterDims.WF S50000x64 S800000x1 S800000x64 [1] [0] [0] 1
  dot_S800000x64_S64x1_S800000x1_1_0_0_1_n_n_wf : DotDims.WF S800000x64 S64x1 S800000x1 [1] [0] [0] [1] [] []

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S800000x32_S32x64_S800000x64_1_0_0_1_n_n : DotDims S800000x32 S32x64 S800000x64 where
  lhsContracting := [1]
  rhsContracting := [0]
  lhsNonContracting := [0]
  rhsNonContracting := [1]
  lhsBatch := []
  rhsBatch := []
  wf := dot_S800000x32_S32x64_S800000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S800000x64_S64x1_S800000x1_1_0_0_1_n_n : DotDims S800000x64 S64x1 S800000x1 where
  lhsContracting := [1]
  rhsContracting := [0]
  lhsNonContracting := [0]
  rhsNonContracting := [1]
  lhsBatch := []
  rhsBatch := []
  wf := dot_S800000x64_S64x1_S800000x1_1_0_0_1_n_n_wf

class Facts : Prop extends Facts₀ where

variable [Facts]
-- ==== Proof.Spec.lean ====
/-
  The mathematics of the edge-scoring network, as functions of arrays of extended reals, entry by entry.

  A node table `h : 50000 × 64` is made from the node features by one affine map, an edge table `ea : 800000 × 64`
  from the edge features by another.  Four times, every edge `e` forms the message
  `relu ((h[dst e] + h[src e]) · W1a + ea[e] · W1b + b1) · W2 + b2`, and the node table is replaced by the sum of the
  messages arriving at each node.  Last, every edge is scored by
  `relu (h[src e] · F1a + h[dst e] · F1b + fb1) · F2 + fb2`.

  The three per-row maps are written here once, with every sum explicit, over arrays of the literal sizes; the two
  row-gathering and row-summing steps stay abstract parameters where they are composed (`Spec.score`), because both
  programs perform them with one and the same host operation.
-/
import Idealize.ShloMosaic.PureOps.Ideal
import Idealize.ShloMosaic.Lib.ValueIdx

noncomputable section

namespace Cert.Spec

open Idealize.ShloMosaic Idealize.ShloMosaic.ValueIdx

/-- An array of extended reals of a given shape. -/
abbrev Arr (s : Shape) : Type := FVec Ideal s .f32

abbrev N50000x128 : Shape := ⟨2, ![50000, 128]⟩
abbrev N50000x64 : Shape := ⟨2, ![50000, 64]⟩
abbrev E800000x32 : Shape := ⟨2, ![800000, 32]⟩
abbrev E800000x64 : Shape := ⟨2, ![800000, 64]⟩
abbrev E800000x1 : Shape := ⟨2, ![800000, 1]⟩
abbrev M128x64 : Shape := ⟨2, ![128, 64]⟩
abbrev M32x64 : Shape := ⟨2, ![32, 64]⟩
abbrev M64x64 : Shape := ⟨2, ![64, 64]⟩
abbrev M64x1 : Shape := ⟨2, ![64, 1]⟩
abbrev M1x64 : Shape := ⟨2, ![1, 64]⟩
abbrev M1x1 : Shape := ⟨2, ![1, 1]⟩

/-- Row `r`, column `j` of `x · W + b` for the node features (inner dimension 128). -/
def nodeAt (x : Arr N50000x128) (W : Arr M128x64) (b : Arr M1x64) (r : Fin 50000) (j : Fin 64) : EReal :=
  (∑ k : Fin 128, x (ix2 r k) * W (ix2 k j)) + b (ix2 0 j)

/-- The node table `x · W + b`. -/
def node (x : Arr N50000x128) (W : Arr M128x64) (b : Arr M1x64) : Arr N50000x64 :=
  fun i => nodeAt x W b (i 0) (i 1)

/-- Row `e`, column `j` of `a · W + b` for the edge features (inner dimension 32). -/
def edgeAt (a : Arr E800000x32) (W : Arr M32x64) (b : Arr M1x64) (e : Fin 800000) (j : Fin 64) : EReal :=
  (∑ k : Fin 32, a (ix2 e k) * W (ix2 k j)) + b (ix2 0 j)

/-- The edge table `a · W + b`. -/
def edge (a : Arr E800000x32) (W : Arr M32x64) (b : Arr M1x64) : Arr E800000x64 :=
  fun i => edgeAt a W b (i 0) (i 1)

/-- The hidden unit `k` of edge `e`'s message: `relu ((hd + hs)[e] · W1a + ea[e] · W1b + b1)` at `k`. -/
def msgHidden (hd hs ea : Arr E800000x64) (w1a w1b : Arr M64x64) (b1 : Arr M1x64) (e : Fin 800000) (k : Fin 64) : EReal :=
  max (((∑ q : Fin 64, (hd (ix2 e q) + hs (ix2 e q)) * w1a (ix2 q k)) + (∑ q : Fin 64, ea (ix2 e q) * w1b (ix2 q k)))
    + b1 (ix2 0 k)) 0

/-- Entry `(e, j)` of the message: the hidden layer through `W2`, plus `b2`. -/
def msgAt (hd hs ea : Arr E800000x64) (w1a w1b : Arr M64x64) (b1 : Arr M1x64) (w2 : Arr M64x64) (b2 : Arr M1x64)
    (e : Fin 800000) (j : Fin 64) : EReal :=
  (∑ k : Fin 64, msgHidden hd hs ea w1a w1b b1 e k * w2 (ix2 k j)) + b2 (ix2 0 j)

/-- The messages of one round, all edges. -/
def msg (hd hs ea : Arr E800000x64) (w1a w1b : Arr M64x64) (b1 : Arr M1x64) (w2 : Arr M64x64) (b2 : Arr M1x64) :
    Arr E800000x64 :=
  fun i => msgAt hd hs ea w1a w1b b1 w2 b2 (i 0) (i 1)

/-- The hidden unit `k` of edge `e`'s score: `relu (hs[e] · F1a + hd[e] · F1b + fb1)` at `k`. -/
def scoreHidden (hs hd : Arr E800000x64) (w1a w1b : Arr M64x64) (b1 : Arr M1x64) (e : Fin 800000) (k : Fin 64) : EReal :=
  max (((∑ q : Fin 64, hs (ix2 e q) * w1a (ix2 q k)) + (∑ q : Fin 64, hd (ix2 e q) * w1b (ix2 q k))) + b1 (ix2 0 k)) 0

/-- Entry `(e, j)` (`j` ranges over one column) of the scores: the hidden layer through `F2`, plus `fb2`. -/
def scoreAt (hs hd : Arr E800000x64) (w1a w1b : Arr M64x64) (b1 : Arr M1x64) (w2 : Arr M64x1) (b2 : Arr M1x1)
    (e : Fin 800000) (j : Fin 1) : EReal :=
  (∑ k : Fin 64, scoreHidden hs hd w1a w1b b1 e k * w2 (ix2 k j)) + b2 (ix2 0 j)

/-- The scores, all edges, as a one-column array. -/
def score (hs hd : Arr E800000x64) (w1a w1b : Arr M64x64) (b1 : Arr M1x64) (w2 : Arr M64x1) (b2 : Arr M1x1) :
    Arr E800000x1 :=
  fun i => scoreAt hs hd w1a w1b b1 w2 b2 (i 0) (i 1)

theorem node_ix2 (x : Arr N50000x128) (W : Arr M128x64) (b : Arr M1x64) (r : Fin 50000) (j : Fin 64) :
    node x W b (ix2 r j) = nodeAt x W b r j := rfl

theorem edge_ix2 (a : Arr E800000x32) (W : Arr M32x64) (b : Arr M1x64) (e : Fin 800000) (j : Fin 64) :
    edge a W b (ix2 e j) = edgeAt a W b e j := rfl

theorem msg_ix2 (hd hs ea : Arr E800000x64) (w1a w1b : Arr M64x64) (b1 : Arr M1x64) (w2 : Arr M64x64) (b2 : Arr M1x64)
    (e : Fin 800000) (j : Fin 64) : msg hd hs ea w1a w1b b1 w2 b2 (ix2 e j) = msgAt hd hs ea w1a w1b b1 w2 b2 e j := rfl

theorem score_ix2 (hs hd : Arr E800000x64) (w1a w1b : Arr M64x64) (b1 : Arr M1x64) (w2 : Arr M64x1) (b2 : Arr M1x1)
    (e : Fin 800000) (j : Fin 1) : score hs hd w1a w1b b1 w2 b2 (ix2 e j) = scoreAt hs hd w1a w1b b1 w2 b2 e j := rfl

end Cert.Spec

end
-- ==== Proof.KForm.lean ====
/-
  The idealized kernel program's host side, operation by operation, as functions of its argument arrays: the two rows of
  the edge index, the row gather with its out-of-range fill, the per-round slices of the stacked weights, the sum of
  the messages at their destination nodes, and the composition of the four rounds and the final scores.  The three
  per-row maps are `Cert.Spec`'s; everything else is the host operation the program itself applies, kept as printed.
-/
import proofs.«418908_j25941602468191_1_alg».proof.KernelIdeal
import proofs.«418908_j25941602468191_1_alg».proof.Proof.Gen.KernelIdeal
import proofs.«418908_j25941602468191_1_alg».proof.Proof.Spec

noncomputable section

namespace Cert.KernelIdeal.Val

open Idealize.ShloMosaic Cert.KernelIdeal
open Cert.KernelIdeal.Facts₀ Cert.KernelIdeal.Facts

/-- Row 0 of the edge index: the source node of every edge. -/
def srcRow (a2 : IVec S2x800000 32) : IVec S800000 32 :=
  shapeCast S800000 (extractStridedSlice S1x800000 ![0, 0] a2 slices_S2x800000_S1x800000_0_0) shapeCasts_S1x800000_S800000
/-- Row 1 of the edge index: the destination node of every edge. -/
def dstRow (a2 : IVec S2x800000 32) : IVec S800000 32 :=
  shapeCast S800000 (extractStridedSlice S1x800000 ![1, 0] a2 slices_S2x800000_S1x800000_1_0) shapeCasts_S1x800000_S800000

/-- An index row with negative entries wrapped by the table's height, as a column of start indices. -/
def startIdx (idx : IVec S800000 32) : IVec S800000x1 32 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 50000#32))) idx)

/-- The plain row gather `h[idx]`: the host gather at the wrapped indices. -/
def takeR (h : FVec Ideal S50000x64 .f32) (idx : IVec S800000 32) : FVec Ideal S800000x64 .f32 :=
  Host.gather gather_S50000x64_S800000x1_S800000x64_1_0_n_n_0_1_164 h (startIdx idx)

/-- Which rows' wrapped index lies in `[0, 49999]`. -/
def inRange (idx : IVec S800000 32) : IVec S800000 1 :=
  Host.reduce IntOp.andi
    (andi (cmpi .sge (startIdx idx) (broadcastInDim S800000x1 ![] bcast_S_S800000x1 (constantI S_ 32 0#32)))
      (cmpi .sle (startIdx idx) (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The kernel program's row gather: `h[idx]` where the wrapped index is in range, the fill pattern elsewhere. -/
def takeK (h : FVec Ideal S50000x64 .f32) (idx : IVec S800000 32) : FVec Ideal S800000x64 .f32 :=
  select (broadcastInDim S800000x64 ![0] bcast_S800000_S800000x64_0 (inRange idx)) (takeR h idx)
    (broadcastInDim S800000x64 ![] bcast_S_S800000x64 (constant (F := Ideal) S_ .f32 0x7FC00000#32))

/-- The sum of the rows of `u` at their destination nodes, from a zero table. -/
def segSum (idx : IVec S800000 32) (u : FVec Ideal S800000x64 .f32) : FVec Ideal S50000x64 .f32 :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0 idx) u

/-- A bias vector as a one-row array. -/
def rowOf (b : FVec Ideal S64 .f32) : FVec Ideal S1x64 .f32 := shapeCast S1x64 b shapeCasts_S64_S1x64

/-- Round 0's first weight matrix, rows 0–63 (they meet `h[dst] + h[src]`). -/
def w1a0 (a7 : FVec Ideal S4x128x64 .f32) : FVec Ideal S64x64 .f32 :=
  extractStridedSlice S64x64 ![0, 0] (shapeCast S128x64 (extractStridedSlice S1x128x64 ![0, 0, 0] a7 slices_S4x128x64_S1x128x64_0_0_0) shapeCasts_S1x128x64_S128x64) slices_S128x64_S64x64_0_0
/-- Round 0's first weight matrix, rows 64–127 (they meet the edge table). -/
def w1b0 (a7 : FVec Ideal S4x128x64 .f32) : FVec Ideal S64x64 .f32 :=
  extractStridedSlice S64x64 ![64, 0] (shapeCast S128x64 (extractStridedSlice S1x128x64 ![0, 0, 0] a7 slices_S4x128x64_S1x128x64_0_0_0) shapeCasts_S1x128x64_S128x64) slices_S128x64_S64x64_64_0
/-- Round 0's first bias, as a row. -/
def b1r0 (a8 : FVec Ideal S4x64 .f32) : FVec Ideal S1x64 .f32 :=
  shapeCast S1x64 (shapeCast S64 (extractStridedSlice S1x64 ![0, 0] a8 slices_S4x64_S1x64_0_0) shapeCasts_S1x64_S64) shapeCasts_S64_S1x64
/-- Round 0's second weight matrix. -/
def w2_0 (a9 : FVec Ideal S4x64x64 .f32) : FVec Ideal S64x64 .f32 :=
  shapeCast S64x64 (extractStridedSlice S1x64x64 ![0, 0, 0] a9 slices_S4x64x64_S1x64x64_0_0_0) shapeCasts_S1x64x64_S64x64
/-- Round 0's second bias, as a row. -/
def b2r0 (a10 : FVec Ideal S4x64 .f32) : FVec Ideal S1x64 .f32 :=
  shapeCast S1x64 (shapeCast S64 (extractStridedSlice S1x64 ![0, 0] a10 slices_S4x64_S1x64_0_0) shapeCasts_S1x64_S64) shapeCasts_S64_S1x64
/-- The messages of round 0 from the node table `h`, the edge table and the two index rows; `tk` is the row gather. -/
def msg0 (tk : FVec Ideal S50000x64 .f32 → IVec S800000 32 → FVec Ideal S800000x64 .f32) (h : FVec Ideal S50000x64 .f32) (ea : FVec Ideal S800000x64 .f32) (a2 : IVec S2x800000 32) (a7 : FVec Ideal S4x128x64 .f32)
    (a8 : FVec Ideal S4x64 .f32) (a9 : FVec Ideal S4x64x64 .f32) (a10 : FVec Ideal S4x64 .f32) : FVec Ideal S800000x64 .f32 :=
  Cert.Spec.msg (tk h (dstRow a2)) (tk h (srcRow a2)) ea (w1a0 a7) (w1b0 a7) (b1r0 a8) (w2_0 a9) (b2r0 a10)

/-- Round 1's first weight matrix, rows 0–63 (they meet `h[dst] + h[src]`). -/
def w1a1 (a7 : FVec Ideal S4x128x64 .f32) : FVec Ideal S64x64 .f32 :=
  extractStridedSlice S64x64 ![0, 0] (shapeCast S128x64 (extractStridedSlice S1x128x64 ![1, 0, 0] a7 slices_S4x128x64_S1x128x64_1_0_0) shapeCasts_S1x128x64_S128x64) slices_S128x64_S64x64_0_0
/-- Round 1's first weight matrix, rows 64–127 (they meet the edge table). -/
def w1b1 (a7 : FVec Ideal S4x128x64 .f32) : FVec Ideal S64x64 .f32 :=
  extractStridedSlice S64x64 ![64, 0] (shapeCast S128x64 (extractStridedSlice S1x128x64 ![1, 0, 0] a7 slices_S4x128x64_S1x128x64_1_0_0) shapeCasts_S1x128x64_S128x64) slices_S128x64_S64x64_64_0
/-- Round 1's first bias, as a row. -/
def b1r1 (a8 : FVec Ideal S4x64 .f32) : FVec Ideal S1x64 .f32 :=
  shapeCast S1x64 (shapeCast S64 (extractStridedSlice S1x64 ![1, 0] a8 slices_S4x64_S1x64_1_0) shapeCasts_S1x64_S64) shapeCasts_S64_S1x64
/-- Round 1's second weight matrix. -/
def w2_1 (a9 : FVec Ideal S4x64x64 .f32) : FVec Ideal S64x64 .f32 :=
  shapeCast S64x64 (extractStridedSlice S1x64x64 ![1, 0, 0] a9 slices_S4x64x64_S1x64x64_1_0_0) shapeCasts_S1x64x64_S64x64
/-- Round 1's second bias, as a row. -/
def b2r1 (a10 : FVec Ideal S4x64 .f32) : FVec Ideal S1x64 .f32 :=
  shapeCast S1x64 (shapeCast S64 (extractStridedSlice S1x64 ![1, 0] a10 slices_S4x64_S1x64_1_0) shapeCasts_S1x64_S64) shapeCasts_S64_S1x64
/-- The messages of round 1 from the node table `h`, the edge table and the two index rows; `tk` is the row gather. -/
def msg1 (tk : FVec Ideal S50000x64 .f32 → IVec S800000 32 → FVec Ideal S800000x64 .f32) (h : FVec Ideal S50000x64 .f32) (ea : FVec Ideal S800000x64 .f32) (a2 : IVec S2x800000 32) (a7 : FVec Ideal S4x128x64 .f32)
    (a8 : FVec Ideal S4x64 .f32) (a9 : FVec Ideal S4x64x64 .f32) (a10 : FVec Ideal S4x64 .f32) : FVec Ideal S800000x64 .f32 :=
  Cert.Spec.msg (tk h (dstRow a2)) (tk h (srcRow a2)) ea (w1a1 a7) (w1b1 a7) (b1r1 a8) (w2_1 a9) (b2r1 a10)

/-- Round 2's first weight matrix, rows 0–63 (they meet `h[dst] + h[src]`). -/
def w1a2 (a7 : FVec Ideal S4x128x64 .f32) : FVec Ideal S64x64 .f32 :=
  extractStridedSlice S64x64 ![0, 0] (shapeCast S128x64 (extractStridedSlice S1x128x64 ![2, 0, 0] a7 slices_S4x128x64_S1x128x64_2_0_0) shapeCasts_S1x128x64_S128x64) slices_S128x64_S64x64_0_0
/-- Round 2's first weight matrix, rows 64–127 (they meet the edge table). -/
def w1b2 (a7 : FVec Ideal S4x128x64 .f32) : FVec Ideal S64x64 .f32 :=
  extractStridedSlice S64x64 ![64, 0] (shapeCast S128x64 (extractStridedSlice S1x128x64 ![2, 0, 0] a7 slices_S4x128x64_S1x128x64_2_0_0) shapeCasts_S1x128x64_S128x64) slices_S128x64_S64x64_64_0
/-- Round 2's first bias, as a row. -/
def b1r2 (a8 : FVec Ideal S4x64 .f32) : FVec Ideal S1x64 .f32 :=
  shapeCast S1x64 (shapeCast S64 (extractStridedSlice S1x64 ![2, 0] a8 slices_S4x64_S1x64_2_0) shapeCasts_S1x64_S64) shapeCasts_S64_S1x64
/-- Round 2's second weight matrix. -/
def w2_2 (a9 : FVec Ideal S4x64x64 .f32) : FVec Ideal S64x64 .f32 :=
  shapeCast S64x64 (extractStridedSlice S1x64x64 ![2, 0, 0] a9 slices_S4x64x64_S1x64x64_2_0_0) shapeCasts_S1x64x64_S64x64
/-- Round 2's second bias, as a row. -/
def b2r2 (a10 : FVec Ideal S4x64 .f32) : FVec Ideal S1x64 .f32 :=
  shapeCast S1x64 (shapeCast S64 (extractStridedSlice S1x64 ![2, 0] a10 slices_S4x64_S1x64_2_0) shapeCasts_S1x64_S64) shapeCasts_S64_S1x64
/-- The messages of round 2 from the node table `h`, the edge table and the two index rows; `tk` is the row gather. -/
def msg2 (tk : FVec Ideal S50000x64 .f32 → IVec S800000 32 → FVec Ideal S800000x64 .f32) (h : FVec Ideal S50000x64 .f32) (ea : FVec Ideal S800000x64 .f32) (a2 : IVec S2x800000 32) (a7 : FVec Ideal S4x128x64 .f32)
    (a8 : FVec Ideal S4x64 .f32) (a9 : FVec Ideal S4x64x64 .f32) (a10 : FVec Ideal S4x64 .f32) : FVec Ideal S800000x64 .f32 :=
  Cert.Spec.msg (tk h (dstRow a2)) (tk h (srcRow a2)) ea (w1a2 a7) (w1b2 a7) (b1r2 a8) (w2_2 a9) (b2r2 a10)

/-- Round 3's first weight matrix, rows 0–63 (they meet `h[dst] + h[src]`). -/
def w1a3 (a7 : FVec Ideal S4x128x64 .f32) : FVec Ideal S64x64 .f32 :=
  extractStridedSlice S64x64 ![0, 0] (shapeCast S128x64 (extractStridedSlice S1x128x64 ![3, 0, 0] a7 slices_S4x128x64_S1x128x64_3_0_0) shapeCasts_S1x128x64_S128x64) slices_S128x64_S64x64_0_0
/-- Round 3's first weight matrix, rows 64–127 (they meet the edge table). -/
def w1b3 (a7 : FVec Ideal S4x128x64 .f32) : FVec Ideal S64x64 .f32 :=
  extractStridedSlice S64x64 ![64, 0] (shapeCast S128x64 (extractStridedSlice S1x128x64 ![3, 0, 0] a7 slices_S4x128x64_S1x128x64_3_0_0) shapeCasts_S1x128x64_S128x64) slices_S128x64_S64x64_64_0
/-- Round 3's first bias, as a row. -/
def b1r3 (a8 : FVec Ideal S4x64 .f32) : FVec Ideal S1x64 .f32 :=
  shapeCast S1x64 (shapeCast S64 (extractStridedSlice S1x64 ![3, 0] a8 slices_S4x64_S1x64_3_0) shapeCasts_S1x64_S64) shapeCasts_S64_S1x64
/-- Round 3's second weight matrix. -/
def w2_3 (a9 : FVec Ideal S4x64x64 .f32) : FVec Ideal S64x64 .f32 :=
  shapeCast S64x64 (extractStridedSlice S1x64x64 ![3, 0, 0] a9 slices_S4x64x64_S1x64x64_3_0_0) shapeCasts_S1x64x64_S64x64
/-- Round 3's second bias, as a row. -/
def b2r3 (a10 : FVec Ideal S4x64 .f32) : FVec Ideal S1x64 .f32 :=
  shapeCast S1x64 (shapeCast S64 (extractStridedSlice S1x64 ![3, 0] a10 slices_S4x64_S1x64_3_0) shapeCasts_S1x64_S64) shapeCasts_S64_S1x64
/-- The messages of round 3 from the node table `h`, the edge table and the two index rows; `tk` is the row gather. -/
def msg3 (tk : FVec Ideal S50000x64 .f32 → IVec S800000 32 → FVec Ideal S800000x64 .f32) (h : FVec Ideal S50000x64 .f32) (ea : FVec Ideal S800000x64 .f32) (a2 : IVec S2x800000 32) (a7 : FVec Ideal S4x128x64 .f32)
    (a8 : FVec Ideal S4x64 .f32) (a9 : FVec Ideal S4x64x64 .f32) (a10 : FVec Ideal S4x64 .f32) : FVec Ideal S800000x64 .f32 :=
  Cert.Spec.msg (tk h (dstRow a2)) (tk h (srcRow a2)) ea (w1a3 a7) (w1b3 a7) (b1r3 a8) (w2_3 a9) (b2r3 a10)

/-- The node table the program starts from. -/
def h0 (a0 : FVec Ideal S50000x128 .f32) (a3 : FVec Ideal S128x64 .f32) (a4 : FVec Ideal S64 .f32) : FVec Ideal S50000x64 .f32 :=
  Cert.Spec.node a0 a3 (rowOf a4)
/-- The edge table. -/
def eaTab (a1 : FVec Ideal S800000x32 .f32) (a5 : FVec Ideal S32x64 .f32) (a6 : FVec Ideal S64 .f32) : FVec Ideal S800000x64 .f32 :=
  Cert.Spec.edge a1 a5 (rowOf a6)

/-- The final score of every edge from the last node table `h`, one column; `tk` is the row gather. -/
def scoreCol (tk : FVec Ideal S50000x64 .f32 → IVec S800000 32 → FVec Ideal S800000x64 .f32) (h : FVec Ideal S50000x64 .f32) (a2 : IVec S2x800000 32) (a11 : FVec Ideal S128x64 .f32) (a12 : FVec Ideal S64 .f32)
    (a13 : FVec Ideal S64x1 .f32) (a14 : FVec Ideal S1 .f32) : FVec Ideal S800000x1 .f32 :=
  Cert.Spec.score (tk h (srcRow a2)) (tk h (dstRow a2))
    (extractStridedSlice S64x64 ![0, 0] a11 slices_S128x64_S64x64_0_0) (extractStridedSlice S64x64 ![64, 0] a11 slices_S128x64_S64x64_64_0)
    (rowOf a12) a13 (shapeCast S1x1 a14 shapeCasts_S1_S1x1)

/-- The whole computation, with the row gather `tk` left open: the two tables, four rounds of messages summed at their
    destinations, the scores, flattened to one entry per edge. -/
def resultWith (tk : FVec Ideal S50000x64 .f32 → IVec S800000 32 → FVec Ideal S800000x64 .f32)
    (a0 : FVec Ideal S50000x128 .f32) (a1 : FVec Ideal S800000x32 .f32) (a2 : IVec S2x800000 32) (a3 : FVec Ideal S128x64 .f32)
    (a4 : FVec Ideal S64 .f32) (a5 : FVec Ideal S32x64 .f32) (a6 : FVec Ideal S64 .f32) (a7 : FVec Ideal S4x128x64 .f32)
    (a8 : FVec Ideal S4x64 .f32) (a9 : FVec Ideal S4x64x64 .f32) (a10 : FVec Ideal S4x64 .f32) (a11 : FVec Ideal S128x64 .f32)
    (a12 : FVec Ideal S64 .f32) (a13 : FVec Ideal S64x1 .f32) (a14 : FVec Ideal S1 .f32) : FVec Ideal S800000 .f32 :=
  shapeCast S800000
    (scoreCol tk
      (segSum (dstRow a2) (msg3 tk
        (segSum (dstRow a2) (msg2 tk
          (segSum (dstRow a2) (msg1 tk
            (segSum (dstRow a2) (msg0 tk (h0 a0 a3 a4) (eaTab a1 a5 a6) a2 a7 a8 a9 a10))
            (eaTab a1 a5 a6) a2 a7 a8 a9 a10))
          (eaTab a1 a5 a6) a2 a7 a8 a9 a10))
        (eaTab a1 a5 a6) a2 a7 a8 a9 a10))
      a2 a11 a12 a13 a14)
    shapeCasts_S800000x1_S800000

/-- Two row gathers that agree on the two index rows give the same computation. -/
theorem resultWith_congr (tk tk' : FVec Ideal S50000x64 .f32 → IVec S800000 32 → FVec Ideal S800000x64 .f32)
    (a0 : FVec Ideal S50000x128 .f32) (a1 : FVec Ideal S800000x32 .f32) (a2 : IVec S2x800000 32) (a3 : FVec Ideal S128x64 .f32)
    (a4 : FVec Ideal S64 .f32) (a5 : FVec Ideal S32x64 .f32) (a6 : FVec Ideal S64 .f32) (a7 : FVec Ideal S4x128x64 .f32)
    (a8 : FVec Ideal S4x64 .f32) (a9 : FVec Ideal S4x64x64 .f32) (a10 : FVec Ideal S4x64 .f32) (a11 : FVec Ideal S128x64 .f32)
    (a12 : FVec Ideal S64 .f32) (a13 : FVec Ideal S64x1 .f32) (a14 : FVec Ideal S1 .f32)
    (hs : ∀ h, tk h (srcRow a2) = tk' h (srcRow a2)) (hd : ∀ h, tk h (dstRow a2) = tk' h (dstRow a2)) :
    resultWith tk a0 a1 a2 a3 a4 a5 a6 a7 a8 a9 a10 a11 a12 a13 a14 = resultWith tk' a0 a1 a2 a3 a4 a5 a6 a7 a8 a9 a10 a11 a12 a13 a14 := by
  simp only [resultWith, scoreCol, msg0, msg1, msg2, msg3, hs, hd]

end Cert.KernelIdeal.Val

end
-- ==== Proof.ChainBase.lean ====
/-
  What stays put while the idealized kernel program runs: the two rows of the edge index, the edge table and the stacked
  weight arguments are each written once (or never) and only read afterwards.  `Live` collects, for one boundary of
  the run, the contents of those buffers that later rounds still read.
-/
import proofs.«418908_j25941602468191_1_alg».proof.Proof.Gen.KernelIdeal.Frame
import proofs.«418908_j25941602468191_1_alg».proof.Proof.KForm

noncomputable section

namespace Cert.KernelIdeal.Val

open Idealize.ShloMosaic Idealize.ShloMosaic.TcCoe Cert.KernelIdeal Cert.KernelIdeal.Gen

variable (m : (ℓ : Loc nD τ sig) → Buf (Elt Ideal) ℓ)

/-- Core `c`'s launch contents of an argument buffer. -/
abbrev argAt (c : Dev nD) (b : Ref sig .tc) : Buf (Elt Ideal) ((c : Thread nD τ).loc b) := m ((c : Thread nD τ).loc b)

/-- At a boundary with buffer contents `W`: the index rows, the edge table `ea` and the weight arguments hold what
    they were given. -/
structure Live (c : Dev nD) (W : Valuation τ sig (Elt Ideal)) (ea : FVec Ideal S800000x64 .f32) : Prop where
  src : W (Proc.devRef .tc main_v1) = srcRow (argAt m c main_arg2)
  dst : W (Proc.devRef .tc main_v3) = dstRow (argAt m c main_arg2)
  ea : W (Proc.devRef .tc main_v7) = ea
  a7 : W (Proc.devRef .tc main_arg7) = argAt m c main_arg7
  a8 : W (Proc.devRef .tc main_arg8) = argAt m c main_arg8
  a9 : W (Proc.devRef .tc main_arg9) = argAt m c main_arg9
  a10 : W (Proc.devRef .tc main_arg10) = argAt m c main_arg10
  a11 : W (Proc.devRef .tc main_arg11) = argAt m c main_arg11
  a12 : W (Proc.devRef .tc main_arg12) = argAt m c main_arg12
  a13 : W (Proc.devRef .tc main_arg13) = argAt m c main_arg13
  a14 : W (Proc.devRef .tc main_arg14) = argAt m c main_arg14

end Cert.KernelIdeal.Val

end
-- ==== Proof.Region0.lean ====
/-
  The first launch of the row-embedding kernel: the node table.

  The launch runs over ten grid points.  Point `t` stages rows `5000 t … 5000 t + 4999` of the node features
  (a 5000 × 128 block), the whole 128 × 64 weight matrix and the whole 1 × 64 bias row, and writes back rows
  `5000 t … 5000 t + 4999` of the 50000 × 64 result.  What the body stores is, entry `(p, q)` of the block,
  the sum over `k` of `x[p, k] · W[k, q]` plus `b[0, q]`: a narrowing of the float format is the identity on
  the extended reals, the product accumulates into a zero splat, and the bias row is repeated down the rows.
  Row `p` of block `t` is row `5000 t + p` of the array, so every written block is the matching block of the
  one function `Spec.node` of the three arrays; the ten blocks tile the 50000 rows (row `r` lies in block
  `r / 5000`), hence the result array ends holding `Spec.node` of the arrays as the launch found them.
-/
import proofs.«418908_j25941602468191_1_alg».proof.Proof.Gen.KernelIdeal.Frame
import proofs.«418908_j25941602468191_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Val

open Idealize.ShloMosaic Idealize.ShloMosaic.ValueIdx Idealize.ShloMosaic.TcCoe
open Idealize.ShloMosaic.Pipeline (Dat)
open Cert.KernelIdeal Cert.KernelIdeal.Gen

namespace Region0

/-! ## The product's operand indices, axis by axis -/

theorem lhs_0 (j : S5000x64.Idx) (k : dot_S5000x128_S128x64_S5000x64_1_0_0_1_n_n.contr.Idx) :
    ((dot_S5000x128_S128x64_S5000x64_1_0_0_1_n_n.lhsIdx j k 0 : Fin _) : ℕ) = (j 0 : ℕ) := by
  simp [DotDims.lhsIdx, dot_S5000x128_S128x64_S5000x64_1_0_0_1_n_n]; rfl
theorem lhs_1 (j : S5000x64.Idx) (k : dot_S5000x128_S128x64_S5000x64_1_0_0_1_n_n.contr.Idx) :
    ((dot_S5000x128_S128x64_S5000x64_1_0_0_1_n_n.lhsIdx j k 1 : Fin _) : ℕ) = (k ⟨0, (Nat.one_pos : 0 < 1)⟩ : ℕ) :=
  dot_S5000x128_S128x64_S5000x64_1_0_0_1_n_n.lhsIdx_val_of_single (cl := 1) rfl j k
theorem rhs_0 (j : S5000x64.Idx) (k : dot_S5000x128_S128x64_S5000x64_1_0_0_1_n_n.contr.Idx) :
    ((dot_S5000x128_S128x64_S5000x64_1_0_0_1_n_n.rhsIdx j k 0 : Fin _) : ℕ) = (k ⟨0, (Nat.one_pos : 0 < 1)⟩ : ℕ) :=
  dot_S5000x128_S128x64_S5000x64_1_0_0_1_n_n.rhsIdx_val_of_single (cr := 0) rfl j k
theorem rhs_1 (j : S5000x64.Idx) (k : dot_S5000x128_S128x64_S5000x64_1_0_0_1_n_n.contr.Idx) :
    ((dot_S5000x128_S128x64_S5000x64_1_0_0_1_n_n.rhsIdx j k 1 : Fin _) : ℕ) = (j 1 : ℕ) := by
  simp [DotDims.rhsIdx, dot_S5000x128_S128x64_S5000x64_1_0_0_1_n_n]; rfl

/-- The product into the zero splat, at row `p` and column `q`: the sum over the inner coordinate. -/
theorem matmul_at (x : FVec Ideal S5000x128 .bf16) (W : FVec Ideal S128x64 .bf16) (p : Fin 5000) (q : Fin 64) :
    matmul dot_S5000x128_S128x64_S5000x64_1_0_0_1_n_n none x W (constant (F := Ideal) S5000x64 .f32 0x00000000#32) (ix2 p q)
      = ∑ k : Fin 128, x (ix2 p k) * W (ix2 k q) := by
  refine (Ideal.matmul_constant_zero_apply dot_S5000x128_S128x64_S5000x64_1_0_0_1_n_n none x W (ix2 p q)).trans ?_
  rw [← Equiv.sum_comp (contrEquiv1 dot_S5000x128_S128x64_S5000x64_1_0_0_1_n_n 128 rfl rfl).symm]
  refine Finset.sum_congr rfl fun c _ => ?_
  have hc := contrEquiv1_symm_val dot_S5000x128_S128x64_S5000x64_1_0_0_1_n_n 128 rfl rfl c
  have hl : dot_S5000x128_S128x64_S5000x64_1_0_0_1_n_n.lhsIdx (ix2 p q)
      ((contrEquiv1 dot_S5000x128_S128x64_S5000x64_1_0_0_1_n_n 128 rfl rfl).symm c) = ix2 p c := by
    funext a; apply Fin.ext
    match a with
    | ⟨0, _⟩ => exact lhs_0 _ _
    | ⟨1, _⟩ => exact (lhs_1 _ _).trans hc
  have hr : dot_S5000x128_S128x64_S5000x64_1_0_0_1_n_n.rhsIdx (ix2 p q)
      ((contrEquiv1 dot_S5000x128_S128x64_S5000x64_1_0_0_1_n_n 128 rfl rfl).symm c) = ix2 c q := by
    funext a; apply Fin.ext
    match a with
    | ⟨0, _⟩ => exact (rhs_0 _ _).trans hc
    | ⟨1, _⟩ => exact rhs_1 _ _
  rw [hl, hr]

/-- The bias row repeated down the rows reads the row's entry of the column. -/
theorem bias_at (b : FVec Ideal S1x64 .f32) (h1 : S1x64.ShapeCasts S1x64) (h2 : S1x64.Broadcasts S5000x64)
    (p : Fin 5000) (q : Fin 64) :
    broadcastTo S5000x64 (shapeCast S1x64 b h1) h2 (ix2 p q) = b (ix2 0 q) := by
  rw [shapeCast_self]
  refine broadcastTo_apply b h2 (ix2 p q) (ix2 0 q) fun a => ?_
  match a with
  | ⟨0, _⟩ => rfl
  | ⟨1, _⟩ => rfl

/-! ## What the body stores, entry by entry -/

/-- Entry `(p, q)` of the stored block: row `p` of the feature block through column `q` of the weights, plus
    the bias of column `q`. -/
theorem pay_at (x : Vec Ideal S5000x128 .f32) (W : Vec Ideal S128x64 .f32) (b : Vec Ideal S1x64 .f32)
    (p : Fin 5000) (q : Fin 64) :
    k0_pay1 (F := Ideal) x W b (ix2 p q) = (∑ k : Fin 128, x (ix2 p k) * W (ix2 k q)) + b (ix2 0 q) := by
  unfold k0_pay1
  refine (addf_apply _ _ (ix2 p q)).trans ?_
  refine congrArg₂ (· + ·) ?_ ?_
  · exact matmul_at _ _ p q
  · exact bias_at b _ _ p q

/-! ## The blocks, read off the arrays -/

theorem hz : (![0, 0] : Fin 2 → Nat) = fun _ => 0 := funext fun a => by fin_cases a <;> rfl

/-- The printed index maps over the ten points: the feature block and the result block move together down the rows,
    one block per point; the weights and the bias stay at their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- The node features, the weights and the bias row as the launch finds them. -/
abbrev xarr (c : Dev nD) : Cert.Spec.Arr Cert.Spec.N50000x128 := V c main_arg0
abbrev warr (c : Dev nD) : Cert.Spec.Arr Cert.Spec.M128x64 := V c main_arg3
abbrev barr (c : Dev nD) : Cert.Spec.Arr Cert.Spec.M1x64 := V c main_v4

/-- Row `p` of point `t`'s feature block is row `5000 t + p` of the features. -/
theorem xblk_at (c : Dev nD) (t : Fin cfg0.N) (p : Fin 5000) (k : Fin 128) (r : Fin 50000)
    (hr : r.val = t.val * 5000 + p.val) :
    (iblk0 (F := Ideal) V c 0 t : Vec Ideal S5000x128 .f32) (ix2 p k) = xarr V c (ix2 r k) := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- The weight block is the weight matrix. -/
theorem wblk_at (c : Dev nD) (t : Fin cfg0.N) (k : Fin 128) (q : Fin 64) :
    (iblk0 (F := Ideal) V c 1 t : Vec Ideal S128x64 .f32) (ix2 k q) = warr V c (ix2 k q) := by
  obtain ⟨-, -, e2, e3, -⟩ := idx_facts t
  unfold iblk0
  rw [View.read_apply]
  show V c main_arg3 _ = V c main_arg3 _
  congr 1
  funext a
  apply Fin.ext
  match a with
  | ⟨0, _⟩ => show win0_1.index t (0 : Fin 2) * 128 + 1 * k.val = k.val; rw [e2]; omega
  | ⟨1, _⟩ => show win0_1.index t (1 : Fin 2) * 64 + 1 * q.val = q.val; rw [e3]; omega

/-- The bias block is the bias row. -/
theorem bblk_at (c : Dev nD) (t : Fin cfg0.N) (q : Fin 64) :
    (iblk0 (F := Ideal) V c 2 t : Vec Ideal S1x64 .f32) (ix2 0 q) = barr V c (ix2 0 q) := by
  obtain ⟨-, -, -, -, e4, e5, -⟩ := idx_facts t
  unfold iblk0
  rw [View.read_apply]
  show V c main_v4 _ = V c main_v4 _
  congr 1
  funext a
  apply Fin.ext
  match a with
  | ⟨0, _⟩ => show win0_2.index t (0 : Fin 2) * 1 + 1 * 0 = 0; rw [e4]
  | ⟨1, _⟩ => show win0_2.index t (1 : Fin 2) * 64 + 1 * q.val = q.val; rw [e5]; omega

/-! ## What a point writes back -/

/-- Point `t` writes back block `t` of the node table. -/
theorem flushed_eq (c : Dev nD) (t : Fin cfg0.N) :
    (dat0 (F := Ideal) V c).flushed 3 t
      = ((cfg0.win 3).blk t).view.read (Elt Ideal) (Cert.Spec.node (xarr V c) (warr V c) (barr V c)) := by
  show (cfg0.win 3).cut (grid0.coords t) ((dat0 (F := Ideal) V c).after 3 t) = _
  rw [after0_3]
  unfold out0_3
  rw [View.canon_unit_zero hz]
  simp only [View.ld_unit_zero (S := S5000x128) hz, View.ld_unit_zero (S := S128x64) hz, View.ld_unit_zero (S := S1x64) hz]
  funext y
  obtain ⟨p, q, rfl⟩ : ∃ (p : Fin 5000) (q : Fin 64), y = ix2 p q := ⟨y 0, y 1, eq_ix2 y⟩
  have ht : t.val < 10 := by have h := t.isLt; have hN : cfg0.N = 10 := N_0; omega
  obtain ⟨-, -, -, -, -, -, e6, e7⟩ := idx_facts t
  refine (pay_at (iblk0 (F := Ideal) V c 0 t) (iblk0 (F := Ideal) V c 1 t) (iblk0 (F := Ideal) V c 2 t) p q).trans ?_
  rw [View.read_apply]
  have he : ((cfg0.win 3).blk t).view.emb (ix2 p q) = (ix2 (⟨t.val * 5000 + p.val, by omega⟩ : Fin 50000) q : S50000x64.Idx) := by
    funext a
    apply Fin.ext
    match a with
    | ⟨0, _⟩ => show win0_3.index t (0 : Fin 2) * 5000 + 1 * p.val = t.val * 5000 + p.val; rw [e6]; omega
    | ⟨1, _⟩ => show win0_3.index t (1 : Fin 2) * 64 + 1 * q.val = q.val; rw [e7]; omega
  show _ = Cert.Spec.node (xarr V c) (warr V c) (barr V c) (((cfg0.win 3).blk t).view.emb (ix2 p q))
  rw [he, Cert.Spec.node_ix2]
  unfold Cert.Spec.nodeAt
  refine congrArg₂ (· + ·) (Finset.sum_congr rfl fun k _ => congrArg₂ (· * ·) ?_ ?_) ?_
  · exact xblk_at V c t p k _ rfl
  · exact wblk_at V c t k q
  · exact bblk_at V c t q

/-! ## The blocks tile the rows -/

/-- An index of the table is in point `t`'s block iff each coordinate is in the block's range on its axis. -/
theorem mem_blk (t : Fin cfg0.N) (i : S50000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v5).slice (win0_3.rect t)).set ↔ _
  rw [View.set_slice_whole, Rect.mem_set_unit]
  exact Iff.rfl

/-- Row `r` lies in the block of point `r / 5000`. -/
theorem cover (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  obtain ⟨t, ht⟩ : ∃ t : Fin cfg0.N, t.val = (i 0).val / 5000 :=
    ⟨⟨(i 0).val / 5000, by rw [show cfg0.N = 10 from N_0]; omega⟩, rfl⟩
  obtain ⟨-, -, -, -, -, -, e6, e7⟩ := idx_facts t
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    rw [e6, ht]; omega
  | ⟨1, _⟩ =>
    show win0_3.index t (1 : Fin 2) * 64 ≤ (i 1).val ∧ (i 1).val < win0_3.index t (1 : Fin 2) * 64 + 64
    rw [e7]; omega

end Region0

/-- After the first launch the node table holds `Spec.node` of the features, the weights and the bias row as the
    launch found them. -/
theorem region0 (V : (c : Dev nD) → (b : Ref sig .tc) → Buf (Elt Ideal) ((c : Thread nD τ).loc b)) (c : Dev nD) :
    (dat0 (F := Ideal) V c).arrAt 3 cfg0.N = Cert.Spec.node (V c main_arg0) (V c main_arg3) (V c main_v4) :=
  (dat0 (F := Ideal) V c).arrAt_eq_of_cover 3 (Cert.Spec.node (V c main_arg0) (V c main_arg3) (V c main_v4))
    (fun t _ => Region0.flushed_eq V c t) Region0.cover

end Cert.KernelIdeal.Val

end
-- ==== Proof.Region1.lean ====
/-
  The second launch of the row-embedding kernel: the edge table.

  The launch runs over a hundred grid points.  Point `t` stages rows `8000 t … 8000 t + 7999` of the edge features
  (an 8000 × 32 block), the whole 32 × 64 weight matrix and the whole 1 × 64 bias row, and writes back rows
  `8000 t … 8000 t + 7999` of the 800000 × 64 result.  What the body stores is, entry `(p, q)` of the block,
  the sum over `k` of `a[p, k] · W[k, q]` plus `b[0, q]`: a narrowing of the float format is the identity on
  the extended reals, the product accumulates into a zero splat, and the bias row is repeated down the rows.
  Row `p` of block `t` is row `8000 t + p` of the array, so every written block is the matching block of the
  one function `Spec.edge` of the three arrays; the hundred blocks tile the 800000 rows (row `r` lies in block
  `r / 8000`), hence the result array ends holding `Spec.edge` of the arrays as the launch found them.
-/
import proofs.«418908_j25941602468191_1_alg».proof.Proof.Gen.KernelIdeal.Frame
import proofs.«418908_j25941602468191_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Val

open Idealize.ShloMosaic Idealize.ShloMosaic.ValueIdx Idealize.ShloMosaic.TcCoe
open Idealize.ShloMosaic.Pipeline (Dat)
open Cert.KernelIdeal Cert.KernelIdeal.Gen

namespace Region1

/-! ## The product's operand indices, axis by axis -/

theorem lhs_0 (j : S8000x64.Idx) (k : dot_S8000x32_S32x64_S8000x64_1_0_0_1_n_n.contr.Idx) :
    ((dot_S8000x32_S32x64_S8000x64_1_0_0_1_n_n.lhsIdx j k 0 : Fin _) : ℕ) = (j 0 : ℕ) := by
  simp [DotDims.lhsIdx, dot_S8000x32_S32x64_S8000x64_1_0_0_1_n_n]; rfl
theorem lhs_1 (j : S8000x64.Idx) (k : dot_S8000x32_S32x64_S8000x64_1_0_0_1_n_n.contr.Idx) :
    ((dot_S8000x32_S32x64_S8000x64_1_0_0_1_n_n.lhsIdx j k 1 : Fin _) : ℕ) = (k ⟨0, (Nat.one_pos : 0 < 1)⟩ : ℕ) :=
  dot_S8000x32_S32x64_S8000x64_1_0_0_1_n_n.lhsIdx_val_of_single (cl := 1) rfl j k
theorem rhs_0 (j : S8000x64.Idx) (k : dot_S8000x32_S32x64_S8000x64_1_0_0_1_n_n.contr.Idx) :
    ((dot_S8000x32_S32x64_S8000x64_1_0_0_1_n_n.rhsIdx j k 0 : Fin _) : ℕ) = (k ⟨0, (Nat.one_pos : 0 < 1)⟩ : ℕ) :=
  dot_S8000x32_S32x64_S8000x64_1_0_0_1_n_n.rhsIdx_val_of_single (cr := 0) rfl j k
theorem rhs_1 (j : S8000x64.Idx) (k : dot_S8000x32_S32x64_S8000x64_1_0_0_1_n_n.contr.Idx) :
    ((dot_S8000x32_S32x64_S8000x64_1_0_0_1_n_n.rhsIdx j k 1 : Fin _) : ℕ) = (j 1 : ℕ) := by
  simp [DotDims.rhsIdx, dot_S8000x32_S32x64_S8000x64_1_0_0_1_n_n]; rfl

/-- The product into the zero splat, at row `p` and column `q`: the sum over the inner coordinate. -/
theorem matmul_at (x : FVec Ideal S8000x32 .bf16) (W : FVec Ideal S32x64 .bf16) (p : Fin 8000) (q : Fin 64) :
    matmul dot_S8000x32_S32x64_S8000x64_1_0_0_1_n_n none x W (constant (F := Ideal) S8000x64 .f32 0x00000000#32) (ix2 p q)
      = ∑ k : Fin 32, x (ix2 p k) * W (ix2 k q) := by
  refine (Ideal.matmul_constant_zero_apply dot_S8000x32_S32x64_S8000x64_1_0_0_1_n_n none x W (ix2 p q)).trans ?_
  rw [← Equiv.sum_comp (contrEquiv1 dot_S8000x32_S32x64_S8000x64_1_0_0_1_n_n 32 rfl rfl).symm]
  refine Finset.sum_congr rfl fun c _ => ?_
  have hc := contrEquiv1_symm_val dot_S8000x32_S32x64_S8000x64_1_0_0_1_n_n 32 rfl rfl c
  have hl : dot_S8000x32_S32x64_S8000x64_1_0_0_1_n_n.lhsIdx (ix2 p q)
      ((contrEquiv1 dot_S8000x32_S32x64_S8000x64_1_0_0_1_n_n 32 rfl rfl).symm c) = ix2 p c := by
    funext a; apply Fin.ext
    match a with
    | ⟨0, _⟩ => exact lhs_0 _ _
    | ⟨1, _⟩ => exact (lhs_1 _ _).trans hc
  have hr : dot_S8000x32_S32x64_S8000x64_1_0_0_1_n_n.rhsIdx (ix2 p q)
      ((contrEquiv1 dot_S8000x32_S32x64_S8000x64_1_0_0_1_n_n 32 rfl rfl).symm c) = ix2 c q := by
    funext a; apply Fin.ext
    match a with
    | ⟨0, _⟩ => exact (rhs_0 _ _).trans hc
    | ⟨1, _⟩ => exact rhs_1 _ _
  rw [hl, hr]

/-- The bias row repeated down the rows reads the row's entry of the column. -/
theorem bias_at (b : FVec Ideal S1x64 .f32) (h1 : S1x64.ShapeCasts S1x64) (h2 : S1x64.Broadcasts S8000x64)
    (p : Fin 8000) (q : Fin 64) :
    broadcastTo S8000x64 (shapeCast S1x64 b h1) h2 (ix2 p q) = b (ix2 0 q) := by
  rw [shapeCast_self]
  refine broadcastTo_apply b h2 (ix2 p q) (ix2 0 q) fun a => ?_
  match a with
  | ⟨0, _⟩ => rfl
  | ⟨1, _⟩ => rfl

/-! ## What the body stores, entry by entry -/

/-- Entry `(p, q)` of the stored block: row `p` of the feature block through column `q` of the weights, plus
    the bias of column `q`. -/
theorem pay_at (x : Vec Ideal S8000x32 .f32) (W : Vec Ideal S32x64 .f32) (b : Vec Ideal S1x64 .f32)
    (p : Fin 8000) (q : Fin 64) :
    k1_pay1 (F := Ideal) x W b (ix2 p q) = (∑ k : Fin 32, x (ix2 p k) * W (ix2 k q)) + b (ix2 0 q) := by
  unfold k1_pay1
  refine (addf_apply _ _ (ix2 p q)).trans ?_
  refine congrArg₂ (· + ·) ?_ ?_
  · exact matmul_at _ _ p q
  · exact bias_at b _ _ p q

/-! ## The blocks, read off the arrays -/

theorem hz : (![0, 0] : Fin 2 → Nat) = fun _ => 0 := funext fun a => by fin_cases a <;> rfl

/-- The printed index maps over the hundred points: the feature block and the result block move together down the rows,
    one block per point; the weights and the bias stay at their one block. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- The edge features, the weights and the bias row as the launch finds them. -/
abbrev xarr (c : Dev nD) : Cert.Spec.Arr Cert.Spec.E800000x32 := V c main_arg1
abbrev warr (c : Dev nD) : Cert.Spec.Arr Cert.Spec.M32x64 := V c main_arg5
abbrev barr (c : Dev nD) : Cert.Spec.Arr Cert.Spec.M1x64 := V c main_v6

/-- Row `p` of point `t`'s feature block is row `8000 t + p` of the features. -/
theorem xblk_at (c : Dev nD) (t : Fin cfg1.N) (p : Fin 8000) (k : Fin 32) (r : Fin 800000)
    (hr : r.val = t.val * 8000 + p.val) :
    (iblk1 (F := Ideal) V c 0 t : Vec Ideal S8000x32 .f32) (ix2 p k) = xarr V c (ix2 r k) := by
  obtain ⟨e0, e1, -⟩ := idx_facts t
  unfold iblk1
  rw [View.read_apply]
  show V c main_arg1 _ = V c main_arg1 _
  congr 1
  funext a
  apply Fin.ext
  match a with
  | ⟨0, _⟩ => show win1_0.index t (0 : Fin 2) * 8000 + 1 * p.val = r.val; rw [e0, hr]; omega
  | ⟨1, _⟩ => show win1_0.index t (1 : Fin 2) * 32 + 1 * k.val = k.val; rw [e1]; omega

/-- The weight block is the weight matrix. -/
theorem wblk_at (c : Dev nD) (t : Fin cfg1.N) (k : Fin 32) (q : Fin 64) :
    (iblk1 (F := Ideal) V c 1 t : Vec Ideal S32x64 .f32) (ix2 k q) = warr V c (ix2 k q) := by
  obtain ⟨-, -, e2, e3, -⟩ := idx_facts t
  unfold iblk1
  rw [View.read_apply]
  show V c main_arg5 _ = V c main_arg5 _
  congr 1
  funext a
  apply Fin.ext
  match a with
  | ⟨0, _⟩ => show win1_1.index t (0 : Fin 2) * 32 + 1 * k.val = k.val; rw [e2]; omega
  | ⟨1, _⟩ => show win1_1.index t (1 : Fin 2) * 64 + 1 * q.val = q.val; rw [e3]; omega

/-- The bias block is the bias row. -/
theorem bblk_at (c : Dev nD) (t : Fin cfg1.N) (q : Fin 64) :
    (iblk1 (F := Ideal) V c 2 t : Vec Ideal S1x64 .f32) (ix2 0 q) = barr V c (ix2 0 q) := by
  obtain ⟨-, -, -, -, e4, e5, -⟩ := idx_facts t
  unfold iblk1
  rw [View.read_apply]
  show V c main_v6 _ = V c main_v6 _
  congr 1
  funext a
  apply Fin.ext
  match a with
  | ⟨0, _⟩ => show win1_2.index t (0 : Fin 2) * 1 + 1 * 0 = 0; rw [e4]
  | ⟨1, _⟩ => show win1_2.index t (1 : Fin 2) * 64 + 1 * q.val = q.val; rw [e5]; omega

/-! ## What a point writes back -/

/-- Point `t` writes back block `t` of the edge table. -/
theorem flushed_eq (c : Dev nD) (t : Fin cfg1.N) :
    (dat1 (F := Ideal) V c).flushed 3 t
      = ((cfg1.win 3).blk t).view.read (Elt Ideal) (Cert.Spec.edge (xarr V c) (warr V c) (barr V c)) := by
  show (cfg1.win 3).cut (grid1.coords t) ((dat1 (F := Ideal) V c).after 3 t) = _
  rw [after1_3]
  unfold out1_3
  rw [View.canon_unit_zero hz]
  simp only [View.ld_unit_zero (S := S8000x32) hz, View.ld_unit_zero (S := S32x64) hz, View.ld_unit_zero (S := S1x64) hz]
  funext y
  obtain ⟨p, q, rfl⟩ : ∃ (p : Fin 8000) (q : Fin 64), y = ix2 p q := ⟨y 0, y 1, eq_ix2 y⟩
  have ht : t.val < 100 := by have h := t.isLt; have hN : cfg1.N = 100 := N_1; omega
  obtain ⟨-, -, -, -, -, -, e6, e7⟩ := idx_facts t
  refine (pay_at (iblk1 (F := Ideal) V c 0 t) (iblk1 (F := Ideal) V c 1 t) (iblk1 (F := Ideal) V c 2 t) p q).trans ?_
  rw [View.read_apply]
  have he : ((cfg1.win 3).blk t).view.emb (ix2 p q) = (ix2 (⟨t.val * 8000 + p.val, by omega⟩ : Fin 800000) q : S800000x64.Idx) := by
    funext a
    apply Fin.ext
    match a with
    | ⟨0, _⟩ => show win1_3.index t (0 : Fin 2) * 8000 + 1 * p.val = t.val * 8000 + p.val; rw [e6]; omega
    | ⟨1, _⟩ => show win1_3.index t (1 : Fin 2) * 64 + 1 * q.val = q.val; rw [e7]; omega
  show _ = Cert.Spec.edge (xarr V c) (warr V c) (barr V c) (((cfg1.win 3).blk t).view.emb (ix2 p q))
  rw [he, Cert.Spec.edge_ix2]
  unfold Cert.Spec.edgeAt
  refine congrArg₂ (· + ·) (Finset.sum_congr rfl fun k _ => congrArg₂ (· * ·) ?_ ?_) ?_
  · exact xblk_at V c t p k _ rfl
  · exact wblk_at V c t k q
  · exact bblk_at V c t q

/-! ## The blocks tile the rows -/

/-- An index of the table is in point `t`'s block iff each coordinate is in the block's range on its axis. -/
theorem mem_blk (t : Fin cfg1.N) (i : S800000x64.Idx) :
    i ∈ ((cfg1.win 3).blk t).view.set ↔ ∀ a : Fin 2, win1_3.index t a * S8000x64.size a ≤ (i a).val
      ∧ (i a).val < win1_3.index t a * S8000x64.size a + S8000x64.size a := by
  show i ∈ ((View.whole main_v7).slice (win1_3.rect t)).set ↔ _
  rw [View.set_slice_whole, Rect.mem_set_unit]
  exact Iff.rfl

/-- Row `r` lies in the block of point `r / 8000`. -/
theorem cover (i : S800000x64.Idx) :
    ∃ t : Fin cfg1.N, (cfg1.win 3).flush t = true ∧ i ∈ ((cfg1.win 3).blk t).view.set := by
  have hi0 : (i 0).val < 800000 := (i 0).isLt
  have hi1 : (i 1).val < 64 := (i 1).isLt
  obtain ⟨t, ht⟩ : ∃ t : Fin cfg1.N, t.val = (i 0).val / 8000 :=
    ⟨⟨(i 0).val / 8000, by rw [show cfg1.N = 100 from N_1]; omega⟩, rfl⟩
  obtain ⟨-, -, -, -, -, -, e6, e7⟩ := idx_facts t
  refine ⟨t, flush1_3 t, ?_⟩
  rw [mem_blk]
  intro a
  match a with
  | ⟨0, _⟩ =>
    show win1_3.index t (0 : Fin 2) * 8000 ≤ (i 0).val ∧ (i 0).val < win1_3.index t (0 : Fin 2) * 8000 + 8000
    rw [e6, ht]; omega
  | ⟨1, _⟩ =>
    show win1_3.index t (1 : Fin 2) * 64 ≤ (i 1).val ∧ (i 1).val < win1_3.index t (1 : Fin 2) * 64 + 64
    rw [e7]; omega

end Region1

/-- After the second launch the edge table holds `Spec.edge` of the features, the weights and the bias row as the
    launch found them. -/
theorem region1 (V : (c : Dev nD) → (b : Ref sig .tc) → Buf (Elt Ideal) ((c : Thread nD τ).loc b)) (c : Dev nD) :
    (dat1 (F := Ideal) V c).arrAt 3 cfg1.N = Cert.Spec.edge (V c main_arg1) (V c main_arg5) (V c main_v6) :=
  (dat1 (F := Ideal) V c).arrAt_eq_of_cover 3 (Cert.Spec.edge (V c main_arg1) (V c main_arg5) (V c main_v6))
    (fun t _ => Region1.flushed_eq V c t) Region1.cover

end Cert.KernelIdeal.Val

end
-- ==== Proof.ChainHead.lean ====
/-
  The start of the run.  The first host stretch cuts the edge index into its source and destination rows and turns the
  node bias into a row; the first launch writes the node table; the second host stretch turns the edge bias into a row;
  the second launch writes the edge table.  Nothing afterwards up to that point touches the index rows, the node table
  or the stacked weight arguments, so at the second launch's exit each holds what it was given.
-/
import proofs.«418908_j25941602468191_1_alg».proof.Proof.ChainBase
import proofs.«418908_j25941602468191_1_alg».proof.Proof.Region0
import proofs.«418908_j25941602468191_1_alg».proof.Proof.Region1
import Idealize.ShloMosaic.Lib.StableHlo.Run

set_option maxRecDepth 16384

noncomputable section

namespace Cert.KernelIdeal.Val

open Idealize.ShloMosaic Idealize.ShloMosaic.TcCoe Idealize.ShloMosaic.StableHlo Cert.KernelIdeal Cert.KernelIdeal.Gen
open Cert.KernelIdeal.Facts₀ Cert.KernelIdeal.Facts

variable (m : (ℓ : Loc nD τ sig) → Buf (Elt Ideal) ℓ) (ρ : Dev nD → PrngReg)

/-- The first host stretch: the source row of the edge index. -/
private theorem W1_v1 (c : Dev nD) : W1 m ρ c (Proc.devRef .tc main_v1) = srcRow (argAt m c main_arg2) := by
  show StableHlo.after hostOps0 (W0 m ρ c) (Proc.devRef .tc main_v1) = _
  after_results
  rfl

/-- The first host stretch: the destination row of the edge index. -/
private theorem W1_v3 (c : Dev nD) : W1 m ρ c (Proc.devRef .tc main_v3) = dstRow (argAt m c main_arg2) := by
  show StableHlo.after hostOps0 (W0 m ρ c) (Proc.devRef .tc main_v3) = _
  after_results
  rfl

/-- The first host stretch: the node bias as a row. -/
private theorem W1_v4 (c : Dev nD) : W1 m ρ c (Proc.devRef .tc main_v4) = rowOf (argAt m c main_arg4) := by
  show StableHlo.after hostOps0 (W0 m ρ c) (Proc.devRef .tc main_v4) = _
  after_results
  rfl

private theorem W1_arg0 (c : Dev nD) : W1 m ρ c (Proc.devRef .tc main_arg0) = argAt m c main_arg0 := by
  show StableHlo.after hostOps0 (W0 m ρ c) (Proc.devRef .tc main_arg0) = _
  after_results

private theorem W1_arg3 (c : Dev nD) : W1 m ρ c (Proc.devRef .tc main_arg3) = argAt m c main_arg3 := by
  show StableHlo.after hostOps0 (W0 m ρ c) (Proc.devRef .tc main_arg3) = _
  after_results

/-- The node table after the first launch: written from the launch contents of the features, the weights and the
    bias row. -/
private theorem W2_v5 (c : Dev nD) :
    W2 m ρ c (Proc.devRef .tc main_v5) = h0 (argAt m c main_arg0) (argAt m c main_arg3) (argAt m c main_arg4) := by
  refine (W2_arr m ρ c 3).trans ((region0 (V1 m ρ) c).trans ?_)
  show Cert.Spec.node (W1 m ρ c (Proc.devRef .tc main_arg0)) (W1 m ρ c (Proc.devRef .tc main_arg3))
    (W1 m ρ c (Proc.devRef .tc main_v4)) = _
  rw [W1_arg0 m ρ c, W1_arg3 m ρ c, W1_v4 m ρ c]
  rfl

/-- A launch argument that neither the first host stretch nor the first launch writes, at the second launch's
    entry. -/
private theorem W3_arg1 (c : Dev nD) : W3 m ρ c (Proc.devRef .tc main_arg1) = argAt m c main_arg1 := by
  show StableHlo.after hostOps1 (W2 m ρ c) (Proc.devRef .tc main_arg1) = _
  after_results
  refine (W2_of_ne m ρ c main_arg1 (by decide)).trans ?_
  show StableHlo.after hostOps0 (W0 m ρ c) (Proc.devRef .tc main_arg1) = _
  after_results

private theorem W3_arg5 (c : Dev nD) : W3 m ρ c (Proc.devRef .tc main_arg5) = argAt m c main_arg5 := by
  show StableHlo.after hostOps1 (W2 m ρ c) (Proc.devRef .tc main_arg5) = _
  after_results
  refine (W2_of_ne m ρ c main_arg5 (by decide)).trans ?_
  show StableHlo.after hostOps0 (W0 m ρ c) (Proc.devRef .tc main_arg5) = _
  after_results

private theorem W2_arg6 (c : Dev nD) : W2 m ρ c (Proc.devRef .tc main_arg6) = argAt m c main_arg6 := by
  refine (W2_of_ne m ρ c main_arg6 (by decide)).trans ?_
  show StableHlo.after hostOps0 (W0 m ρ c) (Proc.devRef .tc main_arg6) = _
  after_results

/-- The second host stretch: the edge bias as a row. -/
private theorem W3_v6 (c : Dev nD) : W3 m ρ c (Proc.devRef .tc main_v6) = rowOf (argAt m c main_arg6) := by
  show StableHlo.after hostOps1 (W2 m ρ c) (Proc.devRef .tc main_v6) = _
  after_results
  rw [W2_arg6 m ρ c]
  rfl

/-- The edge table after the second launch. -/
private theorem W4_v7 (c : Dev nD) :
    W4 m ρ c (Proc.devRef .tc main_v7) = eaTab (argAt m c main_arg1) (argAt m c main_arg5) (argAt m c main_arg6) := by
  refine (W4_arr m ρ c 3).trans ((region1 (V3 m ρ) c).trans ?_)
  show Cert.Spec.edge (W3 m ρ c (Proc.devRef .tc main_arg1)) (W3 m ρ c (Proc.devRef .tc main_arg5))
    (W3 m ρ c (Proc.devRef .tc main_v6)) = _
  rw [W3_arg1 m ρ c, W3_arg5 m ρ c, W3_v6 m ρ c]
  rfl

/-- The node table is still there after the second host stretch and the second launch. -/
private theorem W4_v5 (c : Dev nD) :
    W4 m ρ c (Proc.devRef .tc main_v5) = h0 (argAt m c main_arg0) (argAt m c main_arg3) (argAt m c main_arg4) := by
  refine (W4_of_ne m ρ c main_v5 (by decide)).trans ?_
  show StableHlo.after hostOps1 (W2 m ρ c) (Proc.devRef .tc main_v5) = _
  after_results
  exact W2_v5 m ρ c

/-- A buffer that neither launch has among its arrays and the second host stretch does not write holds at the second
    launch's exit what the first host stretch left. -/
private theorem W4_src (c : Dev nD) : W4 m ρ c (Proc.devRef .tc main_v1) = srcRow (argAt m c main_arg2) := by
  refine (W4_of_ne m ρ c main_v1 (by decide)).trans ?_
  show StableHlo.after hostOps1 (W2 m ρ c) (Proc.devRef .tc main_v1) = _
  after_results
  exact (W2_of_ne m ρ c main_v1 (by decide)).trans (W1_v1 m ρ c)

private theorem W4_dst (c : Dev nD) : W4 m ρ c (Proc.devRef .tc main_v3) = dstRow (argAt m c main_arg2) := by
  refine (W4_of_ne m ρ c main_v3 (by decide)).trans ?_
  show StableHlo.after hostOps1 (W2 m ρ c) (Proc.devRef .tc main_v3) = _
  after_results
  exact (W2_of_ne m ρ c main_v3 (by decide)).trans (W1_v3 m ρ c)

private theorem W4_arg7 (c : Dev nD) : W4 m ρ c (Proc.devRef .tc main_arg7) = argAt m c main_arg7 := by
  refine (W4_of_ne m ρ c main_arg7 (by decide)).trans ?_
  show StableHlo.after hostOps1 (W2 m ρ c) (Proc.devRef .tc main_arg7) = _
  after_results
  refine (W2_of_ne m ρ c main_arg7 (by decide)).trans ?_
  show StableHlo.after hostOps0 (W0 m ρ c) (Proc.devRef .tc main_arg7) = _
  after_results

private theorem W4_arg8 (c : Dev nD) : W4 m ρ c (Proc.devRef .tc main_arg8) = argAt m c main_arg8 := by
  refine (W4_of_ne m ρ c main_arg8 (by decide)).trans ?_
  show StableHlo.after hostOps1 (W2 m ρ c) (Proc.devRef .tc main_arg8) = _
  after_results
  refine (W2_of_ne m ρ c main_arg8 (by decide)).trans ?_
  show StableHlo.after hostOps0 (W0 m ρ c) (Proc.devRef .tc main_arg8) = _
  after_results

private theorem W4_arg9 (c : Dev nD) : W4 m ρ c (Proc.devRef .tc main_arg9) = argAt m c main_arg9 := by
  refine (W4_of_ne m ρ c main_arg9 (by decide)).trans ?_
  show StableHlo.after hostOps1 (W2 m ρ c) (Proc.devRef .tc main_arg9) = _
  after_results
  refine (W2_of_ne m ρ c main_arg9 (by decide)).trans ?_
  show StableHlo.after hostOps0 (W0 m ρ c) (Proc.devRef .tc main_arg9) = _
  after_results

private theorem W4_arg10 (c : Dev nD) : W4 m ρ c (Proc.devRef .tc main_arg10) = argAt m c main_arg10 := by
  refine (W4_of_ne m ρ c main_arg10 (by decide)).trans ?_
  show StableHlo.after hostOps1 (W2 m ρ c) (Proc.devRef .tc main_arg10) = _
  after_results
  refine (W2_of_ne m ρ c main_arg10 (by decide)).trans ?_
  show StableHlo.after hostOps0 (W0 m ρ c) (Proc.devRef .tc main_arg10) = _
  after_results

private theorem W4_arg11 (c : Dev nD) : W4 m ρ c (Proc.devRef .tc main_arg11) = argAt m c main_arg11 := by
  refine (W4_of_ne m ρ c main_arg11 (by decide)).trans ?_
  show StableHlo.after hostOps1 (W2 m ρ c) (Proc.devRef .tc main_arg11) = _
  after_results
  refine (W2_of_ne m ρ c main_arg11 (by decide)).trans ?_
  show StableHlo.after hostOps0 (W0 m ρ c) (Proc.devRef .tc main_arg11) = _
  after_results

private theorem W4_arg12 (c : Dev nD) : W4 m ρ c (Proc.devRef .tc main_arg12) = argAt m c main_arg12 := by
  refine (W4_of_ne m ρ c main_arg12 (by decide)).trans ?_
  show StableHlo.after hostOps1 (W2 m ρ c) (Proc.devRef .tc main_arg12) = _
  after_results
  refine (W2_of_ne m ρ c main_arg12 (by decide)).trans ?_
  show StableHlo.after hostOps0 (W0 m ρ c) (Proc.devRef .tc main_arg12) = _
  after_results

private theorem W4_arg13 (c : Dev nD) : W4 m ρ c (Proc.devRef .tc main_arg13) = argAt m c main_arg13 := by
  refine (W4_of_ne m ρ c main_arg13 (by decide)).trans ?_
  show StableHlo.after hostOps1 (W2 m ρ c) (Proc.devRef .tc main_arg13) = _
  after_results
  refine (W2_of_ne m ρ c main_arg13 (by decide)).trans ?_
  show StableHlo.after hostOps0 (W0 m ρ c) (Proc.devRef .tc main_arg13) = _
  after_results

private theorem W4_arg14 (c : Dev nD) : W4 m ρ c (Proc.devRef .tc main_arg14) = argAt m c main_arg14 := by
  refine (W4_of_ne m ρ c main_arg14 (by decide)).trans ?_
  show StableHlo.after hostOps1 (W2 m ρ c) (Proc.devRef .tc main_arg14) = _
  after_results
  refine (W2_of_ne m ρ c main_arg14 (by decide)).trans ?_
  show StableHlo.after hostOps0 (W0 m ρ c) (Proc.devRef .tc main_arg14) = _
  after_results

/-- The start of the run: after the two table launches the node table is `h0` of the launch arguments, and the index
    rows, the edge table and the stacked weights are in place. -/
theorem head (c : Dev nD) :
    W4 m ρ c (Proc.devRef .tc main_v5) = h0 (argAt m c main_arg0) (argAt m c main_arg3) (argAt m c main_arg4)
    ∧ Live m c (W4 m ρ c) (eaTab (argAt m c main_arg1) (argAt m c main_arg5) (argAt m c main_arg6)) :=
  ⟨W4_v5 m ρ c,
   { src := W4_src m ρ c, dst := W4_dst m ρ c, ea := W4_v7 m ρ c,
     a7 := W4_arg7 m ρ c, a8 := W4_arg8 m ρ c, a9 := W4_arg9 m ρ c, a10 := W4_arg10 m ρ c,
     a11 := W4_arg11 m ρ c, a12 := W4_arg12 m ρ c, a13 := W4_arg13 m ρ c, a14 := W4_arg14 m ρ c }⟩

end Cert.KernelIdeal.Val

end
-- ==== Proof.RowMatmul.lean ====
/-
  One product of the message network, read entry by entry: a block of 4000 rows of 64 numbers times a 64 × 64
  matrix. The kernel forms three such products per block (the two halves of the hidden layer and the output
  layer), all with the same dimension numbers, so the reading is stated once here.
-/
import proofs.«418908_j25941602468191_1_alg».proof.Proof.Gen.KernelIdeal
import Idealize.ShloMosaic.PureOps.Ideal.Laws
import Idealize.ShloMosaic.Lib.ValueIdx

noncomputable section

namespace Cert.KernelIdeal.Val

open Idealize.ShloMosaic Idealize.ShloMosaic.ValueIdx Cert.KernelIdeal

/-- The zero offset of a load or store of a whole rank-2 block. -/
theorem offZero : (![0, 0] : Fin 2 → Nat) = fun _ => 0 := funext fun a => by fin_cases a <;> rfl

/-! ## The dimension numbers `[4000, 64] · [64, 64] → [4000, 64]` (contract axis 1 with axis 0) read at an index

The left operand is read at (row of the result, inner position), the right operand at (inner position, column of
the result). -/

theorem lhsRow_0 (j : S4000x64.Idx) (k : dot_S4000x64_S64x64_S4000x64_1_0_0_1_n_n.contr.Idx) :
    (dot_S4000x64_S64x64_S4000x64_1_0_0_1_n_n.lhsIdx j k 0).val = (j 0).val := by
  unfold DotDims.lhsIdx
  rw [dif_neg (show ¬ (0 : Fin S4000x64.rank) ∈ dot_S4000x64_S64x64_S4000x64_1_0_0_1_n_n.lhsBatch by decide),
    dif_pos (show (0 : Fin S4000x64.rank) ∈ dot_S4000x64_S64x64_S4000x64_1_0_0_1_n_n.lhsNonContracting by decide)]
  rfl

theorem lhsRow_1 (j : S4000x64.Idx) (k : dot_S4000x64_S64x64_S4000x64_1_0_0_1_n_n.contr.Idx) :
    (dot_S4000x64_S64x64_S4000x64_1_0_0_1_n_n.lhsIdx j k 1).val = (k ⟨0, by decide⟩).val :=
  DotDims.lhsIdx_val_of_single dot_S4000x64_S64x64_S4000x64_1_0_0_1_n_n (cl := 1) rfl j k

theorem rhsRow_0 (j : S4000x64.Idx) (k : dot_S4000x64_S64x64_S4000x64_1_0_0_1_n_n.contr.Idx) :
    (dot_S4000x64_S64x64_S4000x64_1_0_0_1_n_n.rhsIdx j k 0).val = (k ⟨0, by decide⟩).val :=
  DotDims.rhsIdx_val_of_single dot_S4000x64_S64x64_S4000x64_1_0_0_1_n_n (cr := 0) rfl j k

theorem rhsRow_1 (j : S4000x64.Idx) (k : dot_S4000x64_S64x64_S4000x64_1_0_0_1_n_n.contr.Idx) :
    (dot_S4000x64_S64x64_S4000x64_1_0_0_1_n_n.rhsIdx j k 1).val = (j 1).val := by
  unfold DotDims.rhsIdx
  rw [dif_neg (show ¬ (1 : Fin S64x64.rank) ∈ dot_S4000x64_S64x64_S4000x64_1_0_0_1_n_n.rhsBatch by decide),
    dif_pos (show (1 : Fin S64x64.rank) ∈ dot_S4000x64_S64x64_S4000x64_1_0_0_1_n_n.rhsNonContracting by decide)]
  rfl

/-- A 4000-row block times a 64 × 64 matrix, accumulated into the zero block: entry `(r, j)` is the sum over the 64
    inner positions `q` of the block's entry `(r, q)` times the matrix's entry `(q, j)`. On the extended reals the
    product has no rounding and no order of accumulation left in it. -/
theorem rowMatmul_apply (x : FVec Ideal S4000x64 .bf16) (w : FVec Ideal S64x64 .bf16) (r : Fin 4000) (j : Fin 64) :
    matmul dot_S4000x64_S64x64_S4000x64_1_0_0_1_n_n none x w (constant (F := Ideal) S4000x64 .f32 0x00000000#32) (ix2 r j)
      = ∑ q : Fin 64, x (ix2 r q) * w (ix2 q j) := by
  refine (Ideal.matmul_constant_zero_apply dot_S4000x64_S64x64_S4000x64_1_0_0_1_n_n none x w (ix2 r j)).trans ?_
  rw [← Equiv.sum_comp (contrEquiv1 dot_S4000x64_S64x64_S4000x64_1_0_0_1_n_n 64 rfl rfl).symm]
  refine Finset.sum_congr rfl fun q _ => ?_
  have hq := contrEquiv1_symm_val dot_S4000x64_S64x64_S4000x64_1_0_0_1_n_n 64 rfl rfl q
  congr 1
  · refine congrArg x (funext fun a => Fin.ext ?_)
    match a with
    | ⟨0, _⟩ => exact lhsRow_0 _ _
    | ⟨1, _⟩ => exact (lhsRow_1 _ _).trans hq
  · refine congrArg w (funext fun a => Fin.ext ?_)
    match a with
    | ⟨0, _⟩ => exact (rhsRow_0 _ _).trans hq
    | ⟨1, _⟩ => exact rhsRow_1 _ _

end Cert.KernelIdeal.Val

end
-- ==== Proof.Region2.lean ====
/-
  The first message launch, read as mathematics. The launch runs over 200 grid points; at point `t` its body sees rows
  `4000 t … 4000 t + 3999` of three 800000 × 64 arrays (the node table gathered at the edges' destinations, the same at
  their sources, and the edge table) and the whole of five parameter arrays (two 64 × 64 matrices and a bias for the
  hidden layer, a 64 × 64 matrix and a bias for the output layer), and writes the same rows of the message array:
  `relu ((hd + hs) · W1a + ea · W1b + b1) · W2 + b2`, row by row. Each row of the result depends on the same row of the
  three long arrays only, so the 200 blocks are restrictions of ONE function of the eight arrays, `Cert.Spec.msg`, and,
  the blocks tiling the 800000 rows, the array after the launch is that function.
-/
import proofs.«418908_j25941602468191_1_alg».proof.Proof.Gen.KernelIdeal.Frame
import proofs.«418908_j25941602468191_1_alg».proof.Proof.Spec
import proofs.«418908_j25941602468191_1_alg».proof.Proof.RowMatmul
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Val

open Idealize.ShloMosaic Idealize.ShloMosaic.TcCoe Idealize.ShloMosaic.ValueIdx Cert.KernelIdeal Cert.KernelIdeal.Gen
open Idealize.ShloMosaic.Pipeline (Dat)

namespace Region2

/-! ## The body's arithmetic at one entry -/

/-- Entry `(r, j)` of the block the body stores, from the three 4000-row input blocks and the five parameter arrays:
    the hidden layer `relu ((x0 + x1) · w1a + x2 · w1b + b1)` of row `r`, through `w2`, plus `b2`. The changes of
    float format are the identity on the extended reals, the same-shape casts are the identity, a one-row array
    broadcast down the rows reads its row, and each product into the zero block is the sum over the 64 inner positions. -/
theorem pay2_at (x0 x1 x2 : Vec Ideal S4000x64 .f32) (w1a w1b : Vec Ideal S64x64 .f32) (b1 : Vec Ideal S1x64 .f32)
    (w2 : Vec Ideal S64x64 .f32) (b2 : Vec Ideal S1x64 .f32) (r : Fin 4000) (j : Fin 64) :
    k2_pay1 (F := Ideal) x0 x1 x2 w1a w1b b1 w2 b2 (ix2 r j)
      = (∑ k : Fin 64, max (((∑ q : Fin 64, (x0 (ix2 r q) + x1 (ix2 r q)) * w1a (ix2 q k))
          + (∑ q : Fin 64, x2 (ix2 r q) * w1b (ix2 q k))) + b1 (ix2 0 k)) 0 * w2 (ix2 k j)) + b2 (ix2 0 j) := by
  unfold k2_pay1
  simp only [shapeCast_self]
  refine (congrArg₂ (· + ·) (rowMatmul_apply _ _ r j) (broadcastTo_1b_ab_apply _ _ r j)).trans ?_
  refine congrArg (· + b2 (ix2 0 j)) (Finset.sum_congr rfl fun k _ => ?_)
  refine congrArg (· * w2 (ix2 k j)) ?_
  refine (congrArg₂ max (congrArg₂ (· + ·) (congrArg₂ (· + ·) (rowMatmul_apply _ _ r k) (rowMatmul_apply _ _ r k))
    (broadcastTo_1b_ab_apply _ _ r k)) Ideal.ofBits_zero_f32).trans ?_
  rfl

/-! ## The index maps, decided once over the 200 grid points

At point `t` the three row-block inputs and the output are at block `t` of their 800000-row arrays; the five
parameter windows stay at their one block. -/

theorem idx2_0 : ∀ t : Fin cfg2.N, win2_0.index t (0 : Fin 2) = t.val ∧ win2_0.index t (1 : Fin 2) = 0 :=
  (by decide +kernel : ∀ t : Fin grid2.N, _)
theorem idx2_1 : ∀ t : Fin cfg2.N, win2_1.index t (0 : Fin 2) = t.val ∧ win2_1.index t (1 : Fin 2) = 0 :=
  (by decide +kernel : ∀ t : Fin grid2.N, _)
theorem idx2_2 : ∀ t : Fin cfg2.N, win2_2.index t (0 : Fin 2) = t.val ∧ win2_2.index t (1 : Fin 2) = 0 :=
  (by decide +kernel : ∀ t : Fin grid2.N, _)
theorem idx2_3 : ∀ t : Fin cfg2.N, win2_3.index t (0 : Fin 2) = 0 ∧ win2_3.index t (1 : Fin 2) = 0 :=
  (by decide +kernel : ∀ t : Fin grid2.N, _)
theorem idx2_4 : ∀ t : Fin cfg2.N, win2_4.index t (0 : Fin 2) = 0 ∧ win2_4.index t (1 : Fin 2) = 0 :=
  (by decide +kernel : ∀ t : Fin grid2.N, _)
theorem idx2_5 : ∀ t : Fin cfg2.N, win2_5.index t (0 : Fin 2) = 0 ∧ win2_5.index t (1 : Fin 2) = 0 :=
  (by decide +kernel : ∀ t : Fin grid2.N, _)
theorem idx2_6 : ∀ t : Fin cfg2.N, win2_6.index t (0 : Fin 2) = 0 ∧ win2_6.index t (1 : Fin 2) = 0 :=
  (by decide +kernel : ∀ t : Fin grid2.N, _)
theorem idx2_7 : ∀ t : Fin cfg2.N, win2_7.index t (0 : Fin 2) = 0 ∧ win2_7.index t (1 : Fin 2) = 0 :=
  (by decide +kernel : ∀ t : Fin grid2.N, _)
theorem idx2_8 : ∀ t : Fin cfg2.N, win2_8.index t (0 : Fin 2) = t.val ∧ win2_8.index t (1 : Fin 2) = 0 :=
  (by decide +kernel : ∀ t : Fin grid2.N, _)

/-! ## Each input block read where the output block's rows say -/

/-- Window 0 (the destination-node rows): entry `(r, q)` of block `t` is entry `(4000 t + r, q)` of the array. -/
theorem blk2_0_at (c : Dev nD) (X : Buf (Elt Ideal) ((c : Thread nD τ).loc (Pipeline.arrRef spec2 0))) (t : Fin cfg2.N)
    (r : Fin 4000) (q : Fin 64) (e : Fin 800000) (he : e.val = 4000 * t.val + r.val) :
    ((cfg2.win 0).blk t).view.read (Elt Ideal) X (ix2 r q) = (X : S800000x64.Idx → EReal) (ix2 e q) := by
  rw [View.read_apply]
  refine congrArg X (funext fun a => Fin.ext ?_)
  match a with
  | ⟨0, _⟩ =>
    show win2_0.index t (0 : Fin 2) * 4000 + 1 * r.val = e.val
    rw [(idx2_0 t).1, he]; omega
  | ⟨1, _⟩ =>
    show win2_0.index t (1 : Fin 2) * 64 + 1 * q.val = q.val
    rw [(idx2_0 t).2]; omega

/-- Window 1 (the source-node rows): entry `(r, q)` of block `t` is entry `(4000 t + r, q)` of the array. -/
theorem blk2_1_at (c : Dev nD) (X : Buf (Elt Ideal) ((c : Thread nD τ).loc (Pipeline.arrRef spec2 1))) (t : Fin cfg2.N)
    (r : Fin 4000) (q : Fin 64) (e : Fin 800000) (he : e.val = 4000 * t.val + r.val) :
    ((cfg2.win 1).blk t).view.read (Elt Ideal) X (ix2 r q) = (X : S800000x64.Idx → EReal) (ix2 e q) := by
  rw [View.read_apply]
  refine congrArg X (funext fun a => Fin.ext ?_)
  match a with
  | ⟨0, _⟩ =>
    show win2_1.index t (0 : Fin 2) * 4000 + 1 * r.val = e.val
    rw [(idx2_1 t).1, he]; omega
  | ⟨1, _⟩ =>
    show win2_1.index t (1 : Fin 2) * 64 + 1 * q.val = q.val
    rw [(idx2_1 t).2]; omega

/-- Window 2 (the edge-table rows): entry `(r, q)` of block `t` is entry `(4000 t + r, q)` of the array. -/
theorem blk2_2_at (c : Dev nD) (X : Buf (Elt Ideal) ((c : Thread nD τ).loc (Pipeline.arrRef spec2 2))) (t : Fin cfg2.N)
    (r : Fin 4000) (q : Fin 64) (e : Fin 800000) (he : e.val = 4000 * t.val + r.val) :
    ((cfg2.win 2).blk t).view.read (Elt Ideal) X (ix2 r q) = (X : S800000x64.Idx → EReal) (ix2 e q) := by
  rw [View.read_apply]
  refine congrArg X (funext fun a => Fin.ext ?_)
  match a with
  | ⟨0, _⟩ =>
    show win2_2.index t (0 : Fin 2) * 4000 + 1 * r.val = e.val
    rw [(idx2_2 t).1, he]; omega
  | ⟨1, _⟩ =>
    show win2_2.index t (1 : Fin 2) * 64 + 1 * q.val = q.val
    rw [(idx2_2 t).2]; omega

/-- Window 3 (the first hidden-layer matrix): its one block is the whole array, at every point. -/
theorem blk2_3_at (c : Dev nD) (X : Buf (Elt Ideal) ((c : Thread nD τ).loc (Pipeline.arrRef spec2 3))) (t : Fin cfg2.N)
    (p : Fin 64) (q : Fin 64) :
    ((cfg2.win 3).blk t).view.read (Elt Ideal) X (ix2 p q) = (X : S64x64.Idx → EReal) (ix2 p q) := by
  rw [View.read_apply]
  refine congrArg X (funext fun a => Fin.ext ?_)
  match a with
  | ⟨0, _⟩ =>
    show win2_3.index t (0 : Fin 2) * 64 + 1 * p.val = p.val
    rw [(idx2_3 t).1]; omega
  | ⟨1, _⟩ =>
    show win2_3.index t (1 : Fin 2) * 64 + 1 * q.val = q.val
    rw [(idx2_3 t).2]; omega

/-- Window 4 (the second hidden-layer matrix): its one block is the whole array, at every point. -/
theorem blk2_4_at (c : Dev nD) (X : Buf (Elt Ideal) ((c : Thread nD τ).loc (Pipeline.arrRef spec2 4))) (t : Fin cfg2.N)
    (p : Fin 64) (q : Fin 64) :
    ((cfg2.win 4).blk t).view.read (Elt Ideal) X (ix2 p q) = (X : S64x64.Idx → EReal) (ix2 p q) := by
  rw [View.read_apply]
  refine congrArg X (funext fun a => Fin.ext ?_)
  match a with
  | ⟨0, _⟩ =>
    show win2_4.index t (0 : Fin 2) * 64 + 1 * p.val = p.val
    rw [(idx2_4 t).1]; omega
  | ⟨1, _⟩ =>
    show win2_4.index t (1 : Fin 2) * 64 + 1 * q.val = q.val
    rw [(idx2_4 t).2]; omega

/-- Window 5 (the hidden-layer bias): its one block is the whole array, at every point. -/
theorem blk2_5_at (c : Dev nD) (X : Buf (Elt Ideal) ((c : Thread nD τ).loc (Pipeline.arrRef spec2 5))) (t : Fin cfg2.N)
    (p : Fin 1) (q : Fin 64) :
    ((cfg2.win 5).blk t).view.read (Elt Ideal) X (ix2 p q) = (X : S1x64.Idx → EReal) (ix2 p q) := by
  rw [View.read_apply]
  refine congrArg X (funext fun a => Fin.ext ?_)
  match a with
  | ⟨0, _⟩ =>
    show win2_5.index t (0 : Fin 2) * 1 + 1 * p.val = p.val
    rw [(idx2_5 t).1]; omega
  | ⟨1, _⟩ =>
    show win2_5.index t (1 : Fin 2) * 64 + 1 * q.val = q.val
    rw [(idx2_5 t).2]; omega

/-- Window 6 (the output-layer matrix): its one block is the whole array, at every point. -/
theorem blk2_6_at (c : Dev nD) (X : Buf (Elt Ideal) ((c : Thread nD τ).loc (Pipeline.arrRef spec2 6))) (t : Fin cfg2.N)
    (p : Fin 64) (q : Fin 64) :
    ((cfg2.win 6).blk t).view.read (Elt Ideal) X (ix2 p q) = (X : S64x64.Idx → EReal) (ix2 p q) := by
  rw [View.read_apply]
  refine congrArg X (funext fun a => Fin.ext ?_)
  match a with
  | ⟨0, _⟩ =>
    show win2_6.index t (0 : Fin 2) * 64 + 1 * p.val = p.val
    rw [(idx2_6 t).1]; omega
  | ⟨1, _⟩ =>
    show win2_6.index t (1 : Fin 2) * 64 + 1 * q.val = q.val
    rw [(idx2_6 t).2]; omega

/-- Window 7 (the output-layer bias): its one block is the whole array, at every point. -/
theorem blk2_7_at (c : Dev nD) (X : Buf (Elt Ideal) ((c : Thread nD τ).loc (Pipeline.arrRef spec2 7))) (t : Fin cfg2.N)
    (p : Fin 1) (q : Fin 64) :
    ((cfg2.win 7).blk t).view.read (Elt Ideal) X (ix2 p q) = (X : S1x64.Idx → EReal) (ix2 p q) := by
  rw [View.read_apply]
  refine congrArg X (funext fun a => Fin.ext ?_)
  match a with
  | ⟨0, _⟩ =>
    show win2_7.index t (0 : Fin 2) * 1 + 1 * p.val = p.val
    rw [(idx2_7 t).1]; omega
  | ⟨1, _⟩ =>
    show win2_7.index t (1 : Fin 2) * 64 + 1 * q.val = q.val
    rw [(idx2_7 t).2]; omega

/-- The output window: entry `(r, j)` of block `t` sits at `(4000 t + r, j)` of the message array. -/
theorem emb2_8_at (t : Fin cfg2.N) (r : Fin 4000) (j : Fin 64) (e : Fin 800000) (he : e.val = 4000 * t.val + r.val) :
    ((cfg2.win 8).blk t).view.emb (ix2 r j) = (ix2 e j : S800000x64.Idx) := by
  refine funext fun a => Fin.ext ?_
  match a with
  | ⟨0, _⟩ =>
    show win2_8.index t (0 : Fin 2) * 4000 + 1 * r.val = e.val
    rw [(idx2_8 t).1, he]; omega
  | ⟨1, _⟩ =>
    show win2_8.index t (1 : Fin 2) * 64 + 1 * j.val = j.val
    rw [(idx2_8 t).2]; omega

/-! ## The cover: row `i` of the message array is written by point `i / 4000` -/

/-- An index of the array is in point `t`'s output block iff each coordinate is in the block's range on its axis. -/
theorem mem_blk2 (t : Fin cfg2.N) (i : S800000x64.Idx) :
    i ∈ ((cfg2.win 8).blk t).view.set ↔ ∀ a : Fin 2, win2_8.index t a * S4000x64.size a ≤ (i a).val ∧ (i a).val < win2_8.index t a * S4000x64.size a + S4000x64.size a := by
  show i ∈ ((View.whole main_v22).slice (win2_8.rect t)).set ↔ _
  rw [View.set_slice_whole, Rect.mem_set_unit]
  exact Iff.rfl

theorem cover2 (i : S800000x64.Idx) : ∃ t : Fin cfg2.N, (cfg2.win 8).flush t = true ∧ i ∈ ((cfg2.win 8).blk t).view.set := by
  have hi0 : (i 0).val < 800000 := (i 0).isLt
  have hi1 : (i 1).val < 64 := (i 1).isLt
  have hN : cfg2.N = 200 := N_2
  obtain ⟨t, ht⟩ : ∃ t : Fin cfg2.N, t.val = (i 0).val / 4000 := ⟨⟨(i 0).val / 4000, by rw [hN]; omega⟩, rfl⟩
  refine ⟨t, flush2_8 t, ?_⟩
  rw [mem_blk2]
  intro a
  match a with
  | ⟨0, _⟩ =>
    show win2_8.index t (0 : Fin 2) * 4000 ≤ (i 0).val ∧ (i 0).val < win2_8.index t (0 : Fin 2) * 4000 + 4000
    rw [(idx2_8 t).1, ht]; omega
  | ⟨1, _⟩ =>
    show win2_8.index t (1 : Fin 2) * 64 ≤ (i 1).val ∧ (i 1).val < win2_8.index t (1 : Fin 2) * 64 + 64
    rw [(idx2_8 t).2]; omega

/-! ## What a point writes back, and the array after the launch -/

variable (V : (c : Dev nD) → (b : Ref sig .tc) → Buf (Elt Ideal) ((c : Thread nD τ).loc b))

/-- The messages of the round, as a function of the eight arrays the launch finds: the gathered destination and source
    rows, the edge table, and the five parameter arrays. -/
abbrev msgs2 (c : Dev nD) : Cert.Spec.Arr Cert.Spec.E800000x64 :=
  Cert.Spec.msg (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7))

/-- Point `t` writes back rows `4000 t … 4000 t + 3999` of the messages: the body's block is the per-row map of the
    input blocks, which are those same rows of the three long arrays and the whole parameter arrays. -/
theorem flushed2_eq (c : Dev nD) (t : Fin cfg2.N) :
    (dat2 (F := Ideal) V c).flushed 8 t = ((cfg2.win 8).blk t).view.read (Elt Ideal) (msgs2 V c) := by
  show (cfg2.win 8).cut (grid2.coords t) ((dat2 (F := Ideal) V c).after 8 t) = _
  rw [after2_8]
  unfold out2_8
  rw [View.canon_unit_zero offZero]
  simp only [View.ld_unit_zero (S := S4000x64) offZero, View.ld_unit_zero (S := S64x64) offZero,
    View.ld_unit_zero (S := S1x64) offZero]
  funext y
  obtain ⟨r, j, rfl⟩ : ∃ (r : Fin 4000) (j : Fin 64), y = ix2 r j := ⟨y 0, y 1, eq_ix2 y⟩
  have hN : cfg2.N = 200 := N_2
  have ht : t.val < 200 := hN ▸ t.isLt
  obtain ⟨e, he⟩ : ∃ e : Fin 800000, e.val = 4000 * t.val + r.val := ⟨⟨4000 * t.val + r.val, by omega⟩, rfl⟩
  have hx : (cfg2.win 8).xinj (grid2.coords t) (ix2 r j) = (ix2 r j : S4000x64.Idx) := funext fun a => Fin.ext rfl
  show k2_pay1 (F := Ideal) (iblk2 V c 0 t) (iblk2 V c 1 t) (iblk2 V c 2 t) (iblk2 V c 3 t) (iblk2 V c 4 t) (iblk2 V c 5 t) (iblk2 V c 6 t) (iblk2 V c 7 t) ((cfg2.win 8).xinj (grid2.coords t) (ix2 r j))
    = msgs2 V c (((cfg2.win 8).blk t).view.emb (ix2 r j))
  rw [hx, emb2_8_at t r j e he]
  refine (pay2_at (iblk2 V c 0 t) (iblk2 V c 1 t) (iblk2 V c 2 t) (iblk2 V c 3 t) (iblk2 V c 4 t) (iblk2 V c 5 t) (iblk2 V c 6 t) (iblk2 V c 7 t) r j).trans ?_
  refine congrArg₂ (· + ·) (Finset.sum_congr rfl fun k _ => congrArg₂ (· * ·) (congrArg (max · 0) (congrArg₂ (· + ·)
    (congrArg₂ (· + ·)
      (Finset.sum_congr rfl fun q _ => congrArg₂ (· * ·)
        (congrArg₂ (· + ·) (blk2_0_at c (V c (Pipeline.arrRef spec2 0)) t r q e he) (blk2_1_at c (V c (Pipeline.arrRef spec2 1)) t r q e he))
        (blk2_3_at c (V c (Pipeline.arrRef spec2 3)) t q k))
      (Finset.sum_congr rfl fun q _ => congrArg₂ (· * ·)
        (blk2_2_at c (V c (Pipeline.arrRef spec2 2)) t r q e he) (blk2_4_at c (V c (Pipeline.arrRef spec2 4)) t q k)))
    (blk2_5_at c (V c (Pipeline.arrRef spec2 5)) t 0 k)))
    (blk2_6_at c (V c (Pipeline.arrRef spec2 6)) t k j))
    (blk2_7_at c (V c (Pipeline.arrRef spec2 7)) t 0 j)

end Region2

variable (V : (c : Dev nD) → (b : Ref sig .tc) → Buf (Elt Ideal) ((c : Thread nD τ).loc b))

/-- After the launch the message array holds the messages of the round, every row written by the one point whose
    block holds it. -/
theorem region2 (c : Dev nD) :
    (dat2 (F := Ideal) V c).arrAt 8 cfg2.N = Cert.Spec.msg (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) :=
  (dat2 (F := Ideal) V c).arrAt_eq_of_cover 8 (Region2.msgs2 V c) (fun t _ => Region2.flushed2_eq V c t) Region2.cover2

end Cert.KernelIdeal.Val

end
-- ==== Proof.ChainL0.lean ====
/-
  Round 0 of message passing in the idealized kernel program: from the first node table and the edge table to the
  first messages.  The two row gathers and the round's weight slices are host operations read off the run's fold; the
  launch's output array is the per-edge map `Cert.Spec.msg` of its eight input arrays; everything later rounds still
  read is left as it was.
-/
import proofs.«418908_j25941602468191_1_alg».proof.Proof.ChainBase
import proofs.«418908_j25941602468191_1_alg».proof.Proof.Region2
import Idealize.ShloMosaic.Lib.StableHlo.Run

set_option maxRecDepth 16384

noncomputable section

namespace Cert.KernelIdeal.Val

open Idealize.ShloMosaic Idealize.ShloMosaic.TcCoe Idealize.ShloMosaic.StableHlo Cert.KernelIdeal Cert.KernelIdeal.Gen
open Cert.KernelIdeal.Facts₀ Cert.KernelIdeal.Facts

variable (m : (ℓ : Loc nD τ sig) → Buf (Elt Ideal) ℓ) (ρ : Dev nD → PrngReg)

private theorem ofBuf_toBuf' {sig : RefSig} {Val : EltTy → Type} {T : BufTy} (x : StableHlo.TRef sig T) (v : T.Contents Val) :
    x.ofBuf (x.toBuf v) = v := by
  obtain ⟨ref, rfl, od, us⟩ := x
  rfl

/-! The casts at the gathers' operand and result buffers are the identity. -/
private theorem ofBuf0_v5 (p q r) (v : FVec Ideal S50000x64 .f32) : (TRef.of (T := ⟨S50000x64, .f32⟩) main_v5 p q r).ofBuf (Val := Elt Ideal) v = v := rfl
private theorem ofBuf0_v3 (p q r) (v : IVec S800000 32) : (TRef.of (T := ⟨S800000, .i32⟩) main_v3 p q r).ofBuf (Val := Elt Ideal) v = v := rfl
private theorem ofBuf0_v1 (p q r) (v : IVec S800000 32) : (TRef.of (T := ⟨S800000, .i32⟩) main_v1 p q r).ofBuf (Val := Elt Ideal) v = v := rfl
private theorem toBuf0_v8 (p q r) (v : FVec Ideal S800000x64 .f32) : (TRef.of (T := ⟨S800000x64, .f32⟩) main_v8 p q r).toBuf (Val := Elt Ideal) v = v := rfl
private theorem toBuf0_v9 (p q r) (v : FVec Ideal S800000x64 .f32) : (TRef.of (T := ⟨S800000x64, .f32⟩) main_v9 p q r).toBuf (Val := Elt Ideal) v = v := rfl

/-! ## The region's entry: what the three host stretches leave in its eight input arrays -/

set_option maxHeartbeats 4000000 in
theorem W7_v8 (c : Dev nD) (h : FVec Ideal S50000x64 .f32) (ea : FVec Ideal S800000x64 .f32)
    (hh : W4 m ρ c (Proc.devRef .tc main_v5) = h) (hL : Live m c (W4 m ρ c) ea) :
    W7 m ρ c (Proc.devRef .tc main_v8) = takeK h (dstRow (argAt m c main_arg2)) := by
  show StableHlo.after hostOps2_2 (StableHlo.after hostOps2_1 (StableHlo.after hostOps2 (W4 m ρ c))) (Proc.devRef .tc main_v8) = _
  after_results_simp
  simp only [ofBuf_toBuf']
  rw [hh, hL.dst]
  simp only [ofBuf0_v5, ofBuf0_v3, toBuf0_v8]
  rfl

set_option maxHeartbeats 4000000 in
theorem W7_v9 (c : Dev nD) (h : FVec Ideal S50000x64 .f32) (ea : FVec Ideal S800000x64 .f32)
    (hh : W4 m ρ c (Proc.devRef .tc main_v5) = h) (hL : Live m c (W4 m ρ c) ea) :
    W7 m ρ c (Proc.devRef .tc main_v9) = takeK h (srcRow (argAt m c main_arg2)) := by
  show StableHlo.after hostOps2_2 (StableHlo.after hostOps2_1 (StableHlo.after hostOps2 (W4 m ρ c))) (Proc.devRef .tc main_v9) = _
  after_results_simp
  simp only [ofBuf_toBuf']
  rw [hh, hL.src]
  simp only [ofBuf0_v5, ofBuf0_v1, toBuf0_v9]
  rfl

set_option maxHeartbeats 4000000 in
theorem W7_v12 (c : Dev nD) (ea : FVec Ideal S800000x64 .f32) (hL : Live m c (W4 m ρ c) ea) :
    W7 m ρ c (Proc.devRef .tc main_v12) = w1a0 (argAt m c main_arg7) := by
  show StableHlo.after hostOps2_2 (StableHlo.after hostOps2_1 (StableHlo.after hostOps2 (W4 m ρ c))) (Proc.devRef .tc main_v12) = _
  after_results_simp
  rw [hL.a7]
  rfl

set_option maxHeartbeats 4000000 in
theorem W7_v13 (c : Dev nD) (ea : FVec Ideal S800000x64 .f32) (hL : Live m c (W4 m ρ c) ea) :
    W7 m ρ c (Proc.devRef .tc main_v13) = w1b0 (argAt m c main_arg7) := by
  show StableHlo.after hostOps2_2 (StableHlo.after hostOps2_1 (StableHlo.after hostOps2 (W4 m ρ c))) (Proc.devRef .tc main_v13) = _
  after_results_simp
  rw [hL.a7]
  rfl

set_option maxHeartbeats 4000000 in
theorem W7_v20 (c : Dev nD) (ea : FVec Ideal S800000x64 .f32) (hL : Live m c (W4 m ρ c) ea) :
    W7 m ρ c (Proc.devRef .tc main_v20) = b1r0 (argAt m c main_arg8) := by
  show StableHlo.after hostOps2_2 (StableHlo.after hostOps2_1 (StableHlo.after hostOps2 (W4 m ρ c))) (Proc.devRef .tc main_v20) = _
  after_results_simp
  rw [hL.a8]
  rfl

set_option maxHeartbeats 4000000 in
theorem W7_v17 (c : Dev nD) (ea : FVec Ideal S800000x64 .f32) (hL : Live m c (W4 m ρ c) ea) :
    W7 m ρ c (Proc.devRef .tc main_v17) = w2_0 (argAt m c main_arg9) := by
  show StableHlo.after hostOps2_2 (StableHlo.after hostOps2_1 (StableHlo.after hostOps2 (W4 m ρ c))) (Proc.devRef .tc main_v17) = _
  after_results_simp
  rw [hL.a9]
  rfl

set_option maxHeartbeats 4000000 in
theorem W7_v21 (c : Dev nD) (ea : FVec Ideal S800000x64 .f32) (hL : Live m c (W4 m ρ c) ea) :
    W7 m ρ c (Proc.devRef .tc main_v21) = b2r0 (argAt m c main_arg10) := by
  show StableHlo.after hostOps2_2 (StableHlo.after hostOps2_1 (StableHlo.after hostOps2 (W4 m ρ c))) (Proc.devRef .tc main_v21) = _
  after_results_simp
  rw [hL.a10]
  rfl

/-! ## What the stretches do not write -/

set_option maxHeartbeats 4000000 in
theorem W7_keep_v1 (c : Dev nD) (ea : FVec Ideal S800000x64 .f32) (hL : Live m c (W4 m ρ c) ea) :
    W7 m ρ c (Proc.devRef .tc main_v1) = W4 m ρ c (Proc.devRef .tc main_v1) := by
  show StableHlo.after hostOps2_2 (StableHlo.after hostOps2_1 (StableHlo.after hostOps2 (W4 m ρ c))) (Proc.devRef .tc main_v1) = _
  after_results_simp

set_option maxHeartbeats 4000000 in
theorem W7_keep_v3 (c : Dev nD) (ea : FVec Ideal S800000x64 .f32) (hL : Live m c (W4 m ρ c) ea) :
    W7 m ρ c (Proc.devRef .tc main_v3) = W4 m ρ c (Proc.devRef .tc main_v3) := by
  show StableHlo.after hostOps2_2 (StableHlo.after hostOps2_1 (StableHlo.after hostOps2 (W4 m ρ c))) (Proc.devRef .tc main_v3) = _
  after_results_simp

set_option maxHeartbeats 4000000 in
theorem W7_keep_v7 (c : Dev nD) (ea : FVec Ideal S800000x64 .f32) (hL : Live m c (W4 m ρ c) ea) :
    W7 m ρ c (Proc.devRef .tc main_v7) = W4 m ρ c (Proc.devRef .tc main_v7) := by
  show StableHlo.after hostOps2_2 (StableHlo.after hostOps2_1 (StableHlo.after hostOps2 (W4 m ρ c))) (Proc.devRef .tc main_v7) = _
  after_results_simp

set_option maxHeartbeats 4000000 in
theorem W7_keep_arg7 (c : Dev nD) (ea : FVec Ideal S800000x64 .f32) (hL : Live m c (W4 m ρ c) ea) :
    W7 m ρ c (Proc.devRef .tc main_arg7) = W4 m ρ c (Proc.devRef .tc main_arg7) := by
  show StableHlo.after hostOps2_2 (StableHlo.after hostOps2_1 (StableHlo.after hostOps2 (W4 m ρ c))) (Proc.devRef .tc main_arg7) = _
  after_results_simp

set_option maxHeartbeats 4000000 in
theorem W7_keep_arg8 (c : Dev nD) (ea : FVec Ideal S800000x64 .f32) (hL : Live m c (W4 m ρ c) ea) :
    W7 m ρ c (Proc.devRef .tc main_arg8) = W4 m ρ c (Proc.devRef .tc main_arg8) := by
  show StableHlo.after hostOps2_2 (StableHlo.after hostOps2_1 (StableHlo.after hostOps2 (W4 m ρ c))) (Proc.devRef .tc main_arg8) = _
  after_results_simp

set_option maxHeartbeats 4000000 in
theorem W7_keep_arg9 (c : Dev nD) (ea : FVec Ideal S800000x64 .f32) (hL : Live m c (W4 m ρ c) ea) :
    W7 m ρ c (Proc.devRef .tc main_arg9) = W4 m ρ c (Proc.devRef .tc main_arg9) := by
  show StableHlo.after hostOps2_2 (StableHlo.after hostOps2_1 (StableHlo.after hostOps2 (W4 m ρ c))) (Proc.devRef .tc main_arg9) = _
  after_results_simp

set_option maxHeartbeats 4000000 in
theorem W7_keep_arg10 (c : Dev nD) (ea : FVec Ideal S800000x64 .f32) (hL : Live m c (W4 m ρ c) ea) :
    W7 m ρ c (Proc.devRef .tc main_arg10) = W4 m ρ c (Proc.devRef .tc main_arg10) := by
  show StableHlo.after hostOps2_2 (StableHlo.after hostOps2_1 (StableHlo.after hostOps2 (W4 m ρ c))) (Proc.devRef .tc main_arg10) = _
  after_results_simp

set_option maxHeartbeats 4000000 in
theorem W7_keep_arg11 (c : Dev nD) (ea : FVec Ideal S800000x64 .f32) (hL : Live m c (W4 m ρ c) ea) :
    W7 m ρ c (Proc.devRef .tc main_arg11) = W4 m ρ c (Proc.devRef .tc main_arg11) := by
  show StableHlo.after hostOps2_2 (StableHlo.after hostOps2_1 (StableHlo.after hostOps2 (W4 m ρ c))) (Proc.devRef .tc main_arg11) = _
  after_results_simp

set_option maxHeartbeats 4000000 in
theorem W7_keep_arg12 (c : Dev nD) (ea : FVec Ideal S800000x64 .f32) (hL : Live m c (W4 m ρ c) ea) :
    W7 m ρ c (Proc.devRef .tc main_arg12) = W4 m ρ c (Proc.devRef .tc main_arg12) := by
  show StableHlo.after hostOps2_2 (StableHlo.after hostOps2_1 (StableHlo.after hostOps2 (W4 m ρ c))) (Proc.devRef .tc main_arg12) = _
  after_results_simp

set_option maxHeartbeats 4000000 in
theorem W7_keep_arg13 (c : Dev nD) (ea : FVec Ideal S800000x64 .f32) (hL : Live m c (W4 m ρ c) ea) :
    W7 m ρ c (Proc.devRef .tc main_arg13) = W4 m ρ c (Proc.devRef .tc main_arg13) := by
  show StableHlo.after hostOps2_2 (StableHlo.after hostOps2_1 (StableHlo.after hostOps2 (W4 m ρ c))) (Proc.devRef .tc main_arg13) = _
  after_results_simp

set_option maxHeartbeats 4000000 in
theorem W7_keep_arg14 (c : Dev nD) (ea : FVec Ideal S800000x64 .f32) (hL : Live m c (W4 m ρ c) ea) :
    W7 m ρ c (Proc.devRef .tc main_arg14) = W4 m ρ c (Proc.devRef .tc main_arg14) := by
  show StableHlo.after hostOps2_2 (StableHlo.after hostOps2_1 (StableHlo.after hostOps2 (W4 m ρ c))) (Proc.devRef .tc main_arg14) = _
  after_results_simp

/-! ## Across the launch -/

theorem layer0 (c : Dev nD) (h : FVec Ideal S50000x64 .f32) (ea : FVec Ideal S800000x64 .f32)
    (hh : W4 m ρ c (Proc.devRef .tc main_v5) = h) (hL : Live m c (W4 m ρ c) ea) :
    W8 m ρ c (Proc.devRef .tc main_v22) = msg0 takeK h ea (argAt m c main_arg2) (argAt m c main_arg7) (argAt m c main_arg8) (argAt m c main_arg9) (argAt m c main_arg10)
    ∧ Live m c (W8 m ρ c) ea := by
  refine ⟨?_, ?_⟩
  · refine (W8_arr m ρ c 8).trans ((region2 (V7 m ρ) c).trans ?_)
    show Cert.Spec.msg (W7 m ρ c (Proc.devRef .tc main_v8)) (W7 m ρ c (Proc.devRef .tc main_v9)) (W7 m ρ c (Proc.devRef .tc main_v7))
      (W7 m ρ c (Proc.devRef .tc main_v12)) (W7 m ρ c (Proc.devRef .tc main_v13)) (W7 m ρ c (Proc.devRef .tc main_v20))
      (W7 m ρ c (Proc.devRef .tc main_v17)) (W7 m ρ c (Proc.devRef .tc main_v21)) = _
    rw [W7_v8 m ρ c h ea hh hL, W7_v9 m ρ c h ea hh hL, W7_keep_v7 m ρ c ea hL, hL.ea, W7_v12 m ρ c ea hL, W7_v13 m ρ c ea hL,
      W7_v20 m ρ c ea hL, W7_v17 m ρ c ea hL, W7_v21 m ρ c ea hL]
    rfl
  · exact
      { src := (W8_of_ne m ρ c main_v1 (by decide)).trans ((W7_keep_v1 m ρ c ea hL).trans hL.src)
        dst := (W8_of_ne m ρ c main_v3 (by decide)).trans ((W7_keep_v3 m ρ c ea hL).trans hL.dst)
        ea := (W8_arr m ρ c 2).trans ((((dat2 (V7 m ρ) c).arrAt_in 2 rfl _).trans (A_eq2 (V7 m ρ) c 2)).trans ((W7_keep_v7 m ρ c ea hL).trans hL.ea))
        a7 := (W8_of_ne m ρ c main_arg7 (by decide)).trans ((W7_keep_arg7 m ρ c ea hL).trans hL.a7)
        a8 := (W8_of_ne m ρ c main_arg8 (by decide)).trans ((W7_keep_arg8 m ρ c ea hL).trans hL.a8)
        a9 := (W8_of_ne m ρ c main_arg9 (by decide)).trans ((W7_keep_arg9 m ρ c ea hL).trans hL.a9)
        a10 := (W8_of_ne m ρ c main_arg10 (by decide)).trans ((W7_keep_arg10 m ρ c ea hL).trans hL.a10)
        a11 := (W8_of_ne m ρ c main_arg11 (by decide)).trans ((W7_keep_arg11 m ρ c ea hL).trans hL.a11)
        a12 := (W8_of_ne m ρ c main_arg12 (by decide)).trans ((W7_keep_arg12 m ρ c ea hL).trans hL.a12)
        a13 := (W8_of_ne m ρ c main_arg13 (by decide)).trans ((W7_keep_arg13 m ρ c ea hL).trans hL.a13)
        a14 := (W8_of_ne m ρ c main_arg14 (by decide)).trans ((W7_keep_arg14 m ρ c ea hL).trans hL.a14) }

end Cert.KernelIdeal.Val

end
-- ==== Proof.Region3.lean ====
/-
  The second message launch, read as mathematics. The launch runs over 200 grid points; at point `t` its body sees rows
  `4000 t … 4000 t + 3999` of three 800000 × 64 arrays (the node table gathered at the edges' destinations, the same at
  their sources, and the edge table) and the whole of five parameter arrays (two 64 × 64 matrices and a bias for the
  hidden layer, a 64 × 64 matrix and a bias for the output layer), and writes the same rows of the message array:
  `relu ((hd + hs) · W1a + ea · W1b + b1) · W2 + b2`, row by row. Each row of the result depends on the same row of the
  three long arrays only, so the 200 blocks are restrictions of ONE function of the eight arrays, `Cert.Spec.msg`, and,
  the blocks tiling the 800000 rows, the array after the launch is that function.
-/
import proofs.«418908_j25941602468191_1_alg».proof.Proof.Gen.KernelIdeal.Frame
import proofs.«418908_j25941602468191_1_alg».proof.Proof.Spec
import proofs.«418908_j25941602468191_1_alg».proof.Proof.RowMatmul
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Val

open Idealize.ShloMosaic Idealize.ShloMosaic.TcCoe Idealize.ShloMosaic.ValueIdx Cert.KernelIdeal Cert.KernelIdeal.Gen
open Idealize.ShloMosaic.Pipeline (Dat)

namespace Region3

/-! ## The body's arithmetic at one entry -/

/-- Entry `(r, j)` of the block the body stores, from the three 4000-row input blocks and the five parameter arrays:
    the hidden layer `relu ((x0 + x1) · w1a + x2 · w1b + b1)` of row `r`, through `w2`, plus `b2`. The changes of
    float format are the identity on the extended reals, the same-shape casts are the identity, a one-row array
    broadcast down the rows reads its row, and each product into the zero block is the sum over the 64 inner positions. -/
theorem pay3_at (x0 x1 x2 : Vec Ideal S4000x64 .f32) (w1a w1b : Vec Ideal S64x64 .f32) (b1 : Vec Ideal S1x64 .f32)
    (w2 : Vec Ideal S64x64 .f32) (b2 : Vec Ideal S1x64 .f32) (r : Fin 4000) (j : Fin 64) :
    k3_pay1 (F := Ideal) x0 x1 x2 w1a w1b b1 w2 b2 (ix2 r j)
      = (∑ k : Fin 64, max (((∑ q : Fin 64, (x0 (ix2 r q) + x1 (ix2 r q)) * w1a (ix2 q k))
          + (∑ q : Fin 64, x2 (ix2 r q) * w1b (ix2 q k))) + b1 (ix2 0 k)) 0 * w2 (ix2 k j)) + b2 (ix2 0 j) := by
  unfold k3_pay1
  simp only [shapeCast_self]
  refine (congrArg₂ (· + ·) (rowMatmul_apply _ _ r j) (broadcastTo_1b_ab_apply _ _ r j)).trans ?_
  refine congrArg (· + b2 (ix2 0 j)) (Finset.sum_congr rfl fun k _ => ?_)
  refine congrArg (· * w2 (ix2 k j)) ?_
  refine (congrArg₂ max (congrArg₂ (· + ·) (congrArg₂ (· + ·) (rowMatmul_apply _ _ r k) (rowMatmul_apply _ _ r k))
    (broadcastTo_1b_ab_apply _ _ r k)) Ideal.ofBits_zero_f32).trans ?_
  rfl

/-! ## The index maps, decided once over the 200 grid points

At point `t` the three row-block inputs and the output are at block `t` of their 800000-row arrays; the five
parameter windows stay at their one block. -/

theorem idx3_0 : ∀ t : Fin cfg3.N, win3_0.index t (0 : Fin 2) = t.val ∧ win3_0.index t (1 : Fin 2) = 0 :=
  (by decide +kernel : ∀ t : Fin grid3.N, _)
theorem idx3_1 : ∀ t : Fin cfg3.N, win3_1.index t (0 : Fin 2) = t.val ∧ win3_1.index t (1 : Fin 2) = 0 :=
  (by decide +kernel : ∀ t : Fin grid3.N, _)
theorem idx3_2 : ∀ t : Fin cfg3.N, win3_2.index t (0 : Fin 2) = t.val ∧ win3_2.index t (1 : Fin 2) = 0 :=
  (by decide +kernel : ∀ t : Fin grid3.N, _)
theorem idx3_3 : ∀ t : Fin cfg3.N, win3_3.index t (0 : Fin 2) = 0 ∧ win3_3.index t (1 : Fin 2) = 0 :=
  (by decide +kernel : ∀ t : Fin grid3.N, _)
theorem idx3_4 : ∀ t : Fin cfg3.N, win3_4.index t (0 : Fin 2) = 0 ∧ win3_4.index t (1 : Fin 2) = 0 :=
  (by decide +kernel : ∀ t : Fin grid3.N, _)
theorem idx3_5 : ∀ t : Fin cfg3.N, win3_5.index t (0 : Fin 2) = 0 ∧ win3_5.index t (1 : Fin 2) = 0 :=
  (by decide +kernel : ∀ t : Fin grid3.N, _)
theorem idx3_6 : ∀ t : Fin cfg3.N, win3_6.index t (0 : Fin 2) = 0 ∧ win3_6.index t (1 : Fin 2) = 0 :=
  (by decide +kernel : ∀ t : Fin grid3.N, _)
theorem idx3_7 : ∀ t : Fin cfg3.N, win3_7.index t (0 : Fin 2) = 0 ∧ win3_7.index t (1 : Fin 2) = 0 :=
  (by decide +kernel : ∀ t : Fin grid3.N, _)
theorem idx3_8 : ∀ t : Fin cfg3.N, win3_8.index t (0 : Fin 2) = t.val ∧ win3_8.index t (1 : Fin 2) = 0 :=
  (by decide +kernel : ∀ t : Fin grid3.N, _)

/-! ## Each input block read where the output block's rows say -/

/-- Window 0 (the destination-node rows): entry `(r, q)` of block `t` is entry `(4000 t + r, q)` of the array. -/
theorem blk3_0_at (c : Dev nD) (X : Buf (Elt Ideal) ((c : Thread nD τ).loc (Pipeline.arrRef spec3 0))) (t : Fin cfg3.N)
    (r : Fin 4000) (q : Fin 64) (e : Fin 800000) (he : e.val = 4000 * t.val + r.val) :
    ((cfg3.win 0).blk t).view.read (Elt Ideal) X (ix2 r q) = (X : S800000x64.Idx → EReal) (ix2 e q) := by
  rw [View.read_apply]
  refine congrArg X (funext fun a => Fin.ext ?_)
  match a with
  | ⟨0, _⟩ =>
    show win3_0.index t (0 : Fin 2) * 4000 + 1 * r.val = e.val
    rw [(idx3_0 t).1, he]; omega
  | ⟨1, _⟩ =>
    show win3_0.index t (1 : Fin 2) * 64 + 1 * q.val = q.val
    rw [(idx3_0 t).2]; omega

/-- Window 1 (the source-node rows): entry `(r, q)` of block `t` is entry `(4000 t + r, q)` of the array. -/
theorem blk3_1_at (c : Dev nD) (X : Buf (Elt Ideal) ((c : Thread nD τ).loc (Pipeline.arrRef spec3 1))) (t : Fin cfg3.N)
    (r : Fin 4000) (q : Fin 64) (e : Fin 800000) (he : e.val = 4000 * t.val + r.val) :
    ((cfg3.win 1).blk t).view.read (Elt Ideal) X (ix2 r q) = (X : S800000x64.Idx → EReal) (ix2 e q) := by
  rw [View.read_apply]
  refine congrArg X (funext fun a => Fin.ext ?_)
  match a with
  | ⟨0, _⟩ =>
    show win3_1.index t (0 : Fin 2) * 4000 + 1 * r.val = e.val
    rw [(idx3_1 t).1, he]; omega
  | ⟨1, _⟩ =>
    show win3_1.index t (1 : Fin 2) * 64 + 1 * q.val = q.val
    rw [(idx3_1 t).2]; omega

/-- Window 2 (the edge-table rows): entry `(r, q)` of block `t` is entry `(4000 t + r, q)` of the array. -/
theorem blk3_2_at (c : Dev nD) (X : Buf (Elt Ideal) ((c : Thread nD τ).loc (Pipeline.arrRef spec3 2))) (t : Fin cfg3.N)
    (r : Fin 4000) (q : Fin 64) (e : Fin 800000) (he : e.val = 4000 * t.val + r.val) :
    ((cfg3.win 2).blk t).view.read (Elt Ideal) X (ix2 r q) = (X : S800000x64.Idx → EReal) (ix2 e q) := by
  rw [View.read_apply]
  refine congrArg X (funext fun a => Fin.ext ?_)
  match a with
  | ⟨0, _⟩ =>
    show win3_2.index t (0 : Fin 2) * 4000 + 1 * r.val = e.val
    rw [(idx3_2 t).1, he]; omega
  | ⟨1, _⟩ =>
    show win3_2.index t (1 : Fin 2) * 64 + 1 * q.val = q.val
    rw [(idx3_2 t).2]; omega

/-- Window 3 (the first hidden-layer matrix): its one block is the whole array, at every point. -/
theorem blk3_3_at (c : Dev nD) (X : Buf (Elt Ideal) ((c : Thread nD τ).loc (Pipeline.arrRef spec3 3))) (t : Fin cfg3.N)
    (p : Fin 64) (q : Fin 64) :
    ((cfg3.win 3).blk t).view.read (Elt Ideal) X (ix2 p q) = (X : S64x64.Idx → EReal) (ix2 p q) := by
  rw [View.read_apply]
  refine congrArg X (funext fun a => Fin.ext ?_)
  match a with
  | ⟨0, _⟩ =>
    show win3_3.index t (0 : Fin 2) * 64 + 1 * p.val = p.val
    rw [(idx3_3 t).1]; omega
  | ⟨1, _⟩ =>
    show win3_3.index t (1 : Fin 2) * 64 + 1 * q.val = q.val
    rw [(idx3_3 t).2]; omega

/-- Window 4 (the second hidden-layer matrix): its one block is the whole array, at every point. -/
theorem blk3_4_at (c : Dev nD) (X : Buf (Elt Ideal) ((c : Thread nD τ).loc (Pipeline.arrRef spec3 4))) (t : Fin cfg3.N)
    (p : Fin 64) (q : Fin 64) :
    ((cfg3.win 4).blk t).view.read (Elt Ideal) X (ix2 p q) = (X : S64x64.Idx → EReal) (ix2 p q) := by
  rw [View.read_apply]
  refine congrArg X (funext fun a => Fin.ext ?_)
  match a with
  | ⟨0, _⟩ =>
    show win3_4.index t (0 : Fin 2) * 64 + 1 * p.val = p.val
    rw [(idx3_4 t).1]; omega
  | ⟨1, _⟩ =>
    show win3_4.index t (1 : Fin 2) * 64 + 1 * q.val = q.val
    rw [(idx3_4 t).2]; omega

/-- Window 5 (the hidden-layer bias): its one block is the whole array, at every point. -/
theorem blk3_5_at (c : Dev nD) (X : Buf (Elt Ideal) ((c : Thread nD τ).loc (Pipeline.arrRef spec3 5))) (t : Fin cfg3.N)
    (p : Fin 1) (q : Fin 64) :
    ((cfg3.win 5).blk t).view.read (Elt Ideal) X (ix2 p q) = (X : S1x64.Idx → EReal) (ix2 p q) := by
  rw [View.read_apply]
  refine congrArg X (funext fun a => Fin.ext ?_)
  match a with
  | ⟨0, _⟩ =>
    show win3_5.index t (0 : Fin 2) * 1 + 1 * p.val = p.val
    rw [(idx3_5 t).1]; omega
  | ⟨1, _⟩ =>
    show win3_5.index t (1 : Fin 2) * 64 + 1 * q.val = q.val
    rw [(idx3_5 t).2]; omega

/-- Window 6 (the output-layer matrix): its one block is the whole array, at every point. -/
theorem blk3_6_at (c : Dev nD) (X : Buf (Elt Ideal) ((c : Thread nD τ).loc (Pipeline.arrRef spec3 6))) (t : Fin cfg3.N)
    (p : Fin 64) (q : Fin 64) :
    ((cfg3.win 6).blk t).view.read (Elt Ideal) X (ix2 p q) = (X : S64x64.Idx → EReal) (ix2 p q) := by
  rw [View.read_apply]
  refine congrArg X (funext fun a => Fin.ext ?_)
  match a with
  | ⟨0, _⟩ =>
    show win3_6.index t (0 : Fin 2) * 64 + 1 * p.val = p.val
    rw [(idx3_6 t).1]; omega
  | ⟨1, _⟩ =>
    show win3_6.index t (1 : Fin 2) * 64 + 1 * q.val = q.val
    rw [(idx3_6 t).2]; omega

/-- Window 7 (the output-layer bias): its one block is the whole array, at every point. -/
theorem blk3_7_at (c : Dev nD) (X : Buf (Elt Ideal) ((c : Thread nD τ).loc (Pipeline.arrRef spec3 7))) (t : Fin cfg3.N)
    (p : Fin 1) (q : Fin 64) :
    ((cfg3.win 7).blk t).view.read (Elt Ideal) X (ix2 p q) = (X : S1x64.Idx → EReal) (ix2 p q) := by
  rw [View.read_apply]
  refine congrArg X (funext fun a => Fin.ext ?_)
  match a with
  | ⟨0, _⟩ =>
    show win3_7.index t (0 : Fin 2) * 1 + 1 * p.val = p.val
    rw [(idx3_7 t).1]; omega
  | ⟨1, _⟩ =>
    show win3_7.index t (1 : Fin 2) * 64 + 1 * q.val = q.val
    rw [(idx3_7 t).2]; omega

/-- The output window: entry `(r, j)` of block `t` sits at `(4000 t + r, j)` of the message array. -/
theorem emb3_8_at (t : Fin cfg3.N) (r : Fin 4000) (j : Fin 64) (e : Fin 800000) (he : e.val = 4000 * t.val + r.val) :
    ((cfg3.win 8).blk t).view.emb (ix2 r j) = (ix2 e j : S800000x64.Idx) := by
  refine funext fun a => Fin.ext ?_
  match a with
  | ⟨0, _⟩ =>
    show win3_8.index t (0 : Fin 2) * 4000 + 1 * r.val = e.val
    rw [(idx3_8 t).1, he]; omega
  | ⟨1, _⟩ =>
    show win3_8.index t (1 : Fin 2) * 64 + 1 * j.val = j.val
    rw [(idx3_8 t).2]; omega

/-! ## The cover: row `i` of the message array is written by point `i / 4000` -/

/-- An index of the array is in point `t`'s output block iff each coordinate is in the block's range on its axis. -/
theorem mem_blk3 (t : Fin cfg3.N) (i : S800000x64.Idx) :
    i ∈ ((cfg3.win 8).blk t).view.set ↔ ∀ a : Fin 2, win3_8.index t a * S4000x64.size a ≤ (i a).val ∧ (i a).val < win3_8.index t a * S4000x64.size a + S4000x64.size a := by
  show i ∈ ((View.whole main_v40).slice (win3_8.rect t)).set ↔ _
  rw [View.set_slice_whole, Rect.mem_set_unit]
  exact Iff.rfl

theorem cover3 (i : S800000x64.Idx) : ∃ t : Fin cfg3.N, (cfg3.win 8).flush t = true ∧ i ∈ ((cfg3.win 8).blk t).view.set := by
  have hi0 : (i 0).val < 800000 := (i 0).isLt
  have hi1 : (i 1).val < 64 := (i 1).isLt
  have hN : cfg3.N = 200 := N_3
  obtain ⟨t, ht⟩ : ∃ t : Fin cfg3.N, t.val = (i 0).val / 4000 := ⟨⟨(i 0).val / 4000, by rw [hN]; omega⟩, rfl⟩
  refine ⟨t, flush3_8 t, ?_⟩
  rw [mem_blk3]
  intro a
  match a with
  | ⟨0, _⟩ =>
    show win3_8.index t (0 : Fin 2) * 4000 ≤ (i 0).val ∧ (i 0).val < win3_8.index t (0 : Fin 2) * 4000 + 4000
    rw [(idx3_8 t).1, ht]; omega
  | ⟨1, _⟩ =>
    show win3_8.index t (1 : Fin 2) * 64 ≤ (i 1).val ∧ (i 1).val < win3_8.index t (1 : Fin 2) * 64 + 64
    rw [(idx3_8 t).2]; omega

/-! ## What a point writes back, and the array after the launch -/

variable (V : (c : Dev nD) → (b : Ref sig .tc) → Buf (Elt Ideal) ((c : Thread nD τ).loc b))

/-- The messages of the round, as a function of the eight arrays the launch finds: the gathered destination and source
    rows, the edge table, and the five parameter arrays. -/
abbrev msgs3 (c : Dev nD) : Cert.Spec.Arr Cert.Spec.E800000x64 :=
  Cert.Spec.msg (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7))

/-- Point `t` writes back rows `4000 t … 4000 t + 3999` of the messages: the body's block is the per-row map of the
    input blocks, which are those same rows of the three long arrays and the whole parameter arrays. -/
theorem flushed3_eq (c : Dev nD) (t : Fin cfg3.N) :
    (dat3 (F := Ideal) V c).flushed 8 t = ((cfg3.win 8).blk t).view.read (Elt Ideal) (msgs3 V c) := by
  show (cfg3.win 8).cut (grid3.coords t) ((dat3 (F := Ideal) V c).after 8 t) = _
  rw [after3_8]
  unfold out3_8
  rw [View.canon_unit_zero offZero]
  simp only [View.ld_unit_zero (S := S4000x64) offZero, View.ld_unit_zero (S := S64x64) offZero,
    View.ld_unit_zero (S := S1x64) offZero]
  funext y
  obtain ⟨r, j, rfl⟩ : ∃ (r : Fin 4000) (j : Fin 64), y = ix2 r j := ⟨y 0, y 1, eq_ix2 y⟩
  have hN : cfg3.N = 200 := N_3
  have ht : t.val < 200 := hN ▸ t.isLt
  obtain ⟨e, he⟩ : ∃ e : Fin 800000, e.val = 4000 * t.val + r.val := ⟨⟨4000 * t.val + r.val, by omega⟩, rfl⟩
  have hx : (cfg3.win 8).xinj (grid3.coords t) (ix2 r j) = (ix2 r j : S4000x64.Idx) := funext fun a => Fin.ext rfl
  show k3_pay1 (F := Ideal) (iblk3 V c 0 t) (iblk3 V c 1 t) (iblk3 V c 2 t) (iblk3 V c 3 t) (iblk3 V c 4 t) (iblk3 V c 5 t) (iblk3 V c 6 t) (iblk3 V c 7 t) ((cfg3.win 8).xinj (grid3.coords t) (ix2 r j))
    = msgs3 V c (((cfg3.win 8).blk t).view.emb (ix2 r j))
  rw [hx, emb3_8_at t r j e he]
  refine (pay3_at (iblk3 V c 0 t) (iblk3 V c 1 t) (iblk3 V c 2 t) (iblk3 V c 3 t) (iblk3 V c 4 t) (iblk3 V c 5 t) (iblk3 V c 6 t) (iblk3 V c 7 t) r j).trans ?_
  refine congrArg₂ (· + ·) (Finset.sum_congr rfl fun k _ => congrArg₂ (· * ·) (congrArg (max · 0) (congrArg₂ (· + ·)
    (congrArg₂ (· + ·)
      (Finset.sum_congr rfl fun q _ => congrArg₂ (· * ·)
        (congrArg₂ (· + ·) (blk3_0_at c (V c (Pipeline.arrRef spec3 0)) t r q e he) (blk3_1_at c (V c (Pipeline.arrRef spec3 1)) t r q e he))
        (blk3_3_at c (V c (Pipeline.arrRef spec3 3)) t q k))
      (Finset.sum_congr rfl fun q _ => congrArg₂ (· * ·)
        (blk3_2_at c (V c (Pipeline.arrRef spec3 2)) t r q e he) (blk3_4_at c (V c (Pipeline.arrRef spec3 4)) t q k)))
    (blk3_5_at c (V c (Pipeline.arrRef spec3 5)) t 0 k)))
    (blk3_6_at c (V c (Pipeline.arrRef spec3 6)) t k j))
    (blk3_7_at c (V c (Pipeline.arrRef spec3 7)) t 0 j)

end Region3

variable (V : (c : Dev nD) → (b : Ref sig .tc) → Buf (Elt Ideal) ((c : Thread nD τ).loc b))

/-- After the launch the message array holds the messages of the round, every row written by the one point whose
    block holds it. -/
theorem region3 (c : Dev nD) :
    (dat3 (F := Ideal) V c).arrAt 8 cfg3.N = Cert.Spec.msg (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) :=
  (dat3 (F := Ideal) V c).arrAt_eq_of_cover 8 (Region3.msgs3 V c) (fun t _ => Region3.flushed3_eq V c t) Region3.cover3

end Cert.KernelIdeal.Val

end
-- ==== Proof.ChainL1.lean ====
/-
  Round 1 of message passing on the host side.  From the previous round's messages the node table is their sum at
  the destination nodes; it is gathered at the destination row and at the source row of the edge index, the stacked
  weights are cut to round 1's slices, and the message kernel turns the two gathers, the edge table and the slices
  into this round's messages.  The index rows, the edge table and the weight arguments are written by none of this.
-/
import proofs.«418908_j25941602468191_1_alg».proof.Proof.ChainBase
import proofs.«418908_j25941602468191_1_alg».proof.Proof.Region3
import Idealize.ShloMosaic.Lib.StableHlo.Run

set_option maxRecDepth 16384

noncomputable section

namespace Cert.KernelIdeal.Val

open Idealize.ShloMosaic Idealize.ShloMosaic.TcCoe Idealize.ShloMosaic.StableHlo Cert.KernelIdeal Cert.KernelIdeal.Gen
open Cert.KernelIdeal.Facts₀ Cert.KernelIdeal.Facts

variable (m : (ℓ : Loc nD τ sig) → Buf (Elt Ideal) ℓ) (ρ : Dev nD → PrngReg)

/-! ## Contents carried to and from a buffer's own type -/

private theorem ofBuf_toBuf' {sig : RefSig} {Val : EltTy → Type} {T : BufTy} (x : StableHlo.TRef sig T) (v : T.Contents Val) :
    x.ofBuf (x.toBuf v) = v := by
  obtain ⟨ref, rfl, od, us⟩ := x
  rfl

private theorem ofBuf_v3 (p q r) (v : IVec S800000 32) : (TRef.of (T := ⟨S800000, .i32⟩) main_v3 p q r).ofBuf (Val := Elt Ideal) v = v := rfl
private theorem ofBuf_v1 (p q r) (v : IVec S800000 32) : (TRef.of (T := ⟨S800000, .i32⟩) main_v1 p q r).ofBuf (Val := Elt Ideal) v = v := rfl
private theorem ofBuf_v25 (p q r) (v : FVec Ideal S50000x64 .f32) : (TRef.of (T := ⟨S50000x64, .f32⟩) main_v25 p q r).ofBuf (Val := Elt Ideal) v = v := rfl
private theorem toBuf_v26 (p q r) (v : FVec Ideal S800000x64 .f32) : (TRef.of (T := ⟨S800000x64, .f32⟩) main_v26 p q r).toBuf (Val := Elt Ideal) v = v := rfl
private theorem toBuf_v27 (p q r) (v : FVec Ideal S800000x64 .f32) : (TRef.of (T := ⟨S800000x64, .f32⟩) main_v27 p q r).toBuf (Val := Elt Ideal) v = v := rfl

/-! ## The message kernel's inputs, at its entry -/

set_option maxHeartbeats 4000000 in
/-- The summed node table gathered at the destination row. -/
private theorem l1_v26 (c : Dev nD) (mm ea : FVec Ideal S800000x64 .f32)
    (hm : W8 m ρ c (Proc.devRef .tc main_v22) = mm) (hL : Live m c (W8 m ρ c) ea) :
    W12 m ρ c (Proc.devRef .tc main_v26) = takeK (segSum (dstRow (argAt m c main_arg2)) mm) (dstRow (argAt m c main_arg2)) := by
  show StableHlo.after hostOps3_3 (StableHlo.after hostOps3_2 (StableHlo.after hostOps3_1 (StableHlo.after hostOps3 (W8 m ρ c)))) (Proc.devRef .tc main_v26) = _
  after_results_simp
  simp only [ofBuf_toBuf']
  rw [hm, hL.dst]
  simp only [ofBuf_v3, ofBuf_v25, toBuf_v26]
  rfl

set_option maxHeartbeats 4000000 in
/-- The summed node table gathered at the source row. -/
private theorem l1_v27 (c : Dev nD) (mm ea : FVec Ideal S800000x64 .f32)
    (hm : W8 m ρ c (Proc.devRef .tc main_v22) = mm) (hL : Live m c (W8 m ρ c) ea) :
    W12 m ρ c (Proc.devRef .tc main_v27) = takeK (segSum (dstRow (argAt m c main_arg2)) mm) (srcRow (argAt m c main_arg2)) := by
  show StableHlo.after hostOps3_3 (StableHlo.after hostOps3_2 (StableHlo.after hostOps3_1 (StableHlo.after hostOps3 (W8 m ρ c)))) (Proc.devRef .tc main_v27) = _
  after_results_simp
  simp only [ofBuf_toBuf']
  rw [hm, hL.dst, hL.src]
  simp only [ofBuf_v1, ofBuf_v25, toBuf_v27]
  rfl

/-! Round 1's slices of the stacked weights. -/

set_option maxHeartbeats 4000000 in
private theorem l1_v30 (c : Dev nD) (ea : FVec Ideal S800000x64 .f32) (hL : Live m c (W8 m ρ c) ea) :
    W12 m ρ c (Proc.devRef .tc main_v30) = w1a1 (argAt m c main_arg7) := by
  show StableHlo.after hostOps3_3 (StableHlo.after hostOps3_2 (StableHlo.after hostOps3_1 (StableHlo.after hostOps3 (W8 m ρ c)))) (Proc.devRef .tc main_v30) = _
  after_results_simp
  rw [hL.a7]
  rfl

set_option maxHeartbeats 4000000 in
private theorem l1_v31 (c : Dev nD) (ea : FVec Ideal S800000x64 .f32) (hL : Live m c (W8 m ρ c) ea) :
    W12 m ρ c (Proc.devRef .tc main_v31) = w1b1 (argAt m c main_arg7) := by
  show StableHlo.after hostOps3_3 (StableHlo.after hostOps3_2 (StableHlo.after hostOps3_1 (StableHlo.after hostOps3 (W8 m ρ c)))) (Proc.devRef .tc main_v31) = _
  after_results_simp
  rw [hL.a7]
  rfl

set_option maxHeartbeats 4000000 in
private theorem l1_v38 (c : Dev nD) (ea : FVec Ideal S800000x64 .f32) (hL : Live m c (W8 m ρ c) ea) :
    W12 m ρ c (Proc.devRef .tc main_v38) = b1r1 (argAt m c main_arg8) := by
  show StableHlo.after hostOps3_3 (StableHlo.after hostOps3_2 (StableHlo.after hostOps3_1 (StableHlo.after hostOps3 (W8 m ρ c)))) (Proc.devRef .tc main_v38) = _
  after_results_simp
  rw [hL.a8]
  rfl

set_option maxHeartbeats 4000000 in
private theorem l1_v35 (c : Dev nD) (ea : FVec Ideal S800000x64 .f32) (hL : Live m c (W8 m ρ c) ea) :
    W12 m ρ c (Proc.devRef .tc main_v35) = w2_1 (argAt m c main_arg9) := by
  show StableHlo.after hostOps3_3 (StableHlo.after hostOps3_2 (StableHlo.after hostOps3_1 (StableHlo.after hostOps3 (W8 m ρ c)))) (Proc.devRef .tc main_v35) = _
  after_results_simp
  rw [hL.a9]
  rfl

set_option maxHeartbeats 4000000 in
private theorem l1_v39 (c : Dev nD) (ea : FVec Ideal S800000x64 .f32) (hL : Live m c (W8 m ρ c) ea) :
    W12 m ρ c (Proc.devRef .tc main_v39) = b2r1 (argAt m c main_arg10) := by
  show StableHlo.after hostOps3_3 (StableHlo.after hostOps3_2 (StableHlo.after hostOps3_1 (StableHlo.after hostOps3 (W8 m ρ c)))) (Proc.devRef .tc main_v39) = _
  after_results_simp
  rw [hL.a10]
  rfl

/-! ## What nothing here writes -/

set_option maxHeartbeats 4000000 in
private theorem l1_v1 (c : Dev nD) (ea : FVec Ideal S800000x64 .f32) (hL : Live m c (W8 m ρ c) ea) :
    W12 m ρ c (Proc.devRef .tc main_v1) = srcRow (argAt m c main_arg2) := by
  show StableHlo.after hostOps3_3 (StableHlo.after hostOps3_2 (StableHlo.after hostOps3_1 (StableHlo.after hostOps3 (W8 m ρ c)))) (Proc.devRef .tc main_v1) = _
  after_results_simp
  exact hL.src

set_option maxHeartbeats 4000000 in
private theorem l1_v3 (c : Dev nD) (ea : FVec Ideal S800000x64 .f32) (hL : Live m c (W8 m ρ c) ea) :
    W12 m ρ c (Proc.devRef .tc main_v3) = dstRow (argAt m c main_arg2) := by
  show StableHlo.after hostOps3_3 (StableHlo.after hostOps3_2 (StableHlo.after hostOps3_1 (StableHlo.after hostOps3 (W8 m ρ c)))) (Proc.devRef .tc main_v3) = _
  after_results_simp
  exact hL.dst

set_option maxHeartbeats 4000000 in
private theorem l1_v7 (c : Dev nD) (ea : FVec Ideal S800000x64 .f32) (hL : Live m c (W8 m ρ c) ea) :
    W12 m ρ c (Proc.devRef .tc main_v7) = ea := by
  show StableHlo.after hostOps3_3 (StableHlo.after hostOps3_2 (StableHlo.after hostOps3_1 (StableHlo.after hostOps3 (W8 m ρ c)))) (Proc.devRef .tc main_v7) = _
  after_results_simp
  exact hL.ea

set_option maxHeartbeats 4000000 in
private theorem l1_arg7 (c : Dev nD) (ea : FVec Ideal S800000x64 .f32) (hL : Live m c (W8 m ρ c) ea) :
    W12 m ρ c (Proc.devRef .tc main_arg7) = argAt m c main_arg7 := by
  show StableHlo.after hostOps3_3 (StableHlo.after hostOps3_2 (StableHlo.after hostOps3_1 (StableHlo.after hostOps3 (W8 m ρ c)))) (Proc.devRef .tc main_arg7) = _
  after_results_simp
  exact hL.a7

set_option maxHeartbeats 4000000 in
private theorem l1_arg8 (c : Dev nD) (ea : FVec Ideal S800000x64 .f32) (hL : Live m c (W8 m ρ c) ea) :
    W12 m ρ c (Proc.devRef .tc main_arg8) = argAt m c main_arg8 := by
  show StableHlo.after hostOps3_3 (StableHlo.after hostOps3_2 (StableHlo.after hostOps3_1 (StableHlo.after hostOps3 (W8 m ρ c)))) (Proc.devRef .tc main_arg8) = _
  after_results_simp
  exact hL.a8

set_option maxHeartbeats 4000000 in
private theorem l1_arg9 (c : Dev nD) (ea : FVec Ideal S800000x64 .f32) (hL : Live m c (W8 m ρ c) ea) :
    W12 m ρ c (Proc.devRef .tc main_arg9) = argAt m c main_arg9 := by
  show StableHlo.after hostOps3_3 (StableHlo.after hostOps3_2 (StableHlo.after hostOps3_1 (StableHlo.after hostOps3 (W8 m ρ c)))) (Proc.devRef .tc main_arg9) = _
  after_results_simp
  exact hL.a9

set_option maxHeartbeats 4000000 in
private theorem l1_arg10 (c : Dev nD) (ea : FVec Ideal S800000x64 .f32) (hL : Live m c (W8 m ρ c) ea) :
    W12 m ρ c (Proc.devRef .tc main_arg10) = argAt m c main_arg10 := by
  show StableHlo.after hostOps3_3 (StableHlo.after hostOps3_2 (StableHlo.after hostOps3_1 (StableHlo.after hostOps3 (W8 m ρ c)))) (Proc.devRef .tc main_arg10) = _
  after_results_simp
  exact hL.a10

set_option maxHeartbeats 4000000 in
private theorem l1_arg11 (c : Dev nD) (ea : FVec Ideal S800000x64 .f32) (hL : Live m c (W8 m ρ c) ea) :
    W12 m ρ c (Proc.devRef .tc main_arg11) = argAt m c main_arg11 := by
  show StableHlo.after hostOps3_3 (StableHlo.after hostOps3_2 (StableHlo.after hostOps3_1 (StableHlo.after hostOps3 (W8 m ρ c)))) (Proc.devRef .tc main_arg11) = _
  after_results_simp
  exact hL.a11

set_option maxHeartbeats 4000000 in
private theorem l1_arg12 (c : Dev nD) (ea : FVec Ideal S800000x64 .f32) (hL : Live m c (W8 m ρ c) ea) :
    W12 m ρ c (Proc.devRef .tc main_arg12) = argAt m c main_arg12 := by
  show StableHlo.after hostOps3_3 (StableHlo.after hostOps3_2 (StableHlo.after hostOps3_1 (StableHlo.after hostOps3 (W8 m ρ c)))) (Proc.devRef .tc main_arg12) = _
  after_results_simp
  exact hL.a12

set_option maxHeartbeats 4000000 in
private theorem l1_arg13 (c : Dev nD) (ea : FVec Ideal S800000x64 .f32) (hL : Live m c (W8 m ρ c) ea) :
    W12 m ρ c (Proc.devRef .tc main_arg13) = argAt m c main_arg13 := by
  show StableHlo.after hostOps3_3 (StableHlo.after hostOps3_2 (StableHlo.after hostOps3_1 (StableHlo.after hostOps3 (W8 m ρ c)))) (Proc.devRef .tc main_arg13) = _
  after_results_simp
  exact hL.a13

set_option maxHeartbeats 4000000 in
private theorem l1_arg14 (c : Dev nD) (ea : FVec Ideal S800000x64 .f32) (hL : Live m c (W8 m ρ c) ea) :
    W12 m ρ c (Proc.devRef .tc main_arg14) = argAt m c main_arg14 := by
  show StableHlo.after hostOps3_3 (StableHlo.after hostOps3_2 (StableHlo.after hostOps3_1 (StableHlo.after hostOps3 (W8 m ρ c)))) (Proc.devRef .tc main_arg14) = _
  after_results_simp
  exact hL.a14

/-! ## The round -/

/-- Round 1: from the previous round's messages `mm` at the exit of the round-0 kernel to this round's messages at the
    exit of the round-1 kernel, with the persistent buffers unchanged. -/
theorem layer1 (c : Dev nD) (mm ea : FVec Ideal S800000x64 .f32)
    (hm : W8 m ρ c (Proc.devRef .tc main_v22) = mm) (hL : Live m c (W8 m ρ c) ea) :
    W13 m ρ c (Proc.devRef .tc main_v40) = msg1 takeK (segSum (dstRow (argAt m c main_arg2)) mm) ea (argAt m c main_arg2) (argAt m c main_arg7) (argAt m c main_arg8) (argAt m c main_arg9) (argAt m c main_arg10)
    ∧ Live m c (W13 m ρ c) ea := by
  refine ⟨?_, ?_⟩
  · refine (W13_arr m ρ c 8).trans ((region3 (V12 m ρ) c).trans ?_)
    show Cert.Spec.msg (W12 m ρ c (Proc.devRef .tc main_v26)) (W12 m ρ c (Proc.devRef .tc main_v27)) (W12 m ρ c (Proc.devRef .tc main_v7))
      (W12 m ρ c (Proc.devRef .tc main_v30)) (W12 m ρ c (Proc.devRef .tc main_v31)) (W12 m ρ c (Proc.devRef .tc main_v38))
      (W12 m ρ c (Proc.devRef .tc main_v35)) (W12 m ρ c (Proc.devRef .tc main_v39)) = _
    rw [l1_v26 m ρ c mm ea hm hL, l1_v27 m ρ c mm ea hm hL, l1_v7 m ρ c ea hL, l1_v30 m ρ c ea hL, l1_v31 m ρ c ea hL,
      l1_v38 m ρ c ea hL, l1_v35 m ρ c ea hL, l1_v39 m ρ c ea hL]
    rfl
  · exact
      { src := (W13_of_ne m ρ c main_v1 (by decide)).trans (l1_v1 m ρ c ea hL)
        dst := (W13_of_ne m ρ c main_v3 (by decide)).trans (l1_v3 m ρ c ea hL)
        ea := ((W13_arr m ρ c 2).trans (((dat3 (V12 m ρ) c).arrAt_in 2 rfl _).trans (A_eq3 (V12 m ρ) c 2))).trans (l1_v7 m ρ c ea hL)
        a7 := (W13_of_ne m ρ c main_arg7 (by decide)).trans (l1_arg7 m ρ c ea hL)
        a8 := (W13_of_ne m ρ c main_arg8 (by decide)).trans (l1_arg8 m ρ c ea hL)
        a9 := (W13_of_ne m ρ c main_arg9 (by decide)).trans (l1_arg9 m ρ c ea hL)
        a10 := (W13_of_ne m ρ c main_arg10 (by decide)).trans (l1_arg10 m ρ c ea hL)
        a11 := (W13_of_ne m ρ c main_arg11 (by decide)).trans (l1_arg11 m ρ c ea hL)
        a12 := (W13_of_ne m ρ c main_arg12 (by decide)).trans (l1_arg12 m ρ c ea hL)
        a13 := (W13_of_ne m ρ c main_arg13 (by decide)).trans (l1_arg13 m ρ c ea hL)
        a14 := (W13_of_ne m ρ c main_arg14 (by decide)).trans (l1_arg14 m ρ c ea hL) }

end Cert.KernelIdeal.Val

end
-- ==== Proof.Region4.lean ====
/-
  The third message launch, read as mathematics. The launch runs over 200 grid points; at point `t` its body sees rows
  `4000 t … 4000 t + 3999` of three 800000 × 64 arrays (the node table gathered at the edges' destinations, the same at
  their sources, and the edge table) and the whole of five parameter arrays (two 64 × 64 matrices and a bias for the
  hidden layer, a 64 × 64 matrix and a bias for the output layer), and writes the same rows of the message array:
  `relu ((hd + hs) · W1a + ea · W1b + b1) · W2 + b2`, row by row. Each row of the result depends on the same row of the
  three long arrays only, so the 200 blocks are restrictions of ONE function of the eight arrays, `Cert.Spec.msg`, and,
  the blocks tiling the 800000 rows, the array after the launch is that function.
-/
import proofs.«418908_j25941602468191_1_alg».proof.Proof.Gen.KernelIdeal.Frame
import proofs.«418908_j25941602468191_1_alg».proof.Proof.Spec
import proofs.«418908_j25941602468191_1_alg».proof.Proof.RowMatmul
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Val

open Idealize.ShloMosaic Idealize.ShloMosaic.TcCoe Idealize.ShloMosaic.ValueIdx Cert.KernelIdeal Cert.KernelIdeal.Gen
open Idealize.ShloMosaic.Pipeline (Dat)

namespace Region4

/-! ## The body's arithmetic at one entry -/

/-- Entry `(r, j)` of the block the body stores, from the three 4000-row input blocks and the five parameter arrays:
    the hidden layer `relu ((x0 + x1) · w1a + x2 · w1b + b1)` of row `r`, through `w2`, plus `b2`. The changes of
    float format are the identity on the extended reals, the same-shape casts are the identity, a one-row array
    broadcast down the rows reads its row, and each product into the zero block is the sum over the 64 inner positions. -/
theorem pay4_at (x0 x1 x2 : Vec Ideal S4000x64 .f32) (w1a w1b : Vec Ideal S64x64 .f32) (b1 : Vec Ideal S1x64 .f32)
    (w2 : Vec Ideal S64x64 .f32) (b2 : Vec Ideal S1x64 .f32) (r : Fin 4000) (j : Fin 64) :
    k4_pay1 (F := Ideal) x0 x1 x2 w1a w1b b1 w2 b2 (ix2 r j)
      = (∑ k : Fin 64, max (((∑ q : Fin 64, (x0 (ix2 r q) + x1 (ix2 r q)) * w1a (ix2 q k))
          + (∑ q : Fin 64, x2 (ix2 r q) * w1b (ix2 q k))) + b1 (ix2 0 k)) 0 * w2 (ix2 k j)) + b2 (ix2 0 j) := by
  unfold k4_pay1
  simp only [shapeCast_self]
  refine (congrArg₂ (· + ·) (rowMatmul_apply _ _ r j) (broadcastTo_1b_ab_apply _ _ r j)).trans ?_
  refine congrArg (· + b2 (ix2 0 j)) (Finset.sum_congr rfl fun k _ => ?_)
  refine congrArg (· * w2 (ix2 k j)) ?_
  refine (congrArg₂ max (congrArg₂ (· + ·) (congrArg₂ (· + ·) (rowMatmul_apply _ _ r k) (rowMatmul_apply _ _ r k))
    (broadcastTo_1b_ab_apply _ _ r k)) Ideal.ofBits_zero_f32).trans ?_
  rfl

/-! ## The index maps, decided once over the 200 grid points

At point `t` the three row-block inputs and the output are at block `t` of their 800000-row arrays; the five
parameter windows stay at their one block. -/

theorem idx4_0 : ∀ t : Fin cfg4.N, win4_0.index t (0 : Fin 2) = t.val ∧ win4_0.index t (1 : Fin 2) = 0 :=
  (by decide +kernel : ∀ t : Fin grid4.N, _)
theorem idx4_1 : ∀ t : Fin cfg4.N, win4_1.index t (0 : Fin 2) = t.val ∧ win4_1.index t (1 : Fin 2) = 0 :=
  (by decide +kernel : ∀ t : Fin grid4.N, _)
theorem idx4_2 : ∀ t : Fin cfg4.N, win4_2.index t (0 : Fin 2) = t.val ∧ win4_2.index t (1 : Fin 2) = 0 :=
  (by decide +kernel : ∀ t : Fin grid4.N, _)
theorem idx4_3 : ∀ t : Fin cfg4.N, win4_3.index t (0 : Fin 2) = 0 ∧ win4_3.index t (1 : Fin 2) = 0 :=
  (by decide +kernel : ∀ t : Fin grid4.N, _)
theorem idx4_4 : ∀ t : Fin cfg4.N, win4_4.index t (0 : Fin 2) = 0 ∧ win4_4.index t (1 : Fin 2) = 0 :=
  (by decide +kernel : ∀ t : Fin grid4.N, _)
theorem idx4_5 : ∀ t : Fin cfg4.N, win4_5.index t (0 : Fin 2) = 0 ∧ win4_5.index t (1 : Fin 2) = 0 :=
  (by decide +kernel : ∀ t : Fin grid4.N, _)
theorem idx4_6 : ∀ t : Fin cfg4.N, win4_6.index t (0 : Fin 2) = 0 ∧ win4_6.index t (1 : Fin 2) = 0 :=
  (by decide +kernel : ∀ t : Fin grid4.N, _)
theorem idx4_7 : ∀ t : Fin cfg4.N, win4_7.index t (0 : Fin 2) = 0 ∧ win4_7.index t (1 : Fin 2) = 0 :=
  (by decide +kernel : ∀ t : Fin grid4.N, _)
theorem idx4_8 : ∀ t : Fin cfg4.N, win4_8.index t (0 : Fin 2) = t.val ∧ win4_8.index t (1 : Fin 2) = 0 :=
  (by decide +kernel : ∀ t : Fin grid4.N, _)

/-! ## Each input block read where the output block's rows say -/

/-- Window 0 (the destination-node rows): entry `(r, q)` of block `t` is entry `(4000 t + r, q)` of the array. -/
theorem blk4_0_at (c : Dev nD) (X : Buf (Elt Ideal) ((c : Thread nD τ).loc (Pipeline.arrRef spec4 0))) (t : Fin cfg4.N)
    (r : Fin 4000) (q : Fin 64) (e : Fin 800000) (he : e.val = 4000 * t.val + r.val) :
    ((cfg4.win 0).blk t).view.read (Elt Ideal) X (ix2 r q) = (X : S800000x64.Idx → EReal) (ix2 e q) := by
  rw [View.read_apply]
  refine congrArg X (funext fun a => Fin.ext ?_)
  match a with
  | ⟨0, _⟩ =>
    show win4_0.index t (0 : Fin 2) * 4000 + 1 * r.val = e.val
    rw [(idx4_0 t).1, he]; omega
  | ⟨1, _⟩ =>
    show win4_0.index t (1 : Fin 2) * 64 + 1 * q.val = q.val
    rw [(idx4_0 t).2]; omega

/-- Window 1 (the source-node rows): entry `(r, q)` of block `t` is entry `(4000 t + r, q)` of the array. -/
theorem blk4_1_at (c : Dev nD) (X : Buf (Elt Ideal) ((c : Thread nD τ).loc (Pipeline.arrRef spec4 1))) (t : Fin cfg4.N)
    (r : Fin 4000) (q : Fin 64) (e : Fin 800000) (he : e.val = 4000 * t.val + r.val) :
    ((cfg4.win 1).blk t).view.read (Elt Ideal) X (ix2 r q) = (X : S800000x64.Idx → EReal) (ix2 e q) := by
  rw [View.read_apply]
  refine congrArg X (funext fun a => Fin.ext ?_)
  match a with
  | ⟨0, _⟩ =>
    show win4_1.index t (0 : Fin 2) * 4000 + 1 * r.val = e.val
    rw [(idx4_1 t).1, he]; omega
  | ⟨1, _⟩ =>
    show win4_1.index t (1 : Fin 2) * 64 + 1 * q.val = q.val
    rw [(idx4_1 t).2]; omega

/-- Window 2 (the edge-table rows): entry `(r, q)` of block `t` is entry `(4000 t + r, q)` of the array. -/
theorem blk4_2_at (c : Dev nD) (X : Buf (Elt Ideal) ((c : Thread nD τ).loc (Pipeline.arrRef spec4 2))) (t : Fin cfg4.N)
    (r : Fin 4000) (q : Fin 64) (e : Fin 800000) (he : e.val = 4000 * t.val + r.val) :
    ((cfg4.win 2).blk t).view.read (Elt Ideal) X (ix2 r q) = (X : S800000x64.Idx → EReal) (ix2 e q) := by
  rw [View.read_apply]
  refine congrArg X (funext fun a => Fin.ext ?_)
  match a with
  | ⟨0, _⟩ =>
    show win4_2.index t (0 : Fin 2) * 4000 + 1 * r.val = e.val
    rw [(idx4_2 t).1, he]; omega
  | ⟨1, _⟩ =>
    show win4_2.index t (1 : Fin 2) * 64 + 1 * q.val = q.val
    rw [(idx4_2 t).2]; omega

/-- Window 3 (the first hidden-layer matrix): its one block is the whole array, at every point. -/
theorem blk4_3_at (c : Dev nD) (X : Buf (Elt Ideal) ((c : Thread nD τ).loc (Pipeline.arrRef spec4 3))) (t : Fin cfg4.N)
    (p : Fin 64) (q : Fin 64) :
    ((cfg4.win 3).blk t).view.read (Elt Ideal) X (ix2 p q) = (X : S64x64.Idx → EReal) (ix2 p q) := by
  rw [View.read_apply]
  refine congrArg X (funext fun a => Fin.ext ?_)
  match a with
  | ⟨0, _⟩ =>
    show win4_3.index t (0 : Fin 2) * 64 + 1 * p.val = p.val
    rw [(idx4_3 t).1]; omega
  | ⟨1, _⟩ =>
    show win4_3.index t (1 : Fin 2) * 64 + 1 * q.val = q.val
    rw [(idx4_3 t).2]; omega

/-- Window 4 (the second hidden-layer matrix): its one block is the whole array, at every point. -/
theorem blk4_4_at (c : Dev nD) (X : Buf (Elt Ideal) ((c : Thread nD τ).loc (Pipeline.arrRef spec4 4))) (t : Fin cfg4.N)
    (p : Fin 64) (q : Fin 64) :
    ((cfg4.win 4).blk t).view.read (Elt Ideal) X (ix2 p q) = (X : S64x64.Idx → EReal) (ix2 p q) := by
  rw [View.read_apply]
  refine congrArg X (funext fun a => Fin.ext ?_)
  match a with
  | ⟨0, _⟩ =>
    show win4_4.index t (0 : Fin 2) * 64 + 1 * p.val = p.val
    rw [(idx4_4 t).1]; omega
  | ⟨1, _⟩ =>
    show win4_4.index t (1 : Fin 2) * 64 + 1 * q.val = q.val
    rw [(idx4_4 t).2]; omega

/-- Window 5 (the hidden-layer bias): its one block is the whole array, at every point. -/
theorem blk4_5_at (c : Dev nD) (X : Buf (Elt Ideal) ((c : Thread nD τ).loc (Pipeline.arrRef spec4 5))) (t : Fin cfg4.N)
    (p : Fin 1) (q : Fin 64) :
    ((cfg4.win 5).blk t).view.read (Elt Ideal) X (ix2 p q) = (X : S1x64.Idx → EReal) (ix2 p q) := by
  rw [View.read_apply]
  refine congrArg X (funext fun a => Fin.ext ?_)
  match a with
  | ⟨0, _⟩ =>
    show win4_5.index t (0 : Fin 2) * 1 + 1 * p.val = p.val
    rw [(idx4_5 t).1]; omega
  | ⟨1, _⟩ =>
    show win4_5.index t (1 : Fin 2) * 64 + 1 * q.val = q.val
    rw [(idx4_5 t).2]; omega

/-- Window 6 (the output-layer matrix): its one block is the whole array, at every point. -/
theorem blk4_6_at (c : Dev nD) (X : Buf (Elt Ideal) ((c : Thread nD τ).loc (Pipeline.arrRef spec4 6))) (t : Fin cfg4.N)
    (p : Fin 64) (q : Fin 64) :
    ((cfg4.win 6).blk t).view.read (Elt Ideal) X (ix2 p q) = (X : S64x64.Idx → EReal) (ix2 p q) := by
  rw [View.read_apply]
  refine congrArg X (funext fun a => Fin.ext ?_)
  match a with
  | ⟨0, _⟩ =>
    show win4_6.index t (0 : Fin 2) * 64 + 1 * p.val = p.val
    rw [(idx4_6 t).1]; omega
  | ⟨1, _⟩ =>
    show win4_6.index t (1 : Fin 2) * 64 + 1 * q.val = q.val
    rw [(idx4_6 t).2]; omega

/-- Window 7 (the output-layer bias): its one block is the whole array, at every point. -/
theorem blk4_7_at (c : Dev nD) (X : Buf (Elt Ideal) ((c : Thread nD τ).loc (Pipeline.arrRef spec4 7))) (t : Fin cfg4.N)
    (p : Fin 1) (q : Fin 64) :
    ((cfg4.win 7).blk t).view.read (Elt Ideal) X (ix2 p q) = (X : S1x64.Idx → EReal) (ix2 p q) := by
  rw [View.read_apply]
  refine congrArg X (funext fun a => Fin.ext ?_)
  match a with
  | ⟨0, _⟩ =>
    show win4_7.index t (0 : Fin 2) * 1 + 1 * p.val = p.val
    rw [(idx4_7 t).1]; omega
  | ⟨1, _⟩ =>
    show win4_7.index t (1 : Fin 2) * 64 + 1 * q.val = q.val
    rw [(idx4_7 t).2]; omega

/-- The output window: entry `(r, j)` of block `t` sits at `(4000 t + r, j)` of the message array. -/
theorem emb4_8_at (t : Fin cfg4.N) (r : Fin 4000) (j : Fin 64) (e : Fin 800000) (he : e.val = 4000 * t.val + r.val) :
    ((cfg4.win 8).blk t).view.emb (ix2 r j) = (ix2 e j : S800000x64.Idx) := by
  refine funext fun a => Fin.ext ?_
  match a with
  | ⟨0, _⟩ =>
    show win4_8.index t (0 : Fin 2) * 4000 + 1 * r.val = e.val
    rw [(idx4_8 t).1, he]; omega
  | ⟨1, _⟩ =>
    show win4_8.index t (1 : Fin 2) * 64 + 1 * j.val = j.val
    rw [(idx4_8 t).2]; omega

/-! ## The cover: row `i` of the message array is written by point `i / 4000` -/

/-- An index of the array is in point `t`'s output block iff each coordinate is in the block's range on its axis. -/
theorem mem_blk4 (t : Fin cfg4.N) (i : S800000x64.Idx) :
    i ∈ ((cfg4.win 8).blk t).view.set ↔ ∀ a : Fin 2, win4_8.index t a * S4000x64.size a ≤ (i a).val ∧ (i a).val < win4_8.index t a * S4000x64.size a + S4000x64.size a := by
  show i ∈ ((View.whole main_v58).slice (win4_8.rect t)).set ↔ _
  rw [View.set_slice_whole, Rect.mem_set_unit]
  exact Iff.rfl

theorem cover4 (i : S800000x64.Idx) : ∃ t : Fin cfg4.N, (cfg4.win 8).flush t = true ∧ i ∈ ((cfg4.win 8).blk t).view.set := by
  have hi0 : (i 0).val < 800000 := (i 0).isLt
  have hi1 : (i 1).val < 64 := (i 1).isLt
  have hN : cfg4.N = 200 := N_4
  obtain ⟨t, ht⟩ : ∃ t : Fin cfg4.N, t.val = (i 0).val / 4000 := ⟨⟨(i 0).val / 4000, by rw [hN]; omega⟩, rfl⟩
  refine ⟨t, flush4_8 t, ?_⟩
  rw [mem_blk4]
  intro a
  match a with
  | ⟨0, _⟩ =>
    show win4_8.index t (0 : Fin 2) * 4000 ≤ (i 0).val ∧ (i 0).val < win4_8.index t (0 : Fin 2) * 4000 + 4000
    rw [(idx4_8 t).1, ht]; omega
  | ⟨1, _⟩ =>
    show win4_8.index t (1 : Fin 2) * 64 ≤ (i 1).val ∧ (i 1).val < win4_8.index t (1 : Fin 2) * 64 + 64
    rw [(idx4_8 t).2]; omega

/-! ## What a point writes back, and the array after the launch -/

variable (V : (c : Dev nD) → (b : Ref sig .tc) → Buf (Elt Ideal) ((c : Thread nD τ).loc b))

/-- The messages of the round, as a function of the eight arrays the launch finds: the gathered destination and source
    rows, the edge table, and the five parameter arrays. -/
abbrev msgs4 (c : Dev nD) : Cert.Spec.Arr Cert.Spec.E800000x64 :=
  Cert.Spec.msg (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (V c (Pipeline.arrRef spec4 7))

/-- Point `t` writes back rows `4000 t … 4000 t + 3999` of the messages: the body's block is the per-row map of the
    input blocks, which are those same rows of the three long arrays and the whole parameter arrays. -/
theorem flushed4_eq (c : Dev nD) (t : Fin cfg4.N) :
    (dat4 (F := Ideal) V c).flushed 8 t = ((cfg4.win 8).blk t).view.read (Elt Ideal) (msgs4 V c) := by
  show (cfg4.win 8).cut (grid4.coords t) ((dat4 (F := Ideal) V c).after 8 t) = _
  rw [after4_8]
  unfold out4_8
  rw [View.canon_unit_zero offZero]
  simp only [View.ld_unit_zero (S := S4000x64) offZero, View.ld_unit_zero (S := S64x64) offZero,
    View.ld_unit_zero (S := S1x64) offZero]
  funext y
  obtain ⟨r, j, rfl⟩ : ∃ (r : Fin 4000) (j : Fin 64), y = ix2 r j := ⟨y 0, y 1, eq_ix2 y⟩
  have hN : cfg4.N = 200 := N_4
  have ht : t.val < 200 := hN ▸ t.isLt
  obtain ⟨e, he⟩ : ∃ e : Fin 800000, e.val = 4000 * t.val + r.val := ⟨⟨4000 * t.val + r.val, by omega⟩, rfl⟩
  have hx : (cfg4.win 8).xinj (grid4.coords t) (ix2 r j) = (ix2 r j : S4000x64.Idx) := funext fun a => Fin.ext rfl
  show k4_pay1 (F := Ideal) (iblk4 V c 0 t) (iblk4 V c 1 t) (iblk4 V c 2 t) (iblk4 V c 3 t) (iblk4 V c 4 t) (iblk4 V c 5 t) (iblk4 V c 6 t) (iblk4 V c 7 t) ((cfg4.win 8).xinj (grid4.coords t) (ix2 r j))
    = msgs4 V c (((cfg4.win 8).blk t).view.emb (ix2 r j))
  rw [hx, emb4_8_at t r j e he]
  refine (pay4_at (iblk4 V c 0 t) (iblk4 V c 1 t) (iblk4 V c 2 t) (iblk4 V c 3 t) (iblk4 V c 4 t) (iblk4 V c 5 t) (iblk4 V c 6 t) (iblk4 V c 7 t) r j).trans ?_
  refine congrArg₂ (· + ·) (Finset.sum_congr rfl fun k _ => congrArg₂ (· * ·) (congrArg (max · 0) (congrArg₂ (· + ·)
    (congrArg₂ (· + ·)
      (Finset.sum_congr rfl fun q _ => congrArg₂ (· * ·)
        (congrArg₂ (· + ·) (blk4_0_at c (V c (Pipeline.arrRef spec4 0)) t r q e he) (blk4_1_at c (V c (Pipeline.arrRef spec4 1)) t r q e he))
        (blk4_3_at c (V c (Pipeline.arrRef spec4 3)) t q k))
      (Finset.sum_congr rfl fun q _ => congrArg₂ (· * ·)
        (blk4_2_at c (V c (Pipeline.arrRef spec4 2)) t r q e he) (blk4_4_at c (V c (Pipeline.arrRef spec4 4)) t q k)))
    (blk4_5_at c (V c (Pipeline.arrRef spec4 5)) t 0 k)))
    (blk4_6_at c (V c (Pipeline.arrRef spec4 6)) t k j))
    (blk4_7_at c (V c (Pipeline.arrRef spec4 7)) t 0 j)

end Region4

variable (V : (c : Dev nD) → (b : Ref sig .tc) → Buf (Elt Ideal) ((c : Thread nD τ).loc b))

/-- After the launch the message array holds the messages of the round, every row written by the one point whose
    block holds it. -/
theorem region4 (c : Dev nD) :
    (dat4 (F := Ideal) V c).arrAt 8 cfg4.N = Cert.Spec.msg (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (V c (Pipeline.arrRef spec4 7)) :=
  (dat4 (F := Ideal) V c).arrAt_eq_of_cover 8 (Region4.msgs4 V c) (fun t _ => Region4.flushed4_eq V c t) Region4.cover4

end Cert.KernelIdeal.Val

end
-- ==== Proof.ChainL2.lean ====
/-
  Round 2 of message passing in the idealized kernel program: the previous round's messages are summed at their
  destination nodes into a fresh node table; that table is gathered at the destination and at the source of every edge;
  the round's slices of the stacked weights are cut; and the launch maps the eight arrays, edge by edge, to the round's
  messages `Cert.Spec.msg`.  The index rows, the edge table and the weight arguments are left as they were.
-/
import proofs.«418908_j25941602468191_1_alg».proof.Proof.ChainBase
import proofs.«418908_j25941602468191_1_alg».proof.Proof.Region4
import Idealize.ShloMosaic.Lib.StableHlo.Run

set_option maxRecDepth 16384

noncomputable section

namespace Cert.KernelIdeal.Val

open Idealize.ShloMosaic Idealize.ShloMosaic.TcCoe Idealize.ShloMosaic.StableHlo Cert.KernelIdeal Cert.KernelIdeal.Gen
open Cert.KernelIdeal.Facts₀ Cert.KernelIdeal.Facts

variable (m : (ℓ : Loc nD τ sig) → Buf (Elt Ideal) ℓ) (ρ : Dev nD → PrngReg)

private theorem ofBuf_toBuf' {sig : RefSig} {Val : EltTy → Type} {T : BufTy} (x : StableHlo.TRef sig T) (v : T.Contents Val) :
    x.ofBuf (x.toBuf v) = v := by
  obtain ⟨ref, rfl, od, us⟩ := x
  rfl

/-! Reading or writing a buffer of the main program from inside a gather call changes nothing. -/
private theorem ofBuf2_v43 (p q r) (v : FVec Ideal S50000x64 .f32) : (TRef.of (T := ⟨S50000x64, .f32⟩) main_v43 p q r).ofBuf (Val := Elt Ideal) v = v := rfl
private theorem ofBuf2_v3 (p q r) (v : IVec S800000 32) : (TRef.of (T := ⟨S800000, .i32⟩) main_v3 p q r).ofBuf (Val := Elt Ideal) v = v := rfl
private theorem ofBuf2_v1 (p q r) (v : IVec S800000 32) : (TRef.of (T := ⟨S800000, .i32⟩) main_v1 p q r).ofBuf (Val := Elt Ideal) v = v := rfl
private theorem toBuf2_v44 (p q r) (v : FVec Ideal S800000x64 .f32) : (TRef.of (T := ⟨S800000x64, .f32⟩) main_v44 p q r).toBuf (Val := Elt Ideal) v = v := rfl
private theorem toBuf2_v45 (p q r) (v : FVec Ideal S800000x64 .f32) : (TRef.of (T := ⟨S800000x64, .f32⟩) main_v45 p q r).toBuf (Val := Elt Ideal) v = v := rfl

/-! ## The launch's entry: what the four host stretches leave in its eight input arrays -/

set_option maxHeartbeats 4000000 in
/-- The new node table gathered at the destination of every edge. -/
theorem W17_v44 (c : Dev nD) (mm ea : FVec Ideal S800000x64 .f32)
    (hm : W13 m ρ c (Proc.devRef .tc main_v40) = mm) (hL : Live m c (W13 m ρ c) ea) :
    W17 m ρ c (Proc.devRef .tc main_v44)
      = takeK (segSum (dstRow (argAt m c main_arg2)) mm) (dstRow (argAt m c main_arg2)) := by
  show StableHlo.after hostOps4_3 (StableHlo.after hostOps4_2 (StableHlo.after hostOps4_1 (StableHlo.after hostOps4 (W13 m ρ c)))) (Proc.devRef .tc main_v44) = _
  after_results_simp
  simp only [ofBuf_toBuf']
  rw [hm, hL.dst]
  simp only [ofBuf2_v43, ofBuf2_v3, toBuf2_v44]
  rfl

set_option maxHeartbeats 4000000 in
/-- The new node table gathered at the source of every edge. -/
theorem W17_v45 (c : Dev nD) (mm ea : FVec Ideal S800000x64 .f32)
    (hm : W13 m ρ c (Proc.devRef .tc main_v40) = mm) (hL : Live m c (W13 m ρ c) ea) :
    W17 m ρ c (Proc.devRef .tc main_v45)
      = takeK (segSum (dstRow (argAt m c main_arg2)) mm) (srcRow (argAt m c main_arg2)) := by
  show StableHlo.after hostOps4_3 (StableHlo.after hostOps4_2 (StableHlo.after hostOps4_1 (StableHlo.after hostOps4 (W13 m ρ c)))) (Proc.devRef .tc main_v45) = _
  after_results_simp
  simp only [ofBuf_toBuf']
  rw [hm, hL.dst, hL.src]
  simp only [ofBuf2_v43, ofBuf2_v1, toBuf2_v45]
  rfl

set_option maxHeartbeats 4000000 in
/-- The round's first weight matrix, upper half. -/
theorem W17_v48 (c : Dev nD) (ea : FVec Ideal S800000x64 .f32) (hL : Live m c (W13 m ρ c) ea) :
    W17 m ρ c (Proc.devRef .tc main_v48) = w1a2 (argAt m c main_arg7) := by
  show StableHlo.after hostOps4_3 (StableHlo.after hostOps4_2 (StableHlo.after hostOps4_1 (StableHlo.after hostOps4 (W13 m ρ c)))) (Proc.devRef .tc main_v48) = _
  after_results_simp
  rw [hL.a7]
  rfl

set_option maxHeartbeats 4000000 in
/-- The round's first weight matrix, lower half. -/
theorem W17_v49 (c : Dev nD) (ea : FVec Ideal S800000x64 .f32) (hL : Live m c (W13 m ρ c) ea) :
    W17 m ρ c (Proc.devRef .tc main_v49) = w1b2 (argAt m c main_arg7) := by
  show StableHlo.after hostOps4_3 (StableHlo.after hostOps4_2 (StableHlo.after hostOps4_1 (StableHlo.after hostOps4 (W13 m ρ c)))) (Proc.devRef .tc main_v49) = _
  after_results_simp
  rw [hL.a7]
  rfl

set_option maxHeartbeats 4000000 in
/-- The round's first bias, as a row. -/
theorem W17_v56 (c : Dev nD) (ea : FVec Ideal S800000x64 .f32) (hL : Live m c (W13 m ρ c) ea) :
    W17 m ρ c (Proc.devRef .tc main_v56) = b1r2 (argAt m c main_arg8) := by
  show StableHlo.after hostOps4_3 (StableHlo.after hostOps4_2 (StableHlo.after hostOps4_1 (StableHlo.after hostOps4 (W13 m ρ c)))) (Proc.devRef .tc main_v56) = _
  after_results_simp
  rw [hL.a8]
  rfl

set_option maxHeartbeats 4000000 in
/-- The round's second weight matrix. -/
theorem W17_v53 (c : Dev nD) (ea : FVec Ideal S800000x64 .f32) (hL : Live m c (W13 m ρ c) ea) :
    W17 m ρ c (Proc.devRef .tc main_v53) = w2_2 (argAt m c main_arg9) := by
  show StableHlo.after hostOps4_3 (StableHlo.after hostOps4_2 (StableHlo.after hostOps4_1 (StableHlo.after hostOps4 (W13 m ρ c)))) (Proc.devRef .tc main_v53) = _
  after_results_simp
  rw [hL.a9]
  rfl

set_option maxHeartbeats 4000000 in
/-- The round's second bias, as a row. -/
theorem W17_v57 (c : Dev nD) (ea : FVec Ideal S800000x64 .f32) (hL : Live m c (W13 m ρ c) ea) :
    W17 m ρ c (Proc.devRef .tc main_v57) = b2r2 (argAt m c main_arg10) := by
  show StableHlo.after hostOps4_3 (StableHlo.after hostOps4_2 (StableHlo.after hostOps4_1 (StableHlo.after hostOps4 (W13 m ρ c)))) (Proc.devRef .tc main_v57) = _
  after_results_simp
  rw [hL.a10]
  rfl

/-! ## What the stretches do not write -/

set_option maxHeartbeats 4000000 in
theorem W17_keep_v1 (c : Dev nD) :
    W17 m ρ c (Proc.devRef .tc main_v1) = W13 m ρ c (Proc.devRef .tc main_v1) := by
  show StableHlo.after hostOps4_3 (StableHlo.after hostOps4_2 (StableHlo.after hostOps4_1 (StableHlo.after hostOps4 (W13 m ρ c)))) (Proc.devRef .tc main_v1) = _
  after_results_simp

set_option maxHeartbeats 4000000 in
theorem W17_keep_v3 (c : Dev nD) :
    W17 m ρ c (Proc.devRef .tc main_v3) = W13 m ρ c (Proc.devRef .tc main_v3) := by
  show StableHlo.after hostOps4_3 (StableHlo.after hostOps4_2 (StableHlo.after hostOps4_1 (StableHlo.after hostOps4 (W13 m ρ c)))) (Proc.devRef .tc main_v3) = _
  after_results_simp

set_option maxHeartbeats 4000000 in
theorem W17_keep_v7 (c : Dev nD) :
    W17 m ρ c (Proc.devRef .tc main_v7) = W13 m ρ c (Proc.devRef .tc main_v7) := by
  show StableHlo.after hostOps4_3 (StableHlo.after hostOps4_2 (StableHlo.after hostOps4_1 (StableHlo.after hostOps4 (W13 m ρ c)))) (Proc.devRef .tc main_v7) = _
  after_results_simp

set_option maxHeartbeats 4000000 in
theorem W17_keep_arg7 (c : Dev nD) :
    W17 m ρ c (Proc.devRef .tc main_arg7) = W13 m ρ c (Proc.devRef .tc main_arg7) := by
  show StableHlo.after hostOps4_3 (StableHlo.after hostOps4_2 (StableHlo.after hostOps4_1 (StableHlo.after hostOps4 (W13 m ρ c)))) (Proc.devRef .tc main_arg7) = _
  after_results_simp

set_option maxHeartbeats 4000000 in
theorem W17_keep_arg8 (c : Dev nD) :
    W17 m ρ c (Proc.devRef .tc main_arg8) = W13 m ρ c (Proc.devRef .tc main_arg8) := by
  show StableHlo.after hostOps4_3 (StableHlo.after hostOps4_2 (StableHlo.after hostOps4_1 (StableHlo.after hostOps4 (W13 m ρ c)))) (Proc.devRef .tc main_arg8) = _
  after_results_simp

set_option maxHeartbeats 4000000 in
theorem W17_keep_arg9 (c : Dev nD) :
    W17 m ρ c (Proc.devRef .tc main_arg9) = W13 m ρ c (Proc.devRef .tc main_arg9) := by
  show StableHlo.after hostOps4_3 (StableHlo.after hostOps4_2 (StableHlo.after hostOps4_1 (StableHlo.after hostOps4 (W13 m ρ c)))) (Proc.devRef .tc main_arg9) = _
  after_results_simp

set_option maxHeartbeats 4000000 in
theorem W17_keep_arg10 (c : Dev nD) :
    W17 m ρ c (Proc.devRef .tc main_arg10) = W13 m ρ c (Proc.devRef .tc main_arg10) := by
  show StableHlo.after hostOps4_3 (StableHlo.after hostOps4_2 (StableHlo.after hostOps4_1 (StableHlo.after hostOps4 (W13 m ρ c)))) (Proc.devRef .tc main_arg10) = _
  after_results_simp

set_option maxHeartbeats 4000000 in
theorem W17_keep_arg11 (c : Dev nD) :
    W17 m ρ c (Proc.devRef .tc main_arg11) = W13 m ρ c (Proc.devRef .tc main_arg11) := by
  show StableHlo.after hostOps4_3 (StableHlo.after hostOps4_2 (StableHlo.after hostOps4_1 (StableHlo.after hostOps4 (W13 m ρ c)))) (Proc.devRef .tc main_arg11) = _
  after_results_simp

set_option maxHeartbeats 4000000 in
theorem W17_keep_arg12 (c : Dev nD) :
    W17 m ρ c (Proc.devRef .tc main_arg12) = W13 m ρ c (Proc.devRef .tc main_arg12) := by
  show StableHlo.after hostOps4_3 (StableHlo.after hostOps4_2 (StableHlo.after hostOps4_1 (StableHlo.after hostOps4 (W13 m ρ c)))) (Proc.devRef .tc main_arg12) = _
  after_results_simp

set_option maxHeartbeats 4000000 in
theorem W17_keep_arg13 (c : Dev nD) :
    W17 m ρ c (Proc.devRef .tc main_arg13) = W13 m ρ c (Proc.devRef .tc main_arg13) := by
  show StableHlo.after hostOps4_3 (StableHlo.after hostOps4_2 (StableHlo.after hostOps4_1 (StableHlo.after hostOps4 (W13 m ρ c)))) (Proc.devRef .tc main_arg13) = _
  after_results_simp

set_option maxHeartbeats 4000000 in
theorem W17_keep_arg14 (c : Dev nD) :
    W17 m ρ c (Proc.devRef .tc main_arg14) = W13 m ρ c (Proc.devRef .tc main_arg14) := by
  show StableHlo.after hostOps4_3 (StableHlo.after hostOps4_2 (StableHlo.after hostOps4_1 (StableHlo.after hostOps4 (W13 m ρ c)))) (Proc.devRef .tc main_arg14) = _
  after_results_simp

/-! ## Across the launch -/

/-- Round 2: from the previous round's messages `mm` to this round's, and nothing later rounds read is disturbed. -/
theorem layer2 (c : Dev nD) (mm ea : FVec Ideal S800000x64 .f32)
    (hm : W13 m ρ c (Proc.devRef .tc main_v40) = mm) (hL : Live m c (W13 m ρ c) ea) :
    W18 m ρ c (Proc.devRef .tc main_v58) = msg2 takeK (segSum (dstRow (argAt m c main_arg2)) mm) ea (argAt m c main_arg2) (argAt m c main_arg7) (argAt m c main_arg8) (argAt m c main_arg9) (argAt m c main_arg10)
    ∧ Live m c (W18 m ρ c) ea := by
  refine ⟨?_, ?_⟩
  · refine (W18_arr m ρ c 8).trans ((region4 (V17 m ρ) c).trans ?_)
    show Cert.Spec.msg (W17 m ρ c (Proc.devRef .tc main_v44)) (W17 m ρ c (Proc.devRef .tc main_v45)) (W17 m ρ c (Proc.devRef .tc main_v7))
      (W17 m ρ c (Proc.devRef .tc main_v48)) (W17 m ρ c (Proc.devRef .tc main_v49)) (W17 m ρ c (Proc.devRef .tc main_v56))
      (W17 m ρ c (Proc.devRef .tc main_v53)) (W17 m ρ c (Proc.devRef .tc main_v57)) = _
    rw [W17_v44 m ρ c mm ea hm hL, W17_v45 m ρ c mm ea hm hL, W17_keep_v7 m ρ c, hL.ea, W17_v48 m ρ c ea hL, W17_v49 m ρ c ea hL,
      W17_v56 m ρ c ea hL, W17_v53 m ρ c ea hL, W17_v57 m ρ c ea hL]
    rfl
  · exact
      { src := (W18_of_ne m ρ c main_v1 (by decide)).trans ((W17_keep_v1 m ρ c).trans hL.src)
        dst := (W18_of_ne m ρ c main_v3 (by decide)).trans ((W17_keep_v3 m ρ c).trans hL.dst)
        ea := (W18_arr m ρ c 2).trans ((((dat4 (V17 m ρ) c).arrAt_in 2 rfl _).trans (A_eq4 (V17 m ρ) c 2)).trans ((W17_keep_v7 m ρ c).trans hL.ea))
        a7 := (W18_of_ne m ρ c main_arg7 (by decide)).trans ((W17_keep_arg7 m ρ c).trans hL.a7)
        a8 := (W18_of_ne m ρ c main_arg8 (by decide)).trans ((W17_keep_arg8 m ρ c).trans hL.a8)
        a9 := (W18_of_ne m ρ c main_arg9 (by decide)).trans ((W17_keep_arg9 m ρ c).trans hL.a9)
        a10 := (W18_of_ne m ρ c main_arg10 (by decide)).trans ((W17_keep_arg10 m ρ c).trans hL.a10)
        a11 := (W18_of_ne m ρ c main_arg11 (by decide)).trans ((W17_keep_arg11 m ρ c).trans hL.a11)
        a12 := (W18_of_ne m ρ c main_arg12 (by decide)).trans ((W17_keep_arg12 m ρ c).trans hL.a12)
        a13 := (W18_of_ne m ρ c main_arg13 (by decide)).trans ((W17_keep_arg13 m ρ c).trans hL.a13)
        a14 := (W18_of_ne m ρ c main_arg14 (by decide)).trans ((W17_keep_arg14 m ρ c).trans hL.a14) }

end Cert.KernelIdeal.Val

end
-- ==== Proof.Region5.lean ====
/-
  The fourth message launch, read as mathematics. The launch runs over 200 grid points; at point `t` its body sees rows
  `4000 t … 4000 t + 3999` of three 800000 × 64 arrays (the node table gathered at the edges' destinations, the same at
  their sources, and the edge table) and the whole of five parameter arrays (two 64 × 64 matrices and a bias for the
  hidden layer, a 64 × 64 matrix and a bias for the output layer), and writes the same rows of the message array:
  `relu ((hd + hs) · W1a + ea · W1b + b1) · W2 + b2`, row by row. Each row of the result depends on the same row of the
  three long arrays only, so the 200 blocks are restrictions of ONE function of the eight arrays, `Cert.Spec.msg`, and,
  the blocks tiling the 800000 rows, the array after the launch is that function.
-/
import proofs.«418908_j25941602468191_1_alg».proof.Proof.Gen.KernelIdeal.Frame
import proofs.«418908_j25941602468191_1_alg».proof.Proof.Spec
import proofs.«418908_j25941602468191_1_alg».proof.Proof.RowMatmul
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Val

open Idealize.ShloMosaic Idealize.ShloMosaic.TcCoe Idealize.ShloMosaic.ValueIdx Cert.KernelIdeal Cert.KernelIdeal.Gen
open Idealize.ShloMosaic.Pipeline (Dat)

namespace Region5

/-! ## The body's arithmetic at one entry -/

/-- Entry `(r, j)` of the block the body stores, from the three 4000-row input blocks and the five parameter arrays:
    the hidden layer `relu ((x0 + x1) · w1a + x2 · w1b + b1)` of row `r`, through `w2`, plus `b2`. The changes of
    float format are the identity on the extended reals, the same-shape casts are the identity, a one-row array
    broadcast down the rows reads its row, and each product into the zero block is the sum over the 64 inner positions. -/
theorem pay5_at (x0 x1 x2 : Vec Ideal S4000x64 .f32) (w1a w1b : Vec Ideal S64x64 .f32) (b1 : Vec Ideal S1x64 .f32)
    (w2 : Vec Ideal S64x64 .f32) (b2 : Vec Ideal S1x64 .f32) (r : Fin 4000) (j : Fin 64) :
    k5_pay1 (F := Ideal) x0 x1 x2 w1a w1b b1 w2 b2 (ix2 r j)
      = (∑ k : Fin 64, max (((∑ q : Fin 64, (x0 (ix2 r q) + x1 (ix2 r q)) * w1a (ix2 q k))
          + (∑ q : Fin 64, x2 (ix2 r q) * w1b (ix2 q k))) + b1 (ix2 0 k)) 0 * w2 (ix2 k j)) + b2 (ix2 0 j) := by
  unfold k5_pay1
  simp only [shapeCast_self]
  refine (congrArg₂ (· + ·) (rowMatmul_apply _ _ r j) (broadcastTo_1b_ab_apply _ _ r j)).trans ?_
  refine congrArg (· + b2 (ix2 0 j)) (Finset.sum_congr rfl fun k _ => ?_)
  refine congrArg (· * w2 (ix2 k j)) ?_
  refine (congrArg₂ max (congrArg₂ (· + ·) (congrArg₂ (· + ·) (rowMatmul_apply _ _ r k) (rowMatmul_apply _ _ r k))
    (broadcastTo_1b_ab_apply _ _ r k)) Ideal.ofBits_zero_f32).trans ?_
  rfl

/-! ## The index maps, decided once over the 200 grid points

At point `t` the three row-block inputs and the output are at block `t` of their 800000-row arrays; the five
parameter windows stay at their one block. -/

theorem idx5_0 : ∀ t : Fin cfg5.N, win5_0.index t (0 : Fin 2) = t.val ∧ win5_0.index t (1 : Fin 2) = 0 :=
  (by decide +kernel : ∀ t : Fin grid5.N, _)
theorem idx5_1 : ∀ t : Fin cfg5.N, win5_1.index t (0 : Fin 2) = t.val ∧ win5_1.index t (1 : Fin 2) = 0 :=
  (by decide +kernel : ∀ t : Fin grid5.N, _)
theorem idx5_2 : ∀ t : Fin cfg5.N, win5_2.index t (0 : Fin 2) = t.val ∧ win5_2.index t (1 : Fin 2) = 0 :=
  (by decide +kernel : ∀ t : Fin grid5.N, _)
theorem idx5_3 : ∀ t : Fin cfg5.N, win5_3.index t (0 : Fin 2) = 0 ∧ win5_3.index t (1 : Fin 2) = 0 :=
  (by decide +kernel : ∀ t : Fin grid5.N, _)
theorem idx5_4 : ∀ t : Fin cfg5.N, win5_4.index t (0 : Fin 2) = 0 ∧ win5_4.index t (1 : Fin 2) = 0 :=
  (by decide +kernel : ∀ t : Fin grid5.N, _)
theorem idx5_5 : ∀ t : Fin cfg5.N, win5_5.index t (0 : Fin 2) = 0 ∧ win5_5.index t (1 : Fin 2) = 0 :=
  (by decide +kernel : ∀ t : Fin grid5.N, _)
theorem idx5_6 : ∀ t : Fin cfg5.N, win5_6.index t (0 : Fin 2) = 0 ∧ win5_6.index t (1 : Fin 2) = 0 :=
  (by decide +kernel : ∀ t : Fin grid5.N, _)
theorem idx5_7 : ∀ t : Fin cfg5.N, win5_7.index t (0 : Fin 2) = 0 ∧ win5_7.index t (1 : Fin 2) = 0 :=
  (by decide +kernel : ∀ t : Fin grid5.N, _)
theorem idx5_8 : ∀ t : Fin cfg5.N, win5_8.index t (0 : Fin 2) = t.val ∧ win5_8.index t (1 : Fin 2) = 0 :=
  (by decide +kernel : ∀ t : Fin grid5.N, _)

/-! ## Each input block read where the output block's rows say -/

/-- Window 0 (the destination-node rows): entry `(r, q)` of block `t` is entry `(4000 t + r, q)` of the array. -/
theorem blk5_0_at (c : Dev nD) (X : Buf (Elt Ideal) ((c : Thread nD τ).loc (Pipeline.arrRef spec5 0))) (t : Fin cfg5.N)
    (r : Fin 4000) (q : Fin 64) (e : Fin 800000) (he : e.val = 4000 * t.val + r.val) :
    ((cfg5.win 0).blk t).view.read (Elt Ideal) X (ix2 r q) = (X : S800000x64.Idx → EReal) (ix2 e q) := by
  rw [View.read_apply]
  refine congrArg X (funext fun a => Fin.ext ?_)
  match a with
  | ⟨0, _⟩ =>
    show win5_0.index t (0 : Fin 2) * 4000 + 1 * r.val = e.val
    rw [(idx5_0 t).1, he]; omega
  | ⟨1, _⟩ =>
    show win5_0.index t (1 : Fin 2) * 64 + 1 * q.val = q.val
    rw [(idx5_0 t).2]; omega

/-- Window 1 (the source-node rows): entry `(r, q)` of block `t` is entry `(4000 t + r, q)` of the array. -/
theorem blk5_1_at (c : Dev nD) (X : Buf (Elt Ideal) ((c : Thread nD τ).loc (Pipeline.arrRef spec5 1))) (t : Fin cfg5.N)
    (r : Fin 4000) (q : Fin 64) (e : Fin 800000) (he : e.val = 4000 * t.val + r.val) :
    ((cfg5.win 1).blk t).view.read (Elt Ideal) X (ix2 r q) = (X : S800000x64.Idx → EReal) (ix2 e q) := by
  rw [View.read_apply]
  refine congrArg X (funext fun a => Fin.ext ?_)
  match a with
  | ⟨0, _⟩ =>
    show win5_1.index t (0 : Fin 2) * 4000 + 1 * r.val = e.val
    rw [(idx5_1 t).1, he]; omega
  | ⟨1, _⟩ =>
    show win5_1.index t (1 : Fin 2) * 64 + 1 * q.val = q.val
    rw [(idx5_1 t).2]; omega

/-- Window 2 (the edge-table rows): entry `(r, q)` of block `t` is entry `(4000 t + r, q)` of the array. -/
theorem blk5_2_at (c : Dev nD) (X : Buf (Elt Ideal) ((c : Thread nD τ).loc (Pipeline.arrRef spec5 2))) (t : Fin cfg5.N)
    (r : Fin 4000) (q : Fin 64) (e : Fin 800000) (he : e.val = 4000 * t.val + r.val) :
    ((cfg5.win 2).blk t).view.read (Elt Ideal) X (ix2 r q) = (X : S800000x64.Idx → EReal) (ix2 e q) := by
  rw [View.read_apply]
  refine congrArg X (funext fun a => Fin.ext ?_)
  match a with
  | ⟨0, _⟩ =>
    show win5_2.index t (0 : Fin 2) * 4000 + 1 * r.val = e.val
    rw [(idx5_2 t).1, he]; omega
  | ⟨1, _⟩ =>
    show win5_2.index t (1 : Fin 2) * 64 + 1 * q.val = q.val
    rw [(idx5_2 t).2]; omega

/-- Window 3 (the first hidden-layer matrix): its one block is the whole array, at every point. -/
theorem blk5_3_at (c : Dev nD) (X : Buf (Elt Ideal) ((c : Thread nD τ).loc (Pipeline.arrRef spec5 3))) (t : Fin cfg5.N)
    (p : Fin 64) (q : Fin 64) :
    ((cfg5.win 3).blk t).view.read (Elt Ideal) X (ix2 p q) = (X : S64x64.Idx → EReal) (ix2 p q) := by
  rw [View.read_apply]
  refine congrArg X (funext fun a => Fin.ext ?_)
  match a with
  | ⟨0, _⟩ =>
    show win5_3.index t (0 : Fin 2) * 64 + 1 * p.val = p.val
    rw [(idx5_3 t).1]; omega
  | ⟨1, _⟩ =>
    show win5_3.index t (1 : Fin 2) * 64 + 1 * q.val = q.val
    rw [(idx5_3 t).2]; omega

/-- Window 4 (the second hidden-layer matrix): its one block is the whole array, at every point. -/
theorem blk5_4_at (c : Dev nD) (X : Buf (Elt Ideal) ((c : Thread nD τ).loc (Pipeline.arrRef spec5 4))) (t : Fin cfg5.N)
    (p : Fin 64) (q : Fin 64) :
    ((cfg5.win 4).blk t).view.read (Elt Ideal) X (ix2 p q) = (X : S64x64.Idx → EReal) (ix2 p q) := by
  rw [View.read_apply]
  refine congrArg X (funext fun a => Fin.ext ?_)
  match a with
  | ⟨0, _⟩ =>
    show win5_4.index t (0 : Fin 2) * 64 + 1 * p.val = p.val
    rw [(idx5_4 t).1]; omega
  | ⟨1, _⟩ =>
    show win5_4.index t (1 : Fin 2) * 64 + 1 * q.val = q.val
    rw [(idx5_4 t).2]; omega

/-- Window 5 (the hidden-layer bias): its one block is the whole array, at every point. -/
theorem blk5_5_at (c : Dev nD) (X : Buf (Elt Ideal) ((c : Thread nD τ).loc (Pipeline.arrRef spec5 5))) (t : Fin cfg5.N)
    (p : Fin 1) (q : Fin 64) :
    ((cfg5.win 5).blk t).view.read (Elt Ideal) X (ix2 p q) = (X : S1x64.Idx → EReal) (ix2 p q) := by
  rw [View.read_apply]
  refine congrArg X (funext fun a => Fin.ext ?_)
  match a with
  | ⟨0, _⟩ =>
    show win5_5.index t (0 : Fin 2) * 1 + 1 * p.val = p.val
    rw [(idx5_5 t).1]; omega
  | ⟨1, _⟩ =>
    show win5_5.index t (1 : Fin 2) * 64 + 1 * q.val = q.val
    rw [(idx5_5 t).2]; omega

/-- Window 6 (the output-layer matrix): its one block is the whole array, at every point. -/
theorem blk5_6_at (c : Dev nD) (X : Buf (Elt Ideal) ((c : Thread nD τ).loc (Pipeline.arrRef spec5 6))) (t : Fin cfg5.N)
    (p : Fin 64) (q : Fin 64) :
    ((cfg5.win 6).blk t).view.read (Elt Ideal) X (ix2 p q) = (X : S64x64.Idx → EReal) (ix2 p q) := by
  rw [View.read_apply]
  refine congrArg X (funext fun a => Fin.ext ?_)
  match a with
  | ⟨0, _⟩ =>
    show win5_6.index t (0 : Fin 2) * 64 + 1 * p.val = p.val
    rw [(idx5_6 t).1]; omega
  | ⟨1, _⟩ =>
    show win5_6.index t (1 : Fin 2) * 64 + 1 * q.val = q.val
    rw [(idx5_6 t).2]; omega

/-- Window 7 (the output-layer bias): its one block is the whole array, at every point. -/
theorem blk5_7_at (c : Dev nD) (X : Buf (Elt Ideal) ((c : Thread nD τ).loc (Pipeline.arrRef spec5 7))) (t : Fin cfg5.N)
    (p : Fin 1) (q : Fin 64) :
    ((cfg5.win 7).blk t).view.read (Elt Ideal) X (ix2 p q) = (X : S1x64.Idx → EReal) (ix2 p q) := by
  rw [View.read_apply]
  refine congrArg X (funext fun a => Fin.ext ?_)
  match a with
  | ⟨0, _⟩ =>
    show win5_7.index t (0 : Fin 2) * 1 + 1 * p.val = p.val
    rw [(idx5_7 t).1]; omega
  | ⟨1, _⟩ =>
    show win5_7.index t (1 : Fin 2) * 64 + 1 * q.val = q.val
    rw [(idx5_7 t).2]; omega

/-- The output window: entry `(r, j)` of block `t` sits at `(4000 t + r, j)` of the message array. -/
theorem emb5_8_at (t : Fin cfg5.N) (r : Fin 4000) (j : Fin 64) (e : Fin 800000) (he : e.val = 4000 * t.val + r.val) :
    ((cfg5.win 8).blk t).view.emb (ix2 r j) = (ix2 e j : S800000x64.Idx) := by
  refine funext fun a => Fin.ext ?_
  match a with
  | ⟨0, _⟩ =>
    show win5_8.index t (0 : Fin 2) * 4000 + 1 * r.val = e.val
    rw [(idx5_8 t).1, he]; omega
  | ⟨1, _⟩ =>
    show win5_8.index t (1 : Fin 2) * 64 + 1 * j.val = j.val
    rw [(idx5_8 t).2]; omega

/-! ## The cover: row `i` of the message array is written by point `i / 4000` -/

/-- An index of the array is in point `t`'s output block iff each coordinate is in the block's range on its axis. -/
theorem mem_blk5 (t : Fin cfg5.N) (i : S800000x64.Idx) :
    i ∈ ((cfg5.win 8).blk t).view.set ↔ ∀ a : Fin 2, win5_8.index t a * S4000x64.size a ≤ (i a).val ∧ (i a).val < win5_8.index t a * S4000x64.size a + S4000x64.size a := by
  show i ∈ ((View.whole main_v76).slice (win5_8.rect t)).set ↔ _
  rw [View.set_slice_whole, Rect.mem_set_unit]
  exact Iff.rfl

theorem cover5 (i : S800000x64.Idx) : ∃ t : Fin cfg5.N, (cfg5.win 8).flush t = true ∧ i ∈ ((cfg5.win 8).blk t).view.set := by
  have hi0 : (i 0).val < 800000 := (i 0).isLt
  have hi1 : (i 1).val < 64 := (i 1).isLt
  have hN : cfg5.N = 200 := N_5
  obtain ⟨t, ht⟩ : ∃ t : Fin cfg5.N, t.val = (i 0).val / 4000 := ⟨⟨(i 0).val / 4000, by rw [hN]; omega⟩, rfl⟩
  refine ⟨t, flush5_8 t, ?_⟩
  rw [mem_blk5]
  intro a
  match a with
  | ⟨0, _⟩ =>
    show win5_8.index t (0 : Fin 2) * 4000 ≤ (i 0).val ∧ (i 0).val < win5_8.index t (0 : Fin 2) * 4000 + 4000
    rw [(idx5_8 t).1, ht]; omega
  | ⟨1, _⟩ =>
    show win5_8.index t (1 : Fin 2) * 64 ≤ (i 1).val ∧ (i 1).val < win5_8.index t (1 : Fin 2) * 64 + 64
    rw [(idx5_8 t).2]; omega

/-! ## What a point writes back, and the array after the launch -/

variable (V : (c : Dev nD) → (b : Ref sig .tc) → Buf (Elt Ideal) ((c : Thread nD τ).loc b))

/-- The messages of the round, as a function of the eight arrays the launch finds: the gathered destination and source
    rows, the edge table, and the five parameter arrays. -/
abbrev msgs5 (c : Dev nD) : Cert.Spec.Arr Cert.Spec.E800000x64 :=
  Cert.Spec.msg (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) (V c (Pipeline.arrRef spec5 7))

/-- Point `t` writes back rows `4000 t … 4000 t + 3999` of the messages: the body's block is the per-row map of the
    input blocks, which are those same rows of the three long arrays and the whole parameter arrays. -/
theorem flushed5_eq (c : Dev nD) (t : Fin cfg5.N) :
    (dat5 (F := Ideal) V c).flushed 8 t = ((cfg5.win 8).blk t).view.read (Elt Ideal) (msgs5 V c) := by
  show (cfg5.win 8).cut (grid5.coords t) ((dat5 (F := Ideal) V c).after 8 t) = _
  rw [after5_8]
  unfold out5_8
  rw [View.canon_unit_zero offZero]
  simp only [View.ld_unit_zero (S := S4000x64) offZero, View.ld_unit_zero (S := S64x64) offZero,
    View.ld_unit_zero (S := S1x64) offZero]
  funext y
  obtain ⟨r, j, rfl⟩ : ∃ (r : Fin 4000) (j : Fin 64), y = ix2 r j := ⟨y 0, y 1, eq_ix2 y⟩
  have hN : cfg5.N = 200 := N_5
  have ht : t.val < 200 := hN ▸ t.isLt
  obtain ⟨e, he⟩ : ∃ e : Fin 800000, e.val = 4000 * t.val + r.val := ⟨⟨4000 * t.val + r.val, by omega⟩, rfl⟩
  have hx : (cfg5.win 8).xinj (grid5.coords t) (ix2 r j) = (ix2 r j : S4000x64.Idx) := funext fun a => Fin.ext rfl
  show k5_pay1 (F := Ideal) (iblk5 V c 0 t) (iblk5 V c 1 t) (iblk5 V c 2 t) (iblk5 V c 3 t) (iblk5 V c 4 t) (iblk5 V c 5 t) (iblk5 V c 6 t) (iblk5 V c 7 t) ((cfg5.win 8).xinj (grid5.coords t) (ix2 r j))
    = msgs5 V c (((cfg5.win 8).blk t).view.emb (ix2 r j))
  rw [hx, emb5_8_at t r j e he]
  refine (pay5_at (iblk5 V c 0 t) (iblk5 V c 1 t) (iblk5 V c 2 t) (iblk5 V c 3 t) (iblk5 V c 4 t) (iblk5 V c 5 t) (iblk5 V c 6 t) (iblk5 V c 7 t) r j).trans ?_
  refine congrArg₂ (· + ·) (Finset.sum_congr rfl fun k _ => congrArg₂ (· * ·) (congrArg (max · 0) (congrArg₂ (· + ·)
    (congrArg₂ (· + ·)
      (Finset.sum_congr rfl fun q _ => congrArg₂ (· * ·)
        (congrArg₂ (· + ·) (blk5_0_at c (V c (Pipeline.arrRef spec5 0)) t r q e he) (blk5_1_at c (V c (Pipeline.arrRef spec5 1)) t r q e he))
        (blk5_3_at c (V c (Pipeline.arrRef spec5 3)) t q k))
      (Finset.sum_congr rfl fun q _ => congrArg₂ (· * ·)
        (blk5_2_at c (V c (Pipeline.arrRef spec5 2)) t r q e he) (blk5_4_at c (V c (Pipeline.arrRef spec5 4)) t q k)))
    (blk5_5_at c (V c (Pipeline.arrRef spec5 5)) t 0 k)))
    (blk5_6_at c (V c (Pipeline.arrRef spec5 6)) t k j))
    (blk5_7_at c (V c (Pipeline.arrRef spec5 7)) t 0 j)

end Region5

variable (V : (c : Dev nD) → (b : Ref sig .tc) → Buf (Elt Ideal) ((c : Thread nD τ).loc b))

/-- After the launch the message array holds the messages of the round, every row written by the one point whose
    block holds it. -/
theorem region5 (c : Dev nD) :
    (dat5 (F := Ideal) V c).arrAt 8 cfg5.N = Cert.Spec.msg (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) (V c (Pipeline.arrRef spec5 7)) :=
  (dat5 (F := Ideal) V c).arrAt_eq_of_cover 8 (Region5.msgs5 V c) (fun t _ => Region5.flushed5_eq V c t) Region5.cover5

end Cert.KernelIdeal.Val

end
-- ==== Proof.ChainL3.lean ====
/-
  Round 3 of message passing in the idealized kernel program.  From the boundary where the previous round's messages
  sit, the host sums them at their destination nodes into a zero table, gathers that table at the destination row and at
  the source row of the edge index, and slices round 3's weights out of the stacked arguments; the launch then forms the
  round's messages from those eight arrays.  The index rows, the edge table and the weight arguments are left as found.
-/
import proofs.«418908_j25941602468191_1_alg».proof.Proof.ChainBase
import proofs.«418908_j25941602468191_1_alg».proof.Proof.Region5
import Idealize.ShloMosaic.Lib.StableHlo.Run

set_option maxRecDepth 16384

noncomputable section

namespace Cert.KernelIdeal.Val

open Idealize.ShloMosaic Idealize.ShloMosaic.TcCoe Idealize.ShloMosaic.StableHlo Cert.KernelIdeal Cert.KernelIdeal.Gen
open Cert.KernelIdeal.Facts₀ Cert.KernelIdeal.Facts

variable (m : (ℓ : Loc nD τ sig) → Buf (Elt Ideal) ℓ) (ρ : Dev nD → PrngReg)

/-! ## Casts between a buffer's contents and an array of its literal type are the identity -/

private theorem ofBuf_toBuf' {sig : RefSig} {Val : EltTy → Type} {T : BufTy} (x : StableHlo.TRef sig T) (v : T.Contents Val) :
    x.ofBuf (x.toBuf v) = v := by
  obtain ⟨ref, rfl, od, us⟩ := x
  rfl

private theorem ofBuf3_v1 (p q r) (v : IVec S800000 32) : (TRef.of (T := ⟨S800000, .i32⟩) main_v1 p q r).ofBuf (Val := Elt Ideal) v = v := rfl
private theorem ofBuf3_v3 (p q r) (v : IVec S800000 32) : (TRef.of (T := ⟨S800000, .i32⟩) main_v3 p q r).ofBuf (Val := Elt Ideal) v = v := rfl
private theorem ofBuf3_v61 (p q r) (v : FVec Ideal S50000x64 .f32) : (TRef.of (T := ⟨S50000x64, .f32⟩) main_v61 p q r).ofBuf (Val := Elt Ideal) v = v := rfl
private theorem toBuf3_v62 (p q r) (v : FVec Ideal S800000x64 .f32) : (TRef.of (T := ⟨S800000x64, .f32⟩) main_v62 p q r).toBuf (Val := Elt Ideal) v = v := rfl
private theorem toBuf3_v63 (p q r) (v : FVec Ideal S800000x64 .f32) : (TRef.of (T := ⟨S800000x64, .f32⟩) main_v63 p q r).toBuf (Val := Elt Ideal) v = v := rfl

/-! ## The eight arrays the launch of round 3 finds -/

set_option maxHeartbeats 4000000 in
/-- The gather of the summed table at the destination row. -/
theorem W22_v62 (c : Dev nD) (mm ea : FVec Ideal S800000x64 .f32)
    (hm : W18 m ρ c (Proc.devRef .tc main_v58) = mm) (hL : Live m c (W18 m ρ c) ea) :
    W22 m ρ c (Proc.devRef .tc main_v62) = takeK (segSum (dstRow (argAt m c main_arg2)) mm) (dstRow (argAt m c main_arg2)) := by
  show StableHlo.after hostOps5_3 (StableHlo.after hostOps5_2 (StableHlo.after hostOps5_1 (StableHlo.after hostOps5 (W18 m ρ c)))) (Proc.devRef .tc main_v62) = _
  after_results_simp
  simp only [ofBuf_toBuf']
  rw [hm, hL.dst]
  simp only [ofBuf3_v3, ofBuf3_v61, toBuf3_v62]
  rfl

set_option maxHeartbeats 4000000 in
/-- The gather of the summed table at the source row. -/
theorem W22_v63 (c : Dev nD) (mm ea : FVec Ideal S800000x64 .f32)
    (hm : W18 m ρ c (Proc.devRef .tc main_v58) = mm) (hL : Live m c (W18 m ρ c) ea) :
    W22 m ρ c (Proc.devRef .tc main_v63) = takeK (segSum (dstRow (argAt m c main_arg2)) mm) (srcRow (argAt m c main_arg2)) := by
  show StableHlo.after hostOps5_3 (StableHlo.after hostOps5_2 (StableHlo.after hostOps5_1 (StableHlo.after hostOps5 (W18 m ρ c)))) (Proc.devRef .tc main_v63) = _
  after_results_simp
  simp only [ofBuf_toBuf']
  rw [hm, hL.dst, hL.src]
  simp only [ofBuf3_v1, ofBuf3_v61, toBuf3_v63]
  rfl

set_option maxHeartbeats 4000000 in
/-- The edge table is untouched. -/
theorem W22_v7 (c : Dev nD) (ea : FVec Ideal S800000x64 .f32) (hL : Live m c (W18 m ρ c) ea) :
    W22 m ρ c (Proc.devRef .tc main_v7) = ea := by
  show StableHlo.after hostOps5_3 (StableHlo.after hostOps5_2 (StableHlo.after hostOps5_1 (StableHlo.after hostOps5 (W18 m ρ c)))) (Proc.devRef .tc main_v7) = _
  after_results_simp
  exact hL.ea

set_option maxHeartbeats 4000000 in
/-- Rows 0–63 of round 3's first weight matrix. -/
theorem W22_v66 (c : Dev nD) (ea : FVec Ideal S800000x64 .f32) (hL : Live m c (W18 m ρ c) ea) :
    W22 m ρ c (Proc.devRef .tc main_v66) = w1a3 (argAt m c main_arg7) := by
  show StableHlo.after hostOps5_3 (StableHlo.after hostOps5_2 (StableHlo.after hostOps5_1 (StableHlo.after hostOps5 (W18 m ρ c)))) (Proc.devRef .tc main_v66) = _
  after_results_simp
  rw [hL.a7]
  rfl

set_option maxHeartbeats 4000000 in
/-- Rows 64–127 of round 3's first weight matrix. -/
theorem W22_v67 (c : Dev nD) (ea : FVec Ideal S800000x64 .f32) (hL : Live m c (W18 m ρ c) ea) :
    W22 m ρ c (Proc.devRef .tc main_v67) = w1b3 (argAt m c main_arg7) := by
  show StableHlo.after hostOps5_3 (StableHlo.after hostOps5_2 (StableHlo.after hostOps5_1 (StableHlo.after hostOps5 (W18 m ρ c)))) (Proc.devRef .tc main_v67) = _
  after_results_simp
  rw [hL.a7]
  rfl

set_option maxHeartbeats 4000000 in
/-- Round 3's first bias, as a row. -/
theorem W22_v74 (c : Dev nD) (ea : FVec Ideal S800000x64 .f32) (hL : Live m c (W18 m ρ c) ea) :
    W22 m ρ c (Proc.devRef .tc main_v74) = b1r3 (argAt m c main_arg8) := by
  show StableHlo.after hostOps5_3 (StableHlo.after hostOps5_2 (StableHlo.after hostOps5_1 (StableHlo.after hostOps5 (W18 m ρ c)))) (Proc.devRef .tc main_v74) = _
  after_results_simp
  rw [hL.a8]
  rfl

set_option maxHeartbeats 4000000 in
/-- Round 3's second weight matrix. -/
theorem W22_v71 (c : Dev nD) (ea : FVec Ideal S800000x64 .f32) (hL : Live m c (W18 m ρ c) ea) :
    W22 m ρ c (Proc.devRef .tc main_v71) = w2_3 (argAt m c main_arg9) := by
  show StableHlo.after hostOps5_3 (StableHlo.after hostOps5_2 (StableHlo.after hostOps5_1 (StableHlo.after hostOps5 (W18 m ρ c)))) (Proc.devRef .tc main_v71) = _
  after_results_simp
  rw [hL.a9]
  rfl

set_option maxHeartbeats 4000000 in
/-- Round 3's second bias, as a row. -/
theorem W22_v75 (c : Dev nD) (ea : FVec Ideal S800000x64 .f32) (hL : Live m c (W18 m ρ c) ea) :
    W22 m ρ c (Proc.devRef .tc main_v75) = b2r3 (argAt m c main_arg10) := by
  show StableHlo.after hostOps5_3 (StableHlo.after hostOps5_2 (StableHlo.after hostOps5_1 (StableHlo.after hostOps5 (W18 m ρ c)))) (Proc.devRef .tc main_v75) = _
  after_results_simp
  rw [hL.a10]
  rfl

/-! ## What the host stretches leave untouched -/

set_option maxHeartbeats 4000000 in
/-- The source row is untouched. -/
theorem W22_v1 (c : Dev nD) (ea : FVec Ideal S800000x64 .f32) (hL : Live m c (W18 m ρ c) ea) :
    W22 m ρ c (Proc.devRef .tc main_v1) = srcRow (argAt m c main_arg2) := by
  show StableHlo.after hostOps5_3 (StableHlo.after hostOps5_2 (StableHlo.after hostOps5_1 (StableHlo.after hostOps5 (W18 m ρ c)))) (Proc.devRef .tc main_v1) = _
  after_results_simp
  exact hL.src

set_option maxHeartbeats 4000000 in
/-- The destination row is untouched. -/
theorem W22_v3 (c : Dev nD) (ea : FVec Ideal S800000x64 .f32) (hL : Live m c (W18 m ρ c) ea) :
    W22 m ρ c (Proc.devRef .tc main_v3) = dstRow (argAt m c main_arg2) := by
  show StableHlo.after hostOps5_3 (StableHlo.after hostOps5_2 (StableHlo.after hostOps5_1 (StableHlo.after hostOps5 (W18 m ρ c)))) (Proc.devRef .tc main_v3) = _
  after_results_simp
  exact hL.dst

set_option maxHeartbeats 4000000 in
/-- Argument 7 is untouched. -/
theorem W22_arg7 (c : Dev nD) (ea : FVec Ideal S800000x64 .f32) (hL : Live m c (W18 m ρ c) ea) :
    W22 m ρ c (Proc.devRef .tc main_arg7) = argAt m c main_arg7 := by
  show StableHlo.after hostOps5_3 (StableHlo.after hostOps5_2 (StableHlo.after hostOps5_1 (StableHlo.after hostOps5 (W18 m ρ c)))) (Proc.devRef .tc main_arg7) = _
  after_results_simp
  exact hL.a7

set_option maxHeartbeats 4000000 in
/-- Argument 8 is untouched. -/
theorem W22_arg8 (c : Dev nD) (ea : FVec Ideal S800000x64 .f32) (hL : Live m c (W18 m ρ c) ea) :
    W22 m ρ c (Proc.devRef .tc main_arg8) = argAt m c main_arg8 := by
  show StableHlo.after hostOps5_3 (StableHlo.after hostOps5_2 (StableHlo.after hostOps5_1 (StableHlo.after hostOps5 (W18 m ρ c)))) (Proc.devRef .tc main_arg8) = _
  after_results_simp
  exact hL.a8

set_option maxHeartbeats 4000000 in
/-- Argument 9 is untouched. -/
theorem W22_arg9 (c : Dev nD) (ea : FVec Ideal S800000x64 .f32) (hL : Live m c (W18 m ρ c) ea) :
    W22 m ρ c (Proc.devRef .tc main_arg9) = argAt m c main_arg9 := by
  show StableHlo.after hostOps5_3 (StableHlo.after hostOps5_2 (StableHlo.after hostOps5_1 (StableHlo.after hostOps5 (W18 m ρ c)))) (Proc.devRef .tc main_arg9) = _
  after_results_simp
  exact hL.a9

set_option maxHeartbeats 4000000 in
/-- Argument 10 is untouched. -/
theorem W22_arg10 (c : Dev nD) (ea : FVec Ideal S800000x64 .f32) (hL : Live m c (W18 m ρ c) ea) :
    W22 m ρ c (Proc.devRef .tc main_arg10) = argAt m c main_arg10 := by
  show StableHlo.after hostOps5_3 (StableHlo.after hostOps5_2 (StableHlo.after hostOps5_1 (StableHlo.after hostOps5 (W18 m ρ c)))) (Proc.devRef .tc main_arg10) = _
  after_results_simp
  exact hL.a10

set_option maxHeartbeats 4000000 in
/-- Argument 11 is untouched. -/
theorem W22_arg11 (c : Dev nD) (ea : FVec Ideal S800000x64 .f32) (hL : Live m c (W18 m ρ c) ea) :
    W22 m ρ c (Proc.devRef .tc main_arg11) = argAt m c main_arg11 := by
  show StableHlo.after hostOps5_3 (StableHlo.after hostOps5_2 (StableHlo.after hostOps5_1 (StableHlo.after hostOps5 (W18 m ρ c)))) (Proc.devRef .tc main_arg11) = _
  after_results_simp
  exact hL.a11

set_option maxHeartbeats 4000000 in
/-- Argument 12 is untouched. -/
theorem W22_arg12 (c : Dev nD) (ea : FVec Ideal S800000x64 .f32) (hL : Live m c (W18 m ρ c) ea) :
    W22 m ρ c (Proc.devRef .tc main_arg12) = argAt m c main_arg12 := by
  show StableHlo.after hostOps5_3 (StableHlo.after hostOps5_2 (StableHlo.after hostOps5_1 (StableHlo.after hostOps5 (W18 m ρ c)))) (Proc.devRef .tc main_arg12) = _
  after_results_simp
  exact hL.a12

set_option maxHeartbeats 4000000 in
/-- Argument 13 is untouched. -/
theorem W22_arg13 (c : Dev nD) (ea : FVec Ideal S800000x64 .f32) (hL : Live m c (W18 m ρ c) ea) :
    W22 m ρ c (Proc.devRef .tc main_arg13) = argAt m c main_arg13 := by
  show StableHlo.after hostOps5_3 (StableHlo.after hostOps5_2 (StableHlo.after hostOps5_1 (StableHlo.after hostOps5 (W18 m ρ c)))) (Proc.devRef .tc main_arg13) = _
  after_results_simp
  exact hL.a13

set_option maxHeartbeats 4000000 in
/-- Argument 14 is untouched. -/
theorem W22_arg14 (c : Dev nD) (ea : FVec Ideal S800000x64 .f32) (hL : Live m c (W18 m ρ c) ea) :
    W22 m ρ c (Proc.devRef .tc main_arg14) = argAt m c main_arg14 := by
  show StableHlo.after hostOps5_3 (StableHlo.after hostOps5_2 (StableHlo.after hostOps5_1 (StableHlo.after hostOps5 (W18 m ρ c)))) (Proc.devRef .tc main_arg14) = _
  after_results_simp
  exact hL.a14

/-! ## Round 3 -/

set_option maxHeartbeats 4000000 in
/-- Round 3: the launch's message array holds the round's messages of the summed table, and the buffers later rounds
    read are as they were. -/
theorem layer3 (c : Dev nD) (mm ea : FVec Ideal S800000x64 .f32)
    (hm : W18 m ρ c (Proc.devRef .tc main_v58) = mm) (hL : Live m c (W18 m ρ c) ea) :
    W23 m ρ c (Proc.devRef .tc main_v76) = msg3 takeK (segSum (dstRow (argAt m c main_arg2)) mm) ea (argAt m c main_arg2) (argAt m c main_arg7) (argAt m c main_arg8) (argAt m c main_arg9) (argAt m c main_arg10)
    ∧ Live m c (W23 m ρ c) ea := by
  refine ⟨?_, ?_⟩
  · refine (W23_arr m ρ c 8).trans ((region5 (V22 m ρ) c).trans ?_)
    show Cert.Spec.msg (W22 m ρ c (Proc.devRef .tc main_v62)) (W22 m ρ c (Proc.devRef .tc main_v63)) (W22 m ρ c (Proc.devRef .tc main_v7))
        (W22 m ρ c (Proc.devRef .tc main_v66)) (W22 m ρ c (Proc.devRef .tc main_v67)) (W22 m ρ c (Proc.devRef .tc main_v74))
        (W22 m ρ c (Proc.devRef .tc main_v71)) (W22 m ρ c (Proc.devRef .tc main_v75)) = _
    rw [W22_v62 m ρ c mm ea hm hL, W22_v63 m ρ c mm ea hm hL, W22_v7 m ρ c ea hL, W22_v66 m ρ c ea hL, W22_v67 m ρ c ea hL,
      W22_v74 m ρ c ea hL, W22_v71 m ρ c ea hL, W22_v75 m ρ c ea hL]
    rfl
  · exact
      { src := (W23_of_ne m ρ c main_v1 (by decide)).trans (W22_v1 m ρ c ea hL)
        dst := (W23_of_ne m ρ c main_v3 (by decide)).trans (W22_v3 m ρ c ea hL)
        ea := (W23_arr m ρ c 2).trans ((((dat5 (V22 m ρ) c).arrAt_in 2 rfl _).trans (A_eq5 (V22 m ρ) c 2)).trans (W22_v7 m ρ c ea hL))
        a7 := (W23_of_ne m ρ c main_arg7 (by decide)).trans (W22_arg7 m ρ c ea hL)
        a8 := (W23_of_ne m ρ c main_arg8 (by decide)).trans (W22_arg8 m ρ c ea hL)
        a9 := (W23_of_ne m ρ c main_arg9 (by decide)).trans (W22_arg9 m ρ c ea hL)
        a10 := (W23_of_ne m ρ c main_arg10 (by decide)).trans (W22_arg10 m ρ c ea hL)
        a11 := (W23_of_ne m ρ c main_arg11 (by decide)).trans (W22_arg11 m ρ c ea hL)
        a12 := (W23_of_ne m ρ c main_arg12 (by decide)).trans (W22_arg12 m ρ c ea hL)
        a13 := (W23_of_ne m ρ c main_arg13 (by decide)).trans (W22_arg13 m ρ c ea hL)
        a14 := (W23_of_ne m ρ c main_arg14 (by decide)).trans (W22_arg14 m ρ c ea hL) }

end Cert.KernelIdeal.Val

end
-- ==== Proof.Region6.lean ====
/-
  The value of the last kernel launch: the edge scores.

  The launch walks the 800000 edges in 100 row blocks of 8000.  At each block the body reads the block's rows of the two
  gathered node tables, the two 64 x 64 weight matrices, the hidden bias row, the 64 x 1 output column and the 1 x 1 output
  bias, and stores, for each row of the block, the score of that row: the hidden layer
  `relu (hs[e] · F1a + hd[e] · F1b + fb1)` pushed through `F2`, plus `fb2`.  A row's score depends on that row of the two
  tables only, so the block a grid point writes back is the block of ONE whole-array function, `Spec.score` of the arrays
  as the launch finds them; the 100 blocks tile the 800000 rows, so the output array ends holding that function.
-/
import proofs.«418908_j25941602468191_1_alg».proof.Proof.Gen.KernelIdeal.Frame
import proofs.«418908_j25941602468191_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen

namespace Region6

/-! ## One row's score -/

/-- The score of one edge from its two feature rows `u` (source) and `v` (destination): the hidden layer
    `relu (u · A + v · B + b1)`, then its product with the column `w2`, plus `b2`. -/
def rowScore (u v : Fin 64 → EReal) (A B : Cert.Spec.Arr Cert.Spec.M64x64) (b1 : Cert.Spec.Arr Cert.Spec.M1x64)
    (w2 : Cert.Spec.Arr Cert.Spec.M64x1) (b2 : Cert.Spec.Arr Cert.Spec.M1x1) (j : Fin 1) : EReal :=
  (∑ k : Fin 64, max (((∑ q : Fin 64, u q * A (ix2 q k)) + (∑ q : Fin 64, v q * B (ix2 q k))) + b1 (ix2 0 k)) 0
    * w2 (ix2 k j)) + b2 (ix2 0 j)

/-- The specification's entry `(e, j)` is the row score of rows `e` of the two tables. -/
theorem scoreAt_eq_rowScore (hs hd : Cert.Spec.Arr Cert.Spec.E800000x64) (A B : Cert.Spec.Arr Cert.Spec.M64x64)
    (b1 : Cert.Spec.Arr Cert.Spec.M1x64) (w2 : Cert.Spec.Arr Cert.Spec.M64x1) (b2 : Cert.Spec.Arr Cert.Spec.M1x1)
    (e : Fin 800000) (j : Fin 1) :
    Cert.Spec.scoreAt hs hd A B b1 w2 b2 e j
      = rowScore (fun q => hs (ix2 e q)) (fun q => hd (ix2 e q)) A B b1 w2 b2 j := rfl

/-! ## The two matrix products of the body, at an entry -/

/-- Rows times a 64 x 64 matrix: the left operand's index at output `(r, k)` and contraction position `q` is `(r, q)` … -/
theorem lhs_sq_0 (i : S8000x64.Idx) (q : dot_S8000x64_S64x64_S8000x64_1_0_0_1_n_n.contr.Idx) :
    (dot_S8000x64_S64x64_S8000x64_1_0_0_1_n_n.lhsIdx i q 0).val = (i 0).val := by
  unfold DotDims.lhsIdx
  rw [dif_neg (show ¬(0 : Fin S8000x64.rank) ∈ dot_S8000x64_S64x64_S8000x64_1_0_0_1_n_n.lhsBatch by decide),
    dif_pos (show (0 : Fin S8000x64.rank) ∈ dot_S8000x64_S64x64_S8000x64_1_0_0_1_n_n.lhsNonContracting by decide)]
  rfl
theorem lhs_sq_1 (i : S8000x64.Idx) (q : dot_S8000x64_S64x64_S8000x64_1_0_0_1_n_n.contr.Idx) :
    (dot_S8000x64_S64x64_S8000x64_1_0_0_1_n_n.lhsIdx i q 1).val = (q ⟨0, by decide⟩).val :=
  dot_S8000x64_S64x64_S8000x64_1_0_0_1_n_n.lhsIdx_val_of_single rfl i q
/-- … and the right operand's is `(q, k)`. -/
theorem rhs_sq_0 (i : S8000x64.Idx) (q : dot_S8000x64_S64x64_S8000x64_1_0_0_1_n_n.contr.Idx) :
    (dot_S8000x64_S64x64_S8000x64_1_0_0_1_n_n.rhsIdx i q 0).val = (q ⟨0, by decide⟩).val :=
  dot_S8000x64_S64x64_S8000x64_1_0_0_1_n_n.rhsIdx_val_of_single rfl i q
theorem rhs_sq_1 (i : S8000x64.Idx) (q : dot_S8000x64_S64x64_S8000x64_1_0_0_1_n_n.contr.Idx) :
    (dot_S8000x64_S64x64_S8000x64_1_0_0_1_n_n.rhsIdx i q 1).val = (i 1).val := by
  unfold DotDims.rhsIdx
  rw [dif_neg (show ¬(1 : Fin S64x64.rank) ∈ dot_S8000x64_S64x64_S8000x64_1_0_0_1_n_n.rhsBatch by decide),
    dif_pos (show (1 : Fin S64x64.rank) ∈ dot_S8000x64_S64x64_S8000x64_1_0_0_1_n_n.rhsNonContracting by decide)]
  rfl

/-- A block of 8000 rows times a 64 x 64 matrix, into zero: entry `(r, k)` is `∑ q, l[r, q] * w[q, k]`. -/
theorem matmul_sq_apply {φ₁ φ₂ : FTy} (l : FVec Ideal S8000x64 φ₁) (w : FVec Ideal S64x64 φ₂) (r : Fin 8000) (k : Fin 64) :
    matmul dot_S8000x64_S64x64_S8000x64_1_0_0_1_n_n none l w (constant (F := Ideal) S8000x64 .f32 0x00000000#32) (ix2 r k)
      = ∑ q : Fin 64, l (ix2 r q) * w (ix2 q k) := by
  show FloatOps.matmul dot_S8000x64_S64x64_S8000x64_1_0_0_1_n_n none l w (constant (F := Ideal) S8000x64 .f32 0x00000000#32) (ix2 r k) = _
  rw [Ideal.matmul_constant_zero_apply,
    ← Equiv.sum_comp (contrEquiv1 dot_S8000x64_S64x64_S8000x64_1_0_0_1_n_n 64 rfl rfl).symm]
  refine Finset.sum_congr rfl fun q _ => ?_
  have hk := contrEquiv1_symm_val dot_S8000x64_S64x64_S8000x64_1_0_0_1_n_n 64 rfl rfl q
  have el : dot_S8000x64_S64x64_S8000x64_1_0_0_1_n_n.lhsIdx (ix2 r k)
      ((contrEquiv1 dot_S8000x64_S64x64_S8000x64_1_0_0_1_n_n 64 rfl rfl).symm q) = ix2 r q := funext fun a => Fin.ext (by
    match a with
    | ⟨0, _⟩ => exact lhs_sq_0 _ _
    | ⟨1, _⟩ => exact (lhs_sq_1 _ _).trans hk)
  have er : dot_S8000x64_S64x64_S8000x64_1_0_0_1_n_n.rhsIdx (ix2 r k)
      ((contrEquiv1 dot_S8000x64_S64x64_S8000x64_1_0_0_1_n_n 64 rfl rfl).symm q) = ix2 q k := funext fun a => Fin.ext (by
    match a with
    | ⟨0, _⟩ => exact (rhs_sq_0 _ _).trans hk
    | ⟨1, _⟩ => exact rhs_sq_1 _ _)
  rw [el, er]

/-- Rows times the 64 x 1 column: the left operand's index at output `(r, j)` and contraction position `k` is `(r, k)` … -/
theorem lhs_col_0 (i : S8000x1.Idx) (q : dot_S8000x64_S64x1_S8000x1_1_0_0_1_n_n.contr.Idx) :
    (dot_S8000x64_S64x1_S8000x1_1_0_0_1_n_n.lhsIdx i q 0).val = (i 0).val := by
  unfold DotDims.lhsIdx
  rw [dif_neg (show ¬(0 : Fin S8000x64.rank) ∈ dot_S8000x64_S64x1_S8000x1_1_0_0_1_n_n.lhsBatch by decide),
    dif_pos (show (0 : Fin S8000x64.rank) ∈ dot_S8000x64_S64x1_S8000x1_1_0_0_1_n_n.lhsNonContracting by decide)]
  rfl
theorem lhs_col_1 (i : S8000x1.Idx) (q : dot_S8000x64_S64x1_S8000x1_1_0_0_1_n_n.contr.Idx) :
    (dot_S8000x64_S64x1_S8000x1_1_0_0_1_n_n.lhsIdx i q 1).val = (q ⟨0, by decide⟩).val :=
  dot_S8000x64_S64x1_S8000x1_1_0_0_1_n_n.lhsIdx_val_of_single rfl i q
/-- … and the right operand's is `(k, j)`. -/
theorem rhs_col_0 (i : S8000x1.Idx) (q : dot_S8000x64_S64x1_S8000x1_1_0_0_1_n_n.contr.Idx) :
    (dot_S8000x64_S64x1_S8000x1_1_0_0_1_n_n.rhsIdx i q 0).val = (q ⟨0, by decide⟩).val :=
  dot_S8000x64_S64x1_S8000x1_1_0_0_1_n_n.rhsIdx_val_of_single rfl i q
theorem rhs_col_1 (i : S8000x1.Idx) (q : dot_S8000x64_S64x1_S8000x1_1_0_0_1_n_n.contr.Idx) :
    (dot_S8000x64_S64x1_S8000x1_1_0_0_1_n_n.rhsIdx i q 1).val = (i 1).val := by
  unfold DotDims.rhsIdx
  rw [dif_neg (show ¬(1 : Fin S64x1.rank) ∈ dot_S8000x64_S64x1_S8000x1_1_0_0_1_n_n.rhsBatch by decide),
    dif_pos (show (1 : Fin S64x1.rank) ∈ dot_S8000x64_S64x1_S8000x1_1_0_0_1_n_n.rhsNonContracting by decide)]
  rfl

/-- A block of 8000 rows times the 64 x 1 column, into zero: entry `(r, j)` is `∑ k, l[r, k] * w[k, j]`. -/
theorem matmul_col_apply {φ₁ φ₂ : FTy} (l : FVec Ideal S8000x64 φ₁) (w : FVec Ideal S64x1 φ₂) (r : Fin 8000) (j : Fin 1) :
    matmul dot_S8000x64_S64x1_S8000x1_1_0_0_1_n_n none l w (constant (F := Ideal) S8000x1 .f32 0x00000000#32) (ix2 r j)
      = ∑ k : Fin 64, l (ix2 r k) * w (ix2 k j) := by
  show FloatOps.matmul dot_S8000x64_S64x1_S8000x1_1_0_0_1_n_n none l w (constant (F := Ideal) S8000x1 .f32 0x00000000#32) (ix2 r j) = _
  rw [Ideal.matmul_constant_zero_apply,
    ← Equiv.sum_comp (contrEquiv1 dot_S8000x64_S64x1_S8000x1_1_0_0_1_n_n 64 rfl rfl).symm]
  refine Finset.sum_congr rfl fun k _ => ?_
  have hk := contrEquiv1_symm_val dot_S8000x64_S64x1_S8000x1_1_0_0_1_n_n 64 rfl rfl k
  have el : dot_S8000x64_S64x1_S8000x1_1_0_0_1_n_n.lhsIdx (ix2 r j)
      ((contrEquiv1 dot_S8000x64_S64x1_S8000x1_1_0_0_1_n_n 64 rfl rfl).symm k) = ix2 r k := funext fun a => Fin.ext (by
    match a with
    | ⟨0, _⟩ => exact lhs_col_0 _ _
    | ⟨1, _⟩ => exact (lhs_col_1 _ _).trans hk)
  have er : dot_S8000x64_S64x1_S8000x1_1_0_0_1_n_n.rhsIdx (ix2 r j)
      ((contrEquiv1 dot_S8000x64_S64x1_S8000x1_1_0_0_1_n_n 64 rfl rfl).symm k) = ix2 k j := funext fun a => Fin.ext (by
    match a with
    | ⟨0, _⟩ => exact (rhs_col_0 _ _).trans hk
    | ⟨1, _⟩ => exact rhs_col_1 _ _)
  rw [el, er]

/-! ## The two broadcasts of the body, at an entry -/

/-- The hidden bias row laid along the 8000 rows reads its entry of the column. -/
theorem bias_row_apply (b : FVec Ideal S1x64 .f32) (r : Fin 8000) (k : Fin 64) :
    broadcastTo S8000x64 b broadcasts_S1x64_S8000x64 (ix2 r k) = b (ix2 0 k) :=
  broadcastTo_apply b broadcasts_S1x64_S8000x64 (ix2 r k) (ix2 0 k) (by
    intro a
    match a with
    | ⟨0, _⟩ => rfl
    | ⟨1, _⟩ => rfl)

/-- The 1 x 1 output bias laid along the 8000 rows reads its one entry. -/
theorem bias_one_apply (b : FVec Ideal S1x1 .f32) (r : Fin 8000) (j : Fin 1) :
    broadcastTo S8000x1 b broadcasts_S1x1_S8000x1 (ix2 r j) = b (ix2 0 j) :=
  broadcastTo_apply b broadcasts_S1x1_S8000x1 (ix2 r j) (ix2 0 j) (by
    intro a
    match a with
    | ⟨0, _⟩ => rfl
    | ⟨1, _⟩ => show j.val = 0; omega)

/-! ## The body's stored value, at an entry -/

/-- Entry `(r, j)` of what the body stores is the row score of rows `r` of its two row blocks: the changes of float
    format are the identity on extended reals, the casts to the same shape are the identity, each matrix product into
    the zero splat is its sum, and the two broadcasts read the bias row and the bias entry. -/
theorem pay6_at (x0 x1 : Vec Ideal S8000x64 .f32) (x2 x3 : Vec Ideal S64x64 .f32) (x4 : Vec Ideal S1x64 .f32)
    (x5 : Vec Ideal S64x1 .f32) (x6 : Vec Ideal S1x1 .f32) (r : Fin 8000) (j : Fin 1) :
    k6_pay1 (F := Ideal) x0 x1 x2 x3 x4 x5 x6 (ix2 r j)
      = rowScore (fun q => x0 (ix2 r q)) (fun q => x1 (ix2 r q)) x2 x3 x4 x5 x6 j := by
  unfold k6_pay1 rowScore
  simp only [shapeCast_self]
  refine (addf_apply _ _ (ix2 r j)).trans ?_
  refine congrArg₂ (· + ·) ?_ (bias_one_apply x6 r j)
  refine (matmul_col_apply _ _ r j).trans ?_
  refine Finset.sum_congr rfl fun k _ => ?_
  refine congrArg₂ (· * ·) ?_ rfl
  refine (maximumf_apply _ _ (ix2 r k)).trans ?_
  refine congrArg₂ max ?_ Ideal.ofBits_zero_f32
  refine (addf_apply _ _ (ix2 r k)).trans ?_
  refine congrArg₂ (· + ·) ?_ (bias_row_apply x4 r k)
  refine (addf_apply _ _ (ix2 r k)).trans ?_
  exact congrArg₂ (· + ·) (matmul_sq_apply _ _ r k) (matmul_sq_apply _ _ r k)

/-! ## The launch's blocks, read off the arrays -/

section Region

variable (V : (c : Dev nD) → (b : Ref sig .tc) → Buf (Elt Ideal) ((c : Thread nD τ).loc b))

theorem hz : (![0, 0] : Fin 2 → Nat) = fun _ => 0 := funext fun a => by fin_cases a <;> rfl

/-- The index maps, decided once over the 100 grid points: the two row-block windows and the output window sit at block
    row `t`, column block 0; the five parameter windows stay at block (0, 0). -/
theorem idx_facts6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = t.val ∧ win6_7.index t (1 : Fin 2) = 0 :=
  (by decide +kernel : ∀ t : Fin grid6.N, _)

/-- Row `r` of the source table's block at point `t` is row `8000 t + r` of the table. -/
theorem blk0_at (c : Dev nD) (t : Fin cfg6.N) (r : Fin 8000) (q : Fin 64) (e : Fin 800000)
    (he : e.val = t.val * 8000 + r.val) :
    (iblk6 V c 0 t : Vec Ideal S8000x64 .f32) (ix2 r q)
      = (V c (Pipeline.arrRef spec6 0) : Cert.Spec.Arr Cert.Spec.E800000x64) (ix2 e q) := by
  obtain ⟨h0, h1, -⟩ := idx_facts6 t
  unfold iblk6
  rw [View.read_apply]
  show V c (Pipeline.arrRef spec6 0) _ = V c (Pipeline.arrRef spec6 0) _
  congr 1
  funext a
  apply Fin.ext
  match a with
  | ⟨0, _⟩ => show win6_0.index t (0 : Fin 2) * 8000 + 1 * r.val = e.val; rw [h0, he]; omega
  | ⟨1, _⟩ => show win6_0.index t (1 : Fin 2) * 64 + 1 * q.val = q.val; rw [h1]; omega

/-- Row `r` of the destination table's block at point `t` is row `8000 t + r` of the table. -/
theorem blk1_at (c : Dev nD) (t : Fin cfg6.N) (r : Fin 8000) (q : Fin 64) (e : Fin 800000)
    (he : e.val = t.val * 8000 + r.val) :
    (iblk6 V c 1 t : Vec Ideal S8000x64 .f32) (ix2 r q)
      = (V c (Pipeline.arrRef spec6 1) : Cert.Spec.Arr Cert.Spec.E800000x64) (ix2 e q) := by
  obtain ⟨-, -, h0, h1, -⟩ := idx_facts6 t
  unfold iblk6
  rw [View.read_apply]
  show V c (Pipeline.arrRef spec6 1) _ = V c (Pipeline.arrRef spec6 1) _
  congr 1
  funext a
  apply Fin.ext
  match a with
  | ⟨0, _⟩ => show win6_1.index t (0 : Fin 2) * 8000 + 1 * r.val = e.val; rw [h0, he]; omega
  | ⟨1, _⟩ => show win6_1.index t (1 : Fin 2) * 64 + 1 * q.val = q.val; rw [h1]; omega

/-- A parameter window's one block is its whole array: the first weight matrix, -/
theorem blk2_eq (c : Dev nD) (t : Fin cfg6.N) :
    (iblk6 V c 2 t : Vec Ideal S64x64 .f32) = (V c (Pipeline.arrRef spec6 2) : Cert.Spec.Arr Cert.Spec.M64x64) := by
  obtain ⟨-, -, -, -, h0, h1, -⟩ := idx_facts6 t
  funext i
  obtain ⟨a, b, rfl⟩ : ∃ (a : Fin 64) (b : Fin 64), i = ix2 a b := ⟨i 0, i 1, eq_ix2 i⟩
  unfold iblk6
  rw [View.read_apply]
  show V c (Pipeline.arrRef spec6 2) _ = V c (Pipeline.arrRef spec6 2) _
  congr 1
  funext d
  apply Fin.ext
  match d with
  | ⟨0, _⟩ => show win6_2.index t (0 : Fin 2) * 64 + 1 * a.val = a.val; rw [h0]; omega
  | ⟨1, _⟩ => show win6_2.index t (1 : Fin 2) * 64 + 1 * b.val = b.val; rw [h1]; omega

/-- the second weight matrix, -/
theorem blk3_eq (c : Dev nD) (t : Fin cfg6.N) :
    (iblk6 V c 3 t : Vec Ideal S64x64 .f32) = (V c (Pipeline.arrRef spec6 3) : Cert.Spec.Arr Cert.Spec.M64x64) := by
  obtain ⟨-, -, -, -, -, -, h0, h1, -⟩ := idx_facts6 t
  funext i
  obtain ⟨a, b, rfl⟩ : ∃ (a : Fin 64) (b : Fin 64), i = ix2 a b := ⟨i 0, i 1, eq_ix2 i⟩
  unfold iblk6
  rw [View.read_apply]
  show V c (Pipeline.arrRef spec6 3) _ = V c (Pipeline.arrRef spec6 3) _
  congr 1
  funext d
  apply Fin.ext
  match d with
  | ⟨0, _⟩ => show win6_3.index t (0 : Fin 2) * 64 + 1 * a.val = a.val; rw [h0]; omega
  | ⟨1, _⟩ => show win6_3.index t (1 : Fin 2) * 64 + 1 * b.val = b.val; rw [h1]; omega

/-- the hidden bias row, -/
theorem blk4_eq (c : Dev nD) (t : Fin cfg6.N) :
    (iblk6 V c 4 t : Vec Ideal S1x64 .f32) = (V c (Pipeline.arrRef spec6 4) : Cert.Spec.Arr Cert.Spec.M1x64) := by
  obtain ⟨-, -, -, -, -, -, -, -, h0, h1, -⟩ := idx_facts6 t
  funext i
  obtain ⟨a, b, rfl⟩ : ∃ (a : Fin 1) (b : Fin 64), i = ix2 a b := ⟨i 0, i 1, eq_ix2 i⟩
  unfold iblk6
  rw [View.read_apply]
  show V c (Pipeline.arrRef spec6 4) _ = V c (Pipeline.arrRef spec6 4) _
  congr 1
  funext d
  apply Fin.ext
  match d with
  | ⟨0, _⟩ => show win6_4.index t (0 : Fin 2) * 1 + 1 * a.val = a.val; rw [h0]; omega
  | ⟨1, _⟩ => show win6_4.index t (1 : Fin 2) * 64 + 1 * b.val = b.val; rw [h1]; omega

/-- the output column, -/
theorem blk5_eq (c : Dev nD) (t : Fin cfg6.N) :
    (iblk6 V c 5 t : Vec Ideal S64x1 .f32) = (V c (Pipeline.arrRef spec6 5) : Cert.Spec.Arr Cert.Spec.M64x1) := by
  obtain ⟨-, -, -, -, -, -, -, -, -, -, h0, h1, -⟩ := idx_facts6 t
  funext i
  obtain ⟨a, b, rfl⟩ : ∃ (a : Fin 64) (b : Fin 1), i = ix2 a b := ⟨i 0, i 1, eq_ix2 i⟩
  unfold iblk6
  rw [View.read_apply]
  show V c (Pipeline.arrRef spec6 5) _ = V c (Pipeline.arrRef spec6 5) _
  congr 1
  funext d
  apply Fin.ext
  match d with
  | ⟨0, _⟩ => show win6_5.index t (0 : Fin 2) * 64 + 1 * a.val = a.val; rw [h0]; omega
  | ⟨1, _⟩ => show win6_5.index t (1 : Fin 2) * 1 + 1 * b.val = b.val; rw [h1]; omega

/-- and the output bias. -/
theorem blk6_eq (c : Dev nD) (t : Fin cfg6.N) :
    (iblk6 V c 6 t : Vec Ideal S1x1 .f32) = (V c (Pipeline.arrRef spec6 6) : Cert.Spec.Arr Cert.Spec.M1x1) := by
  obtain ⟨-, -, -, -, -, -, -, -, -, -, -, -, h0, h1, -⟩ := idx_facts6 t
  funext i
  obtain ⟨a, b, rfl⟩ : ∃ (a : Fin 1) (b : Fin 1), i = ix2 a b := ⟨i 0, i 1, eq_ix2 i⟩
  unfold iblk6
  rw [View.read_apply]
  show V c (Pipeline.arrRef spec6 6) _ = V c (Pipeline.arrRef spec6 6) _
  congr 1
  funext d
  apply Fin.ext
  match d with
  | ⟨0, _⟩ => show win6_6.index t (0 : Fin 2) * 1 + 1 * a.val = a.val; rw [h0]; omega
  | ⟨1, _⟩ => show win6_6.index t (1 : Fin 2) * 1 + 1 * b.val = b.val; rw [h1]; omega

/-! ## What a grid point writes back, and the array after the launch -/

/-- The scores of all edges, from the seven arrays as the launch finds them. -/
abbrev scoreArr (c : Dev nD) : Cert.Spec.Arr Cert.Spec.E800000x1 :=
  Cert.Spec.score (V c (Pipeline.arrRef spec6 0)) (V c (Pipeline.arrRef spec6 1)) (V c (Pipeline.arrRef spec6 2))
    (V c (Pipeline.arrRef spec6 3)) (V c (Pipeline.arrRef spec6 4)) (V c (Pipeline.arrRef spec6 5))
    (V c (Pipeline.arrRef spec6 6))

/-- The row score is a function of its seven arguments. -/
theorem rowScore_congr {u u' v v' : Fin 64 → EReal} {A A' B B' : Cert.Spec.Arr Cert.Spec.M64x64}
    {b1 b1' : Cert.Spec.Arr Cert.Spec.M1x64} {w2 w2' : Cert.Spec.Arr Cert.Spec.M64x1} {b2 b2' : Cert.Spec.Arr Cert.Spec.M1x1}
    (hu : u = u') (hv : v = v') (hA : A = A') (hB : B = B') (hb1 : b1 = b1') (hw2 : w2 = w2') (hb2 : b2 = b2') (j : Fin 1) :
    rowScore u v A B b1 w2 b2 j = rowScore u' v' A' B' b1' w2' b2' j := by
  subst hu hv hA hB hb1 hw2 hb2; rfl

/-- WHAT POINT `t` WRITES BACK is block `t` of the scores: row `r` of the stored block is the row score of rows `r` of
    the two row blocks, which are rows `8000 t + r` of the two tables, and the output block's row `r` is row
    `8000 t + r` of the output array. -/
theorem flushed7_eq (c : Dev nD) (t : Fin cfg6.N) :
    (dat6 (F := Ideal) V c).flushed 7 t = ((cfg6.win 7).blk t).view.read (Elt Ideal) (scoreArr V c) := by
  show (cfg6.win 7).cut (grid6.coords t) ((dat6 (F := Ideal) V c).after 7 t) = _
  rw [after6_7]
  unfold out6_7
  rw [View.canon_unit_zero hz]
  simp only [View.ld_unit_zero (S := S8000x64) hz, View.ld_unit_zero (S := S64x64) hz, View.ld_unit_zero (S := S1x64) hz,
    View.ld_unit_zero (S := S64x1) hz, View.ld_unit_zero (S := S1x1) hz]
  obtain ⟨-, -, -, -, -, -, -, -, -, -, -, -, -, -, h0, h1⟩ := idx_facts6 t
  have hN : cfg6.N = 100 := N_6
  have ht : t.val < 100 := hN ▸ t.isLt
  funext y
  obtain ⟨r, j, rfl⟩ : ∃ (r : Fin 8000) (j : Fin 1), y = ix2 r j := ⟨y 0, y 1, eq_ix2 y⟩
  have hemb : ((cfg6.win 7).blk t).view.emb (ix2 r j)
      = (ix2 (⟨t.val * 8000 + r.val, by have := r.isLt; omega⟩ : Fin 800000) j : S800000x1.Idx) := by
    funext a
    apply Fin.ext
    match a with
    | ⟨0, _⟩ => show win6_7.index t (0 : Fin 2) * 8000 + 1 * r.val = t.val * 8000 + r.val; rw [h0]; omega
    | ⟨1, _⟩ => show win6_7.index t (1 : Fin 2) * 1 + 1 * j.val = j.val; rw [h1]; omega
  show k6_pay1 (F := Ideal) (iblk6 V c 0 t) (iblk6 V c 1 t) (iblk6 V c 2 t) (iblk6 V c 3 t) (iblk6 V c 4 t) (iblk6 V c 5 t)
      (iblk6 V c 6 t) (ix2 r j) = scoreArr V c (((cfg6.win 7).blk t).view.emb (ix2 r j))
  rw [hemb]
  refine (pay6_at (iblk6 V c 0 t) (iblk6 V c 1 t) (iblk6 V c 2 t) (iblk6 V c 3 t) (iblk6 V c 4 t) (iblk6 V c 5 t)
    (iblk6 V c 6 t) r j).trans ?_
  refine Eq.trans ?_ (scoreAt_eq_rowScore (V c (Pipeline.arrRef spec6 0)) (V c (Pipeline.arrRef spec6 1))
    (V c (Pipeline.arrRef spec6 2)) (V c (Pipeline.arrRef spec6 3)) (V c (Pipeline.arrRef spec6 4))
    (V c (Pipeline.arrRef spec6 5)) (V c (Pipeline.arrRef spec6 6)) ⟨t.val * 8000 + r.val, by have := r.isLt; omega⟩ j).symm
  exact rowScore_congr (funext fun q => blk0_at V c t r q _ rfl) (funext fun q => blk1_at V c t r q _ rfl)
    (blk2_eq V c t) (blk3_eq V c t) (blk4_eq V c t) (blk5_eq V c t) (blk6_eq V c t) j

/-- An index of the output array is in point `t`'s block iff each coordinate is in the block's range on its axis. -/
theorem mem_blk7 (t : Fin cfg6.N) (i : S800000x1.Idx) :
    i ∈ ((cfg6.win 7).blk t).view.set ↔ ∀ a : Fin 2, win6_7.index t a * S8000x1.size a ≤ (i a).val
      ∧ (i a).val < win6_7.index t a * S8000x1.size a + S8000x1.size a := by
  show i ∈ ((View.whole main_v86).slice (win6_7.rect t)).set ↔ _
  rw [View.set_slice_whole, Rect.mem_set_unit]
  exact Iff.rfl

/-- Every row of the output is in some point's block: row `e` in the block of point `e / 8000`. -/
theorem cover7 (i : S800000x1.Idx) :
    ∃ t : Fin cfg6.N, (cfg6.win 7).flush t = true ∧ i ∈ ((cfg6.win 7).blk t).view.set := by
  have hi0 : (i 0).val < 800000 := (i 0).isLt
  have hi1 : (i 1).val < 1 := (i 1).isLt
  have hN : cfg6.N = 100 := N_6
  obtain ⟨t, ht⟩ : ∃ t : Fin cfg6.N, t.val = (i 0).val / 8000 := ⟨⟨(i 0).val / 8000, by omega⟩, rfl⟩
  obtain ⟨-, -, -, -, -, -, -, -, -, -, -, -, -, -, h0, h1⟩ := idx_facts6 t
  refine ⟨t, flush6_7 t, ?_⟩
  rw [mem_blk7]
  intro a
  match a with
  | ⟨0, _⟩ =>
    show win6_7.index t (0 : Fin 2) * 8000 ≤ (i 0).val ∧ (i 0).val < win6_7.index t (0 : Fin 2) * 8000 + 8000
    rw [h0, ht]; omega
  | ⟨1, _⟩ =>
    show win6_7.index t (1 : Fin 2) * 1 ≤ (i 1).val ∧ (i 1).val < win6_7.index t (1 : Fin 2) * 1 + 1
    rw [h1]; omega

end Region

end Region6

/-- THE OUTPUT ARRAY AFTER THE LAUNCH is the scores of all edges, of the seven arrays as the launch finds them: every grid
    point writes back its block of that one function, and the blocks cover the array. -/
theorem region6 (V : (c : Dev nD) → (b : Ref sig .tc) → Buf (Elt Ideal) ((c : Thread nD τ).loc b)) (c : Dev nD) :
    (dat6 (F := Ideal) V c).arrAt 7 cfg6.N
      = Cert.Spec.score (V c (Pipeline.arrRef spec6 0)) (V c (Pipeline.arrRef spec6 1)) (V c (Pipeline.arrRef spec6 2))
          (V c (Pipeline.arrRef spec6 3)) (V c (Pipeline.arrRef spec6 4)) (V c (Pipeline.arrRef spec6 5))
          (V c (Pipeline.arrRef spec6 6)) :=
  (dat6 (F := Ideal) V c).arrAt_eq_of_cover 7 (Region6.scoreArr V c) (fun t _ => Region6.flushed7_eq V c t) Region6.cover7

end Cert.KernelIdeal.Val

end
-- ==== Proof.ChainFin.lean ====
/-
  The end of the idealized kernel program, after the fourth round of messages. The messages are summed at their
  destination nodes into the last node table; that table is gathered at the source and at the destination node of every
  edge; the score network's first weight matrix is cut into its two 64-row halves and its biases reshaped; the score
  launch turns these into one score per edge, as a column; and the column is flattened. Every step is read as the
  function of the argument arrays it computes, so the program's result is `scoreCol` of the last node table, flattened.
-/
import proofs.«418908_j25941602468191_1_alg».proof.Proof.ChainBase
import proofs.«418908_j25941602468191_1_alg».proof.Proof.Region6
import Idealize.ShloMosaic.Lib.StableHlo.Run

set_option maxRecDepth 16384

noncomputable section

namespace Cert.KernelIdeal.Val

open Idealize.ShloMosaic Idealize.ShloMosaic.TcCoe Idealize.ShloMosaic.StableHlo Cert.KernelIdeal Cert.KernelIdeal.Gen
open Cert.KernelIdeal.Facts₀ Cert.KernelIdeal.Facts

variable (m : (ℓ : Loc nD τ sig) → Buf (Elt Ideal) ℓ) (ρ : Dev nD → PrngReg)

/-! ## Transport along a buffer's type

An operation of an inlined function reads and writes its buffers through a transport along the buffer's type; at a
literal buffer the transport is the identity. -/

private theorem ofBuf_toBuf_fin {sig : RefSig} {Val : EltTy → Type} {T : BufTy} (x : StableHlo.TRef sig T) (v : T.Contents Val) :
    x.ofBuf (x.toBuf v) = v := by
  obtain ⟨ref, rfl, od, us⟩ := x
  rfl

private theorem ofBuf_fin_v1 (p q r) (v : IVec S800000 32) :
    (TRef.of (T := ⟨S800000, .i32⟩) main_v1 p q r).ofBuf (Val := Elt Ideal) v = v := rfl
private theorem ofBuf_fin_v3 (p q r) (v : IVec S800000 32) :
    (TRef.of (T := ⟨S800000, .i32⟩) main_v3 p q r).ofBuf (Val := Elt Ideal) v = v := rfl
private theorem ofBuf_fin_v79 (p q r) (v : FVec Ideal S50000x64 .f32) :
    (TRef.of (T := ⟨S50000x64, .f32⟩) main_v79 p q r).ofBuf (Val := Elt Ideal) v = v := rfl
private theorem toBuf_fin_v80 (p q r) (v : FVec Ideal S800000x64 .f32) :
    (TRef.of (T := ⟨S800000x64, .f32⟩) main_v80 p q r).toBuf (Val := Elt Ideal) v = v := rfl
private theorem toBuf_fin_v81 (p q r) (v : FVec Ideal S800000x64 .f32) :
    (TRef.of (T := ⟨S800000x64, .f32⟩) main_v81 p q r).toBuf (Val := Elt Ideal) v = v := rfl

/-! ## The arrays the score launch finds -/

set_option maxHeartbeats 4000000 in
/-- The node table after the last round, gathered at the source row, as the score launch finds it. -/
theorem fin_v80 (c : Dev nD) (mm ea : FVec Ideal S800000x64 .f32)
    (hm : W23 m ρ c (Proc.devRef .tc main_v76) = mm) (hL : Live m c (W23 m ρ c) ea) :
    W27 m ρ c (Proc.devRef .tc main_v80)
      = takeK (segSum (dstRow (argAt m c main_arg2)) mm) (srcRow (argAt m c main_arg2)) := by
  show StableHlo.after hostOps6_3 (StableHlo.after hostOps6_2 (StableHlo.after hostOps6_1 (StableHlo.after hostOps6 (W23 m ρ c)))) (Proc.devRef .tc main_v80) = _
  after_results_simp
  simp only [ofBuf_toBuf_fin]
  rw [hm, hL.dst, hL.src]
  simp only [ofBuf_fin_v1, ofBuf_fin_v79, toBuf_fin_v80]
  rfl

set_option maxHeartbeats 4000000 in
/-- The same table gathered at the destination row. -/
theorem fin_v81 (c : Dev nD) (mm ea : FVec Ideal S800000x64 .f32)
    (hm : W23 m ρ c (Proc.devRef .tc main_v76) = mm) (hL : Live m c (W23 m ρ c) ea) :
    W27 m ρ c (Proc.devRef .tc main_v81)
      = takeK (segSum (dstRow (argAt m c main_arg2)) mm) (dstRow (argAt m c main_arg2)) := by
  show StableHlo.after hostOps6_3 (StableHlo.after hostOps6_2 (StableHlo.after hostOps6_1 (StableHlo.after hostOps6 (W23 m ρ c)))) (Proc.devRef .tc main_v81) = _
  after_results_simp
  simp only [ofBuf_toBuf_fin]
  rw [hm, hL.dst]
  simp only [ofBuf_fin_v3, ofBuf_fin_v79, toBuf_fin_v81]
  rfl

set_option maxHeartbeats 4000000 in
/-- Rows 0–63 of the score network's first weight matrix (they meet the source rows). -/
theorem fin_v82 (c : Dev nD) (ea : FVec Ideal S800000x64 .f32) (hL : Live m c (W23 m ρ c) ea) :
    W27 m ρ c (Proc.devRef .tc main_v82)
      = extractStridedSlice S64x64 ![0, 0] (argAt m c main_arg11 : FVec Ideal S128x64 .f32) Facts₀.slices_S128x64_S64x64_0_0 := by
  show StableHlo.after hostOps6_3 (StableHlo.after hostOps6_2 (StableHlo.after hostOps6_1 (StableHlo.after hostOps6 (W23 m ρ c)))) (Proc.devRef .tc main_v82) = _
  after_results_simp
  rw [hL.a11]

set_option maxHeartbeats 4000000 in
/-- Rows 64–127 of it (they meet the destination rows). -/
theorem fin_v83 (c : Dev nD) (ea : FVec Ideal S800000x64 .f32) (hL : Live m c (W23 m ρ c) ea) :
    W27 m ρ c (Proc.devRef .tc main_v83)
      = extractStridedSlice S64x64 ![64, 0] (argAt m c main_arg11 : FVec Ideal S128x64 .f32) Facts₀.slices_S128x64_S64x64_64_0 := by
  show StableHlo.after hostOps6_3 (StableHlo.after hostOps6_2 (StableHlo.after hostOps6_1 (StableHlo.after hostOps6 (W23 m ρ c)))) (Proc.devRef .tc main_v83) = _
  after_results_simp
  rw [hL.a11]

set_option maxHeartbeats 4000000 in
/-- The hidden bias as a row. -/
theorem fin_v84 (c : Dev nD) (ea : FVec Ideal S800000x64 .f32) (hL : Live m c (W23 m ρ c) ea) :
    W27 m ρ c (Proc.devRef .tc main_v84) = rowOf (argAt m c main_arg12) := by
  show StableHlo.after hostOps6_3 (StableHlo.after hostOps6_2 (StableHlo.after hostOps6_1 (StableHlo.after hostOps6 (W23 m ρ c)))) (Proc.devRef .tc main_v84) = _
  after_results_simp
  rw [hL.a12]
  rfl

set_option maxHeartbeats 4000000 in
/-- The output bias as a 1 × 1 array. -/
theorem fin_v85 (c : Dev nD) (ea : FVec Ideal S800000x64 .f32) (hL : Live m c (W23 m ρ c) ea) :
    W27 m ρ c (Proc.devRef .tc main_v85)
      = shapeCast S1x1 (argAt m c main_arg14 : FVec Ideal S1 .f32) Facts₀.shapeCasts_S1_S1x1 := by
  show StableHlo.after hostOps6_3 (StableHlo.after hostOps6_2 (StableHlo.after hostOps6_1 (StableHlo.after hostOps6 (W23 m ρ c)))) (Proc.devRef .tc main_v85) = _
  after_results_simp
  rw [hL.a14]
  rfl

set_option maxHeartbeats 4000000 in
/-- The output column is the argument itself. -/
theorem fin_arg13 (c : Dev nD) (ea : FVec Ideal S800000x64 .f32) (hL : Live m c (W23 m ρ c) ea) :
    W27 m ρ c (Proc.devRef .tc main_arg13) = argAt m c main_arg13 := by
  show StableHlo.after hostOps6_3 (StableHlo.after hostOps6_2 (StableHlo.after hostOps6_1 (StableHlo.after hostOps6 (W23 m ρ c)))) (Proc.devRef .tc main_arg13) = _
  after_results_simp
  exact hL.a13

/-! ## The result -/

set_option maxHeartbeats 4000000 in
/-- The scores the program returns: the last round's messages summed at their destination nodes give the last node
    table; its rows at the two ends of every edge, with the score network's parameters, go through the score launch,
    whose one-column result is flattened to one entry per edge. -/
theorem final (c : Dev nD) (mm ea : FVec Ideal S800000x64 .f32)
    (hm : W23 m ρ c (Proc.devRef .tc main_v76) = mm) (hL : Live m c (W23 m ρ c) ea) :
    W29 m ρ c (Proc.devRef .tc main_v87)
      = shapeCast S800000 (scoreCol takeK (segSum (dstRow (argAt m c main_arg2)) mm) (argAt m c main_arg2) (argAt m c main_arg11) (argAt m c main_arg12) (argAt m c main_arg13) (argAt m c main_arg14)) Facts₀.shapeCasts_S800000x1_S800000 := by
  have h86 : W28 m ρ c (Proc.devRef .tc main_v86)
      = scoreCol takeK (segSum (dstRow (argAt m c main_arg2)) mm) (argAt m c main_arg2) (argAt m c main_arg11) (argAt m c main_arg12) (argAt m c main_arg13) (argAt m c main_arg14) := by
    refine (W28_arr m ρ c 7).trans ((region6 (V27 m ρ) c).trans ?_)
    show Cert.Spec.score (W27 m ρ c (Proc.devRef .tc main_v80)) (W27 m ρ c (Proc.devRef .tc main_v81))
      (W27 m ρ c (Proc.devRef .tc main_v82)) (W27 m ρ c (Proc.devRef .tc main_v83)) (W27 m ρ c (Proc.devRef .tc main_v84))
      (W27 m ρ c (Proc.devRef .tc main_arg13)) (W27 m ρ c (Proc.devRef .tc main_v85)) = _
    rw [fin_v80 m ρ c mm ea hm hL, fin_v81 m ρ c mm ea hm hL, fin_v82 m ρ c ea hL, fin_v83 m ρ c ea hL,
      fin_v84 m ρ c ea hL, fin_arg13 m ρ c ea hL, fin_v85 m ρ c ea hL]
    rfl
  show StableHlo.after hostOps7 (W28 m ρ c) (Proc.devRef .tc main_v87) = _
  after_results
  rw [h86]
  rfl

end Cert.KernelIdeal.Val

end
-- ==== Proof.KernelValue.lean ====
/-
  The idealized kernel program's result, as one function of its arguments: the start of the run, the four rounds and the
  final scores chained boundary to boundary.  The result buffer's last contents are `resultWith takeK` of the launch
  contents of the fifteen argument buffers.
-/
import proofs.«418908_j25941602468191_1_alg».proof.Proof.ChainBase
import proofs.«418908_j25941602468191_1_alg».proof.Proof.ChainHead
import proofs.«418908_j25941602468191_1_alg».proof.Proof.ChainL0
import proofs.«418908_j25941602468191_1_alg».proof.Proof.ChainL1
import proofs.«418908_j25941602468191_1_alg».proof.Proof.ChainL2
import proofs.«418908_j25941602468191_1_alg».proof.Proof.ChainL3
import proofs.«418908_j25941602468191_1_alg».proof.Proof.ChainFin
import Idealize.ShloMosaic.Lib.StableHlo.Run

set_option maxRecDepth 16384

noncomputable section

namespace Cert.KernelIdeal.Val

open Idealize.ShloMosaic Idealize.ShloMosaic.TcCoe Idealize.ShloMosaic.StableHlo Cert.KernelIdeal Cert.KernelIdeal.Gen
open Cert.KernelIdeal.Facts₀ Cert.KernelIdeal.Facts

variable (m : (ℓ : Loc nD τ sig) → Buf (Elt Ideal) ℓ) (ρ : Dev nD → PrngReg)

theorem kernel_value (c : Dev nD) :
    W29 m ρ c (Proc.devRef .tc main_v87) = resultWith takeK (argAt m c main_arg0) (argAt m c main_arg1) (argAt m c main_arg2)
      (argAt m c main_arg3) (argAt m c main_arg4) (argAt m c main_arg5) (argAt m c main_arg6) (argAt m c main_arg7)
      (argAt m c main_arg8) (argAt m c main_arg9) (argAt m c main_arg10) (argAt m c main_arg11) (argAt m c main_arg12)
      (argAt m c main_arg13) (argAt m c main_arg14) := by
  obtain ⟨hh, hL4⟩ := head m ρ c
  obtain ⟨v0, hL8⟩ := layer0 m ρ c _ _ hh hL4
  obtain ⟨v1, hL13⟩ := layer1 m ρ c _ _ v0 hL8
  obtain ⟨v2, hL18⟩ := layer2 m ρ c _ _ v1 hL13
  obtain ⟨v3, hL23⟩ := layer3 m ρ c _ _ v2 hL18
  exact final m ρ c _ _ v3 hL23

end Cert.KernelIdeal.Val

end
-- ==== Proof.RefOps.lean ====
/-
  The idealized reference program as a list of host operations, cut into six consecutive stretches — the two tables, the
  four rounds, the final scores — and its run: every weakly fair execution ends with each buffer at the stretches'
  fold from the launch memory.  The fold is named boundary by boundary (`R0` … `R6`), so that what a later stretch
  reads of an earlier one can be stated once and cited, not recomputed.
-/
import proofs.«418908_j25941602468191_1_alg».proof.Proof.Gen.ReferenceIdeal
import Idealize.ShloMosaic.Lib.StableHlo.Run

noncomputable section

namespace Cert.ReferenceIdeal.RefVal

open Cert.ReferenceIdeal Cert.ReferenceIdeal.Gen Idealize.ShloMosaic Idealize.ShloMosaic.TcCoe Idealize.SL.Sem Idealize.ShloMosaic.StableHlo

variable {F : FTy → Type} [FloatOps F]

/-- The two index rows, the node table and the edge table. -/
abbrev segH : List (HloOp τ sig (Elt F)) :=
  [ unary main_arg2 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg2 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    binary main_arg0 main_arg3 main_v4 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg4 main_v5 (broadcastInDim S1x64 ![1] bcast_S64_S1x64_1 : (⟨S64, .f32⟩ : BufTy).Contents (Elt F) → (⟨S1x64, .f32⟩ : BufTy).Contents (Elt F)),
    unary main_v5 main_v6 (broadcastInDim S50000x64 ![0, 1] bcast_S1x64_S50000x64_0_1 : (⟨S1x64, .f32⟩ : BufTy).Contents (Elt F) → (⟨S50000x64, .f32⟩ : BufTy).Contents (Elt F)),
    binary main_v4 main_v6 main_v7 (addf : (⟨S50000x64, .f32⟩ : BufTy).Contents (Elt F) → (⟨S50000x64, .f32⟩ : BufTy).Contents (Elt F) → (⟨S50000x64, .f32⟩ : BufTy).Contents (Elt F)),
    binary main_arg1 main_arg5 main_v8 ((fun l r => Host.dotGeneral dot_S800000x32_S32x64_S800000x64_1_0_0_1_n_n none l r) : (⟨S800000x32, .f32⟩ : BufTy).Contents (Elt F) → (⟨S32x64, .f32⟩ : BufTy).Contents (Elt F) → (⟨S800000x64, .f32⟩ : BufTy).Contents (Elt F)),
    unary main_arg6 main_v9 (broadcastInDim S1x64 ![1] bcast_S64_S1x64_1 : (⟨S64, .f32⟩ : BufTy).Contents (Elt F) → (⟨S1x64, .f32⟩ : BufTy).Contents (Elt F)),
    unary main_v9 main_v10 (broadcastInDim S800000x64 ![0, 1] bcast_S1x64_S800000x64_0_1 : (⟨S1x64, .f32⟩ : BufTy).Contents (Elt F) → (⟨S800000x64, .f32⟩ : BufTy).Contents (Elt F)),
    binary main_v8 main_v10 main_v11 (addf : (⟨S800000x64, .f32⟩ : BufTy).Contents (Elt F) → (⟨S800000x64, .f32⟩ : BufTy).Contents (Elt F) → (⟨S800000x64, .f32⟩ : BufTy).Contents (Elt F)) ]

/-- Round 0: two gathers, the per-edge map, the sum at the destinations. -/
abbrev segL0 : List (HloOp τ sig (Elt F)) :=
  [ nullary main_c (constantI S_ 32 0#32),
    unary main_c main_v12 (broadcastInDim S800000 ![] bcast_S_S800000 : (⟨S_, .i32⟩ : BufTy).Contents (Elt F) → (⟨S800000, .i32⟩ : BufTy).Contents (Elt F)),
    binary main_v3 main_v12 main_v13 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v14 (broadcastInDim S800000 ![] bcast_S_S800000 : (⟨S_, .i32⟩ : BufTy).Contents (Elt F) → (⟨S800000, .i32⟩ : BufTy).Contents (Elt F)),
    binary main_v3 main_v14 main_v15 (addi : (⟨S800000, .i32⟩ : BufTy).Contents (Elt F) → (⟨S800000, .i32⟩ : BufTy).Contents (Elt F) → (⟨S800000, .i32⟩ : BufTy).Contents (Elt F)),
    ternary main_v13 main_v15 main_v3 main_v16 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v16 main_v17 (broadcastInDim S800000x1 ![0] bcast_S800000_S800000x1_0 : (⟨S800000, .i32⟩ : BufTy).Contents (Elt F) → (⟨S800000x1, .i32⟩ : BufTy).Contents (Elt F)),
    binary main_v7 main_v17 main_v18 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_c_1 (constantI S_ 32 0#32),
    unary main_c_1 main_v19 (broadcastInDim S800000 ![] bcast_S_S800000 : (⟨S_, .i32⟩ : BufTy).Contents (Elt F) → (⟨S800000, .i32⟩ : BufTy).Contents (Elt F)),
    binary main_v1 main_v19 main_v20 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v21 (broadcastInDim S800000 ![] bcast_S_S800000 : (⟨S_, .i32⟩ : BufTy).Contents (Elt F) → (⟨S800000, .i32⟩ : BufTy).Contents (Elt F)),
    binary main_v1 main_v21 main_v22 (addi : (⟨S800000, .i32⟩ : BufTy).Contents (Elt F) → (⟨S800000, .i32⟩ : BufTy).Contents (Elt F) → (⟨S800000, .i32⟩ : BufTy).Contents (Elt F)),
    ternary main_v20 main_v22 main_v1 main_v23 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v23 main_v24 (broadcastInDim S800000x1 ![0] bcast_S800000_S800000x1_0 : (⟨S800000, .i32⟩ : BufTy).Contents (Elt F) → (⟨S800000x1, .i32⟩ : BufTy).Contents (Elt F)),
    binary main_v7 main_v24 main_v25 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    binary main_v18 main_v25 main_v26 (addf : (⟨S800000x64, .f32⟩ : BufTy).Contents (Elt F) → (⟨S800000x64, .f32⟩ : BufTy).Contents (Elt F) → (⟨S800000x64, .f32⟩ : BufTy).Contents (Elt F)),
    binary main_v26 main_v11 main_v27 ((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)),
    unary main_arg7 main_v28 ((extractStridedSlice S1x128x64 ![0, 0, 0] · slices_S4x128x64_S1x128x64_0_0_0) : (⟨S4x128x64, .f32⟩ : BufTy).Contents (Elt F) → (⟨S1x128x64, .f32⟩ : BufTy).Contents (Elt F)),
    reshape main_v28 main_v29 rfl shapeCasts_S1x128x64_S128x64,
    binary main_v27 main_v29 main_v30 ((fun l r => Host.dotGeneral dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)),
    unary main_arg8 main_v31 ((extractStridedSlice S1x64 ![0, 0] · slices_S4x64_S1x64_0_0) : (⟨S4x64, .f32⟩ : BufTy).Contents (Elt F) → (⟨S1x64, .f32⟩ : BufTy).Contents (Elt F)),
    reshape main_v31 main_v32 rfl shapeCasts_S1x64_S64,
    unary main_v32 main_v33 (broadcastInDim S1x64 ![1] bcast_S64_S1x64_1 : (⟨S64, .f32⟩ : BufTy).Contents (Elt F) → (⟨S1x64, .f32⟩ : BufTy).Contents (Elt F)),
    unary main_v33 main_v34 (broadcastInDim S800000x64 ![0, 1] bcast_S1x64_S800000x64_0_1 : (⟨S1x64, .f32⟩ : BufTy).Contents (Elt F) → (⟨S800000x64, .f32⟩ : BufTy).Contents (Elt F)),
    binary main_v30 main_v34 main_v35 (addf : (⟨S800000x64, .f32⟩ : BufTy).Contents (Elt F) → (⟨S800000x64, .f32⟩ : BufTy).Contents (Elt F) → (⟨S800000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S800000x64, .f32⟩) main_call0_v0) (broadcastInDim S800000x64 ![] bcast_S_S800000x64),
    TRef.binary (TRef.of (T := ⟨S800000x64, .f32⟩) main_v35) (TRef.of (T := ⟨S800000x64, .f32⟩) main_call0_v0) (TRef.of (T := ⟨S800000x64, .f32⟩) main_v36) maximumf,
    unary main_arg9 main_v37 ((extractStridedSlice S1x64x64 ![0, 0, 0] · slices_S4x64x64_S1x64x64_0_0_0) : (⟨S4x64x64, .f32⟩ : BufTy).Contents (Elt F) → (⟨S1x64x64, .f32⟩ : BufTy).Contents (Elt F)),
    reshape main_v37 main_v38 rfl shapeCasts_S1x64x64_S64x64,
    binary main_v36 main_v38 main_v39 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    unary main_arg10 main_v40 ((extractStridedSlice S1x64 ![0, 0] · slices_S4x64_S1x64_0_0) : (⟨S4x64, .f32⟩ : BufTy).Contents (Elt F) → (⟨S1x64, .f32⟩ : BufTy).Contents (Elt F)),
    reshape main_v40 main_v41 rfl shapeCasts_S1x64_S64,
    unary main_v41 main_v42 (broadcastInDim S1x64 ![1] bcast_S64_S1x64_1 : (⟨S64, .f32⟩ : BufTy).Contents (Elt F) → (⟨S1x64, .f32⟩ : BufTy).Contents (Elt F)),
    unary main_v42 main_v43 (broadcastInDim S800000x64 ![0, 1] bcast_S1x64_S800000x64_0_1 : (⟨S1x64, .f32⟩ : BufTy).Contents (Elt F) → (⟨S800000x64, .f32⟩ : BufTy).Contents (Elt F)),
    binary main_v39 main_v43 main_v44 (addf : (⟨S800000x64, .f32⟩ : BufTy).Contents (Elt F) → (⟨S800000x64, .f32⟩ : BufTy).Contents (Elt F) → (⟨S800000x64, .f32⟩ : BufTy).Contents (Elt F)),
    nullary main_cst (constant S_ .f32 0x00000000#32),
    unary main_cst main_v45 (broadcastInDim S50000x64 ![] bcast_S_S50000x64 : (⟨S_, .f32⟩ : BufTy).Contents (Elt F) → (⟨S50000x64, .f32⟩ : BufTy).Contents (Elt F)),
    unary main_v3 main_v46 (broadcastInDim S800000x1 ![0] bcast_S800000_S800000x1_0 : (⟨S800000, .i32⟩ : BufTy).Contents (Elt F) → (⟨S800000x1, .i32⟩ : BufTy).Contents (Elt F)),
    ternary main_v45 main_v46 main_v44 main_v47 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ]

/-- Round 1. -/
abbrev segL1 : List (HloOp τ sig (Elt F)) :=
  [ nullary main_c_3 (constantI S_ 32 0#32),
    unary main_c_3 main_v48 (broadcastInDim S800000 ![] bcast_S_S800000 : (⟨S_, .i32⟩ : BufTy).Contents (Elt F) → (⟨S800000, .i32⟩ : BufTy).Contents (Elt F)),
    binary main_v3 main_v48 main_v49 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v50 (broadcastInDim S800000 ![] bcast_S_S800000 : (⟨S_, .i32⟩ : BufTy).Contents (Elt F) → (⟨S800000, .i32⟩ : BufTy).Contents (Elt F)),
    binary main_v3 main_v50 main_v51 (addi : (⟨S800000, .i32⟩ : BufTy).Contents (Elt F) → (⟨S800000, .i32⟩ : BufTy).Contents (Elt F) → (⟨S800000, .i32⟩ : BufTy).Contents (Elt F)),
    ternary main_v49 main_v51 main_v3 main_v52 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v52 main_v53 (broadcastInDim S800000x1 ![0] bcast_S800000_S800000x1_0 : (⟨S800000, .i32⟩ : BufTy).Contents (Elt F) → (⟨S800000x1, .i32⟩ : BufTy).Contents (Elt F)),
    binary main_v47 main_v53 main_v54 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_c_5 (constantI S_ 32 0#32),
    unary main_c_5 main_v55 (broadcastInDim S800000 ![] bcast_S_S800000 : (⟨S_, .i32⟩ : BufTy).Contents (Elt F) → (⟨S800000, .i32⟩ : BufTy).Contents (Elt F)),
    binary main_v1 main_v55 main_v56 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v57 (broadcastInDim S800000 ![] bcast_S_S800000 : (⟨S_, .i32⟩ : BufTy).Contents (Elt F) → (⟨S800000, .i32⟩ : BufTy).Contents (Elt F)),
    binary main_v1 main_v57 main_v58 (addi : (⟨S800000, .i32⟩ : BufTy).Contents (Elt F) → (⟨S800000, .i32⟩ : BufTy).Contents (Elt F) → (⟨S800000, .i32⟩ : BufTy).Contents (Elt F)),
    ternary main_v56 main_v58 main_v1 main_v59 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v59 main_v60 (broadcastInDim S800000x1 ![0] bcast_S800000_S800000x1_0 : (⟨S800000, .i32⟩ : BufTy).Contents (Elt F) → (⟨S800000x1, .i32⟩ : BufTy).Contents (Elt F)),
    binary main_v47 main_v60 main_v61 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    binary main_v54 main_v61 main_v62 (addf : (⟨S800000x64, .f32⟩ : BufTy).Contents (Elt F) → (⟨S800000x64, .f32⟩ : BufTy).Contents (Elt F) → (⟨S800000x64, .f32⟩ : BufTy).Contents (Elt F)),
    binary main_v62 main_v11 main_v63 ((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)),
    unary main_arg7 main_v64 ((extractStridedSlice S1x128x64 ![1, 0, 0] · slices_S4x128x64_S1x128x64_1_0_0) : (⟨S4x128x64, .f32⟩ : BufTy).Contents (Elt F) → (⟨S1x128x64, .f32⟩ : BufTy).Contents (Elt F)),
    reshape main_v64 main_v65 rfl shapeCasts_S1x128x64_S128x64,
    binary main_v63 main_v65 main_v66 ((fun l r => Host.dotGeneral dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)),
    unary main_arg8 main_v67 ((extractStridedSlice S1x64 ![1, 0] · slices_S4x64_S1x64_1_0) : (⟨S4x64, .f32⟩ : BufTy).Contents (Elt F) → (⟨S1x64, .f32⟩ : BufTy).Contents (Elt F)),
    reshape main_v67 main_v68 rfl shapeCasts_S1x64_S64,
    unary main_v68 main_v69 (broadcastInDim S1x64 ![1] bcast_S64_S1x64_1 : (⟨S64, .f32⟩ : BufTy).Contents (Elt F) → (⟨S1x64, .f32⟩ : BufTy).Contents (Elt F)),
    unary main_v69 main_v70 (broadcastInDim S800000x64 ![0, 1] bcast_S1x64_S800000x64_0_1 : (⟨S1x64, .f32⟩ : BufTy).Contents (Elt F) → (⟨S800000x64, .f32⟩ : BufTy).Contents (Elt F)),
    binary main_v66 main_v70 main_v71 (addf : (⟨S800000x64, .f32⟩ : BufTy).Contents (Elt F) → (⟨S800000x64, .f32⟩ : BufTy).Contents (Elt F) → (⟨S800000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S800000x64, .f32⟩) main_call1_v0) (broadcastInDim S800000x64 ![] bcast_S_S800000x64),
    TRef.binary (TRef.of (T := ⟨S800000x64, .f32⟩) main_v71) (TRef.of (T := ⟨S800000x64, .f32⟩) main_call1_v0) (TRef.of (T := ⟨S800000x64, .f32⟩) main_v72) maximumf,
    unary main_arg9 main_v73 ((extractStridedSlice S1x64x64 ![1, 0, 0] · slices_S4x64x64_S1x64x64_1_0_0) : (⟨S4x64x64, .f32⟩ : BufTy).Contents (Elt F) → (⟨S1x64x64, .f32⟩ : BufTy).Contents (Elt F)),
    reshape main_v73 main_v74 rfl shapeCasts_S1x64x64_S64x64,
    binary main_v72 main_v74 main_v75 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    unary main_arg10 main_v76 ((extractStridedSlice S1x64 ![1, 0] · slices_S4x64_S1x64_1_0) : (⟨S4x64, .f32⟩ : BufTy).Contents (Elt F) → (⟨S1x64, .f32⟩ : BufTy).Contents (Elt F)),
    reshape main_v76 main_v77 rfl shapeCasts_S1x64_S64,
    unary main_v77 main_v78 (broadcastInDim S1x64 ![1] bcast_S64_S1x64_1 : (⟨S64, .f32⟩ : BufTy).Contents (Elt F) → (⟨S1x64, .f32⟩ : BufTy).Contents (Elt F)),
    unary main_v78 main_v79 (broadcastInDim S800000x64 ![0, 1] bcast_S1x64_S800000x64_0_1 : (⟨S1x64, .f32⟩ : BufTy).Contents (Elt F) → (⟨S800000x64, .f32⟩ : BufTy).Contents (Elt F)),
    binary main_v75 main_v79 main_v80 (addf : (⟨S800000x64, .f32⟩ : BufTy).Contents (Elt F) → (⟨S800000x64, .f32⟩ : BufTy).Contents (Elt F) → (⟨S800000x64, .f32⟩ : BufTy).Contents (Elt F)),
    nullary main_cst_7 (constant S_ .f32 0x00000000#32),
    unary main_cst_7 main_v81 (broadcastInDim S50000x64 ![] bcast_S_S50000x64 : (⟨S_, .f32⟩ : BufTy).Contents (Elt F) → (⟨S50000x64, .f32⟩ : BufTy).Contents (Elt F)),
    unary main_v3 main_v82 (broadcastInDim S800000x1 ![0] bcast_S800000_S800000x1_0 : (⟨S800000, .i32⟩ : BufTy).Contents (Elt F) → (⟨S800000x1, .i32⟩ : BufTy).Contents (Elt F)),
    ternary main_v81 main_v82 main_v80 main_v83 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ]

/-- Round 2. -/
abbrev segL2 : List (HloOp τ sig (Elt F)) :=
  [ nullary main_c_8 (constantI S_ 32 0#32),
    unary main_c_8 main_v84 (broadcastInDim S800000 ![] bcast_S_S800000 : (⟨S_, .i32⟩ : BufTy).Contents (Elt F) → (⟨S800000, .i32⟩ : BufTy).Contents (Elt F)),
    binary main_v3 main_v84 main_v85 (cmpi .slt : (⟨S800000, .i32⟩ : BufTy).Contents (Elt F) → (⟨S800000, .i32⟩ : BufTy).Contents (Elt F) → (⟨S800000, .i1⟩ : BufTy).Contents (Elt F)),
    nullary main_c_9 (constantI S_ 32 50000#32),
    unary main_c_9 main_v86 (broadcastInDim S800000 ![] bcast_S_S800000 : (⟨S_, .i32⟩ : BufTy).Contents (Elt F) → (⟨S800000, .i32⟩ : BufTy).Contents (Elt F)),
    binary main_v3 main_v86 main_v87 (addi : (⟨S800000, .i32⟩ : BufTy).Contents (Elt F) → (⟨S800000, .i32⟩ : BufTy).Contents (Elt F) → (⟨S800000, .i32⟩ : BufTy).Contents (Elt F)),
    ternary main_v85 main_v87 main_v3 main_v88 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v88 main_v89 (broadcastInDim S800000x1 ![0] bcast_S800000_S800000x1_0 : (⟨S800000, .i32⟩ : BufTy).Contents (Elt F) → (⟨S800000x1, .i32⟩ : BufTy).Contents (Elt F)),
    binary main_v83 main_v89 main_v90 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_c_10 (constantI S_ 32 0#32),
    unary main_c_10 main_v91 (broadcastInDim S800000 ![] bcast_S_S800000 : (⟨S_, .i32⟩ : BufTy).Contents (Elt F) → (⟨S800000, .i32⟩ : BufTy).Contents (Elt F)),
    binary main_v1 main_v91 main_v92 (cmpi .slt : (⟨S800000, .i32⟩ : BufTy).Contents (Elt F) → (⟨S800000, .i32⟩ : BufTy).Contents (Elt F) → (⟨S800000, .i1⟩ : BufTy).Contents (Elt F)),
    nullary main_c_11 (constantI S_ 32 50000#32),
    unary main_c_11 main_v93 (broadcastInDim S800000 ![] bcast_S_S800000 : (⟨S_, .i32⟩ : BufTy).Contents (Elt F) → (⟨S800000, .i32⟩ : BufTy).Contents (Elt F)),
    binary main_v1 main_v93 main_v94 (addi : (⟨S800000, .i32⟩ : BufTy).Contents (Elt F) → (⟨S800000, .i32⟩ : BufTy).Contents (Elt F) → (⟨S800000, .i32⟩ : BufTy).Contents (Elt F)),
    ternary main_v92 main_v94 main_v1 main_v95 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v95 main_v96 (broadcastInDim S800000x1 ![0] bcast_S800000_S800000x1_0 : (⟨S800000, .i32⟩ : BufTy).Contents (Elt F) → (⟨S800000x1, .i32⟩ : BufTy).Contents (Elt F)),
    binary main_v83 main_v96 main_v97 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    binary main_v90 main_v97 main_v98 (addf : (⟨S800000x64, .f32⟩ : BufTy).Contents (Elt F) → (⟨S800000x64, .f32⟩ : BufTy).Contents (Elt F) → (⟨S800000x64, .f32⟩ : BufTy).Contents (Elt F)),
    binary main_v98 main_v11 main_v99 ((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)),
    unary main_arg7 main_v100 ((extractStridedSlice S1x128x64 ![2, 0, 0] · slices_S4x128x64_S1x128x64_2_0_0) : (⟨S4x128x64, .f32⟩ : BufTy).Contents (Elt F) → (⟨S1x128x64, .f32⟩ : BufTy).Contents (Elt F)),
    reshape main_v100 main_v101 rfl shapeCasts_S1x128x64_S128x64,
    binary main_v99 main_v101 main_v102 ((fun l r => Host.dotGeneral dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)),
    unary main_arg8 main_v103 ((extractStridedSlice S1x64 ![2, 0] · slices_S4x64_S1x64_2_0) : (⟨S4x64, .f32⟩ : BufTy).Contents (Elt F) → (⟨S1x64, .f32⟩ : BufTy).Contents (Elt F)),
    reshape main_v103 main_v104 rfl shapeCasts_S1x64_S64,
    unary main_v104 main_v105 (broadcastInDim S1x64 ![1] bcast_S64_S1x64_1 : (⟨S64, .f32⟩ : BufTy).Contents (Elt F) → (⟨S1x64, .f32⟩ : BufTy).Contents (Elt F)),
    unary main_v105 main_v106 (broadcastInDim S800000x64 ![0, 1] bcast_S1x64_S800000x64_0_1 : (⟨S1x64, .f32⟩ : BufTy).Contents (Elt F) → (⟨S800000x64, .f32⟩ : BufTy).Contents (Elt F)),
    binary main_v102 main_v106 main_v107 (addf : (⟨S800000x64, .f32⟩ : BufTy).Contents (Elt F) → (⟨S800000x64, .f32⟩ : BufTy).Contents (Elt F) → (⟨S800000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S800000x64, .f32⟩) main_call2_v0) (broadcastInDim S800000x64 ![] bcast_S_S800000x64),
    TRef.binary (TRef.of (T := ⟨S800000x64, .f32⟩) main_v107) (TRef.of (T := ⟨S800000x64, .f32⟩) main_call2_v0) (TRef.of (T := ⟨S800000x64, .f32⟩) main_v108) maximumf,
    unary main_arg9 main_v109 ((extractStridedSlice S1x64x64 ![2, 0, 0] · slices_S4x64x64_S1x64x64_2_0_0) : (⟨S4x64x64, .f32⟩ : BufTy).Contents (Elt F) → (⟨S1x64x64, .f32⟩ : BufTy).Contents (Elt F)),
    reshape main_v109 main_v110 rfl shapeCasts_S1x64x64_S64x64,
    binary main_v108 main_v110 main_v111 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    unary main_arg10 main_v112 ((extractStridedSlice S1x64 ![2, 0] · slices_S4x64_S1x64_2_0) : (⟨S4x64, .f32⟩ : BufTy).Contents (Elt F) → (⟨S1x64, .f32⟩ : BufTy).Contents (Elt F)),
    reshape main_v112 main_v113 rfl shapeCasts_S1x64_S64,
    unary main_v113 main_v114 (broadcastInDim S1x64 ![1] bcast_S64_S1x64_1 : (⟨S64, .f32⟩ : BufTy).Contents (Elt F) → (⟨S1x64, .f32⟩ : BufTy).Contents (Elt F)),
    unary main_v114 main_v115 (broadcastInDim S800000x64 ![0, 1] bcast_S1x64_S800000x64_0_1 : (⟨S1x64, .f32⟩ : BufTy).Contents (Elt F) → (⟨S800000x64, .f32⟩ : BufTy).Contents (Elt F)),
    binary main_v111 main_v115 main_v116 (addf : (⟨S800000x64, .f32⟩ : BufTy).Contents (Elt F) → (⟨S800000x64, .f32⟩ : BufTy).Contents (Elt F) → (⟨S800000x64, .f32⟩ : BufTy).Contents (Elt F)),
    nullary main_cst_12 (constant S_ .f32 0x00000000#32),
    unary main_cst_12 main_v117 (broadcastInDim S50000x64 ![] bcast_S_S50000x64 : (⟨S_, .f32⟩ : BufTy).Contents (Elt F) → (⟨S50000x64, .f32⟩ : BufTy).Contents (Elt F)),
    unary main_v3 main_v118 (broadcastInDim S800000x1 ![0] bcast_S800000_S800000x1_0 : (⟨S800000, .i32⟩ : BufTy).Contents (Elt F) → (⟨S800000x1, .i32⟩ : BufTy).Contents (Elt F)),
    ternary main_v117 main_v118 main_v116 main_v119 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ]

/-- Round 3. -/
abbrev segL3 : List (HloOp τ sig (Elt F)) :=
  [ nullary main_c_13 (constantI S_ 32 0#32),
    unary main_c_13 main_v120 (broadcastInDim S800000 ![] bcast_S_S800000 : (⟨S_, .i32⟩ : BufTy).Contents (Elt F) → (⟨S800000, .i32⟩ : BufTy).Contents (Elt F)),
    binary main_v3 main_v120 main_v121 (cmpi .slt : (⟨S800000, .i32⟩ : BufTy).Contents (Elt F) → (⟨S800000, .i32⟩ : BufTy).Contents (Elt F) → (⟨S800000, .i1⟩ : BufTy).Contents (Elt F)),
    nullary main_c_14 (constantI S_ 32 50000#32),
    unary main_c_14 main_v122 (broadcastInDim S800000 ![] bcast_S_S800000 : (⟨S_, .i32⟩ : BufTy).Contents (Elt F) → (⟨S800000, .i32⟩ : BufTy).Contents (Elt F)),
    binary main_v3 main_v122 main_v123 (addi : (⟨S800000, .i32⟩ : BufTy).Contents (Elt F) → (⟨S800000, .i32⟩ : BufTy).Contents (Elt F) → (⟨S800000, .i32⟩ : BufTy).Contents (Elt F)),
    ternary main_v121 main_v123 main_v3 main_v124 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v124 main_v125 (broadcastInDim S800000x1 ![0] bcast_S800000_S800000x1_0 : (⟨S800000, .i32⟩ : BufTy).Contents (Elt F) → (⟨S800000x1, .i32⟩ : BufTy).Contents (Elt F)),
    binary main_v119 main_v125 main_v126 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_c_15 (constantI S_ 32 0#32),
    unary main_c_15 main_v127 (broadcastInDim S800000 ![] bcast_S_S800000 : (⟨S_, .i32⟩ : BufTy).Contents (Elt F) → (⟨S800000, .i32⟩ : BufTy).Contents (Elt F)),
    binary main_v1 main_v127 main_v128 (cmpi .slt : (⟨S800000, .i32⟩ : BufTy).Contents (Elt F) → (⟨S800000, .i32⟩ : BufTy).Contents (Elt F) → (⟨S800000, .i1⟩ : BufTy).Contents (Elt F)),
    nullary main_c_16 (constantI S_ 32 50000#32),
    unary main_c_16 main_v129 (broadcastInDim S800000 ![] bcast_S_S800000 : (⟨S_, .i32⟩ : BufTy).Contents (Elt F) → (⟨S800000, .i32⟩ : BufTy).Contents (Elt F)),
    binary main_v1 main_v129 main_v130 (addi : (⟨S800000, .i32⟩ : BufTy).Contents (Elt F) → (⟨S800000, .i32⟩ : BufTy).Contents (Elt F) → (⟨S800000, .i32⟩ : BufTy).Contents (Elt F)),
    ternary main_v128 main_v130 main_v1 main_v131 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v131 main_v132 (broadcastInDim S800000x1 ![0] bcast_S800000_S800000x1_0 : (⟨S800000, .i32⟩ : BufTy).Contents (Elt F) → (⟨S800000x1, .i32⟩ : BufTy).Contents (Elt F)),
    binary main_v119 main_v132 main_v133 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    binary main_v126 main_v133 main_v134 (addf : (⟨S800000x64, .f32⟩ : BufTy).Contents (Elt F) → (⟨S800000x64, .f32⟩ : BufTy).Contents (Elt F) → (⟨S800000x64, .f32⟩ : BufTy).Contents (Elt F)),
    binary main_v134 main_v11 main_v135 ((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)),
    unary main_arg7 main_v136 ((extractStridedSlice S1x128x64 ![3, 0, 0] · slices_S4x128x64_S1x128x64_3_0_0) : (⟨S4x128x64, .f32⟩ : BufTy).Contents (Elt F) → (⟨S1x128x64, .f32⟩ : BufTy).Contents (Elt F)),
    reshape main_v136 main_v137 rfl shapeCasts_S1x128x64_S128x64,
    binary main_v135 main_v137 main_v138 ((fun l r => Host.dotGeneral dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)),
    unary main_arg8 main_v139 ((extractStridedSlice S1x64 ![3, 0] · slices_S4x64_S1x64_3_0) : (⟨S4x64, .f32⟩ : BufTy).Contents (Elt F) → (⟨S1x64, .f32⟩ : BufTy).Contents (Elt F)),
    reshape main_v139 main_v140 rfl shapeCasts_S1x64_S64,
    unary main_v140 main_v141 (broadcastInDim S1x64 ![1] bcast_S64_S1x64_1 : (⟨S64, .f32⟩ : BufTy).Contents (Elt F) → (⟨S1x64, .f32⟩ : BufTy).Contents (Elt F)),
    unary main_v141 main_v142 (broadcastInDim S800000x64 ![0, 1] bcast_S1x64_S800000x64_0_1 : (⟨S1x64, .f32⟩ : BufTy).Contents (Elt F) → (⟨S800000x64, .f32⟩ : BufTy).Contents (Elt F)),
    binary main_v138 main_v142 main_v143 (addf : (⟨S800000x64, .f32⟩ : BufTy).Contents (Elt F) → (⟨S800000x64, .f32⟩ : BufTy).Contents (Elt F) → (⟨S800000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S800000x64, .f32⟩) main_call3_v0) (broadcastInDim S800000x64 ![] bcast_S_S800000x64),
    TRef.binary (TRef.of (T := ⟨S800000x64, .f32⟩) main_v143) (TRef.of (T := ⟨S800000x64, .f32⟩) main_call3_v0) (TRef.of (T := ⟨S800000x64, .f32⟩) main_v144) maximumf,
    unary main_arg9 main_v145 ((extractStridedSlice S1x64x64 ![3, 0, 0] · slices_S4x64x64_S1x64x64_3_0_0) : (⟨S4x64x64, .f32⟩ : BufTy).Contents (Elt F) → (⟨S1x64x64, .f32⟩ : BufTy).Contents (Elt F)),
    reshape main_v145 main_v146 rfl shapeCasts_S1x64x64_S64x64,
    binary main_v144 main_v146 main_v147 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    unary main_arg10 main_v148 ((extractStridedSlice S1x64 ![3, 0] · slices_S4x64_S1x64_3_0) : (⟨S4x64, .f32⟩ : BufTy).Contents (Elt F) → (⟨S1x64, .f32⟩ : BufTy).Contents (Elt F)),
    reshape main_v148 main_v149 rfl shapeCasts_S1x64_S64,
    unary main_v149 main_v150 (broadcastInDim S1x64 ![1] bcast_S64_S1x64_1 : (⟨S64, .f32⟩ : BufTy).Contents (Elt F) → (⟨S1x64, .f32⟩ : BufTy).Contents (Elt F)),
    unary main_v150 main_v151 (broadcastInDim S800000x64 ![0, 1] bcast_S1x64_S800000x64_0_1 : (⟨S1x64, .f32⟩ : BufTy).Contents (Elt F) → (⟨S800000x64, .f32⟩ : BufTy).Contents (Elt F)),
    binary main_v147 main_v151 main_v152 (addf : (⟨S800000x64, .f32⟩ : BufTy).Contents (Elt F) → (⟨S800000x64, .f32⟩ : BufTy).Contents (Elt F) → (⟨S800000x64, .f32⟩ : BufTy).Contents (Elt F)),
    nullary main_cst_17 (constant S_ .f32 0x00000000#32),
    unary main_cst_17 main_v153 (broadcastInDim S50000x64 ![] bcast_S_S50000x64 : (⟨S_, .f32⟩ : BufTy).Contents (Elt F) → (⟨S50000x64, .f32⟩ : BufTy).Contents (Elt F)),
    unary main_v3 main_v154 (broadcastInDim S800000x1 ![0] bcast_S800000_S800000x1_0 : (⟨S800000, .i32⟩ : BufTy).Contents (Elt F) → (⟨S800000x1, .i32⟩ : BufTy).Contents (Elt F)),
    ternary main_v153 main_v154 main_v152 main_v155 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ]

/-- The final scores. -/
abbrev segF : List (HloOp τ sig (Elt F)) :=
  [ nullary main_c_18 (constantI S_ 32 0#32),
    unary main_c_18 main_v156 (broadcastInDim S800000 ![] bcast_S_S800000 : (⟨S_, .i32⟩ : BufTy).Contents (Elt F) → (⟨S800000, .i32⟩ : BufTy).Contents (Elt F)),
    binary main_v1 main_v156 main_v157 (cmpi .slt : (⟨S800000, .i32⟩ : BufTy).Contents (Elt F) → (⟨S800000, .i32⟩ : BufTy).Contents (Elt F) → (⟨S800000, .i1⟩ : BufTy).Contents (Elt F)),
    nullary main_c_19 (constantI S_ 32 50000#32),
    unary main_c_19 main_v158 (broadcastInDim S800000 ![] bcast_S_S800000 : (⟨S_, .i32⟩ : BufTy).Contents (Elt F) → (⟨S800000, .i32⟩ : BufTy).Contents (Elt F)),
    binary main_v1 main_v158 main_v159 (addi : (⟨S800000, .i32⟩ : BufTy).Contents (Elt F) → (⟨S800000, .i32⟩ : BufTy).Contents (Elt F) → (⟨S800000, .i32⟩ : BufTy).Contents (Elt F)),
    ternary main_v157 main_v159 main_v1 main_v160 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v160 main_v161 (broadcastInDim S800000x1 ![0] bcast_S800000_S800000x1_0 : (⟨S800000, .i32⟩ : BufTy).Contents (Elt F) → (⟨S800000x1, .i32⟩ : BufTy).Contents (Elt F)),
    binary main_v155 main_v161 main_v162 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_c_20 (constantI S_ 32 0#32),
    unary main_c_20 main_v163 (broadcastInDim S800000 ![] bcast_S_S800000 : (⟨S_, .i32⟩ : BufTy).Contents (Elt F) → (⟨S800000, .i32⟩ : BufTy).Contents (Elt F)),
    binary main_v3 main_v163 main_v164 (cmpi .slt : (⟨S800000, .i32⟩ : BufTy).Contents (Elt F) → (⟨S800000, .i32⟩ : BufTy).Contents (Elt F) → (⟨S800000, .i1⟩ : BufTy).Contents (Elt F)),
    nullary main_c_21 (constantI S_ 32 50000#32),
    unary main_c_21 main_v165 (broadcastInDim S800000 ![] bcast_S_S800000 : (⟨S_, .i32⟩ : BufTy).Contents (Elt F) → (⟨S800000, .i32⟩ : BufTy).Contents (Elt F)),
    binary main_v3 main_v165 main_v166 (addi : (⟨S800000, .i32⟩ : BufTy).Contents (Elt F) → (⟨S800000, .i32⟩ : BufTy).Contents (Elt F) → (⟨S800000, .i32⟩ : BufTy).Contents (Elt F)),
    ternary main_v164 main_v166 main_v3 main_v167 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v167 main_v168 (broadcastInDim S800000x1 ![0] bcast_S800000_S800000x1_0 : (⟨S800000, .i32⟩ : BufTy).Contents (Elt F) → (⟨S800000x1, .i32⟩ : BufTy).Contents (Elt F)),
    binary main_v155 main_v168 main_v169 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    binary main_v162 main_v169 main_v170 ((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)),
    binary main_v170 main_arg11 main_v171 ((fun l r => Host.dotGeneral dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)),
    unary main_arg12 main_v172 (broadcastInDim S1x64 ![1] bcast_S64_S1x64_1 : (⟨S64, .f32⟩ : BufTy).Contents (Elt F) → (⟨S1x64, .f32⟩ : BufTy).Contents (Elt F)),
    unary main_v172 main_v173 (broadcastInDim S800000x64 ![0, 1] bcast_S1x64_S800000x64_0_1 : (⟨S1x64, .f32⟩ : BufTy).Contents (Elt F) → (⟨S800000x64, .f32⟩ : BufTy).Contents (Elt F)),
    binary main_v171 main_v173 main_v174 (addf : (⟨S800000x64, .f32⟩ : BufTy).Contents (Elt F) → (⟨S800000x64, .f32⟩ : BufTy).Contents (Elt F) → (⟨S800000x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S800000x64, .f32⟩) main_call4_v0) (broadcastInDim S800000x64 ![] bcast_S_S800000x64),
    TRef.binary (TRef.of (T := ⟨S800000x64, .f32⟩) main_v174) (TRef.of (T := ⟨S800000x64, .f32⟩) main_call4_v0) (TRef.of (T := ⟨S800000x64, .f32⟩) main_v175) maximumf,
    binary main_v175 main_arg13 main_v176 ((fun l r => Host.dotGeneral dot_S800000x64_S64x1_S800000x1_1_0_0_1_n_n none l r) : (⟨S800000x64, .f32⟩ : BufTy).Contents (Elt F) → (⟨S64x1, .f32⟩ : BufTy).Contents (Elt F) → (⟨S800000x1, .f32⟩ : BufTy).Contents (Elt F)),
    unary main_arg14 main_v177 (broadcastInDim S1x1 ![1] bcast_S1_S1x1_1 : (⟨S1, .f32⟩ : BufTy).Contents (Elt F) → (⟨S1x1, .f32⟩ : BufTy).Contents (Elt F)),
    unary main_v177 main_v178 (broadcastInDim S800000x1 ![0, 1] bcast_S1x1_S800000x1_0_1 : (⟨S1x1, .f32⟩ : BufTy).Contents (Elt F) → (⟨S800000x1, .f32⟩ : BufTy).Contents (Elt F)),
    binary main_v176 main_v178 main_v179 (addf : (⟨S800000x1, .f32⟩ : BufTy).Contents (Elt F) → (⟨S800000x1, .f32⟩ : BufTy).Contents (Elt F) → (⟨S800000x1, .f32⟩ : BufTy).Contents (Elt F)),
    reshape main_v179 main_v180 rfl shapeCasts_S800000x1_S800000 ]

/-- @main's operations, in order. -/
abbrev ops : List (HloOp τ sig (Elt F)) :=
  [ unary main_arg2 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg2 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    binary main_arg0 main_arg3 main_v4 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg4 main_v5 (broadcastInDim S1x64 ![1] bcast_S64_S1x64_1 : (⟨S64, .f32⟩ : BufTy).Contents (Elt F) → (⟨S1x64, .f32⟩ : BufTy).Contents (Elt F)),
    unary main_v5 main_v6 (broadcastInDim S50000x64 ![0, 1] bcast_S1x64_S50000x64_0_1 : (⟨S1x64, .f32⟩ : BufTy).Contents (Elt F) → (⟨S50000x64, .f32⟩ : BufTy).Contents (Elt F)),
    binary main_v4 main_v6 main_v7 (addf : (⟨S50000x64, .f32⟩ : BufTy).Contents (Elt F) → (⟨S50000x64, .f32⟩ : BufTy).Contents (Elt F) → (⟨S50000x64, .f32⟩ : BufTy).Contents (Elt F)),
    binary main_arg1 main_arg5 main_v8 ((fun l r => Host.dotGeneral dot_S800000x32_S32x64_S800000x64_1_0_0_1_n_n none l r) : (⟨S800000x32, .f32⟩ : BufTy).Contents (Elt F) → (⟨S32x64, .f32⟩ : BufTy).Contents (Elt F) → (⟨S800000x64, .f32⟩ : BufTy).Contents (Elt F)),
    unary main_arg6 main_v9 (broadcastInDim S1x64 ![1] bcast_S64_S1x64_1 : (⟨S64, .f32⟩ : BufTy).Contents (Elt F) → (⟨S1x64, .f32⟩ : BufTy).Contents (Elt F)),
    unary main_v9 main_v10 (broadcastInDim S800000x64 ![0, 1] bcast_S1x64_S800000x64_0_1 : (⟨S1x64, .f32⟩ : BufTy).Contents (Elt F) → (⟨S800000x64, .f32⟩ : BufTy).Contents (Elt F)),
    binary main_v8 main_v10 main_v11 (addf : (⟨S800000x64, .f32⟩ : BufTy).Contents (Elt F) → (⟨S800000x64, .f32⟩ : BufTy).Contents (Elt F) → (⟨S800000x64, .f32⟩ : BufTy).Contents (Elt F)),
    nullary main_c (constantI S_ 32 0#32),
    unary main_c main_v12 (broadcastInDim S800000 ![] bcast_S_S800000 : (⟨S_, .i32⟩ : BufTy).Contents (Elt F) → (⟨S800000, .i32⟩ : BufTy).Contents (Elt F)),
    binary main_v3 main_v12 main_v13 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v14 (broadcastInDim S800000 ![] bcast_S_S800000 : (⟨S_, .i32⟩ : BufTy).Contents (Elt F) → (⟨S800000, .i32⟩ : BufTy).Contents (Elt F)),
    binary main_v3 main_v14 main_v15 (addi : (⟨S800000, .i32⟩ : BufTy).Contents (Elt F) → (⟨S800000, .i32⟩ : BufTy).Contents (Elt F) → (⟨S800000, .i32⟩ : BufTy).Contents (Elt F)),
    ternary main_v13 main_v15 main_v3 main_v16 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v16 main_v17 (broadcastInDim S800000x1 ![0] bcast_S800000_S800000x1_0 : (⟨S800000, .i32⟩ : BufTy).Contents (Elt F) → (⟨S800000x1, .i32⟩ : BufTy).Contents (Elt F)),
    binary main_v7 main_v17 main_v18 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_c_1 (constantI S_ 32 0#32),
    unary main_c_1 main_v19 (broadcastInDim S800000 ![] bcast_S_S800000 : (⟨S_, .i32⟩ : BufTy).Contents (Elt F) → (⟨S800000, .i32⟩ : BufTy).Contents (Elt F)),
    binary main_v1 main_v19 main_v20 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v21 (broadcastInDim S800000 ![] bcast_S_S800000 : (⟨S_, .i32⟩ : BufTy).Contents (Elt F) → (⟨S800000, .i32⟩ : BufTy).Contents (Elt F)),
    binary main_v1 main_v21 main_v22 (addi : (⟨S800000, .i32⟩ : BufTy).Contents (Elt F) → (⟨S800000, .i32⟩ : BufTy).Contents (Elt F) → (⟨S800000, .i32⟩ : BufTy).Contents (Elt F)),
    ternary main_v20 main_v22 main_v1 main_v23 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v23 main_v24 (broadcastInDim S800000x1 ![0] bcast_S800000_S800000x1_0 : (⟨S800000, .i32⟩ : BufTy).Contents (Elt F) → (⟨S800000x1, .i32⟩ : BufTy).Contents (Elt F)),
    binary main_v7 main_v24 main_v25 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    binary main_v18 main_v25 main_v26 (addf : (⟨S800000x64, .f32⟩ : BufTy).Contents (Elt F) → (⟨S800000x64, .f32⟩ : BufTy).Contents (Elt F) → (⟨S800000x64, .f32⟩ : BufTy).Contents (Elt F)),
    binary main_v26 main_v11 main_v27 ((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)),
    unary main_arg7 main_v28 ((extractStridedSlice S1x128x64 ![0, 0, 0] · slices_S4x128x64_S1x128x64_0_0_0) : (⟨S4x128x64, .f32⟩ : BufTy).Contents (Elt F) → (⟨S1x128x64, .f32⟩ : BufTy).Contents (Elt F)),
    reshape main_v28 main_v29 rfl shapeCasts_S1x128x64_S128x64,
    binary main_v27 main_v29 main_v30 ((fun l r => Host.dotGeneral dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)),
    unary main_arg8 main_v31 ((extractStridedSlice S1x64 ![0, 0] · slices_S4x64_S1x64_0_0) : (⟨S4x64, .f32⟩ : BufTy).Contents (Elt F) → (⟨S1x64, .f32⟩ : BufTy).Contents (Elt F)),
    reshape main_v31 main_v32 rfl shapeCasts_S1x64_S64,
    unary main_v32 main_v33 (broadcastInDim S1x64 ![1] bcast_S64_S1x64_1 : (⟨S64, .f32⟩ : BufTy).Contents (Elt F) → (⟨S1x64, .f32⟩ : BufTy).Contents (Elt F)),
    unary main_v33 main_v34 (broadcastInDim S800000x64 ![0, 1] bcast_S1x64_S800000x64_0_1 : (⟨S1x64, .f32⟩ : BufTy).Contents (Elt F) → (⟨S800000x64, .f32⟩ : BufTy).Contents (Elt F)),
    binary main_v30 main_v34 main_v35 (addf : (⟨S800000x64, .f32⟩ : BufTy).Contents (Elt F) → (⟨S800000x64, .f32⟩ : BufTy).Contents (Elt F) → (⟨S800000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S800000x64, .f32⟩) main_call0_v0) (broadcastInDim S800000x64 ![] bcast_S_S800000x64),
    TRef.binary (TRef.of (T := ⟨S800000x64, .f32⟩) main_v35) (TRef.of (T := ⟨S800000x64, .f32⟩) main_call0_v0) (TRef.of (T := ⟨S800000x64, .f32⟩) main_v36) maximumf,
    unary main_arg9 main_v37 ((extractStridedSlice S1x64x64 ![0, 0, 0] · slices_S4x64x64_S1x64x64_0_0_0) : (⟨S4x64x64, .f32⟩ : BufTy).Contents (Elt F) → (⟨S1x64x64, .f32⟩ : BufTy).Contents (Elt F)),
    reshape main_v37 main_v38 rfl shapeCasts_S1x64x64_S64x64,
    binary main_v36 main_v38 main_v39 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    unary main_arg10 main_v40 ((extractStridedSlice S1x64 ![0, 0] · slices_S4x64_S1x64_0_0) : (⟨S4x64, .f32⟩ : BufTy).Contents (Elt F) → (⟨S1x64, .f32⟩ : BufTy).Contents (Elt F)),
    reshape main_v40 main_v41 rfl shapeCasts_S1x64_S64,
    unary main_v41 main_v42 (broadcastInDim S1x64 ![1] bcast_S64_S1x64_1 : (⟨S64, .f32⟩ : BufTy).Contents (Elt F) → (⟨S1x64, .f32⟩ : BufTy).Contents (Elt F)),
    unary main_v42 main_v43 (broadcastInDim S800000x64 ![0, 1] bcast_S1x64_S800000x64_0_1 : (⟨S1x64, .f32⟩ : BufTy).Contents (Elt F) → (⟨S800000x64, .f32⟩ : BufTy).Contents (Elt F)),
    binary main_v39 main_v43 main_v44 (addf : (⟨S800000x64, .f32⟩ : BufTy).Contents (Elt F) → (⟨S800000x64, .f32⟩ : BufTy).Contents (Elt F) → (⟨S800000x64, .f32⟩ : BufTy).Contents (Elt F)),
    nullary main_cst (constant S_ .f32 0x00000000#32),
    unary main_cst main_v45 (broadcastInDim S50000x64 ![] bcast_S_S50000x64 : (⟨S_, .f32⟩ : BufTy).Contents (Elt F) → (⟨S50000x64, .f32⟩ : BufTy).Contents (Elt F)),
    unary main_v3 main_v46 (broadcastInDim S800000x1 ![0] bcast_S800000_S800000x1_0 : (⟨S800000, .i32⟩ : BufTy).Contents (Elt F) → (⟨S800000x1, .i32⟩ : BufTy).Contents (Elt F)),
    ternary main_v45 main_v46 main_v44 main_v47 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_c_3 (constantI S_ 32 0#32),
    unary main_c_3 main_v48 (broadcastInDim S800000 ![] bcast_S_S800000 : (⟨S_, .i32⟩ : BufTy).Contents (Elt F) → (⟨S800000, .i32⟩ : BufTy).Contents (Elt F)),
    binary main_v3 main_v48 main_v49 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v50 (broadcastInDim S800000 ![] bcast_S_S800000 : (⟨S_, .i32⟩ : BufTy).Contents (Elt F) → (⟨S800000, .i32⟩ : BufTy).Contents (Elt F)),
    binary main_v3 main_v50 main_v51 (addi : (⟨S800000, .i32⟩ : BufTy).Contents (Elt F) → (⟨S800000, .i32⟩ : BufTy).Contents (Elt F) → (⟨S800000, .i32⟩ : BufTy).Contents (Elt F)),
    ternary main_v49 main_v51 main_v3 main_v52 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v52 main_v53 (broadcastInDim S800000x1 ![0] bcast_S800000_S800000x1_0 : (⟨S800000, .i32⟩ : BufTy).Contents (Elt F) → (⟨S800000x1, .i32⟩ : BufTy).Contents (Elt F)),
    binary main_v47 main_v53 main_v54 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_c_5 (constantI S_ 32 0#32),
    unary main_c_5 main_v55 (broadcastInDim S800000 ![] bcast_S_S800000 : (⟨S_, .i32⟩ : BufTy).Contents (Elt F) → (⟨S800000, .i32⟩ : BufTy).Contents (Elt F)),
    binary main_v1 main_v55 main_v56 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v57 (broadcastInDim S800000 ![] bcast_S_S800000 : (⟨S_, .i32⟩ : BufTy).Contents (Elt F) → (⟨S800000, .i32⟩ : BufTy).Contents (Elt F)),
    binary main_v1 main_v57 main_v58 (addi : (⟨S800000, .i32⟩ : BufTy).Contents (Elt F) → (⟨S800000, .i32⟩ : BufTy).Contents (Elt F) → (⟨S800000, .i32⟩ : BufTy).Contents (Elt F)),
    ternary main_v56 main_v58 main_v1 main_v59 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v59 main_v60 (broadcastInDim S800000x1 ![0] bcast_S800000_S800000x1_0 : (⟨S800000, .i32⟩ : BufTy).Contents (Elt F) → (⟨S800000x1, .i32⟩ : BufTy).Contents (Elt F)),
    binary main_v47 main_v60 main_v61 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    binary main_v54 main_v61 main_v62 (addf : (⟨S800000x64, .f32⟩ : BufTy).Contents (Elt F) → (⟨S800000x64, .f32⟩ : BufTy).Contents (Elt F) → (⟨S800000x64, .f32⟩ : BufTy).Contents (Elt F)),
    binary main_v62 main_v11 main_v63 ((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)),
    unary main_arg7 main_v64 ((extractStridedSlice S1x128x64 ![1, 0, 0] · slices_S4x128x64_S1x128x64_1_0_0) : (⟨S4x128x64, .f32⟩ : BufTy).Contents (Elt F) → (⟨S1x128x64, .f32⟩ : BufTy).Contents (Elt F)),
    reshape main_v64 main_v65 rfl shapeCasts_S1x128x64_S128x64,
    binary main_v63 main_v65 main_v66 ((fun l r => Host.dotGeneral dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)),
    unary main_arg8 main_v67 ((extractStridedSlice S1x64 ![1, 0] · slices_S4x64_S1x64_1_0) : (⟨S4x64, .f32⟩ : BufTy).Contents (Elt F) → (⟨S1x64, .f32⟩ : BufTy).Contents (Elt F)),
    reshape main_v67 main_v68 rfl shapeCasts_S1x64_S64,
    unary main_v68 main_v69 (broadcastInDim S1x64 ![1] bcast_S64_S1x64_1 : (⟨S64, .f32⟩ : BufTy).Contents (Elt F) → (⟨S1x64, .f32⟩ : BufTy).Contents (Elt F)),
    unary main_v69 main_v70 (broadcastInDim S800000x64 ![0, 1] bcast_S1x64_S800000x64_0_1 : (⟨S1x64, .f32⟩ : BufTy).Contents (Elt F) → (⟨S800000x64, .f32⟩ : BufTy).Contents (Elt F)),
    binary main_v66 main_v70 main_v71 (addf : (⟨S800000x64, .f32⟩ : BufTy).Contents (Elt F) → (⟨S800000x64, .f32⟩ : BufTy).Contents (Elt F) → (⟨S800000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S800000x64, .f32⟩) main_call1_v0) (broadcastInDim S800000x64 ![] bcast_S_S800000x64),
    TRef.binary (TRef.of (T := ⟨S800000x64, .f32⟩) main_v71) (TRef.of (T := ⟨S800000x64, .f32⟩) main_call1_v0) (TRef.of (T := ⟨S800000x64, .f32⟩) main_v72) maximumf,
    unary main_arg9 main_v73 ((extractStridedSlice S1x64x64 ![1, 0, 0] · slices_S4x64x64_S1x64x64_1_0_0) : (⟨S4x64x64, .f32⟩ : BufTy).Contents (Elt F) → (⟨S1x64x64, .f32⟩ : BufTy).Contents (Elt F)),
    reshape main_v73 main_v74 rfl shapeCasts_S1x64x64_S64x64,
    binary main_v72 main_v74 main_v75 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    unary main_arg10 main_v76 ((extractStridedSlice S1x64 ![1, 0] · slices_S4x64_S1x64_1_0) : (⟨S4x64, .f32⟩ : BufTy).Contents (Elt F) → (⟨S1x64, .f32⟩ : BufTy).Contents (Elt F)),
    reshape main_v76 main_v77 rfl shapeCasts_S1x64_S64,
    unary main_v77 main_v78 (broadcastInDim S1x64 ![1] bcast_S64_S1x64_1 : (⟨S64, .f32⟩ : BufTy).Contents (Elt F) → (⟨S1x64, .f32⟩ : BufTy).Contents (Elt F)),
    unary main_v78 main_v79 (broadcastInDim S800000x64 ![0, 1] bcast_S1x64_S800000x64_0_1 : (⟨S1x64, .f32⟩ : BufTy).Contents (Elt F) → (⟨S800000x64, .f32⟩ : BufTy).Contents (Elt F)),
    binary main_v75 main_v79 main_v80 (addf : (⟨S800000x64, .f32⟩ : BufTy).Contents (Elt F) → (⟨S800000x64, .f32⟩ : BufTy).Contents (Elt F) → (⟨S800000x64, .f32⟩ : BufTy).Contents (Elt F)),
    nullary main_cst_7 (constant S_ .f32 0x00000000#32),
    unary main_cst_7 main_v81 (broadcastInDim S50000x64 ![] bcast_S_S50000x64 : (⟨S_, .f32⟩ : BufTy).Contents (Elt F) → (⟨S50000x64, .f32⟩ : BufTy).Contents (Elt F)),
    unary main_v3 main_v82 (broadcastInDim S800000x1 ![0] bcast_S800000_S800000x1_0 : (⟨S800000, .i32⟩ : BufTy).Contents (Elt F) → (⟨S800000x1, .i32⟩ : BufTy).Contents (Elt F)),
    ternary main_v81 main_v82 main_v80 main_v83 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_c_8 (constantI S_ 32 0#32),
    unary main_c_8 main_v84 (broadcastInDim S800000 ![] bcast_S_S800000 : (⟨S_, .i32⟩ : BufTy).Contents (Elt F) → (⟨S800000, .i32⟩ : BufTy).Contents (Elt F)),
    binary main_v3 main_v84 main_v85 (cmpi .slt : (⟨S800000, .i32⟩ : BufTy).Contents (Elt F) → (⟨S800000, .i32⟩ : BufTy).Contents (Elt F) → (⟨S800000, .i1⟩ : BufTy).Contents (Elt F)),
    nullary main_c_9 (constantI S_ 32 50000#32),
    unary main_c_9 main_v86 (broadcastInDim S800000 ![] bcast_S_S800000 : (⟨S_, .i32⟩ : BufTy).Contents (Elt F) → (⟨S800000, .i32⟩ : BufTy).Contents (Elt F)),
    binary main_v3 main_v86 main_v87 (addi : (⟨S800000, .i32⟩ : BufTy).Contents (Elt F) → (⟨S800000, .i32⟩ : BufTy).Contents (Elt F) → (⟨S800000, .i32⟩ : BufTy).Contents (Elt F)),
    ternary main_v85 main_v87 main_v3 main_v88 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v88 main_v89 (broadcastInDim S800000x1 ![0] bcast_S800000_S800000x1_0 : (⟨S800000, .i32⟩ : BufTy).Contents (Elt F) → (⟨S800000x1, .i32⟩ : BufTy).Contents (Elt F)),
    binary main_v83 main_v89 main_v90 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_c_10 (constantI S_ 32 0#32),
    unary main_c_10 main_v91 (broadcastInDim S800000 ![] bcast_S_S800000 : (⟨S_, .i32⟩ : BufTy).Contents (Elt F) → (⟨S800000, .i32⟩ : BufTy).Contents (Elt F)),
    binary main_v1 main_v91 main_v92 (cmpi .slt : (⟨S800000, .i32⟩ : BufTy).Contents (Elt F) → (⟨S800000, .i32⟩ : BufTy).Contents (Elt F) → (⟨S800000, .i1⟩ : BufTy).Contents (Elt F)),
    nullary main_c_11 (constantI S_ 32 50000#32),
    unary main_c_11 main_v93 (broadcastInDim S800000 ![] bcast_S_S800000 : (⟨S_, .i32⟩ : BufTy).Contents (Elt F) → (⟨S800000, .i32⟩ : BufTy).Contents (Elt F)),
    binary main_v1 main_v93 main_v94 (addi : (⟨S800000, .i32⟩ : BufTy).Contents (Elt F) → (⟨S800000, .i32⟩ : BufTy).Contents (Elt F) → (⟨S800000, .i32⟩ : BufTy).Contents (Elt F)),
    ternary main_v92 main_v94 main_v1 main_v95 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v95 main_v96 (broadcastInDim S800000x1 ![0] bcast_S800000_S800000x1_0 : (⟨S800000, .i32⟩ : BufTy).Contents (Elt F) → (⟨S800000x1, .i32⟩ : BufTy).Contents (Elt F)),
    binary main_v83 main_v96 main_v97 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    binary main_v90 main_v97 main_v98 (addf : (⟨S800000x64, .f32⟩ : BufTy).Contents (Elt F) → (⟨S800000x64, .f32⟩ : BufTy).Contents (Elt F) → (⟨S800000x64, .f32⟩ : BufTy).Contents (Elt F)),
    binary main_v98 main_v11 main_v99 ((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)),
    unary main_arg7 main_v100 ((extractStridedSlice S1x128x64 ![2, 0, 0] · slices_S4x128x64_S1x128x64_2_0_0) : (⟨S4x128x64, .f32⟩ : BufTy).Contents (Elt F) → (⟨S1x128x64, .f32⟩ : BufTy).Contents (Elt F)),
    reshape main_v100 main_v101 rfl shapeCasts_S1x128x64_S128x64,
    binary main_v99 main_v101 main_v102 ((fun l r => Host.dotGeneral dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)),
    unary main_arg8 main_v103 ((extractStridedSlice S1x64 ![2, 0] · slices_S4x64_S1x64_2_0) : (⟨S4x64, .f32⟩ : BufTy).Contents (Elt F) → (⟨S1x64, .f32⟩ : BufTy).Contents (Elt F)),
    reshape main_v103 main_v104 rfl shapeCasts_S1x64_S64,
    unary main_v104 main_v105 (broadcastInDim S1x64 ![1] bcast_S64_S1x64_1 : (⟨S64, .f32⟩ : BufTy).Contents (Elt F) → (⟨S1x64, .f32⟩ : BufTy).Contents (Elt F)),
    unary main_v105 main_v106 (broadcastInDim S800000x64 ![0, 1] bcast_S1x64_S800000x64_0_1 : (⟨S1x64, .f32⟩ : BufTy).Contents (Elt F) → (⟨S800000x64, .f32⟩ : BufTy).Contents (Elt F)),
    binary main_v102 main_v106 main_v107 (addf : (⟨S800000x64, .f32⟩ : BufTy).Contents (Elt F) → (⟨S800000x64, .f32⟩ : BufTy).Contents (Elt F) → (⟨S800000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S800000x64, .f32⟩) main_call2_v0) (broadcastInDim S800000x64 ![] bcast_S_S800000x64),
    TRef.binary (TRef.of (T := ⟨S800000x64, .f32⟩) main_v107) (TRef.of (T := ⟨S800000x64, .f32⟩) main_call2_v0) (TRef.of (T := ⟨S800000x64, .f32⟩) main_v108) maximumf,
    unary main_arg9 main_v109 ((extractStridedSlice S1x64x64 ![2, 0, 0] · slices_S4x64x64_S1x64x64_2_0_0) : (⟨S4x64x64, .f32⟩ : BufTy).Contents (Elt F) → (⟨S1x64x64, .f32⟩ : BufTy).Contents (Elt F)),
    reshape main_v109 main_v110 rfl shapeCasts_S1x64x64_S64x64,
    binary main_v108 main_v110 main_v111 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    unary main_arg10 main_v112 ((extractStridedSlice S1x64 ![2, 0] · slices_S4x64_S1x64_2_0) : (⟨S4x64, .f32⟩ : BufTy).Contents (Elt F) → (⟨S1x64, .f32⟩ : BufTy).Contents (Elt F)),
    reshape main_v112 main_v113 rfl shapeCasts_S1x64_S64,
    unary main_v113 main_v114 (broadcastInDim S1x64 ![1] bcast_S64_S1x64_1 : (⟨S64, .f32⟩ : BufTy).Contents (Elt F) → (⟨S1x64, .f32⟩ : BufTy).Contents (Elt F)),
    unary main_v114 main_v115 (broadcastInDim S800000x64 ![0, 1] bcast_S1x64_S800000x64_0_1 : (⟨S1x64, .f32⟩ : BufTy).Contents (Elt F) → (⟨S800000x64, .f32⟩ : BufTy).Contents (Elt F)),
    binary main_v111 main_v115 main_v116 (addf : (⟨S800000x64, .f32⟩ : BufTy).Contents (Elt F) → (⟨S800000x64, .f32⟩ : BufTy).Contents (Elt F) → (⟨S800000x64, .f32⟩ : BufTy).Contents (Elt F)),
    nullary main_cst_12 (constant S_ .f32 0x00000000#32),
    unary main_cst_12 main_v117 (broadcastInDim S50000x64 ![] bcast_S_S50000x64 : (⟨S_, .f32⟩ : BufTy).Contents (Elt F) → (⟨S50000x64, .f32⟩ : BufTy).Contents (Elt F)),
    unary main_v3 main_v118 (broadcastInDim S800000x1 ![0] bcast_S800000_S800000x1_0 : (⟨S800000, .i32⟩ : BufTy).Contents (Elt F) → (⟨S800000x1, .i32⟩ : BufTy).Contents (Elt F)),
    ternary main_v117 main_v118 main_v116 main_v119 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_c_13 (constantI S_ 32 0#32),
    unary main_c_13 main_v120 (broadcastInDim S800000 ![] bcast_S_S800000 : (⟨S_, .i32⟩ : BufTy).Contents (Elt F) → (⟨S800000, .i32⟩ : BufTy).Contents (Elt F)),
    binary main_v3 main_v120 main_v121 (cmpi .slt : (⟨S800000, .i32⟩ : BufTy).Contents (Elt F) → (⟨S800000, .i32⟩ : BufTy).Contents (Elt F) → (⟨S800000, .i1⟩ : BufTy).Contents (Elt F)),
    nullary main_c_14 (constantI S_ 32 50000#32),
    unary main_c_14 main_v122 (broadcastInDim S800000 ![] bcast_S_S800000 : (⟨S_, .i32⟩ : BufTy).Contents (Elt F) → (⟨S800000, .i32⟩ : BufTy).Contents (Elt F)),
    binary main_v3 main_v122 main_v123 (addi : (⟨S800000, .i32⟩ : BufTy).Contents (Elt F) → (⟨S800000, .i32⟩ : BufTy).Contents (Elt F) → (⟨S800000, .i32⟩ : BufTy).Contents (Elt F)),
    ternary main_v121 main_v123 main_v3 main_v124 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v124 main_v125 (broadcastInDim S800000x1 ![0] bcast_S800000_S800000x1_0 : (⟨S800000, .i32⟩ : BufTy).Contents (Elt F) → (⟨S800000x1, .i32⟩ : BufTy).Contents (Elt F)),
    binary main_v119 main_v125 main_v126 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_c_15 (constantI S_ 32 0#32),
    unary main_c_15 main_v127 (broadcastInDim S800000 ![] bcast_S_S800000 : (⟨S_, .i32⟩ : BufTy).Contents (Elt F) → (⟨S800000, .i32⟩ : BufTy).Contents (Elt F)),
    binary main_v1 main_v127 main_v128 (cmpi .slt : (⟨S800000, .i32⟩ : BufTy).Contents (Elt F) → (⟨S800000, .i32⟩ : BufTy).Contents (Elt F) → (⟨S800000, .i1⟩ : BufTy).Contents (Elt F)),
    nullary main_c_16 (constantI S_ 32 50000#32),
    unary main_c_16 main_v129 (broadcastInDim S800000 ![] bcast_S_S800000 : (⟨S_, .i32⟩ : BufTy).Contents (Elt F) → (⟨S800000, .i32⟩ : BufTy).Contents (Elt F)),
    binary main_v1 main_v129 main_v130 (addi : (⟨S800000, .i32⟩ : BufTy).Contents (Elt F) → (⟨S800000, .i32⟩ : BufTy).Contents (Elt F) → (⟨S800000, .i32⟩ : BufTy).Contents (Elt F)),
    ternary main_v128 main_v130 main_v1 main_v131 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v131 main_v132 (broadcastInDim S800000x1 ![0] bcast_S800000_S800000x1_0 : (⟨S800000, .i32⟩ : BufTy).Contents (Elt F) → (⟨S800000x1, .i32⟩ : BufTy).Contents (Elt F)),
    binary main_v119 main_v132 main_v133 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    binary main_v126 main_v133 main_v134 (addf : (⟨S800000x64, .f32⟩ : BufTy).Contents (Elt F) → (⟨S800000x64, .f32⟩ : BufTy).Contents (Elt F) → (⟨S800000x64, .f32⟩ : BufTy).Contents (Elt F)),
    binary main_v134 main_v11 main_v135 ((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)),
    unary main_arg7 main_v136 ((extractStridedSlice S1x128x64 ![3, 0, 0] · slices_S4x128x64_S1x128x64_3_0_0) : (⟨S4x128x64, .f32⟩ : BufTy).Contents (Elt F) → (⟨S1x128x64, .f32⟩ : BufTy).Contents (Elt F)),
    reshape main_v136 main_v137 rfl shapeCasts_S1x128x64_S128x64,
    binary main_v135 main_v137 main_v138 ((fun l r => Host.dotGeneral dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)),
    unary main_arg8 main_v139 ((extractStridedSlice S1x64 ![3, 0] · slices_S4x64_S1x64_3_0) : (⟨S4x64, .f32⟩ : BufTy).Contents (Elt F) → (⟨S1x64, .f32⟩ : BufTy).Contents (Elt F)),
    reshape main_v139 main_v140 rfl shapeCasts_S1x64_S64,
    unary main_v140 main_v141 (broadcastInDim S1x64 ![1] bcast_S64_S1x64_1 : (⟨S64, .f32⟩ : BufTy).Contents (Elt F) → (⟨S1x64, .f32⟩ : BufTy).Contents (Elt F)),
    unary main_v141 main_v142 (broadcastInDim S800000x64 ![0, 1] bcast_S1x64_S800000x64_0_1 : (⟨S1x64, .f32⟩ : BufTy).Contents (Elt F) → (⟨S800000x64, .f32⟩ : BufTy).Contents (Elt F)),
    binary main_v138 main_v142 main_v143 (addf : (⟨S800000x64, .f32⟩ : BufTy).Contents (Elt F) → (⟨S800000x64, .f32⟩ : BufTy).Contents (Elt F) → (⟨S800000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S800000x64, .f32⟩) main_call3_v0) (broadcastInDim S800000x64 ![] bcast_S_S800000x64),
    TRef.binary (TRef.of (T := ⟨S800000x64, .f32⟩) main_v143) (TRef.of (T := ⟨S800000x64, .f32⟩) main_call3_v0) (TRef.of (T := ⟨S800000x64, .f32⟩) main_v144) maximumf,
    unary main_arg9 main_v145 ((extractStridedSlice S1x64x64 ![3, 0, 0] · slices_S4x64x64_S1x64x64_3_0_0) : (⟨S4x64x64, .f32⟩ : BufTy).Contents (Elt F) → (⟨S1x64x64, .f32⟩ : BufTy).Contents (Elt F)),
    reshape main_v145 main_v146 rfl shapeCasts_S1x64x64_S64x64,
    binary main_v144 main_v146 main_v147 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    unary main_arg10 main_v148 ((extractStridedSlice S1x64 ![3, 0] · slices_S4x64_S1x64_3_0) : (⟨S4x64, .f32⟩ : BufTy).Contents (Elt F) → (⟨S1x64, .f32⟩ : BufTy).Contents (Elt F)),
    reshape main_v148 main_v149 rfl shapeCasts_S1x64_S64,
    unary main_v149 main_v150 (broadcastInDim S1x64 ![1] bcast_S64_S1x64_1 : (⟨S64, .f32⟩ : BufTy).Contents (Elt F) → (⟨S1x64, .f32⟩ : BufTy).Contents (Elt F)),
    unary main_v150 main_v151 (broadcastInDim S800000x64 ![0, 1] bcast_S1x64_S800000x64_0_1 : (⟨S1x64, .f32⟩ : BufTy).Contents (Elt F) → (⟨S800000x64, .f32⟩ : BufTy).Contents (Elt F)),
    binary main_v147 main_v151 main_v152 (addf : (⟨S800000x64, .f32⟩ : BufTy).Contents (Elt F) → (⟨S800000x64, .f32⟩ : BufTy).Contents (Elt F) → (⟨S800000x64, .f32⟩ : BufTy).Contents (Elt F)),
    nullary main_cst_17 (constant S_ .f32 0x00000000#32),
    unary main_cst_17 main_v153 (broadcastInDim S50000x64 ![] bcast_S_S50000x64 : (⟨S_, .f32⟩ : BufTy).Contents (Elt F) → (⟨S50000x64, .f32⟩ : BufTy).Contents (Elt F)),
    unary main_v3 main_v154 (broadcastInDim S800000x1 ![0] bcast_S800000_S800000x1_0 : (⟨S800000, .i32⟩ : BufTy).Contents (Elt F) → (⟨S800000x1, .i32⟩ : BufTy).Contents (Elt F)),
    ternary main_v153 main_v154 main_v152 main_v155 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_c_18 (constantI S_ 32 0#32),
    unary main_c_18 main_v156 (broadcastInDim S800000 ![] bcast_S_S800000 : (⟨S_, .i32⟩ : BufTy).Contents (Elt F) → (⟨S800000, .i32⟩ : BufTy).Contents (Elt F)),
    binary main_v1 main_v156 main_v157 (cmpi .slt : (⟨S800000, .i32⟩ : BufTy).Contents (Elt F) → (⟨S800000, .i32⟩ : BufTy).Contents (Elt F) → (⟨S800000, .i1⟩ : BufTy).Contents (Elt F)),
    nullary main_c_19 (constantI S_ 32 50000#32),
    unary main_c_19 main_v158 (broadcastInDim S800000 ![] bcast_S_S800000 : (⟨S_, .i32⟩ : BufTy).Contents (Elt F) → (⟨S800000, .i32⟩ : BufTy).Contents (Elt F)),
    binary main_v1 main_v158 main_v159 (addi : (⟨S800000, .i32⟩ : BufTy).Contents (Elt F) → (⟨S800000, .i32⟩ : BufTy).Contents (Elt F) → (⟨S800000, .i32⟩ : BufTy).Contents (Elt F)),
    ternary main_v157 main_v159 main_v1 main_v160 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v160 main_v161 (broadcastInDim S800000x1 ![0] bcast_S800000_S800000x1_0 : (⟨S800000, .i32⟩ : BufTy).Contents (Elt F) → (⟨S800000x1, .i32⟩ : BufTy).Contents (Elt F)),
    binary main_v155 main_v161 main_v162 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_c_20 (constantI S_ 32 0#32),
    unary main_c_20 main_v163 (broadcastInDim S800000 ![] bcast_S_S800000 : (⟨S_, .i32⟩ : BufTy).Contents (Elt F) → (⟨S800000, .i32⟩ : BufTy).Contents (Elt F)),
    binary main_v3 main_v163 main_v164 (cmpi .slt : (⟨S800000, .i32⟩ : BufTy).Contents (Elt F) → (⟨S800000, .i32⟩ : BufTy).Contents (Elt F) → (⟨S800000, .i1⟩ : BufTy).Contents (Elt F)),
    nullary main_c_21 (constantI S_ 32 50000#32),
    unary main_c_21 main_v165 (broadcastInDim S800000 ![] bcast_S_S800000 : (⟨S_, .i32⟩ : BufTy).Contents (Elt F) → (⟨S800000, .i32⟩ : BufTy).Contents (Elt F)),
    binary main_v3 main_v165 main_v166 (addi : (⟨S800000, .i32⟩ : BufTy).Contents (Elt F) → (⟨S800000, .i32⟩ : BufTy).Contents (Elt F) → (⟨S800000, .i32⟩ : BufTy).Contents (Elt F)),
    ternary main_v164 main_v166 main_v3 main_v167 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v167 main_v168 (broadcastInDim S800000x1 ![0] bcast_S800000_S800000x1_0 : (⟨S800000, .i32⟩ : BufTy).Contents (Elt F) → (⟨S800000x1, .i32⟩ : BufTy).Contents (Elt F)),
    binary main_v155 main_v168 main_v169 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    binary main_v162 main_v169 main_v170 ((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)),
    binary main_v170 main_arg11 main_v171 ((fun l r => Host.dotGeneral dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)),
    unary main_arg12 main_v172 (broadcastInDim S1x64 ![1] bcast_S64_S1x64_1 : (⟨S64, .f32⟩ : BufTy).Contents (Elt F) → (⟨S1x64, .f32⟩ : BufTy).Contents (Elt F)),
    unary main_v172 main_v173 (broadcastInDim S800000x64 ![0, 1] bcast_S1x64_S800000x64_0_1 : (⟨S1x64, .f32⟩ : BufTy).Contents (Elt F) → (⟨S800000x64, .f32⟩ : BufTy).Contents (Elt F)),
    binary main_v171 main_v173 main_v174 (addf : (⟨S800000x64, .f32⟩ : BufTy).Contents (Elt F) → (⟨S800000x64, .f32⟩ : BufTy).Contents (Elt F) → (⟨S800000x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S800000x64, .f32⟩) main_call4_v0) (broadcastInDim S800000x64 ![] bcast_S_S800000x64),
    TRef.binary (TRef.of (T := ⟨S800000x64, .f32⟩) main_v174) (TRef.of (T := ⟨S800000x64, .f32⟩) main_call4_v0) (TRef.of (T := ⟨S800000x64, .f32⟩) main_v175) maximumf,
    binary main_v175 main_arg13 main_v176 ((fun l r => Host.dotGeneral dot_S800000x64_S64x1_S800000x1_1_0_0_1_n_n none l r) : (⟨S800000x64, .f32⟩ : BufTy).Contents (Elt F) → (⟨S64x1, .f32⟩ : BufTy).Contents (Elt F) → (⟨S800000x1, .f32⟩ : BufTy).Contents (Elt F)),
    unary main_arg14 main_v177 (broadcastInDim S1x1 ![1] bcast_S1_S1x1_1 : (⟨S1, .f32⟩ : BufTy).Contents (Elt F) → (⟨S1x1, .f32⟩ : BufTy).Contents (Elt F)),
    unary main_v177 main_v178 (broadcastInDim S800000x1 ![0, 1] bcast_S1x1_S800000x1_0_1 : (⟨S1x1, .f32⟩ : BufTy).Contents (Elt F) → (⟨S800000x1, .f32⟩ : BufTy).Contents (Elt F)),
    binary main_v176 main_v178 main_v179 (addf : (⟨S800000x1, .f32⟩ : BufTy).Contents (Elt F) → (⟨S800000x1, .f32⟩ : BufTy).Contents (Elt F) → (⟨S800000x1, .f32⟩ : BufTy).Contents (Elt F)),
    reshape main_v179 main_v180 rfl shapeCasts_S800000x1_S800000 ]

/-- The list is the six stretches, one after the other. -/
theorem ops_split : (ops : List (HloOp τ sig (Elt F))) = segH ++ (segL0 ++ (segL1 ++ (segL2 ++ (segL3 ++ segF)))) := rfl

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., reshape_bufs_sub ..⟩

theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih _

variable (m : (ℓ : Loc nD τ sig) → Buf (Elt F) ℓ)

/-- Core `c`'s buffers at launch, and after each stretch. -/
def R0 (c : Dev nD) : Valuation τ sig (Elt F) := launchContents m c
def R1 (c : Dev nD) : Valuation τ sig (Elt F) := StableHlo.after segH (R0 m c)
def R2 (c : Dev nD) : Valuation τ sig (Elt F) := StableHlo.after segL0 (R1 m c)
def R3 (c : Dev nD) : Valuation τ sig (Elt F) := StableHlo.after segL1 (R2 m c)
def R4 (c : Dev nD) : Valuation τ sig (Elt F) := StableHlo.after segL2 (R3 m c)
def R5 (c : Dev nD) : Valuation τ sig (Elt F) := StableHlo.after segL3 (R4 m c)
def R6 (c : Dev nD) : Valuation τ sig (Elt F) := StableHlo.after segF (R5 m c)

theorem after_ops (c : Dev nD) : StableHlo.after ops (launchContents m c) = R6 m c := by
  rw [ops_split (F := F)]
  simp only [after_append]
  rfl

/-- The run: every weakly fair execution of @main terminates, nothing faulting, each buffer at the last boundary's
    contents. -/
theorem run_raw (ρ : Dev nD → PrngReg) :
    θ_run defs (onTc (τ := τ) (main (F := F))) ⟨m, fun _ => 0, ρ⟩ fun r =>
      ∀ (c : Dev nD) (b : Ref sig .tc), r.2.mem ((c.tc : Thread nD τ).loc b) = R6 m c (Proc.devRef .tc b) :=
  (θ_run defs _ _).mono (fun _ h c b => (h c b).trans (congrFun (after_ops m c) _))
    (run_seq scopedRefs_eq scopedSems_eq defs main (fun _ => ops) main_eq (fun _ => ops_sub) m ρ)

end Cert.ReferenceIdeal.RefVal

end
-- ==== Proof.RefChainBase.lean ====
/-
  What stays put while the idealized reference program runs: the two index rows, the edge table and the weight arguments
  are written once (or never) and only read afterwards.  `RLive` collects, for one boundary of the run, the contents
  of those buffers that later stretches still read, in the terms of the per-operation stages.
-/
import proofs.«418908_j25941602468191_1_alg».proof.Proof.RefOps
import proofs.«418908_j25941602468191_1_alg».proof.Proof.RefRead

noncomputable section

namespace Cert.ReferenceIdeal.RefVal

open Idealize.ShloMosaic Idealize.ShloMosaic.TcCoe Cert.ReferenceIdeal Cert.ReferenceIdeal.ReadP

variable (m : (ℓ : Loc nD τ sig) → Buf (Elt Ideal) ℓ)

/-- Core `c`'s launch contents of an argument buffer. -/
abbrev xAt (c : Dev nD) (b : Ref sig .tc) : Buf (Elt Ideal) ((c.tc : Thread nD τ).loc b) := m ((c.tc : Thread nD τ).loc b)

/-- At a boundary with buffer contents `R`: the index rows, the edge table and the weight arguments hold what they
    were given. -/
structure RLive (c : Dev nD) (R : Valuation τ sig (Elt Ideal)) : Prop where
  v1 : R (Proc.devRef .tc main_v1) = val_main_v1 (F := Ideal) (xAt m c main_arg2)
  v3 : R (Proc.devRef .tc main_v3) = val_main_v3 (F := Ideal) (xAt m c main_arg2)
  v11 : R (Proc.devRef .tc main_v11) = val_main_v11 (F := Ideal) (xAt m c main_arg1) (xAt m c main_arg5) (xAt m c main_arg6)
  a7 : R (Proc.devRef .tc main_arg7) = xAt m c main_arg7
  a8 : R (Proc.devRef .tc main_arg8) = xAt m c main_arg8
  a9 : R (Proc.devRef .tc main_arg9) = xAt m c main_arg9
  a10 : R (Proc.devRef .tc main_arg10) = xAt m c main_arg10
  a11 : R (Proc.devRef .tc main_arg11) = xAt m c main_arg11
  a12 : R (Proc.devRef .tc main_arg12) = xAt m c main_arg12
  a13 : R (Proc.devRef .tc main_arg13) = xAt m c main_arg13
  a14 : R (Proc.devRef .tc main_arg14) = xAt m c main_arg14

end Cert.ReferenceIdeal.RefVal

end
-- ==== Proof.RefChainHead.lean ====
/-
  The reference program's first stretch.  From the launch memory it cuts the edge index into its two rows, forms the node
  table (the features times the weights, plus the bias broadcast over the rows) and the edge table likewise; it writes
  no argument buffer.  So after it the index rows and the two tables are the stage values of the launch arguments, and
  every weight argument is as launched.
-/
import proofs.«418908_j25941602468191_1_alg».proof.Proof.RefChainBase
import Idealize.ShloMosaic.Lib.StableHlo.Run

set_option maxRecDepth 16384

noncomputable section

namespace Cert.ReferenceIdeal.RefVal

open Idealize.ShloMosaic Idealize.ShloMosaic.TcCoe Idealize.ShloMosaic.StableHlo Cert.ReferenceIdeal Cert.ReferenceIdeal.Gen Cert.ReferenceIdeal.ReadP

variable (m : (ℓ : Loc nD τ sig) → Buf (Elt Ideal) ℓ)

/-- The source row of the edge index. -/
private theorem R1_v1 (c : Dev nD) : R1 m c (Proc.devRef .tc main_v1) = val_main_v1 (F := Ideal) (xAt m c main_arg2) := by
  show StableHlo.after segH (R0 m c) (Proc.devRef .tc main_v1) = _
  after_results
  rfl

/-- The destination row of the edge index. -/
private theorem R1_v3 (c : Dev nD) : R1 m c (Proc.devRef .tc main_v3) = val_main_v3 (F := Ideal) (xAt m c main_arg2) := by
  show StableHlo.after segH (R0 m c) (Proc.devRef .tc main_v3) = _
  after_results
  rfl

/-- The node table: features times weights plus the broadcast bias. -/
private theorem R1_v7 (c : Dev nD) :
    R1 m c (Proc.devRef .tc main_v7) = val_main_v7 (F := Ideal) (xAt m c main_arg0) (xAt m c main_arg3) (xAt m c main_arg4) := by
  show StableHlo.after segH (R0 m c) (Proc.devRef .tc main_v7) = _
  after_results
  rfl

/-- The edge table: features times weights plus the broadcast bias. -/
private theorem R1_v11 (c : Dev nD) :
    R1 m c (Proc.devRef .tc main_v11) = val_main_v11 (F := Ideal) (xAt m c main_arg1) (xAt m c main_arg5) (xAt m c main_arg6) := by
  show StableHlo.after segH (R0 m c) (Proc.devRef .tc main_v11) = _
  after_results
  rfl

private theorem R1_arg7 (c : Dev nD) : R1 m c (Proc.devRef .tc main_arg7) = xAt m c main_arg7 := by
  show StableHlo.after segH (R0 m c) (Proc.devRef .tc main_arg7) = _
  after_results
  rfl

private theorem R1_arg8 (c : Dev nD) : R1 m c (Proc.devRef .tc main_arg8) = xAt m c main_arg8 := by
  show StableHlo.after segH (R0 m c) (Proc.devRef .tc main_arg8) = _
  after_results
  rfl

private theorem R1_arg9 (c : Dev nD) : R1 m c (Proc.devRef .tc main_arg9) = xAt m c main_arg9 := by
  show StableHlo.after segH (R0 m c) (Proc.devRef .tc main_arg9) = _
  after_results
  rfl

private theorem R1_arg10 (c : Dev nD) : R1 m c (Proc.devRef .tc main_arg10) = xAt m c main_arg10 := by
  show StableHlo.after segH (R0 m c) (Proc.devRef .tc main_arg10) = _
  after_results
  rfl

private theorem R1_arg11 (c : Dev nD) : R1 m c (Proc.devRef .tc main_arg11) = xAt m c main_arg11 := by
  show StableHlo.after segH (R0 m c) (Proc.devRef .tc main_arg11) = _
  after_results
  rfl

private theorem R1_arg12 (c : Dev nD) : R1 m c (Proc.devRef .tc main_arg12) = xAt m c main_arg12 := by
  show StableHlo.after segH (R0 m c) (Proc.devRef .tc main_arg12) = _
  after_results
  rfl

private theorem R1_arg13 (c : Dev nD) : R1 m c (Proc.devRef .tc main_arg13) = xAt m c main_arg13 := by
  show StableHlo.after segH (R0 m c) (Proc.devRef .tc main_arg13) = _
  after_results
  rfl

private theorem R1_arg14 (c : Dev nD) : R1 m c (Proc.devRef .tc main_arg14) = xAt m c main_arg14 := by
  show StableHlo.after segH (R0 m c) (Proc.devRef .tc main_arg14) = _
  after_results
  rfl

/-- After the first stretch: the node table is the stage value of the launch arguments, and the index rows, the edge
    table and the weight arguments are in place. -/
theorem refHead (c : Dev nD) :
    R1 m c (Proc.devRef .tc main_v7) = val_main_v7 (F := Ideal) (xAt m c main_arg0) (xAt m c main_arg3) (xAt m c main_arg4) ∧ RLive m c (R1 m c) :=
  ⟨R1_v7 m c,
   { v1 := R1_v1 m c, v3 := R1_v3 m c, v11 := R1_v11 m c,
     a7 := R1_arg7 m c, a8 := R1_arg8 m c, a9 := R1_arg9 m c, a10 := R1_arg10 m c,
     a11 := R1_arg11 m c, a12 := R1_arg12 m c, a13 := R1_arg13 m c, a14 := R1_arg14 m c }⟩

end Cert.ReferenceIdeal.RefVal

end
-- ==== Proof.RefChainL0.lean ====
/-
  Round 0 of message passing on the reference side.  The two rows of the edge index are wrapped and the node table
  is gathered at each; the two gathers are added, joined with the edge table, and passed through the round's two
  affine maps with a rectifier between them; the messages are then summed at their destination nodes into a zero
  table.  The index rows, the edge table and the weight arguments are written by none of this.
-/
import proofs.«418908_j25941602468191_1_alg».proof.Proof.RefChainBase
import Idealize.ShloMosaic.Lib.StableHlo.Run

set_option maxRecDepth 16384

noncomputable section

namespace Cert.ReferenceIdeal.RefVal

open Idealize.ShloMosaic Idealize.ShloMosaic.TcCoe Idealize.ShloMosaic.StableHlo Cert.ReferenceIdeal Cert.ReferenceIdeal.Gen Cert.ReferenceIdeal.ReadP

variable (m : (ℓ : Loc nD τ sig) → Buf (Elt Ideal) ℓ)

/-! ## Contents carried to and from a buffer's own type -/

private theorem ofBuf_toBuf' {sig : RefSig} {Val : EltTy → Type} {T : BufTy} (x : StableHlo.TRef sig T) (v : T.Contents Val) :
    x.ofBuf (x.toBuf v) = v := by
  obtain ⟨ref, rfl, od, us⟩ := x
  rfl

private theorem ofBuf_v35 (p q r) (v : FVec Ideal S800000x64 .f32) : (TRef.of (T := ⟨S800000x64, .f32⟩) main_v35 p q r).ofBuf (Val := Elt Ideal) v = v := rfl
private theorem toBuf_v36 (p q r) (v : FVec Ideal S800000x64 .f32) : (TRef.of (T := ⟨S800000x64, .f32⟩) main_v36 p q r).toBuf (Val := Elt Ideal) v = v := rfl

/-! ## The round's sum of messages -/

set_option maxHeartbeats 4000000 in
/-- The sum, at the destination nodes, of round 0's messages. -/
private theorem l0_v47 (c : Dev nD)
    (hh : R1 m c (Proc.devRef .tc main_v7) = val_main_v7 (F := Ideal) (xAt m c main_arg0) (xAt m c main_arg3) (xAt m c main_arg4)) (hL : RLive m c (R1 m c)) :
    R2 m c (Proc.devRef .tc main_v47) = val_main_v47 (F := Ideal) (xAt m c main_arg0) (xAt m c main_arg1) (xAt m c main_arg2) (xAt m c main_arg3) (xAt m c main_arg4) (xAt m c main_arg5) (xAt m c main_arg6) (xAt m c main_arg7) (xAt m c main_arg8) (xAt m c main_arg9) (xAt m c main_arg10) := by
  show StableHlo.after segL0 (R1 m c) (Proc.devRef .tc main_v47) = _
  after_results_simp
  simp only [ofBuf_toBuf']
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rw [hh, hL.v3, hL.v1, hL.v11, hL.a7, hL.a8, hL.a9, hL.a10]
  simp only [ofBuf_v35, toBuf_v36]
  rfl

/-! ## What nothing here writes -/

set_option maxHeartbeats 4000000 in
private theorem l0_v1 (c : Dev nD) :
    R2 m c (Proc.devRef .tc main_v1) = R1 m c (Proc.devRef .tc main_v1) := by
  show StableHlo.after segL0 (R1 m c) (Proc.devRef .tc main_v1) = _
  after_results_simp

set_option maxHeartbeats 4000000 in
private theorem l0_v3 (c : Dev nD) :
    R2 m c (Proc.devRef .tc main_v3) = R1 m c (Proc.devRef .tc main_v3) := by
  show StableHlo.after segL0 (R1 m c) (Proc.devRef .tc main_v3) = _
  after_results_simp

set_option maxHeartbeats 4000000 in
private theorem l0_v11 (c : Dev nD) :
    R2 m c (Proc.devRef .tc main_v11) = R1 m c (Proc.devRef .tc main_v11) := by
  show StableHlo.after segL0 (R1 m c) (Proc.devRef .tc main_v11) = _
  after_results_simp

set_option maxHeartbeats 4000000 in
private theorem l0_arg7 (c : Dev nD) :
    R2 m c (Proc.devRef .tc main_arg7) = R1 m c (Proc.devRef .tc main_arg7) := by
  show StableHlo.after segL0 (R1 m c) (Proc.devRef .tc main_arg7) = _
  after_results_simp

set_option maxHeartbeats 4000000 in
private theorem l0_arg8 (c : Dev nD) :
    R2 m c (Proc.devRef .tc main_arg8) = R1 m c (Proc.devRef .tc main_arg8) := by
  show StableHlo.after segL0 (R1 m c) (Proc.devRef .tc main_arg8) = _
  after_results_simp

set_option maxHeartbeats 4000000 in
private theorem l0_arg9 (c : Dev nD) :
    R2 m c (Proc.devRef .tc main_arg9) = R1 m c (Proc.devRef .tc main_arg9) := by
  show StableHlo.after segL0 (R1 m c) (Proc.devRef .tc main_arg9) = _
  after_results_simp

set_option maxHeartbeats 4000000 in
private theorem l0_arg10 (c : Dev nD) :
    R2 m c (Proc.devRef .tc main_arg10) = R1 m c (Proc.devRef .tc main_arg10) := by
  show StableHlo.after segL0 (R1 m c) (Proc.devRef .tc main_arg10) = _
  after_results_simp

set_option maxHeartbeats 4000000 in
private theorem l0_arg11 (c : Dev nD) :
    R2 m c (Proc.devRef .tc main_arg11) = R1 m c (Proc.devRef .tc main_arg11) := by
  show StableHlo.after segL0 (R1 m c) (Proc.devRef .tc main_arg11) = _
  after_results_simp

set_option maxHeartbeats 4000000 in
private theorem l0_arg12 (c : Dev nD) :
    R2 m c (Proc.devRef .tc main_arg12) = R1 m c (Proc.devRef .tc main_arg12) := by
  show StableHlo.after segL0 (R1 m c) (Proc.devRef .tc main_arg12) = _
  after_results_simp

set_option maxHeartbeats 4000000 in
private theorem l0_arg13 (c : Dev nD) :
    R2 m c (Proc.devRef .tc main_arg13) = R1 m c (Proc.devRef .tc main_arg13) := by
  show StableHlo.after segL0 (R1 m c) (Proc.devRef .tc main_arg13) = _
  after_results_simp

set_option maxHeartbeats 4000000 in
private theorem l0_arg14 (c : Dev nD) :
    R2 m c (Proc.devRef .tc main_arg14) = R1 m c (Proc.devRef .tc main_arg14) := by
  show StableHlo.after segL0 (R1 m c) (Proc.devRef .tc main_arg14) = _
  after_results_simp

/-! ## The round -/

/-- Round 0 on the reference side: from the node table at the first boundary to the summed messages at the second, with
    the persistent buffers unchanged. -/
theorem refL0 (c : Dev nD)
    (hh : R1 m c (Proc.devRef .tc main_v7) = val_main_v7 (F := Ideal) (xAt m c main_arg0) (xAt m c main_arg3) (xAt m c main_arg4)) (hL : RLive m c (R1 m c)) :
    R2 m c (Proc.devRef .tc main_v47) = val_main_v47 (F := Ideal) (xAt m c main_arg0) (xAt m c main_arg1) (xAt m c main_arg2) (xAt m c main_arg3) (xAt m c main_arg4) (xAt m c main_arg5) (xAt m c main_arg6) (xAt m c main_arg7) (xAt m c main_arg8) (xAt m c main_arg9) (xAt m c main_arg10) ∧ RLive m c (R2 m c) :=
  ⟨l0_v47 m c hh hL,
    { v1 := (l0_v1 m c).trans hL.v1
      v3 := (l0_v3 m c).trans hL.v3
      v11 := (l0_v11 m c).trans hL.v11
      a7 := (l0_arg7 m c).trans hL.a7
      a8 := (l0_arg8 m c).trans hL.a8
      a9 := (l0_arg9 m c).trans hL.a9
      a10 := (l0_arg10 m c).trans hL.a10
      a11 := (l0_arg11 m c).trans hL.a11
      a12 := (l0_arg12 m c).trans hL.a12
      a13 := (l0_arg13 m c).trans hL.a13
      a14 := (l0_arg14 m c).trans hL.a14 }⟩

end Cert.ReferenceIdeal.RefVal

end
-- ==== Proof.RefChainL1.lean ====
/-
  Round 1 of message passing in the idealized reference program: the node table left by round 0 is gathered at the
  wrapped destination and source rows, the two gathers are added and joined with the edge table, pushed through the
  round's two affine layers with a relu between, and the result is summed at the destination nodes into a zero table.
  The index rows, the edge table and the weight arguments are not written.
-/
import proofs.«418908_j25941602468191_1_alg».proof.Proof.RefChainBase
import Idealize.ShloMosaic.Lib.StableHlo.Run

set_option maxRecDepth 16384

noncomputable section

namespace Cert.ReferenceIdeal.RefVal

open Idealize.ShloMosaic Idealize.ShloMosaic.TcCoe Idealize.ShloMosaic.StableHlo Cert.ReferenceIdeal Cert.ReferenceIdeal.Gen Cert.ReferenceIdeal.ReadP

variable (m : (ℓ : Loc nD τ sig) → Buf (Elt Ideal) ℓ)

private theorem ofBuf_toBuf' {sig : RefSig} {Val : EltTy → Type} {T : BufTy} (x : StableHlo.TRef sig T) (v : T.Contents Val) :
    x.ofBuf (x.toBuf v) = v := by
  obtain ⟨ref, rfl, od, us⟩ := x
  rfl

/-! The relu call reads the hidden layer's buffer and writes its result's as they are. -/
private theorem ofBuf1_v71 (p q r) (v : FVec Ideal S800000x64 .f32) : (TRef.of (T := ⟨S800000x64, .f32⟩) main_v71 p q r).ofBuf (Val := Elt Ideal) v = v := rfl
private theorem toBuf1_v72 (p q r) (v : FVec Ideal S800000x64 .f32) : (TRef.of (T := ⟨S800000x64, .f32⟩) main_v72 p q r).toBuf (Val := Elt Ideal) v = v := rfl

/-! ## The round in four pieces: the two gathers added; the first affine layer; the relu; the second layer and the sum -/

/-- Up to the sum of the two gathers. -/
abbrev s1A : List (HloOp τ sig (Elt Ideal)) := (segL1 (F := Ideal)).take 19
/-- The join with the edge table and the first affine layer. -/
abbrev s1B : List (HloOp τ sig (Elt Ideal)) := ((segL1 (F := Ideal)).drop 19).take 9
/-- The relu. -/
abbrev s1C : List (HloOp τ sig (Elt Ideal)) := ((segL1 (F := Ideal)).drop 28).take 3
/-- The second affine layer and the sum at the destinations. -/
abbrev s1D : List (HloOp τ sig (Elt Ideal)) := (segL1 (F := Ideal)).drop 31

/-- The round's operations are the four pieces in order. -/
theorem segL1_cut : (segL1 (F := Ideal)) = s1A ++ (s1B ++ (s1C ++ s1D)) := rfl

set_option maxHeartbeats 4000000 in
/-- After the first piece: the node table gathered at the two wrapped index rows, added. -/
theorem s1A_v62 (c : Dev nD)
    (hh : R2 m c (Proc.devRef .tc main_v47) = val_main_v47 (F := Ideal) (xAt m c main_arg0) (xAt m c main_arg1) (xAt m c main_arg2) (xAt m c main_arg3) (xAt m c main_arg4) (xAt m c main_arg5) (xAt m c main_arg6) (xAt m c main_arg7) (xAt m c main_arg8) (xAt m c main_arg9) (xAt m c main_arg10))
    (hL : RLive m c (R2 m c)) :
    StableHlo.after s1A (R2 m c) (Proc.devRef .tc main_v62) = val_main_v62 (F := Ideal) (xAt m c main_arg0) (xAt m c main_arg1) (xAt m c main_arg2) (xAt m c main_arg3) (xAt m c main_arg4) (xAt m c main_arg5) (xAt m c main_arg6) (xAt m c main_arg7) (xAt m c main_arg8) (xAt m c main_arg9) (xAt m c main_arg10) := by
  simp only [s1A, s1B, s1C, s1D, segL1, List.drop_succ_cons, List.drop_zero, List.take_succ_cons, List.take_zero]
  after_results_simp
  rw [hh, hL.v3, hL.v1]
  rfl

set_option maxHeartbeats 4000000 in
theorem s1A_keep_v3 (Q : Valuation τ sig (Elt Ideal)) :
    StableHlo.after s1A Q (Proc.devRef .tc main_v3) = Q (Proc.devRef .tc main_v3) := by
  simp only [s1A, s1B, s1C, s1D, segL1, List.drop_succ_cons, List.drop_zero, List.take_succ_cons, List.take_zero]
  after_results_simp

set_option maxHeartbeats 4000000 in
theorem s1A_keep_v11 (Q : Valuation τ sig (Elt Ideal)) :
    StableHlo.after s1A Q (Proc.devRef .tc main_v11) = Q (Proc.devRef .tc main_v11) := by
  simp only [s1A, s1B, s1C, s1D, segL1, List.drop_succ_cons, List.drop_zero, List.take_succ_cons, List.take_zero]
  after_results_simp

set_option maxHeartbeats 4000000 in
theorem s1A_keep_arg7 (Q : Valuation τ sig (Elt Ideal)) :
    StableHlo.after s1A Q (Proc.devRef .tc main_arg7) = Q (Proc.devRef .tc main_arg7) := by
  simp only [s1A, s1B, s1C, s1D, segL1, List.drop_succ_cons, List.drop_zero, List.take_succ_cons, List.take_zero]
  after_results_simp

set_option maxHeartbeats 4000000 in
theorem s1A_keep_arg8 (Q : Valuation τ sig (Elt Ideal)) :
    StableHlo.after s1A Q (Proc.devRef .tc main_arg8) = Q (Proc.devRef .tc main_arg8) := by
  simp only [s1A, s1B, s1C, s1D, segL1, List.drop_succ_cons, List.drop_zero, List.take_succ_cons, List.take_zero]
  after_results_simp

set_option maxHeartbeats 4000000 in
theorem s1A_keep_arg9 (Q : Valuation τ sig (Elt Ideal)) :
    StableHlo.after s1A Q (Proc.devRef .tc main_arg9) = Q (Proc.devRef .tc main_arg9) := by
  simp only [s1A, s1B, s1C, s1D, segL1, List.drop_succ_cons, List.drop_zero, List.take_succ_cons, List.take_zero]
  after_results_simp

set_option maxHeartbeats 4000000 in
theorem s1A_keep_arg10 (Q : Valuation τ sig (Elt Ideal)) :
    StableHlo.after s1A Q (Proc.devRef .tc main_arg10) = Q (Proc.devRef .tc main_arg10) := by
  simp only [s1A, s1B, s1C, s1D, segL1, List.drop_succ_cons, List.drop_zero, List.take_succ_cons, List.take_zero]
  after_results_simp

set_option maxHeartbeats 4000000 in
/-- The second piece, from any contents `Q` holding the added gathers, the edge table and the round's first weights:
    the joined table through the first affine layer. -/
theorem s1B_v71 (c : Dev nD) (Q : Valuation τ sig (Elt Ideal))
    (h62 : Q (Proc.devRef .tc main_v62) = val_main_v62 (F := Ideal) (xAt m c main_arg0) (xAt m c main_arg1) (xAt m c main_arg2) (xAt m c main_arg3) (xAt m c main_arg4) (xAt m c main_arg5) (xAt m c main_arg6) (xAt m c main_arg7) (xAt m c main_arg8) (xAt m c main_arg9) (xAt m c main_arg10))
    (h11 : Q (Proc.devRef .tc main_v11) = val_main_v11 (F := Ideal) (xAt m c main_arg1) (xAt m c main_arg5) (xAt m c main_arg6))
    (h7 : Q (Proc.devRef .tc main_arg7) = xAt m c main_arg7) (h8 : Q (Proc.devRef .tc main_arg8) = xAt m c main_arg8) :
    StableHlo.after s1B Q (Proc.devRef .tc main_v71) = val_main_v71 (F := Ideal) (xAt m c main_arg0) (xAt m c main_arg1) (xAt m c main_arg2) (xAt m c main_arg3) (xAt m c main_arg4) (xAt m c main_arg5) (xAt m c main_arg6) (xAt m c main_arg7) (xAt m c main_arg8) (xAt m c main_arg9) (xAt m c main_arg10) := by
  simp only [s1A, s1B, s1C, s1D, segL1, List.drop_succ_cons, List.drop_zero, List.take_succ_cons, List.take_zero]
  after_results_simp
  rw [h62, h11, h7, h8]
  rfl

set_option maxHeartbeats 4000000 in
theorem s1B_keep_v3 (Q : Valuation τ sig (Elt Ideal)) :
    StableHlo.after s1B Q (Proc.devRef .tc main_v3) = Q (Proc.devRef .tc main_v3) := by
  simp only [s1A, s1B, s1C, s1D, segL1, List.drop_succ_cons, List.drop_zero, List.take_succ_cons, List.take_zero]
  after_results_simp

set_option maxHeartbeats 4000000 in
theorem s1B_keep_arg9 (Q : Valuation τ sig (Elt Ideal)) :
    StableHlo.after s1B Q (Proc.devRef .tc main_arg9) = Q (Proc.devRef .tc main_arg9) := by
  simp only [s1A, s1B, s1C, s1D, segL1, List.drop_succ_cons, List.drop_zero, List.take_succ_cons, List.take_zero]
  after_results_simp

set_option maxHeartbeats 4000000 in
theorem s1B_keep_arg10 (Q : Valuation τ sig (Elt Ideal)) :
    StableHlo.after s1B Q (Proc.devRef .tc main_arg10) = Q (Proc.devRef .tc main_arg10) := by
  simp only [s1A, s1B, s1C, s1D, segL1, List.drop_succ_cons, List.drop_zero, List.take_succ_cons, List.take_zero]
  after_results_simp

set_option maxHeartbeats 4000000 in
/-- The third piece: the relu of the hidden layer. -/
theorem s1C_v72 (c : Dev nD) (Q : Valuation τ sig (Elt Ideal))
    (h71 : Q (Proc.devRef .tc main_v71) = val_main_v71 (F := Ideal) (xAt m c main_arg0) (xAt m c main_arg1) (xAt m c main_arg2) (xAt m c main_arg3) (xAt m c main_arg4) (xAt m c main_arg5) (xAt m c main_arg6) (xAt m c main_arg7) (xAt m c main_arg8) (xAt m c main_arg9) (xAt m c main_arg10)) :
    StableHlo.after s1C Q (Proc.devRef .tc main_v72) = val_main_v72 (F := Ideal) (xAt m c main_arg0) (xAt m c main_arg1) (xAt m c main_arg2) (xAt m c main_arg3) (xAt m c main_arg4) (xAt m c main_arg5) (xAt m c main_arg6) (xAt m c main_arg7) (xAt m c main_arg8) (xAt m c main_arg9) (xAt m c main_arg10) := by
  simp only [s1A, s1B, s1C, s1D, segL1, List.drop_succ_cons, List.drop_zero, List.take_succ_cons, List.take_zero]
  after_results_simp
  simp only [ofBuf_toBuf']
  simp only [ofBuf1_v71, toBuf1_v72]
  rw [h71]
  rfl

set_option maxHeartbeats 4000000 in
theorem s1C_keep_v3 (Q : Valuation τ sig (Elt Ideal)) :
    StableHlo.after s1C Q (Proc.devRef .tc main_v3) = Q (Proc.devRef .tc main_v3) := by
  simp only [s1A, s1B, s1C, s1D, segL1, List.drop_succ_cons, List.drop_zero, List.take_succ_cons, List.take_zero]
  after_results_simp

set_option maxHeartbeats 4000000 in
theorem s1C_keep_arg9 (Q : Valuation τ sig (Elt Ideal)) :
    StableHlo.after s1C Q (Proc.devRef .tc main_arg9) = Q (Proc.devRef .tc main_arg9) := by
  simp only [s1A, s1B, s1C, s1D, segL1, List.drop_succ_cons, List.drop_zero, List.take_succ_cons, List.take_zero]
  after_results_simp

set_option maxHeartbeats 4000000 in
theorem s1C_keep_arg10 (Q : Valuation τ sig (Elt Ideal)) :
    StableHlo.after s1C Q (Proc.devRef .tc main_arg10) = Q (Proc.devRef .tc main_arg10) := by
  simp only [s1A, s1B, s1C, s1D, segL1, List.drop_succ_cons, List.drop_zero, List.take_succ_cons, List.take_zero]
  after_results_simp

set_option maxHeartbeats 4000000 in
/-- The fourth piece: the second affine layer, summed at the destination nodes into a zero table. -/
theorem s1D_v83 (c : Dev nD) (Q : Valuation τ sig (Elt Ideal))
    (h72 : Q (Proc.devRef .tc main_v72) = val_main_v72 (F := Ideal) (xAt m c main_arg0) (xAt m c main_arg1) (xAt m c main_arg2) (xAt m c main_arg3) (xAt m c main_arg4) (xAt m c main_arg5) (xAt m c main_arg6) (xAt m c main_arg7) (xAt m c main_arg8) (xAt m c main_arg9) (xAt m c main_arg10))
    (h3 : Q (Proc.devRef .tc main_v3) = val_main_v3 (F := Ideal) (xAt m c main_arg2))
    (h9 : Q (Proc.devRef .tc main_arg9) = xAt m c main_arg9) (h10 : Q (Proc.devRef .tc main_arg10) = xAt m c main_arg10) :
    StableHlo.after s1D Q (Proc.devRef .tc main_v83) = val_main_v83 (F := Ideal) (xAt m c main_arg0) (xAt m c main_arg1) (xAt m c main_arg2) (xAt m c main_arg3) (xAt m c main_arg4) (xAt m c main_arg5) (xAt m c main_arg6) (xAt m c main_arg7) (xAt m c main_arg8) (xAt m c main_arg9) (xAt m c main_arg10) := by
  simp only [s1A, s1B, s1C, s1D, segL1, List.drop_succ_cons, List.drop_zero, List.take_succ_cons, List.take_zero]
  after_results_simp
  rw [h72, h3, h9, h10]
  rfl

/-- The node table after round 1 is the reference's stage term. -/
theorem R3_v83 (c : Dev nD)
    (hh : R2 m c (Proc.devRef .tc main_v47) = val_main_v47 (F := Ideal) (xAt m c main_arg0) (xAt m c main_arg1) (xAt m c main_arg2) (xAt m c main_arg3) (xAt m c main_arg4) (xAt m c main_arg5) (xAt m c main_arg6) (xAt m c main_arg7) (xAt m c main_arg8) (xAt m c main_arg9) (xAt m c main_arg10))
    (hL : RLive m c (R2 m c)) :
    R3 m c (Proc.devRef .tc main_v83) = val_main_v83 (F := Ideal) (xAt m c main_arg0) (xAt m c main_arg1) (xAt m c main_arg2) (xAt m c main_arg3) (xAt m c main_arg4) (xAt m c main_arg5) (xAt m c main_arg6) (xAt m c main_arg7) (xAt m c main_arg8) (xAt m c main_arg9) (xAt m c main_arg10) := by
  show StableHlo.after (segL1 (F := Ideal)) (R2 m c) (Proc.devRef .tc main_v83) = _
  rw [segL1_cut, StableHlo.after_append, StableHlo.after_append, StableHlo.after_append]
  have e3 : StableHlo.after s1A (R2 m c) (Proc.devRef .tc main_v3) = val_main_v3 (F := Ideal) (xAt m c main_arg2) :=
    (s1A_keep_v3 (R2 m c)).trans hL.v3
  have e9 : StableHlo.after s1A (R2 m c) (Proc.devRef .tc main_arg9) = xAt m c main_arg9 := (s1A_keep_arg9 (R2 m c)).trans hL.a9
  have e10 : StableHlo.after s1A (R2 m c) (Proc.devRef .tc main_arg10) = xAt m c main_arg10 := (s1A_keep_arg10 (R2 m c)).trans hL.a10
  have e71 := s1B_v71 m c (StableHlo.after s1A (R2 m c)) (s1A_v62 m c hh hL) ((s1A_keep_v11 (R2 m c)).trans hL.v11)
    ((s1A_keep_arg7 (R2 m c)).trans hL.a7) ((s1A_keep_arg8 (R2 m c)).trans hL.a8)
  have e72 := s1C_v72 m c (StableHlo.after s1B (StableHlo.after s1A (R2 m c))) e71
  exact s1D_v83 m c (StableHlo.after s1C (StableHlo.after s1B (StableHlo.after s1A (R2 m c)))) e72
    ((s1C_keep_v3 _).trans ((s1B_keep_v3 _).trans e3))
    ((s1C_keep_arg9 _).trans ((s1B_keep_arg9 _).trans e9))
    ((s1C_keep_arg10 _).trans ((s1B_keep_arg10 _).trans e10))

/-! ## What the stretch does not write -/

set_option maxHeartbeats 4000000 in
theorem R3_keep_v1 (c : Dev nD) :
    R3 m c (Proc.devRef .tc main_v1) = R2 m c (Proc.devRef .tc main_v1) := by
  show StableHlo.after segL1 (R2 m c) (Proc.devRef .tc main_v1) = _
  after_results_simp

set_option maxHeartbeats 4000000 in
theorem R3_keep_v3 (c : Dev nD) :
    R3 m c (Proc.devRef .tc main_v3) = R2 m c (Proc.devRef .tc main_v3) := by
  show StableHlo.after segL1 (R2 m c) (Proc.devRef .tc main_v3) = _
  after_results_simp

set_option maxHeartbeats 4000000 in
theorem R3_keep_v11 (c : Dev nD) :
    R3 m c (Proc.devRef .tc main_v11) = R2 m c (Proc.devRef .tc main_v11) := by
  show StableHlo.after segL1 (R2 m c) (Proc.devRef .tc main_v11) = _
  after_results_simp

set_option maxHeartbeats 4000000 in
theorem R3_keep_arg7 (c : Dev nD) :
    R3 m c (Proc.devRef .tc main_arg7) = R2 m c (Proc.devRef .tc main_arg7) := by
  show StableHlo.after segL1 (R2 m c) (Proc.devRef .tc main_arg7) = _
  after_results_simp

set_option maxHeartbeats 4000000 in
theorem R3_keep_arg8 (c : Dev nD) :
    R3 m c (Proc.devRef .tc main_arg8) = R2 m c (Proc.devRef .tc main_arg8) := by
  show StableHlo.after segL1 (R2 m c) (Proc.devRef .tc main_arg8) = _
  after_results_simp

set_option maxHeartbeats 4000000 in
theorem R3_keep_arg9 (c : Dev nD) :
    R3 m c (Proc.devRef .tc main_arg9) = R2 m c (Proc.devRef .tc main_arg9) := by
  show StableHlo.after segL1 (R2 m c) (Proc.devRef .tc main_arg9) = _
  after_results_simp

set_option maxHeartbeats 4000000 in
theorem R3_keep_arg10 (c : Dev nD) :
    R3 m c (Proc.devRef .tc main_arg10) = R2 m c (Proc.devRef .tc main_arg10) := by
  show StableHlo.after segL1 (R2 m c) (Proc.devRef .tc main_arg10) = _
  after_results_simp

set_option maxHeartbeats 4000000 in
theorem R3_keep_arg11 (c : Dev nD) :
    R3 m c (Proc.devRef .tc main_arg11) = R2 m c (Proc.devRef .tc main_arg11) := by
  show StableHlo.after segL1 (R2 m c) (Proc.devRef .tc main_arg11) = _
  after_results_simp

set_option maxHeartbeats 4000000 in
theorem R3_keep_arg12 (c : Dev nD) :
    R3 m c (Proc.devRef .tc main_arg12) = R2 m c (Proc.devRef .tc main_arg12) := by
  show StableHlo.after segL1 (R2 m c) (Proc.devRef .tc main_arg12) = _
  after_results_simp

set_option maxHeartbeats 4000000 in
theorem R3_keep_arg13 (c : Dev nD) :
    R3 m c (Proc.devRef .tc main_arg13) = R2 m c (Proc.devRef .tc main_arg13) := by
  show StableHlo.after segL1 (R2 m c) (Proc.devRef .tc main_arg13) = _
  after_results_simp

set_option maxHeartbeats 4000000 in
theorem R3_keep_arg14 (c : Dev nD) :
    R3 m c (Proc.devRef .tc main_arg14) = R2 m c (Proc.devRef .tc main_arg14) := by
  show StableHlo.after segL1 (R2 m c) (Proc.devRef .tc main_arg14) = _
  after_results_simp
/-! ## The round -/

/-- Round 1 on the reference side: the node table after the round is the reference's stage term, and nothing later
    stretches read is disturbed. -/
theorem refL1 (c : Dev nD)
    (hh : R2 m c (Proc.devRef .tc main_v47) = val_main_v47 (F := Ideal) (xAt m c main_arg0) (xAt m c main_arg1) (xAt m c main_arg2) (xAt m c main_arg3) (xAt m c main_arg4) (xAt m c main_arg5) (xAt m c main_arg6) (xAt m c main_arg7) (xAt m c main_arg8) (xAt m c main_arg9) (xAt m c main_arg10)) (hL : RLive m c (R2 m c)) :
    R3 m c (Proc.devRef .tc main_v83) = val_main_v83 (F := Ideal) (xAt m c main_arg0) (xAt m c main_arg1) (xAt m c main_arg2) (xAt m c main_arg3) (xAt m c main_arg4) (xAt m c main_arg5) (xAt m c main_arg6) (xAt m c main_arg7) (xAt m c main_arg8) (xAt m c main_arg9) (xAt m c main_arg10) ∧ RLive m c (R3 m c) :=
  ⟨R3_v83 m c hh hL,
    { v1 := (R3_keep_v1 m c).trans hL.v1
      v3 := (R3_keep_v3 m c).trans hL.v3
      v11 := (R3_keep_v11 m c).trans hL.v11
      a7 := (R3_keep_arg7 m c).trans hL.a7
      a8 := (R3_keep_arg8 m c).trans hL.a8
      a9 := (R3_keep_arg9 m c).trans hL.a9
      a10 := (R3_keep_arg10 m c).trans hL.a10
      a11 := (R3_keep_arg11 m c).trans hL.a11
      a12 := (R3_keep_arg12 m c).trans hL.a12
      a13 := (R3_keep_arg13 m c).trans hL.a13
      a14 := (R3_keep_arg14 m c).trans hL.a14 }⟩

end Cert.ReferenceIdeal.RefVal

end
-- ==== Proof.RefChainL2.lean ====
/-
  The third round of the reference: from the node table before it, every edge gathers the table's rows at its
  destination and at its source (negative indices wrapped by the table's height), adds them, joins the edge table's row
  to the sum, and pushes the 128 numbers through the round's two affine layers with a relu between; the results are summed
  at the destination nodes into a zero table. The stretch is read operation by operation against the per-operation
  stages, in three parts; the index rows, the edge table and the weight arguments pass through it unchanged.
-/
import proofs.«418908_j25941602468191_1_alg».proof.Proof.RefChainBase
import Idealize.ShloMosaic.Lib.StableHlo.Run
import Idealize.ShloMosaic.Lib.Pipeline.Frame

set_option maxRecDepth 16384

noncomputable section

namespace Cert.ReferenceIdeal.RefVal

open Idealize.ShloMosaic Idealize.ShloMosaic.TcCoe Idealize.ShloMosaic.StableHlo Cert.ReferenceIdeal Cert.ReferenceIdeal.Gen Cert.ReferenceIdeal.ReadP

variable (m : (ℓ : Loc nD τ sig) → Buf (Elt Ideal) ℓ)

/-! ## Transport along a buffer's type

The relu is an inlined function: its operations read and write their buffers through a transport along the buffer's
type, which at a literal buffer is the identity. -/

private theorem ofBuf_toBuf_l2 {sig : RefSig} {Val : EltTy → Type} {T : BufTy} (x : StableHlo.TRef sig T) (v : T.Contents Val) :
    x.ofBuf (x.toBuf v) = v := by
  obtain ⟨ref, rfl, od, us⟩ := x
  rfl

private theorem ofBuf_l2_relu_in (p q r) (v : FVec Ideal S800000x64 .f32) :
    (TRef.of (T := ⟨S800000x64, .f32⟩) main_v107 p q r).ofBuf (Val := Elt Ideal) v = v := rfl
private theorem toBuf_l2_relu_out (p q r) (v : FVec Ideal S800000x64 .f32) :
    (TRef.of (T := ⟨S800000x64, .f32⟩) main_v108 p q r).toBuf (Val := Elt Ideal) v = v := rfl

/-! ## The round in three parts

The first part wraps the two index rows, gathers the node table at them and adds the two gathered tables; the second
joins the edge table to the sum and applies the first affine layer; the third is the relu, the second affine layer and
the sum at the destinations. -/

section Parts
variable {F : FTy → Type} [FloatOps F]

/-- The operations up to the sum of the two gathered tables. -/
abbrev segL2A : List (HloOp τ sig (Elt F)) :=
  [ nullary main_c_8 (constantI S_ 32 0#32),
    unary main_c_8 main_v84 (broadcastInDim S800000 ![] bcast_S_S800000 : (⟨S_, .i32⟩ : BufTy).Contents (Elt F) → (⟨S800000, .i32⟩ : BufTy).Contents (Elt F)),
    binary main_v3 main_v84 main_v85 (cmpi .slt : (⟨S800000, .i32⟩ : BufTy).Contents (Elt F) → (⟨S800000, .i32⟩ : BufTy).Contents (Elt F) → (⟨S800000, .i1⟩ : BufTy).Contents (Elt F)),
    nullary main_c_9 (constantI S_ 32 50000#32),
    unary main_c_9 main_v86 (broadcastInDim S800000 ![] bcast_S_S800000 : (⟨S_, .i32⟩ : BufTy).Contents (Elt F) → (⟨S800000, .i32⟩ : BufTy).Contents (Elt F)),
    binary main_v3 main_v86 main_v87 (addi : (⟨S800000, .i32⟩ : BufTy).Contents (Elt F) → (⟨S800000, .i32⟩ : BufTy).Contents (Elt F) → (⟨S800000, .i32⟩ : BufTy).Contents (Elt F)),
    ternary main_v85 main_v87 main_v3 main_v88 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v88 main_v89 (broadcastInDim S800000x1 ![0] bcast_S800000_S800000x1_0 : (⟨S800000, .i32⟩ : BufTy).Contents (Elt F) → (⟨S800000x1, .i32⟩ : BufTy).Contents (Elt F)),
    binary main_v83 main_v89 main_v90 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_c_10 (constantI S_ 32 0#32),
    unary main_c_10 main_v91 (broadcastInDim S800000 ![] bcast_S_S800000 : (⟨S_, .i32⟩ : BufTy).Contents (Elt F) → (⟨S800000, .i32⟩ : BufTy).Contents (Elt F)),
    binary main_v1 main_v91 main_v92 (cmpi .slt : (⟨S800000, .i32⟩ : BufTy).Contents (Elt F) → (⟨S800000, .i32⟩ : BufTy).Contents (Elt F) → (⟨S800000, .i1⟩ : BufTy).Contents (Elt F)),
    nullary main_c_11 (constantI S_ 32 50000#32),
    unary main_c_11 main_v93 (broadcastInDim S800000 ![] bcast_S_S800000 : (⟨S_, .i32⟩ : BufTy).Contents (Elt F) → (⟨S800000, .i32⟩ : BufTy).Contents (Elt F)),
    binary main_v1 main_v93 main_v94 (addi : (⟨S800000, .i32⟩ : BufTy).Contents (Elt F) → (⟨S800000, .i32⟩ : BufTy).Contents (Elt F) → (⟨S800000, .i32⟩ : BufTy).Contents (Elt F)),
    ternary main_v92 main_v94 main_v1 main_v95 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v95 main_v96 (broadcastInDim S800000x1 ![0] bcast_S800000_S800000x1_0 : (⟨S800000, .i32⟩ : BufTy).Contents (Elt F) → (⟨S800000x1, .i32⟩ : BufTy).Contents (Elt F)),
    binary main_v83 main_v96 main_v97 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    binary main_v90 main_v97 main_v98 (addf : (⟨S800000x64, .f32⟩ : BufTy).Contents (Elt F) → (⟨S800000x64, .f32⟩ : BufTy).Contents (Elt F) → (⟨S800000x64, .f32⟩ : BufTy).Contents (Elt F)) ]

/-- From the join with the edge table to the first layer's bias. -/
abbrev segL2B : List (HloOp τ sig (Elt F)) :=
  [ binary main_v98 main_v11 main_v99 ((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)),
    unary main_arg7 main_v100 ((extractStridedSlice S1x128x64 ![2, 0, 0] · slices_S4x128x64_S1x128x64_2_0_0) : (⟨S4x128x64, .f32⟩ : BufTy).Contents (Elt F) → (⟨S1x128x64, .f32⟩ : BufTy).Contents (Elt F)),
    reshape main_v100 main_v101 rfl shapeCasts_S1x128x64_S128x64,
    binary main_v99 main_v101 main_v102 ((fun l r => Host.dotGeneral dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)),
    unary main_arg8 main_v103 ((extractStridedSlice S1x64 ![2, 0] · slices_S4x64_S1x64_2_0) : (⟨S4x64, .f32⟩ : BufTy).Contents (Elt F) → (⟨S1x64, .f32⟩ : BufTy).Contents (Elt F)),
    reshape main_v103 main_v104 rfl shapeCasts_S1x64_S64,
    unary main_v104 main_v105 (broadcastInDim S1x64 ![1] bcast_S64_S1x64_1 : (⟨S64, .f32⟩ : BufTy).Contents (Elt F) → (⟨S1x64, .f32⟩ : BufTy).Contents (Elt F)),
    unary main_v105 main_v106 (broadcastInDim S800000x64 ![0, 1] bcast_S1x64_S800000x64_0_1 : (⟨S1x64, .f32⟩ : BufTy).Contents (Elt F) → (⟨S800000x64, .f32⟩ : BufTy).Contents (Elt F)),
    binary main_v102 main_v106 main_v107 (addf : (⟨S800000x64, .f32⟩ : BufTy).Contents (Elt F) → (⟨S800000x64, .f32⟩ : BufTy).Contents (Elt F) → (⟨S800000x64, .f32⟩ : BufTy).Contents (Elt F)) ]

/-- The relu, the second layer and the sum at the destinations. -/
abbrev segL2C : List (HloOp τ sig (Elt F)) :=
  [ TRef.nullary (TRef.of (T := ⟨S_, .f32⟩) main_call2_cst) (constant S_ .f32 0x00000000#32),
    TRef.unary (TRef.of (T := ⟨S_, .f32⟩) main_call2_cst) (TRef.of (T := ⟨S800000x64, .f32⟩) main_call2_v0) (broadcastInDim S800000x64 ![] bcast_S_S800000x64),
    TRef.binary (TRef.of (T := ⟨S800000x64, .f32⟩) main_v107) (TRef.of (T := ⟨S800000x64, .f32⟩) main_call2_v0) (TRef.of (T := ⟨S800000x64, .f32⟩) main_v108) maximumf,
    unary main_arg9 main_v109 ((extractStridedSlice S1x64x64 ![2, 0, 0] · slices_S4x64x64_S1x64x64_2_0_0) : (⟨S4x64x64, .f32⟩ : BufTy).Contents (Elt F) → (⟨S1x64x64, .f32⟩ : BufTy).Contents (Elt F)),
    reshape main_v109 main_v110 rfl shapeCasts_S1x64x64_S64x64,
    binary main_v108 main_v110 main_v111 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    unary main_arg10 main_v112 ((extractStridedSlice S1x64 ![2, 0] · slices_S4x64_S1x64_2_0) : (⟨S4x64, .f32⟩ : BufTy).Contents (Elt F) → (⟨S1x64, .f32⟩ : BufTy).Contents (Elt F)),
    reshape main_v112 main_v113 rfl shapeCasts_S1x64_S64,
    unary main_v113 main_v114 (broadcastInDim S1x64 ![1] bcast_S64_S1x64_1 : (⟨S64, .f32⟩ : BufTy).Contents (Elt F) → (⟨S1x64, .f32⟩ : BufTy).Contents (Elt F)),
    unary main_v114 main_v115 (broadcastInDim S800000x64 ![0, 1] bcast_S1x64_S800000x64_0_1 : (⟨S1x64, .f32⟩ : BufTy).Contents (Elt F) → (⟨S800000x64, .f32⟩ : BufTy).Contents (Elt F)),
    binary main_v111 main_v115 main_v116 (addf : (⟨S800000x64, .f32⟩ : BufTy).Contents (Elt F) → (⟨S800000x64, .f32⟩ : BufTy).Contents (Elt F) → (⟨S800000x64, .f32⟩ : BufTy).Contents (Elt F)),
    nullary main_cst_12 (constant S_ .f32 0x00000000#32),
    unary main_cst_12 main_v117 (broadcastInDim S50000x64 ![] bcast_S_S50000x64 : (⟨S_, .f32⟩ : BufTy).Contents (Elt F) → (⟨S50000x64, .f32⟩ : BufTy).Contents (Elt F)),
    unary main_v3 main_v118 (broadcastInDim S800000x1 ![0] bcast_S800000_S800000x1_0 : (⟨S800000, .i32⟩ : BufTy).Contents (Elt F) → (⟨S800000x1, .i32⟩ : BufTy).Contents (Elt F)),
    ternary main_v117 main_v118 main_v116 main_v119 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ]

end Parts

theorem segL2_split : (segL2 (F := Ideal)) = segL2A (F := Ideal) ++ (segL2B (F := Ideal) ++ segL2C (F := Ideal)) := rfl

set_option maxHeartbeats 4000000 in
/-- The sum of the node table's rows at the two ends of every edge. -/
theorem l2A_sum (c : Dev nD)
    (hh : R3 m c (Proc.devRef .tc main_v83) = val_main_v83 (F := Ideal) (xAt m c main_arg0) (xAt m c main_arg1) (xAt m c main_arg2) (xAt m c main_arg3) (xAt m c main_arg4) (xAt m c main_arg5) (xAt m c main_arg6) (xAt m c main_arg7) (xAt m c main_arg8) (xAt m c main_arg9) (xAt m c main_arg10))
    (hL : RLive m c (R3 m c)) :
    StableHlo.after (segL2A (F := Ideal)) (R3 m c) (Proc.devRef .tc main_v98) = val_main_v98 (F := Ideal) (xAt m c main_arg0) (xAt m c main_arg1) (xAt m c main_arg2) (xAt m c main_arg3) (xAt m c main_arg4) (xAt m c main_arg5) (xAt m c main_arg6) (xAt m c main_arg7) (xAt m c main_arg8) (xAt m c main_arg9) (xAt m c main_arg10) := by
  after_results_simp
  rw [hh, hL.v3, hL.v1]
  rfl

set_option maxHeartbeats 4000000 in
private theorem l2A_keep_v3 (c : Dev nD) :
    StableHlo.after (segL2A (F := Ideal)) (R3 m c) (Proc.devRef .tc main_v3) = R3 m c (Proc.devRef .tc main_v3) := by
  after_results_simp

set_option maxHeartbeats 4000000 in
private theorem l2A_keep_v11 (c : Dev nD) :
    StableHlo.after (segL2A (F := Ideal)) (R3 m c) (Proc.devRef .tc main_v11) = R3 m c (Proc.devRef .tc main_v11) := by
  after_results_simp

set_option maxHeartbeats 4000000 in
private theorem l2A_keep_a7 (c : Dev nD) :
    StableHlo.after (segL2A (F := Ideal)) (R3 m c) (Proc.devRef .tc main_arg7) = R3 m c (Proc.devRef .tc main_arg7) := by
  after_results_simp

set_option maxHeartbeats 4000000 in
private theorem l2A_keep_a8 (c : Dev nD) :
    StableHlo.after (segL2A (F := Ideal)) (R3 m c) (Proc.devRef .tc main_arg8) = R3 m c (Proc.devRef .tc main_arg8) := by
  after_results_simp

set_option maxHeartbeats 4000000 in
private theorem l2A_keep_a9 (c : Dev nD) :
    StableHlo.after (segL2A (F := Ideal)) (R3 m c) (Proc.devRef .tc main_arg9) = R3 m c (Proc.devRef .tc main_arg9) := by
  after_results_simp

set_option maxHeartbeats 4000000 in
private theorem l2A_keep_a10 (c : Dev nD) :
    StableHlo.after (segL2A (F := Ideal)) (R3 m c) (Proc.devRef .tc main_arg10) = R3 m c (Proc.devRef .tc main_arg10) := by
  after_results_simp

set_option maxHeartbeats 4000000 in
/-- The first layer, before the relu, from a boundary that holds the sum, the edge table and the weights. -/
theorem l2B_pre (c : Dev nD) (W : Valuation τ sig (Elt Ideal))
    (hs : W (Proc.devRef .tc main_v98) = val_main_v98 (F := Ideal) (xAt m c main_arg0) (xAt m c main_arg1) (xAt m c main_arg2) (xAt m c main_arg3) (xAt m c main_arg4) (xAt m c main_arg5) (xAt m c main_arg6) (xAt m c main_arg7) (xAt m c main_arg8) (xAt m c main_arg9) (xAt m c main_arg10))
    (h11 : W (Proc.devRef .tc main_v11) = val_main_v11 (F := Ideal) (xAt m c main_arg1) (xAt m c main_arg5) (xAt m c main_arg6))
    (h7 : W (Proc.devRef .tc main_arg7) = xAt m c main_arg7) (h8 : W (Proc.devRef .tc main_arg8) = xAt m c main_arg8) :
    StableHlo.after (segL2B (F := Ideal)) W (Proc.devRef .tc main_v107) = val_main_v107 (F := Ideal) (xAt m c main_arg0) (xAt m c main_arg1) (xAt m c main_arg2) (xAt m c main_arg3) (xAt m c main_arg4) (xAt m c main_arg5) (xAt m c main_arg6) (xAt m c main_arg7) (xAt m c main_arg8) (xAt m c main_arg9) (xAt m c main_arg10) := by
  after_results_simp
  rw [hs, h11, h7, h8]
  rfl

set_option maxHeartbeats 4000000 in
private theorem l2B_keep_v3 (W : Valuation τ sig (Elt Ideal)) :
    StableHlo.after (segL2B (F := Ideal)) W (Proc.devRef .tc main_v3) = W (Proc.devRef .tc main_v3) := by
  after_results_simp

set_option maxHeartbeats 4000000 in
private theorem l2B_keep_a9 (W : Valuation τ sig (Elt Ideal)) :
    StableHlo.after (segL2B (F := Ideal)) W (Proc.devRef .tc main_arg9) = W (Proc.devRef .tc main_arg9) := by
  after_results_simp

set_option maxHeartbeats 4000000 in
private theorem l2B_keep_a10 (W : Valuation τ sig (Elt Ideal)) :
    StableHlo.after (segL2B (F := Ideal)) W (Proc.devRef .tc main_arg10) = W (Proc.devRef .tc main_arg10) := by
  after_results_simp

set_option maxHeartbeats 4000000 in
/-- The rest of the round from a boundary that holds the first layer's result, the destination row and the weights. -/
theorem l2C_out (c : Dev nD) (W : Valuation τ sig (Elt Ideal))
    (hp : W (Proc.devRef .tc main_v107) = val_main_v107 (F := Ideal) (xAt m c main_arg0) (xAt m c main_arg1) (xAt m c main_arg2) (xAt m c main_arg3) (xAt m c main_arg4) (xAt m c main_arg5) (xAt m c main_arg6) (xAt m c main_arg7) (xAt m c main_arg8) (xAt m c main_arg9) (xAt m c main_arg10))
    (h3 : W (Proc.devRef .tc main_v3) = val_main_v3 (F := Ideal) (xAt m c main_arg2))
    (h9 : W (Proc.devRef .tc main_arg9) = xAt m c main_arg9) (h10 : W (Proc.devRef .tc main_arg10) = xAt m c main_arg10) :
    StableHlo.after (segL2C (F := Ideal)) W (Proc.devRef .tc main_v119) = val_main_v119 (F := Ideal) (xAt m c main_arg0) (xAt m c main_arg1) (xAt m c main_arg2) (xAt m c main_arg3) (xAt m c main_arg4) (xAt m c main_arg5) (xAt m c main_arg6) (xAt m c main_arg7) (xAt m c main_arg8) (xAt m c main_arg9) (xAt m c main_arg10) := by
  after_results_simp
  simp only [ofBuf_toBuf_l2]
  rw [hp, h3, h9, h10]
  simp only [ofBuf_l2_relu_in, toBuf_l2_relu_out]
  rfl

/-! ## The round's value -/

/-- The node table after the round is the stage of its scatter-add. -/
theorem refL2_val (c : Dev nD)
    (hh : R3 m c (Proc.devRef .tc main_v83) = val_main_v83 (F := Ideal) (xAt m c main_arg0) (xAt m c main_arg1) (xAt m c main_arg2) (xAt m c main_arg3) (xAt m c main_arg4) (xAt m c main_arg5) (xAt m c main_arg6) (xAt m c main_arg7) (xAt m c main_arg8) (xAt m c main_arg9) (xAt m c main_arg10))
    (hL : RLive m c (R3 m c)) :
    R4 m c (Proc.devRef .tc main_v119) = val_main_v119 (F := Ideal) (xAt m c main_arg0) (xAt m c main_arg1) (xAt m c main_arg2) (xAt m c main_arg3) (xAt m c main_arg4) (xAt m c main_arg5) (xAt m c main_arg6) (xAt m c main_arg7) (xAt m c main_arg8) (xAt m c main_arg9) (xAt m c main_arg10) := by
  show StableHlo.after segL2 (R3 m c) (Proc.devRef .tc main_v119) = _
  rw [segL2_split, StableHlo.after_append, StableHlo.after_append]
  refine l2C_out m c _ (l2B_pre m c _ (l2A_sum m c hh hL) ((l2A_keep_v11 m c).trans hL.v11)
      ((l2A_keep_a7 m c).trans hL.a7) ((l2A_keep_a8 m c).trans hL.a8))
    ((l2B_keep_v3 _).trans ((l2A_keep_v3 m c).trans hL.v3))
    ((l2B_keep_a9 _).trans ((l2A_keep_a9 m c).trans hL.a9))
    ((l2B_keep_a10 _).trans ((l2A_keep_a10 m c).trans hL.a10))

/-! ## What the round leaves untouched -/

set_option maxHeartbeats 4000000 in
private theorem l2_keep_v1 (c : Dev nD) :
    R4 m c (Proc.devRef .tc main_v1) = R3 m c (Proc.devRef .tc main_v1) := by
  show StableHlo.after segL2 (R3 m c) (Proc.devRef .tc main_v1) = _
  after_results_simp

set_option maxHeartbeats 4000000 in
private theorem l2_keep_v3 (c : Dev nD) :
    R4 m c (Proc.devRef .tc main_v3) = R3 m c (Proc.devRef .tc main_v3) := by
  show StableHlo.after segL2 (R3 m c) (Proc.devRef .tc main_v3) = _
  after_results_simp

set_option maxHeartbeats 4000000 in
private theorem l2_keep_v11 (c : Dev nD) :
    R4 m c (Proc.devRef .tc main_v11) = R3 m c (Proc.devRef .tc main_v11) := by
  show StableHlo.after segL2 (R3 m c) (Proc.devRef .tc main_v11) = _
  after_results_simp

set_option maxHeartbeats 4000000 in
private theorem l2_keep_a7 (c : Dev nD) :
    R4 m c (Proc.devRef .tc main_arg7) = R3 m c (Proc.devRef .tc main_arg7) := by
  show StableHlo.after segL2 (R3 m c) (Proc.devRef .tc main_arg7) = _
  after_results_simp

set_option maxHeartbeats 4000000 in
private theorem l2_keep_a8 (c : Dev nD) :
    R4 m c (Proc.devRef .tc main_arg8) = R3 m c (Proc.devRef .tc main_arg8) := by
  show StableHlo.after segL2 (R3 m c) (Proc.devRef .tc main_arg8) = _
  after_results_simp

set_option maxHeartbeats 4000000 in
private theorem l2_keep_a9 (c : Dev nD) :
    R4 m c (Proc.devRef .tc main_arg9) = R3 m c (Proc.devRef .tc main_arg9) := by
  show StableHlo.after segL2 (R3 m c) (Proc.devRef .tc main_arg9) = _
  after_results_simp

set_option maxHeartbeats 4000000 in
private theorem l2_keep_a10 (c : Dev nD) :
    R4 m c (Proc.devRef .tc main_arg10) = R3 m c (Proc.devRef .tc main_arg10) := by
  show StableHlo.after segL2 (R3 m c) (Proc.devRef .tc main_arg10) = _
  after_results_simp

set_option maxHeartbeats 4000000 in
private theorem l2_keep_a11 (c : Dev nD) :
    R4 m c (Proc.devRef .tc main_arg11) = R3 m c (Proc.devRef .tc main_arg11) := by
  show StableHlo.after segL2 (R3 m c) (Proc.devRef .tc main_arg11) = _
  after_results_simp

set_option maxHeartbeats 4000000 in
private theorem l2_keep_a12 (c : Dev nD) :
    R4 m c (Proc.devRef .tc main_arg12) = R3 m c (Proc.devRef .tc main_arg12) := by
  show StableHlo.after segL2 (R3 m c) (Proc.devRef .tc main_arg12) = _
  after_results_simp

set_option maxHeartbeats 4000000 in
private theorem l2_keep_a13 (c : Dev nD) :
    R4 m c (Proc.devRef .tc main_arg13) = R3 m c (Proc.devRef .tc main_arg13) := by
  show StableHlo.after segL2 (R3 m c) (Proc.devRef .tc main_arg13) = _
  after_results_simp

set_option maxHeartbeats 4000000 in
private theorem l2_keep_a14 (c : Dev nD) :
    R4 m c (Proc.devRef .tc main_arg14) = R3 m c (Proc.devRef .tc main_arg14) := by
  show StableHlo.after segL2 (R3 m c) (Proc.devRef .tc main_arg14) = _
  after_results_simp

/-- The index rows, the edge table and the weight arguments after the round are what they were before it. -/
theorem refL2_live (c : Dev nD) (hL : RLive m c (R3 m c)) : RLive m c (R4 m c) where
  v1 := (l2_keep_v1 m c).trans hL.v1
  v3 := (l2_keep_v3 m c).trans hL.v3
  v11 := (l2_keep_v11 m c).trans hL.v11
  a7 := (l2_keep_a7 m c).trans hL.a7
  a8 := (l2_keep_a8 m c).trans hL.a8
  a9 := (l2_keep_a9 m c).trans hL.a9
  a10 := (l2_keep_a10 m c).trans hL.a10
  a11 := (l2_keep_a11 m c).trans hL.a11
  a12 := (l2_keep_a12 m c).trans hL.a12
  a13 := (l2_keep_a13 m c).trans hL.a13
  a14 := (l2_keep_a14 m c).trans hL.a14

/-- The round on the reference side: the table after it, and the persistent buffers. -/
theorem refL2 (c : Dev nD)
    (hh : R3 m c (Proc.devRef .tc main_v83) = val_main_v83 (F := Ideal) (xAt m c main_arg0) (xAt m c main_arg1) (xAt m c main_arg2) (xAt m c main_arg3) (xAt m c main_arg4) (xAt m c main_arg5) (xAt m c main_arg6) (xAt m c main_arg7) (xAt m c main_arg8) (xAt m c main_arg9) (xAt m c main_arg10))
    (hL : RLive m c (R3 m c)) :
    R4 m c (Proc.devRef .tc main_v119) = val_main_v119 (F := Ideal) (xAt m c main_arg0) (xAt m c main_arg1) (xAt m c main_arg2) (xAt m c main_arg3) (xAt m c main_arg4) (xAt m c main_arg5) (xAt m c main_arg6) (xAt m c main_arg7) (xAt m c main_arg8) (xAt m c main_arg9) (xAt m c main_arg10) ∧ RLive m c (R4 m c) :=
  ⟨refL2_val m c hh hL, refL2_live m c hL⟩

end Cert.ReferenceIdeal.RefVal

end
-- ==== Proof.RefChainL3.lean ====
/-
  The fourth round of the reference: from the node table after three rounds, every edge gathers the table's rows at its
  destination and at its source (negative indices wrapped by the table's height), adds them, joins the edge table's row
  to the sum, and pushes the 128 numbers through the round's two affine layers with a relu between; the results are summed
  at the destination nodes into a zero table. The stretch is read operation by operation against the per-operation
  stages; the index rows, the edge table and the weight arguments pass through it unchanged.
-/
import proofs.«418908_j25941602468191_1_alg».proof.Proof.RefChainBase
import Idealize.ShloMosaic.Lib.StableHlo.Run
import Idealize.ShloMosaic.Lib.Pipeline.Frame

set_option maxRecDepth 16384

noncomputable section

namespace Cert.ReferenceIdeal.RefVal

open Idealize.ShloMosaic Idealize.ShloMosaic.TcCoe Idealize.ShloMosaic.StableHlo Cert.ReferenceIdeal Cert.ReferenceIdeal.Gen Cert.ReferenceIdeal.ReadP

variable (m : (ℓ : Loc nD τ sig) → Buf (Elt Ideal) ℓ)

/-! ## Transport along a buffer's type

The relu is an inlined function: its operations read and write their buffers through a transport along the buffer's
type, which at a literal buffer is the identity. -/

private theorem ofBuf_toBuf_l3 {sig : RefSig} {Val : EltTy → Type} {T : BufTy} (x : StableHlo.TRef sig T) (v : T.Contents Val) :
    x.ofBuf (x.toBuf v) = v := by
  obtain ⟨ref, rfl, od, us⟩ := x
  rfl

private theorem ofBuf_l3_v143 (p q r) (v : FVec Ideal S800000x64 .f32) :
    (TRef.of (T := ⟨S800000x64, .f32⟩) main_v143 p q r).ofBuf (Val := Elt Ideal) v = v := rfl
private theorem toBuf_l3_v144 (p q r) (v : FVec Ideal S800000x64 .f32) :
    (TRef.of (T := ⟨S800000x64, .f32⟩) main_v144 p q r).toBuf (Val := Elt Ideal) v = v := rfl

/-! ## The round in two parts

The first part wraps the two index rows, gathers the node table at them and adds the two gathered tables; the second
joins the edge table to the sum and runs the two layers and the sum at the destinations. -/

section Parts
variable {F : FTy → Type} [FloatOps F]

/-- The operations up to the sum of the two gathered tables. -/
abbrev segL3A : List (HloOp τ sig (Elt F)) :=
  [ nullary main_c_13 (constantI S_ 32 0#32),
    unary main_c_13 main_v120 (broadcastInDim S800000 ![] bcast_S_S800000 : (⟨S_, .i32⟩ : BufTy).Contents (Elt F) → (⟨S800000, .i32⟩ : BufTy).Contents (Elt F)),
    binary main_v3 main_v120 main_v121 (cmpi .slt : (⟨S800000, .i32⟩ : BufTy).Contents (Elt F) → (⟨S800000, .i32⟩ : BufTy).Contents (Elt F) → (⟨S800000, .i1⟩ : BufTy).Contents (Elt F)),
    nullary main_c_14 (constantI S_ 32 50000#32),
    unary main_c_14 main_v122 (broadcastInDim S800000 ![] bcast_S_S800000 : (⟨S_, .i32⟩ : BufTy).Contents (Elt F) → (⟨S800000, .i32⟩ : BufTy).Contents (Elt F)),
    binary main_v3 main_v122 main_v123 (addi : (⟨S800000, .i32⟩ : BufTy).Contents (Elt F) → (⟨S800000, .i32⟩ : BufTy).Contents (Elt F) → (⟨S800000, .i32⟩ : BufTy).Contents (Elt F)),
    ternary main_v121 main_v123 main_v3 main_v124 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v124 main_v125 (broadcastInDim S800000x1 ![0] bcast_S800000_S800000x1_0 : (⟨S800000, .i32⟩ : BufTy).Contents (Elt F) → (⟨S800000x1, .i32⟩ : BufTy).Contents (Elt F)),
    binary main_v119 main_v125 main_v126 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_c_15 (constantI S_ 32 0#32),
    unary main_c_15 main_v127 (broadcastInDim S800000 ![] bcast_S_S800000 : (⟨S_, .i32⟩ : BufTy).Contents (Elt F) → (⟨S800000, .i32⟩ : BufTy).Contents (Elt F)),
    binary main_v1 main_v127 main_v128 (cmpi .slt : (⟨S800000, .i32⟩ : BufTy).Contents (Elt F) → (⟨S800000, .i32⟩ : BufTy).Contents (Elt F) → (⟨S800000, .i1⟩ : BufTy).Contents (Elt F)),
    nullary main_c_16 (constantI S_ 32 50000#32),
    unary main_c_16 main_v129 (broadcastInDim S800000 ![] bcast_S_S800000 : (⟨S_, .i32⟩ : BufTy).Contents (Elt F) → (⟨S800000, .i32⟩ : BufTy).Contents (Elt F)),
    binary main_v1 main_v129 main_v130 (addi : (⟨S800000, .i32⟩ : BufTy).Contents (Elt F) → (⟨S800000, .i32⟩ : BufTy).Contents (Elt F) → (⟨S800000, .i32⟩ : BufTy).Contents (Elt F)),
    ternary main_v128 main_v130 main_v1 main_v131 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v131 main_v132 (broadcastInDim S800000x1 ![0] bcast_S800000_S800000x1_0 : (⟨S800000, .i32⟩ : BufTy).Contents (Elt F) → (⟨S800000x1, .i32⟩ : BufTy).Contents (Elt F)),
    binary main_v119 main_v132 main_v133 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    binary main_v126 main_v133 main_v134 (addf : (⟨S800000x64, .f32⟩ : BufTy).Contents (Elt F) → (⟨S800000x64, .f32⟩ : BufTy).Contents (Elt F) → (⟨S800000x64, .f32⟩ : BufTy).Contents (Elt F)) ]

/-- The operations from the join with the edge table on. -/
abbrev segL3B : List (HloOp τ sig (Elt F)) :=
  [ binary main_v134 main_v11 main_v135 ((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)),
    unary main_arg7 main_v136 ((extractStridedSlice S1x128x64 ![3, 0, 0] · slices_S4x128x64_S1x128x64_3_0_0) : (⟨S4x128x64, .f32⟩ : BufTy).Contents (Elt F) → (⟨S1x128x64, .f32⟩ : BufTy).Contents (Elt F)),
    reshape main_v136 main_v137 rfl shapeCasts_S1x128x64_S128x64,
    binary main_v135 main_v137 main_v138 ((fun l r => Host.dotGeneral dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)),
    unary main_arg8 main_v139 ((extractStridedSlice S1x64 ![3, 0] · slices_S4x64_S1x64_3_0) : (⟨S4x64, .f32⟩ : BufTy).Contents (Elt F) → (⟨S1x64, .f32⟩ : BufTy).Contents (Elt F)),
    reshape main_v139 main_v140 rfl shapeCasts_S1x64_S64,
    unary main_v140 main_v141 (broadcastInDim S1x64 ![1] bcast_S64_S1x64_1 : (⟨S64, .f32⟩ : BufTy).Contents (Elt F) → (⟨S1x64, .f32⟩ : BufTy).Contents (Elt F)),
    unary main_v141 main_v142 (broadcastInDim S800000x64 ![0, 1] bcast_S1x64_S800000x64_0_1 : (⟨S1x64, .f32⟩ : BufTy).Contents (Elt F) → (⟨S800000x64, .f32⟩ : BufTy).Contents (Elt F)),
    binary main_v138 main_v142 main_v143 (addf : (⟨S800000x64, .f32⟩ : BufTy).Contents (Elt F) → (⟨S800000x64, .f32⟩ : BufTy).Contents (Elt F) → (⟨S800000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S800000x64, .f32⟩) main_call3_v0) (broadcastInDim S800000x64 ![] bcast_S_S800000x64),
    TRef.binary (TRef.of (T := ⟨S800000x64, .f32⟩) main_v143) (TRef.of (T := ⟨S800000x64, .f32⟩) main_call3_v0) (TRef.of (T := ⟨S800000x64, .f32⟩) main_v144) maximumf,
    unary main_arg9 main_v145 ((extractStridedSlice S1x64x64 ![3, 0, 0] · slices_S4x64x64_S1x64x64_3_0_0) : (⟨S4x64x64, .f32⟩ : BufTy).Contents (Elt F) → (⟨S1x64x64, .f32⟩ : BufTy).Contents (Elt F)),
    reshape main_v145 main_v146 rfl shapeCasts_S1x64x64_S64x64,
    binary main_v144 main_v146 main_v147 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    unary main_arg10 main_v148 ((extractStridedSlice S1x64 ![3, 0] · slices_S4x64_S1x64_3_0) : (⟨S4x64, .f32⟩ : BufTy).Contents (Elt F) → (⟨S1x64, .f32⟩ : BufTy).Contents (Elt F)),
    reshape main_v148 main_v149 rfl shapeCasts_S1x64_S64,
    unary main_v149 main_v150 (broadcastInDim S1x64 ![1] bcast_S64_S1x64_1 : (⟨S64, .f32⟩ : BufTy).Contents (Elt F) → (⟨S1x64, .f32⟩ : BufTy).Contents (Elt F)),
    unary main_v150 main_v151 (broadcastInDim S800000x64 ![0, 1] bcast_S1x64_S800000x64_0_1 : (⟨S1x64, .f32⟩ : BufTy).Contents (Elt F) → (⟨S800000x64, .f32⟩ : BufTy).Contents (Elt F)),
    binary main_v147 main_v151 main_v152 (addf : (⟨S800000x64, .f32⟩ : BufTy).Contents (Elt F) → (⟨S800000x64, .f32⟩ : BufTy).Contents (Elt F) → (⟨S800000x64, .f32⟩ : BufTy).Contents (Elt F)),
    nullary main_cst_17 (constant S_ .f32 0x00000000#32),
    unary main_cst_17 main_v153 (broadcastInDim S50000x64 ![] bcast_S_S50000x64 : (⟨S_, .f32⟩ : BufTy).Contents (Elt F) → (⟨S50000x64, .f32⟩ : BufTy).Contents (Elt F)),
    unary main_v3 main_v154 (broadcastInDim S800000x1 ![0] bcast_S800000_S800000x1_0 : (⟨S800000, .i32⟩ : BufTy).Contents (Elt F) → (⟨S800000x1, .i32⟩ : BufTy).Contents (Elt F)),
    ternary main_v153 main_v154 main_v152 main_v155 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ]

end Parts

theorem segL3_split : (segL3 (F := Ideal)) = segL3A (F := Ideal) ++ segL3B (F := Ideal) := rfl

set_option maxHeartbeats 4000000 in
/-- The sum of the node table's rows at the two ends of every edge. -/
theorem l3A_v134 (c : Dev nD)
    (hh : R4 m c (Proc.devRef .tc main_v119) = val_main_v119 (F := Ideal) (xAt m c main_arg0) (xAt m c main_arg1) (xAt m c main_arg2) (xAt m c main_arg3) (xAt m c main_arg4) (xAt m c main_arg5) (xAt m c main_arg6) (xAt m c main_arg7) (xAt m c main_arg8) (xAt m c main_arg9) (xAt m c main_arg10))
    (hL : RLive m c (R4 m c)) :
    StableHlo.after (segL3A (F := Ideal)) (R4 m c) (Proc.devRef .tc main_v134) = val_main_v134 (F := Ideal) (xAt m c main_arg0) (xAt m c main_arg1) (xAt m c main_arg2) (xAt m c main_arg3) (xAt m c main_arg4) (xAt m c main_arg5) (xAt m c main_arg6) (xAt m c main_arg7) (xAt m c main_arg8) (xAt m c main_arg9) (xAt m c main_arg10) := by
  after_results_simp
  rw [hh, hL.v3, hL.v1]
  rfl

set_option maxHeartbeats 4000000 in
private theorem l3A_keep_v3 (c : Dev nD) :
    StableHlo.after (segL3A (F := Ideal)) (R4 m c) (Proc.devRef .tc main_v3) = R4 m c (Proc.devRef .tc main_v3) := by
  after_results_simp

set_option maxHeartbeats 4000000 in
private theorem l3A_keep_v11 (c : Dev nD) :
    StableHlo.after (segL3A (F := Ideal)) (R4 m c) (Proc.devRef .tc main_v11) = R4 m c (Proc.devRef .tc main_v11) := by
  after_results_simp

set_option maxHeartbeats 4000000 in
private theorem l3A_keep_a7 (c : Dev nD) :
    StableHlo.after (segL3A (F := Ideal)) (R4 m c) (Proc.devRef .tc main_arg7) = R4 m c (Proc.devRef .tc main_arg7) := by
  after_results_simp

set_option maxHeartbeats 4000000 in
private theorem l3A_keep_a8 (c : Dev nD) :
    StableHlo.after (segL3A (F := Ideal)) (R4 m c) (Proc.devRef .tc main_arg8) = R4 m c (Proc.devRef .tc main_arg8) := by
  after_results_simp

set_option maxHeartbeats 4000000 in
private theorem l3A_keep_a9 (c : Dev nD) :
    StableHlo.after (segL3A (F := Ideal)) (R4 m c) (Proc.devRef .tc main_arg9) = R4 m c (Proc.devRef .tc main_arg9) := by
  after_results_simp

set_option maxHeartbeats 4000000 in
private theorem l3A_keep_a10 (c : Dev nD) :
    StableHlo.after (segL3A (F := Ideal)) (R4 m c) (Proc.devRef .tc main_arg10) = R4 m c (Proc.devRef .tc main_arg10) := by
  after_results_simp

/-! ## The round's value -/

set_option maxHeartbeats 4000000 in
/-- The node table after the fourth round is the stage of its scatter-add. -/
theorem refL3_val (c : Dev nD)
    (hh : R4 m c (Proc.devRef .tc main_v119) = val_main_v119 (F := Ideal) (xAt m c main_arg0) (xAt m c main_arg1) (xAt m c main_arg2) (xAt m c main_arg3) (xAt m c main_arg4) (xAt m c main_arg5) (xAt m c main_arg6) (xAt m c main_arg7) (xAt m c main_arg8) (xAt m c main_arg9) (xAt m c main_arg10))
    (hL : RLive m c (R4 m c)) :
    R5 m c (Proc.devRef .tc main_v155) = val_main_v155 (F := Ideal) (xAt m c main_arg0) (xAt m c main_arg1) (xAt m c main_arg2) (xAt m c main_arg3) (xAt m c main_arg4) (xAt m c main_arg5) (xAt m c main_arg6) (xAt m c main_arg7) (xAt m c main_arg8) (xAt m c main_arg9) (xAt m c main_arg10) := by
  show StableHlo.after segL3 (R4 m c) (Proc.devRef .tc main_v155) = _
  rw [segL3_split, StableHlo.after_append]
  have h134 := l3A_v134 m c hh hL
  have h3 := (l3A_keep_v3 m c).trans hL.v3
  have h11 := (l3A_keep_v11 m c).trans hL.v11
  have h7 := (l3A_keep_a7 m c).trans hL.a7
  have h8 := (l3A_keep_a8 m c).trans hL.a8
  have h9 := (l3A_keep_a9 m c).trans hL.a9
  have h10 := (l3A_keep_a10 m c).trans hL.a10
  generalize StableHlo.after (segL3A (F := Ideal)) (R4 m c) = W at h134 h3 h11 h7 h8 h9 h10 ⊢
  after_results_simp
  simp only [ofBuf_toBuf_l3]
  rw [h134, h3, h11, h7, h8, h9, h10]
  simp only [ofBuf_l3_v143, toBuf_l3_v144]
  rfl

/-! ## What the round leaves untouched -/

set_option maxHeartbeats 4000000 in
private theorem l3_keep_v1 (c : Dev nD) :
    R5 m c (Proc.devRef .tc main_v1) = R4 m c (Proc.devRef .tc main_v1) := by
  show StableHlo.after segL3 (R4 m c) (Proc.devRef .tc main_v1) = _
  after_results_simp

set_option maxHeartbeats 4000000 in
private theorem l3_keep_v3 (c : Dev nD) :
    R5 m c (Proc.devRef .tc main_v3) = R4 m c (Proc.devRef .tc main_v3) := by
  show StableHlo.after segL3 (R4 m c) (Proc.devRef .tc main_v3) = _
  after_results_simp

set_option maxHeartbeats 4000000 in
private theorem l3_keep_v11 (c : Dev nD) :
    R5 m c (Proc.devRef .tc main_v11) = R4 m c (Proc.devRef .tc main_v11) := by
  show StableHlo.after segL3 (R4 m c) (Proc.devRef .tc main_v11) = _
  after_results_simp

set_option maxHeartbeats 4000000 in
private theorem l3_keep_a7 (c : Dev nD) :
    R5 m c (Proc.devRef .tc main_arg7) = R4 m c (Proc.devRef .tc main_arg7) := by
  show StableHlo.after segL3 (R4 m c) (Proc.devRef .tc main_arg7) = _
  after_results_simp

set_option maxHeartbeats 4000000 in
private theorem l3_keep_a8 (c : Dev nD) :
    R5 m c (Proc.devRef .tc main_arg8) = R4 m c (Proc.devRef .tc main_arg8) := by
  show StableHlo.after segL3 (R4 m c) (Proc.devRef .tc main_arg8) = _
  after_results_simp

set_option maxHeartbeats 4000000 in
private theorem l3_keep_a9 (c : Dev nD) :
    R5 m c (Proc.devRef .tc main_arg9) = R4 m c (Proc.devRef .tc main_arg9) := by
  show StableHlo.after segL3 (R4 m c) (Proc.devRef .tc main_arg9) = _
  after_results_simp

set_option maxHeartbeats 4000000 in
private theorem l3_keep_a10 (c : Dev nD) :
    R5 m c (Proc.devRef .tc main_arg10) = R4 m c (Proc.devRef .tc main_arg10) := by
  show StableHlo.after segL3 (R4 m c) (Proc.devRef .tc main_arg10) = _
  after_results_simp

set_option maxHeartbeats 4000000 in
private theorem l3_keep_a11 (c : Dev nD) :
    R5 m c (Proc.devRef .tc main_arg11) = R4 m c (Proc.devRef .tc main_arg11) := by
  show StableHlo.after segL3 (R4 m c) (Proc.devRef .tc main_arg11) = _
  after_results_simp

set_option maxHeartbeats 4000000 in
private theorem l3_keep_a12 (c : Dev nD) :
    R5 m c (Proc.devRef .tc main_arg12) = R4 m c (Proc.devRef .tc main_arg12) := by
  show StableHlo.after segL3 (R4 m c) (Proc.devRef .tc main_arg12) = _
  after_results_simp

set_option maxHeartbeats 4000000 in
private theorem l3_keep_a13 (c : Dev nD) :
    R5 m c (Proc.devRef .tc main_arg13) = R4 m c (Proc.devRef .tc main_arg13) := by
  show StableHlo.after segL3 (R4 m c) (Proc.devRef .tc main_arg13) = _
  after_results_simp

set_option maxHeartbeats 4000000 in
private theorem l3_keep_a14 (c : Dev nD) :
    R5 m c (Proc.devRef .tc main_arg14) = R4 m c (Proc.devRef .tc main_arg14) := by
  show StableHlo.after segL3 (R4 m c) (Proc.devRef .tc main_arg14) = _
  after_results_simp

/-- The index rows, the edge table and the weight arguments after the round are what they were before it. -/
theorem refL3_live (c : Dev nD) (hL : RLive m c (R4 m c)) : RLive m c (R5 m c) where
  v1 := (l3_keep_v1 m c).trans hL.v1
  v3 := (l3_keep_v3 m c).trans hL.v3
  v11 := (l3_keep_v11 m c).trans hL.v11
  a7 := (l3_keep_a7 m c).trans hL.a7
  a8 := (l3_keep_a8 m c).trans hL.a8
  a9 := (l3_keep_a9 m c).trans hL.a9
  a10 := (l3_keep_a10 m c).trans hL.a10
  a11 := (l3_keep_a11 m c).trans hL.a11
  a12 := (l3_keep_a12 m c).trans hL.a12
  a13 := (l3_keep_a13 m c).trans hL.a13
  a14 := (l3_keep_a14 m c).trans hL.a14

/-- Round 3 on the reference side: the table after it, and the persistent buffers. -/
theorem refL3 (c : Dev nD)
    (hh : R4 m c (Proc.devRef .tc main_v119) = val_main_v119 (F := Ideal) (xAt m c main_arg0) (xAt m c main_arg1) (xAt m c main_arg2) (xAt m c main_arg3) (xAt m c main_arg4) (xAt m c main_arg5) (xAt m c main_arg6) (xAt m c main_arg7) (xAt m c main_arg8) (xAt m c main_arg9) (xAt m c main_arg10))
    (hL : RLive m c (R4 m c)) :
    R5 m c (Proc.devRef .tc main_v155) = val_main_v155 (F := Ideal) (xAt m c main_arg0) (xAt m c main_arg1) (xAt m c main_arg2) (xAt m c main_arg3) (xAt m c main_arg4) (xAt m c main_arg5) (xAt m c main_arg6) (xAt m c main_arg7) (xAt m c main_arg8) (xAt m c main_arg9) (xAt m c main_arg10) ∧ RLive m c (R5 m c) :=
  ⟨refL3_val m c hh hL, refL3_live m c hL⟩

end Cert.ReferenceIdeal.RefVal

end
-- ==== Proof.RefChainFin.lean ====
/-
  The last stretch of the idealized reference program, read as a function of the argument arrays.  From the last node
  table it gathers the rows at the source and at the destination node of every edge (each index row wrapped by the
  table's height first), joins the two gathered rows side by side, and sends the joined rows through the score network:
  a 128 × 64 product plus a bias, clamped at zero, then a 64 × 1 product plus a bias; the one-column result is flattened
  to one entry per edge.  The stretch is cut after the two gathers: each gather's value is the stage of the same name,
  and from the two gathered arrays the rest of the stretch ends at the last stage.
-/
import proofs.«418908_j25941602468191_1_alg».proof.Proof.RefChainBase
import Idealize.ShloMosaic.Lib.StableHlo.Run

set_option maxRecDepth 16384

noncomputable section

namespace Cert.ReferenceIdeal.RefVal

open Idealize.ShloMosaic Idealize.ShloMosaic.TcCoe Idealize.ShloMosaic.StableHlo Cert.ReferenceIdeal Cert.ReferenceIdeal.Gen Cert.ReferenceIdeal.ReadP

/-! ## The stretch in two parts -/

section Parts
variable {F : FTy → Type} [FloatOps F]

/-- The first part of the last stretch: the two index rows wrapped by the table's height, and the two row gathers. -/
abbrev segFa : List (HloOp τ sig (Elt F)) :=
  [ nullary main_c_18 (constantI S_ 32 0#32),
    unary main_c_18 main_v156 (broadcastInDim S800000 ![] bcast_S_S800000 : (⟨S_, .i32⟩ : BufTy).Contents (Elt F) → (⟨S800000, .i32⟩ : BufTy).Contents (Elt F)),
    binary main_v1 main_v156 main_v157 (cmpi .slt : (⟨S800000, .i32⟩ : BufTy).Contents (Elt F) → (⟨S800000, .i32⟩ : BufTy).Contents (Elt F) → (⟨S800000, .i1⟩ : BufTy).Contents (Elt F)),
    nullary main_c_19 (constantI S_ 32 50000#32),
    unary main_c_19 main_v158 (broadcastInDim S800000 ![] bcast_S_S800000 : (⟨S_, .i32⟩ : BufTy).Contents (Elt F) → (⟨S800000, .i32⟩ : BufTy).Contents (Elt F)),
    binary main_v1 main_v158 main_v159 (addi : (⟨S800000, .i32⟩ : BufTy).Contents (Elt F) → (⟨S800000, .i32⟩ : BufTy).Contents (Elt F) → (⟨S800000, .i32⟩ : BufTy).Contents (Elt F)),
    ternary main_v157 main_v159 main_v1 main_v160 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v160 main_v161 (broadcastInDim S800000x1 ![0] bcast_S800000_S800000x1_0 : (⟨S800000, .i32⟩ : BufTy).Contents (Elt F) → (⟨S800000x1, .i32⟩ : BufTy).Contents (Elt F)),
    binary main_v155 main_v161 main_v162 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_c_20 (constantI S_ 32 0#32),
    unary main_c_20 main_v163 (broadcastInDim S800000 ![] bcast_S_S800000 : (⟨S_, .i32⟩ : BufTy).Contents (Elt F) → (⟨S800000, .i32⟩ : BufTy).Contents (Elt F)),
    binary main_v3 main_v163 main_v164 (cmpi .slt : (⟨S800000, .i32⟩ : BufTy).Contents (Elt F) → (⟨S800000, .i32⟩ : BufTy).Contents (Elt F) → (⟨S800000, .i1⟩ : BufTy).Contents (Elt F)),
    nullary main_c_21 (constantI S_ 32 50000#32),
    unary main_c_21 main_v165 (broadcastInDim S800000 ![] bcast_S_S800000 : (⟨S_, .i32⟩ : BufTy).Contents (Elt F) → (⟨S800000, .i32⟩ : BufTy).Contents (Elt F)),
    binary main_v3 main_v165 main_v166 (addi : (⟨S800000, .i32⟩ : BufTy).Contents (Elt F) → (⟨S800000, .i32⟩ : BufTy).Contents (Elt F) → (⟨S800000, .i32⟩ : BufTy).Contents (Elt F)),
    ternary main_v164 main_v166 main_v3 main_v167 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v167 main_v168 (broadcastInDim S800000x1 ![0] bcast_S800000_S800000x1_0 : (⟨S800000, .i32⟩ : BufTy).Contents (Elt F) → (⟨S800000x1, .i32⟩ : BufTy).Contents (Elt F)),
    binary main_v155 main_v168 main_v169 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) ]

/-- The second part of the last stretch: the two gathered rows joined, the score network, the flattening. -/
abbrev segFb : List (HloOp τ sig (Elt F)) :=
  [ binary main_v162 main_v169 main_v170 ((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)),
    binary main_v170 main_arg11 main_v171 ((fun l r => Host.dotGeneral dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)),
    unary main_arg12 main_v172 (broadcastInDim S1x64 ![1] bcast_S64_S1x64_1 : (⟨S64, .f32⟩ : BufTy).Contents (Elt F) → (⟨S1x64, .f32⟩ : BufTy).Contents (Elt F)),
    unary main_v172 main_v173 (broadcastInDim S800000x64 ![0, 1] bcast_S1x64_S800000x64_0_1 : (⟨S1x64, .f32⟩ : BufTy).Contents (Elt F) → (⟨S800000x64, .f32⟩ : BufTy).Contents (Elt F)),
    binary main_v171 main_v173 main_v174 (addf : (⟨S800000x64, .f32⟩ : BufTy).Contents (Elt F) → (⟨S800000x64, .f32⟩ : BufTy).Contents (Elt F) → (⟨S800000x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S800000x64, .f32⟩) main_call4_v0) (broadcastInDim S800000x64 ![] bcast_S_S800000x64),
    TRef.binary (TRef.of (T := ⟨S800000x64, .f32⟩) main_v174) (TRef.of (T := ⟨S800000x64, .f32⟩) main_call4_v0) (TRef.of (T := ⟨S800000x64, .f32⟩) main_v175) maximumf,
    binary main_v175 main_arg13 main_v176 ((fun l r => Host.dotGeneral dot_S800000x64_S64x1_S800000x1_1_0_0_1_n_n none l r) : (⟨S800000x64, .f32⟩ : BufTy).Contents (Elt F) → (⟨S64x1, .f32⟩ : BufTy).Contents (Elt F) → (⟨S800000x1, .f32⟩ : BufTy).Contents (Elt F)),
    unary main_arg14 main_v177 (broadcastInDim S1x1 ![1] bcast_S1_S1x1_1 : (⟨S1, .f32⟩ : BufTy).Contents (Elt F) → (⟨S1x1, .f32⟩ : BufTy).Contents (Elt F)),
    unary main_v177 main_v178 (broadcastInDim S800000x1 ![0, 1] bcast_S1x1_S800000x1_0_1 : (⟨S1x1, .f32⟩ : BufTy).Contents (Elt F) → (⟨S800000x1, .f32⟩ : BufTy).Contents (Elt F)),
    binary main_v176 main_v178 main_v179 (addf : (⟨S800000x1, .f32⟩ : BufTy).Contents (Elt F) → (⟨S800000x1, .f32⟩ : BufTy).Contents (Elt F) → (⟨S800000x1, .f32⟩ : BufTy).Contents (Elt F)),
    reshape main_v179 main_v180 rfl shapeCasts_S800000x1_S800000 ]

/-- The last stretch is its two parts, one after the other. -/
theorem segF_split : (segF : List (HloOp τ sig (Elt F))) = segFa ++ segFb := rfl

end Parts

variable (m : (ℓ : Loc nD τ sig) → Buf (Elt Ideal) ℓ)

/-! ## Transport along a buffer's type

The clamp at zero is an inlined function: its operations read and write their buffers through a transport along the
buffer's type, which at a literal buffer is the identity. -/

private theorem ofBuf_toBuf_rfin {sig : RefSig} {Val : EltTy → Type} {T : BufTy} (x : StableHlo.TRef sig T) (v : T.Contents Val) :
    x.ofBuf (x.toBuf v) = v := by
  obtain ⟨ref, rfl, od, us⟩ := x
  rfl

private theorem ofBuf_rfin_v174 (p q r) (v : FVec Ideal S800000x64 .f32) :
    (TRef.of (T := ⟨S800000x64, .f32⟩) main_v174 p q r).ofBuf (Val := Elt Ideal) v = v := rfl
private theorem toBuf_rfin_v175 (p q r) (v : FVec Ideal S800000x64 .f32) :
    (TRef.of (T := ⟨S800000x64, .f32⟩) main_v175 p q r).toBuf (Val := Elt Ideal) v = v := rfl

/-! ## The two gathers -/

set_option maxHeartbeats 4000000 in
/-- The last node table gathered at the source row of the edge index. -/
theorem refFin_v162 (c : Dev nD)
    (hh : R5 m c (Proc.devRef .tc main_v155) = val_main_v155 (F := Ideal) (xAt m c main_arg0) (xAt m c main_arg1) (xAt m c main_arg2) (xAt m c main_arg3) (xAt m c main_arg4) (xAt m c main_arg5) (xAt m c main_arg6) (xAt m c main_arg7) (xAt m c main_arg8) (xAt m c main_arg9) (xAt m c main_arg10)) (hL : RLive m c (R5 m c)) :
    StableHlo.after segFa (R5 m c) (Proc.devRef .tc main_v162) = val_main_v162 (F := Ideal) (xAt m c main_arg0) (xAt m c main_arg1) (xAt m c main_arg2) (xAt m c main_arg3) (xAt m c main_arg4) (xAt m c main_arg5) (xAt m c main_arg6) (xAt m c main_arg7) (xAt m c main_arg8) (xAt m c main_arg9) (xAt m c main_arg10) := by
  after_results_simp
  rw [hh, hL.v1]
  rfl

set_option maxHeartbeats 4000000 in
/-- The last node table gathered at the destination row of the edge index. -/
theorem refFin_v169 (c : Dev nD)
    (hh : R5 m c (Proc.devRef .tc main_v155) = val_main_v155 (F := Ideal) (xAt m c main_arg0) (xAt m c main_arg1) (xAt m c main_arg2) (xAt m c main_arg3) (xAt m c main_arg4) (xAt m c main_arg5) (xAt m c main_arg6) (xAt m c main_arg7) (xAt m c main_arg8) (xAt m c main_arg9) (xAt m c main_arg10)) (hL : RLive m c (R5 m c)) :
    StableHlo.after segFa (R5 m c) (Proc.devRef .tc main_v169) = val_main_v169 (F := Ideal) (xAt m c main_arg0) (xAt m c main_arg1) (xAt m c main_arg2) (xAt m c main_arg3) (xAt m c main_arg4) (xAt m c main_arg5) (xAt m c main_arg6) (xAt m c main_arg7) (xAt m c main_arg8) (xAt m c main_arg9) (xAt m c main_arg10) := by
  after_results_simp
  rw [hh, hL.v3]
  rfl

set_option maxHeartbeats 4000000 in
/-- The first part of the stretch leaves the score network's parameters as they were. -/
theorem refFin_params (c : Dev nD) (hL : RLive m c (R5 m c)) :
    StableHlo.after segFa (R5 m c) (Proc.devRef .tc main_arg11) = xAt m c main_arg11
    ∧ StableHlo.after segFa (R5 m c) (Proc.devRef .tc main_arg12) = xAt m c main_arg12
    ∧ StableHlo.after segFa (R5 m c) (Proc.devRef .tc main_arg13) = xAt m c main_arg13
    ∧ StableHlo.after segFa (R5 m c) (Proc.devRef .tc main_arg14) = xAt m c main_arg14 := by
  refine ⟨?_, ?_, ?_, ?_⟩
  · after_results_simp; exact hL.a11
  · after_results_simp; exact hL.a12
  · after_results_simp; exact hL.a13
  · after_results_simp; exact hL.a14

/-! ## The result of the stretch -/

set_option maxHeartbeats 4000000 in
/-- From the last node table and the untouched index rows and score parameters, the last stretch leaves the final stage in
    the result buffer. -/
theorem refFin (c : Dev nD)
    (hh : R5 m c (Proc.devRef .tc main_v155) = val_main_v155 (F := Ideal) (xAt m c main_arg0) (xAt m c main_arg1) (xAt m c main_arg2) (xAt m c main_arg3) (xAt m c main_arg4) (xAt m c main_arg5) (xAt m c main_arg6) (xAt m c main_arg7) (xAt m c main_arg8) (xAt m c main_arg9) (xAt m c main_arg10)) (hL : RLive m c (R5 m c)) :
    R6 m c (Proc.devRef .tc main_v180) = val_main_v180 (F := Ideal) (xAt m c main_arg0) (xAt m c main_arg1) (xAt m c main_arg2) (xAt m c main_arg3) (xAt m c main_arg4) (xAt m c main_arg5) (xAt m c main_arg6) (xAt m c main_arg7) (xAt m c main_arg8) (xAt m c main_arg9) (xAt m c main_arg10) (xAt m c main_arg11) (xAt m c main_arg12) (xAt m c main_arg13) (xAt m c main_arg14) := by
  have e162 := refFin_v162 m c hh hL
  have e169 := refFin_v169 m c hh hL
  obtain ⟨e11, e12, e13, e14⟩ := refFin_params m c hL
  show StableHlo.after segF (R5 m c) (Proc.devRef .tc main_v180) = _
  rw [segF_split, after_append]
  generalize StableHlo.after segFa (R5 m c) = V at e162 e169 e11 e12 e13 e14 ⊢
  after_results_simp
  simp only [ofBuf_toBuf_rfin]
  rw [e162, e169, e11, e12, e13, e14]
  simp only [ofBuf_rfin_v174, toBuf_rfin_v175]
  rfl

end Cert.ReferenceIdeal.RefVal

end
-- ==== Proof.RefArgs.lean ====
/-
  The reference program writes none of its argument buffers: each of its operations writes its own result buffer only.
  So at the end of the run every argument buffer holds what the launch gave it.
-/
import proofs.«418908_j25941602468191_1_alg».proof.Proof.RefChainBase
import Idealize.ShloMosaic.Lib.StableHlo.Run

set_option maxRecDepth 16384

noncomputable section

namespace Cert.ReferenceIdeal.RefVal

open Idealize.ShloMosaic Idealize.ShloMosaic.TcCoe Idealize.ShloMosaic.StableHlo Cert.ReferenceIdeal Cert.ReferenceIdeal.Gen Cert.ReferenceIdeal.ReadP

variable (m : (ℓ : Loc nD τ sig) → Buf (Elt Ideal) ℓ)

set_option maxHeartbeats 4000000 in
/-- Argument 0 at the end of the run is as launched. -/
theorem R6_arg0 (c : Dev nD) : R6 m c (Proc.devRef .tc main_arg0) = xAt m c main_arg0 := by
  show StableHlo.after segF (StableHlo.after segL3 (StableHlo.after segL2 (StableHlo.after segL1 (StableHlo.after segL0
    (StableHlo.after segH (launchContents m c)))))) (Proc.devRef .tc main_arg0) = _
  after_results_simp

set_option maxHeartbeats 4000000 in
/-- Argument 1 at the end of the run is as launched. -/
theorem R6_arg1 (c : Dev nD) : R6 m c (Proc.devRef .tc main_arg1) = xAt m c main_arg1 := by
  show StableHlo.after segF (StableHlo.after segL3 (StableHlo.after segL2 (StableHlo.after segL1 (StableHlo.after segL0
    (StableHlo.after segH (launchContents m c)))))) (Proc.devRef .tc main_arg1) = _
  after_results_simp

set_option maxHeartbeats 4000000 in
/-- Argument 2 at the end of the run is as launched. -/
theorem R6_arg2 (c : Dev nD) : R6 m c (Proc.devRef .tc main_arg2) = xAt m c main_arg2 := by
  show StableHlo.after segF (StableHlo.after segL3 (StableHlo.after segL2 (StableHlo.after segL1 (StableHlo.after segL0
    (StableHlo.after segH (launchContents m c)))))) (Proc.devRef .tc main_arg2) = _
  after_results_simp

set_option maxHeartbeats 4000000 in
/-- Argument 3 at the end of the run is as launched. -/
theorem R6_arg3 (c : Dev nD) : R6 m c (Proc.devRef .tc main_arg3) = xAt m c main_arg3 := by
  show StableHlo.after segF (StableHlo.after segL3 (StableHlo.after segL2 (StableHlo.after segL1 (StableHlo.after segL0
    (StableHlo.after segH (launchContents m c)))))) (Proc.devRef .tc main_arg3) = _
  after_results_simp

set_option maxHeartbeats 4000000 in
/-- Argument 4 at the end of the run is as launched. -/
theorem R6_arg4 (c : Dev nD) : R6 m c (Proc.devRef .tc main_arg4) = xAt m c main_arg4 := by
  show StableHlo.after segF (StableHlo.after segL3 (StableHlo.after segL2 (StableHlo.after segL1 (StableHlo.after segL0
    (StableHlo.after segH (launchContents m c)))))) (Proc.devRef .tc main_arg4) = _
  after_results_simp

set_option maxHeartbeats 4000000 in
/-- Argument 5 at the end of the run is as launched. -/
theorem R6_arg5 (c : Dev nD) : R6 m c (Proc.devRef .tc main_arg5) = xAt m c main_arg5 := by
  show StableHlo.after segF (StableHlo.after segL3 (StableHlo.after segL2 (StableHlo.after segL1 (StableHlo.after segL0
    (StableHlo.after segH (launchContents m c)))))) (Proc.devRef .tc main_arg5) = _
  after_results_simp

set_option maxHeartbeats 4000000 in
/-- Argument 6 at the end of the run is as launched. -/
theorem R6_arg6 (c : Dev nD) : R6 m c (Proc.devRef .tc main_arg6) = xAt m c main_arg6 := by
  show StableHlo.after segF (StableHlo.after segL3 (StableHlo.after segL2 (StableHlo.after segL1 (StableHlo.after segL0
    (StableHlo.after segH (launchContents m c)))))) (Proc.devRef .tc main_arg6) = _
  after_results_simp

set_option maxHeartbeats 4000000 in
/-- Argument 7 at the end of the run is as launched. -/
theorem R6_arg7 (c : Dev nD) : R6 m c (Proc.devRef .tc main_arg7) = xAt m c main_arg7 := by
  show StableHlo.after segF (StableHlo.after segL3 (StableHlo.after segL2 (StableHlo.after segL1 (StableHlo.after segL0
    (StableHlo.after segH (launchContents m c)))))) (Proc.devRef .tc main_arg7) = _
  after_results_simp

set_option maxHeartbeats 4000000 in
/-- Argument 8 at the end of the run is as launched. -/
theorem R6_arg8 (c : Dev nD) : R6 m c (Proc.devRef .tc main_arg8) = xAt m c main_arg8 := by
  show StableHlo.after segF (StableHlo.after segL3 (StableHlo.after segL2 (StableHlo.after segL1 (StableHlo.after segL0
    (StableHlo.after segH (launchContents m c)))))) (Proc.devRef .tc main_arg8) = _
  after_results_simp

set_option maxHeartbeats 4000000 in
/-- Argument 9 at the end of the run is as launched. -/
theorem R6_arg9 (c : Dev nD) : R6 m c (Proc.devRef .tc main_arg9) = xAt m c main_arg9 := by
  show StableHlo.after segF (StableHlo.after segL3 (StableHlo.after segL2 (StableHlo.after segL1 (StableHlo.after segL0
    (StableHlo.after segH (launchContents m c)))))) (Proc.devRef .tc main_arg9) = _
  after_results_simp

set_option maxHeartbeats 4000000 in
/-- Argument 10 at the end of the run is as launched. -/
theorem R6_arg10 (c : Dev nD) : R6 m c (Proc.devRef .tc main_arg10) = xAt m c main_arg10 := by
  show StableHlo.after segF (StableHlo.after segL3 (StableHlo.after segL2 (StableHlo.after segL1 (StableHlo.after segL0
    (StableHlo.after segH (launchContents m c)))))) (Proc.devRef .tc main_arg10) = _
  after_results_simp

set_option maxHeartbeats 4000000 in
/-- Argument 11 at the end of the run is as launched. -/
theorem R6_arg11 (c : Dev nD) : R6 m c (Proc.devRef .tc main_arg11) = xAt m c main_arg11 := by
  show StableHlo.after segF (StableHlo.after segL3 (StableHlo.after segL2 (StableHlo.after segL1 (StableHlo.after segL0
    (StableHlo.after segH (launchContents m c)))))) (Proc.devRef .tc main_arg11) = _
  after_results_simp

set_option maxHeartbeats 4000000 in
/-- Argument 12 at the end of the run is as launched. -/
theorem R6_arg12 (c : Dev nD) : R6 m c (Proc.devRef .tc main_arg12) = xAt m c main_arg12 := by
  show StableHlo.after segF (StableHlo.after segL3 (StableHlo.after segL2 (StableHlo.after segL1 (StableHlo.after segL0
    (StableHlo.after segH (launchContents m c)))))) (Proc.devRef .tc main_arg12) = _
  after_results_simp

set_option maxHeartbeats 4000000 in
/-- Argument 13 at the end of the run is as launched. -/
theorem R6_arg13 (c : Dev nD) : R6 m c (Proc.devRef .tc main_arg13) = xAt m c main_arg13 := by
  show StableHlo.after segF (StableHlo.after segL3 (StableHlo.after segL2 (StableHlo.after segL1 (StableHlo.after segL0
    (StableHlo.after segH (launchContents m c)))))) (Proc.devRef .tc main_arg13) = _
  after_results_simp

set_option maxHeartbeats 4000000 in
/-- Argument 14 at the end of the run is as launched. -/
theorem R6_arg14 (c : Dev nD) : R6 m c (Proc.devRef .tc main_arg14) = xAt m c main_arg14 := by
  show StableHlo.after segF (StableHlo.after segL3 (StableHlo.after segL2 (StableHlo.after segL1 (StableHlo.after segL0
    (StableHlo.after segH (launchContents m c)))))) (Proc.devRef .tc main_arg14) = _
  after_results_simp

end Cert.ReferenceIdeal.RefVal

end
-- ==== Proof.RefMsg.lean ====
/-
  One round of messages on the reference side.  The reference forms, for every edge, the row
  `[h[dst] + h[src], ea]` of length 128, multiplies it by the stacked first weight matrix, adds the first bias,
  takes the positive part, multiplies by the second weight matrix and adds the second bias.  Read entry by
  entry this is `Cert.Spec.msg`: the product with the stacked 128-row matrix is the sum of the products of the
  two halves of the row with the matrix's upper and lower 64 rows.  The statement is proved once over arbitrary
  arrays and then used for each of the four rounds, whose gathers and sums are the common host operations.
-/
import proofs.«418908_j25941602468191_1_alg».proof.Proof.RefRead
import proofs.«418908_j25941602468191_1_alg».proof.Proof.KForm
import proofs.«418908_j25941602468191_1_alg».proof.Proof.Spec
import Idealize.ShloMosaic.Lib.Pipeline.Value
import Idealize.ShloMosaic.Lib.ValueIdx
import Idealize.ShloMosaic.PureOps.Ideal.Laws
import Mathlib.Algebra.BigOperators.Fin

noncomputable section

namespace Cert.ReferenceIdeal.RefVal

open Cert.ReferenceIdeal Cert.ReferenceIdeal.Gen Cert.ReferenceIdeal.ReadP Idealize.ShloMosaic Idealize.ShloMosaic.ValueIdx

/-! ## Splitting a sum over 128 into two sums over 64 -/

/-- Position `k` of the first half of a row of length 128. -/
def lo (k : Fin 64) : Fin 128 := ⟨k.val, by omega⟩
/-- Position `64 + k` of a row of length 128: position `k` of its second half. -/
def hi (k : Fin 64) : Fin 128 := ⟨64 + k.val, by omega⟩

theorem sum_split (f : Fin 128 → EReal) :
    ∑ k : Fin 128, f k = (∑ k : Fin 64, f (lo k)) + ∑ k : Fin 64, f (hi k) :=
  Fin.sum_univ_add (a := 64) (b := 64) f

/-! ## The operations of one round, each read at an entry -/

/-- The product of an `800000 × 128` array with a `128 × 64` one, at an entry. -/
theorem dot128_apply (A : FVec Ideal S800000x128 .f32) (B : FVec Ideal S128x64 .f32) (e : Fin 800000) (j : Fin 64) :
    Host.dotGeneral (F := Ideal) dot_S800000x128_S128x64_S800000x64_1_0_0_1_n_n none A B (ix2 e j)
      = ∑ k : Fin 128, A (ix2 e k) * B (ix2 k j) := by
  simp only [Host.dotGeneral]
  rw [Ideal.dotGeneral_apply, ← Equiv.sum_comp (ValueIdx.contrEquiv1 dot_S800000x128_S128x64_S800000x64_1_0_0_1_n_n 128 rfl rfl).symm]
  refine Finset.sum_congr rfl fun k _ => ?_
  have hk := ValueIdx.contrEquiv1_symm_val dot_S800000x128_S128x64_S800000x64_1_0_0_1_n_n 128 rfl rfl k
  have el : dot_S800000x128_S128x64_S800000x64_1_0_0_1_n_n.lhsIdx (ix2 e j) ((ValueIdx.contrEquiv1 dot_S800000x128_S128x64_S800000x64_1_0_0_1_n_n 128 rfl rfl).symm k) = ix2 e k := funext fun a => Fin.ext (by
    match a with
    | ⟨0, _⟩ => exact lhs_main_v30_0 _ _
    | ⟨1, _⟩ => exact (lhs_main_v30_1 _ _).trans hk)
  have er : dot_S800000x128_S128x64_S800000x64_1_0_0_1_n_n.rhsIdx (ix2 e j) ((ValueIdx.contrEquiv1 dot_S800000x128_S128x64_S800000x64_1_0_0_1_n_n 128 rfl rfl).symm k) = ix2 k j := funext fun a => Fin.ext (by
    match a with
    | ⟨0, _⟩ => exact (rhs_main_v30_0 _ _).trans hk
    | ⟨1, _⟩ => exact rhs_main_v30_1 _ _)
  rw [el, er]

/-- The product of an `800000 × 64` array with a `64 × 64` one, at an entry. -/
theorem dot64_apply (A : FVec Ideal S800000x64 .f32) (B : FVec Ideal S64x64 .f32) (e : Fin 800000) (j : Fin 64) :
    Host.dotGeneral (F := Ideal) dot_S800000x64_S64x64_S800000x64_1_0_0_1_n_n none A B (ix2 e j)
      = ∑ k : Fin 64, A (ix2 e k) * B (ix2 k j) := by
  simp only [Host.dotGeneral]
  rw [Ideal.dotGeneral_apply, ← Equiv.sum_comp (ValueIdx.contrEquiv1 dot_S800000x64_S64x64_S800000x64_1_0_0_1_n_n 64 rfl rfl).symm]
  refine Finset.sum_congr rfl fun k _ => ?_
  have hk := ValueIdx.contrEquiv1_symm_val dot_S800000x64_S64x64_S800000x64_1_0_0_1_n_n 64 rfl rfl k
  have el : dot_S800000x64_S64x64_S800000x64_1_0_0_1_n_n.lhsIdx (ix2 e j) ((ValueIdx.contrEquiv1 dot_S800000x64_S64x64_S800000x64_1_0_0_1_n_n 64 rfl rfl).symm k) = ix2 e k := funext fun a => Fin.ext (by
    match a with
    | ⟨0, _⟩ => exact lhs_main_v39_0 _ _
    | ⟨1, _⟩ => exact (lhs_main_v39_1 _ _).trans hk)
  have er : dot_S800000x64_S64x64_S800000x64_1_0_0_1_n_n.rhsIdx (ix2 e j) ((ValueIdx.contrEquiv1 dot_S800000x64_S64x64_S800000x64_1_0_0_1_n_n 64 rfl rfl).symm k) = ix2 k j := funext fun a => Fin.ext (by
    match a with
    | ⟨0, _⟩ => exact (rhs_main_v39_0 _ _).trans hk
    | ⟨1, _⟩ => exact rhs_main_v39_1 _ _)
  rw [el, er]

/-- The first 64 columns of two arrays joined along the columns are the first array. -/
theorem cat_lo (A B : FVec Ideal S800000x64 .f32) (e : Fin 800000) (k : Fin 64) :
    concatenate S800000x128 1 [⟨S800000x64, A⟩, ⟨S800000x64, B⟩] concatenates_S800000x64_S800000x64_S800000x128_d1 (ix2 e (lo k))
      = A (ix2 e k) :=
  concatenate_pair_apply_left (t := S800000x128) (s₁ := S800000x64) (s₂ := S800000x64) 1 A B
    concatenates_S800000x64_S800000x64_S800000x128_d1 (ix2 e (lo k)) rfl (ix2 e k) (fun b => by
      match b with
      | ⟨0, _⟩ => rfl
      | ⟨1, _⟩ => rfl)

/-- The last 64 columns of two arrays joined along the columns are the second array. -/
theorem cat_hi (A B : FVec Ideal S800000x64 .f32) (e : Fin 800000) (k : Fin 64) :
    concatenate S800000x128 1 [⟨S800000x64, A⟩, ⟨S800000x64, B⟩] concatenates_S800000x64_S800000x64_S800000x128_d1 (ix2 e (hi k))
      = B (ix2 e k) :=
  concatenate_pair_apply_right (t := S800000x128) (s₁ := S800000x64) (s₂ := S800000x64) 1 A B
    concatenates_S800000x64_S800000x64_S800000x128_d1 (ix2 e (hi k)) rfl rfl (ix2 e k) (fun b hb => by
      match b, hb with
      | ⟨0, _⟩, _ => rfl
      | ⟨1, _⟩, hb => exact absurd rfl hb)
    (by show k.val + 64 = 64 + k.val; omega)

/-- Rows 0–63 of a `128 × 64` matrix. -/
theorem upper_apply (W : FVec Ideal S128x64 .f32) (h : S128x64.Slices ![0, 0] S64x64) (k j : Fin 64) :
    extractStridedSlice S64x64 ![0, 0] W h (ix2 k j) = W (ix2 (lo k) j) :=
  extractStridedSlice_apply ![0, 0] W h (ix2 k j) (ix2 (lo k) j) (fun a => by
    match a with
    | ⟨0, _⟩ => show k.val = 0 + k.val; omega
    | ⟨1, _⟩ => show j.val = 0 + j.val; omega)

/-- Rows 64–127 of a `128 × 64` matrix. -/
theorem lower_apply (W : FVec Ideal S128x64 .f32) (h : S128x64.Slices ![64, 0] S64x64) (k j : Fin 64) :
    extractStridedSlice S64x64 ![64, 0] W h (ix2 k j) = W (ix2 (hi k) j) :=
  extractStridedSlice_apply ![64, 0] W h (ix2 k j) (ix2 (hi k) j) (fun a => by
    match a with
    | ⟨0, _⟩ => show 64 + k.val = 64 + k.val; rfl
    | ⟨1, _⟩ => show j.val = 0 + j.val; omega)

/-- A bias vector spread over all rows, at an entry. -/
theorem bias_apply (b : FVec Ideal S64 .f32) (e : Fin 800000) (j : Fin 64) :
    broadcastInDim S800000x64 ![0, 1] bcast_S1x64_S800000x64_0_1 (broadcastInDim S1x64 ![1] bcast_S64_S1x64_1 b) (ix2 e j)
      = b (ix1 j) := by
  refine (broadcastInDim_apply _ bcast_S1x64_S800000x64_0_1 _ (ix2 e j) (ix2 (0 : Fin 1) j) (fun a => ?_)).trans ?_
  · match a with
    | ⟨0, _⟩ => show 0 = if (1 : Nat) = 1 then 0 else e.val; rw [if_pos rfl]
    | ⟨1, _⟩ => show j.val = if (64 : Nat) = 1 then 0 else j.val; rw [if_neg (by decide)]
  · exact broadcastInDim_apply _ bcast_S64_S1x64_1 b (ix2 (0 : Fin 1) j) (ix1 j) (fun a => by
      match a with
      | ⟨0, _⟩ => show j.val = if (64 : Nat) = 1 then 0 else j.val; rw [if_neg (by decide)])

/-- A bias vector as a one-row array, at an entry. -/
theorem rowOf_apply (b : FVec Ideal S64 .f32) (j : Fin 64) :
    Cert.KernelIdeal.Val.rowOf b (ix2 (0 : Fin 1) j) = b (ix1 j) := by
  unfold Cert.KernelIdeal.Val.rowOf
  exact shapeCast_apply b _ (ix2 (0 : Fin 1) j) (ix1 j)
    (by rewrite [Shape.rowMajor_val_one, Shape.rowMajor_val_two]; show j.val = 0 * 64 + j.val; omega)

/-- The zero array the positive part is taken against. -/
theorem zero_apply (i : S800000x64.Idx) :
    broadcastInDim S800000x64 ![] bcast_S_S800000x64 (constant (F := Ideal) S_ .f32 0x00000000#32) i = 0 := by
  refine (broadcastInDim_apply _ bcast_S_S800000x64 _ i ix0 (fun a => a.elim0)).trans ?_
  exact Ideal.ofBits_zero_f32

/-! ## One round, over arbitrary arrays -/

/-- The reference's message computation as it composes its operations: `hd`, `hs` the two gathered node tables,
    `ea` the edge table, `W1` the stacked first weight matrix, `b1`, `b2` the biases, `W2` the second matrix. -/
def refMsg (hd hs ea : FVec Ideal S800000x64 .f32) (W1 : FVec Ideal S128x64 .f32) (b1 : FVec Ideal S64 .f32)
    (W2 : FVec Ideal S64x64 .f32) (b2 : FVec Ideal S64 .f32) : FVec Ideal S800000x64 .f32 :=
  addf
    (Host.dotGeneral (F := Ideal) dot_S800000x64_S64x64_S800000x64_1_0_0_1_n_n none
      (maximumf
        (addf
          (Host.dotGeneral (F := Ideal) dot_S800000x128_S128x64_S800000x64_1_0_0_1_n_n none
            (concatenate S800000x128 1 [⟨S800000x64, addf hd hs⟩, ⟨S800000x64, ea⟩] concatenates_S800000x64_S800000x64_S800000x128_d1)
            W1)
          (broadcastInDim S800000x64 ![0, 1] bcast_S1x64_S800000x64_0_1 (broadcastInDim S1x64 ![1] bcast_S64_S1x64_1 b1)))
        (broadcastInDim S800000x64 ![] bcast_S_S800000x64 (constant (F := Ideal) S_ .f32 0x00000000#32)))
      W2)
    (broadcastInDim S800000x64 ![0, 1] bcast_S1x64_S800000x64_0_1 (broadcastInDim S1x64 ![1] bcast_S64_S1x64_1 b2))

/-- The hidden layer of the reference's round, at an entry. -/
theorem hidden_eq (hd hs ea : FVec Ideal S800000x64 .f32) (W1 : FVec Ideal S128x64 .f32) (b1 : FVec Ideal S64 .f32)
    (h0 : S128x64.Slices ![0, 0] S64x64) (h64 : S128x64.Slices ![64, 0] S64x64) (e : Fin 800000) (k : Fin 64) :
    maximumf
        (addf
          (Host.dotGeneral (F := Ideal) dot_S800000x128_S128x64_S800000x64_1_0_0_1_n_n none
            (concatenate S800000x128 1 [⟨S800000x64, addf hd hs⟩, ⟨S800000x64, ea⟩] concatenates_S800000x64_S800000x64_S800000x128_d1)
            W1)
          (broadcastInDim S800000x64 ![0, 1] bcast_S1x64_S800000x64_0_1 (broadcastInDim S1x64 ![1] bcast_S64_S1x64_1 b1)))
        (broadcastInDim S800000x64 ![] bcast_S_S800000x64 (constant (F := Ideal) S_ .f32 0x00000000#32)) (ix2 e k)
      = Cert.Spec.msgHidden hd hs ea (extractStridedSlice S64x64 ![0, 0] W1 h0) (extractStridedSlice S64x64 ![64, 0] W1 h64)
          (Cert.KernelIdeal.Val.rowOf b1) e k := by
  unfold Cert.Spec.msgHidden
  rw [maximumf_apply, addf_apply, zero_apply, dot128_apply, bias_apply, rowOf_apply, sum_split]
  simp only [cat_lo, cat_hi, addf_apply, upper_apply, lower_apply]

/-- The reference's round is the message map of the specification, with the stacked matrix cut into its upper and
    lower 64 rows and the biases as rows. -/
theorem msg_eq (hd hs ea : FVec Ideal S800000x64 .f32) (W1 : FVec Ideal S128x64 .f32) (b1 : FVec Ideal S64 .f32)
    (W2 : FVec Ideal S64x64 .f32) (b2 : FVec Ideal S64 .f32)
    (h0 : S128x64.Slices ![0, 0] S64x64) (h64 : S128x64.Slices ![64, 0] S64x64) :
    refMsg hd hs ea W1 b1 W2 b2
      = Cert.Spec.msg hd hs ea (extractStridedSlice S64x64 ![0, 0] W1 h0) (extractStridedSlice S64x64 ![64, 0] W1 h64)
          (Cert.KernelIdeal.Val.rowOf b1) W2 (Cert.KernelIdeal.Val.rowOf b2) := by
  funext i
  obtain ⟨e, j, rfl⟩ : ∃ (e : Fin 800000) (j : Fin 64), i = ix2 e j := ⟨i 0, i 1, eq_ix2 i⟩
  rw [Cert.Spec.msg_ix2]
  unfold refMsg Cert.Spec.msgAt
  rw [addf_apply, dot64_apply, bias_apply, rowOf_apply]
  refine congrArg (· + b2 (ix1 j)) (Finset.sum_congr rfl fun k _ => ?_)
  exact congrArg (· * W2 (ix2 k j)) (hidden_eq hd hs ea W1 b1 h0 h64 e k)

/-! ## The four rounds of the reference -/

/-- The reference's row gather is the common host gather, once its start indices are the wrapped index row. -/
theorem gather_eq (h : FVec Ideal S50000x64 .f32) (s : IVec S800000x1 32) (idx : IVec S800000 32)
    (hs : s = Cert.KernelIdeal.Val.startIdx idx) :
    Host.gather gather_S50000x64_S800000x1_S800000x64_1_0_n_n_0_1_164 h s = Cert.KernelIdeal.Val.takeR h idx := by
  subst hs
  rfl

section Rounds

variable (x0 : (⟨S50000x128, .f32⟩ : BufTy).Contents (Elt Ideal)) (x1 : (⟨S800000x32, .f32⟩ : BufTy).Contents (Elt Ideal))
  (x2 : (⟨S2x800000, .i32⟩ : BufTy).Contents (Elt Ideal)) (x3 : (⟨S128x64, .f32⟩ : BufTy).Contents (Elt Ideal))
  (x4 : (⟨S64, .f32⟩ : BufTy).Contents (Elt Ideal)) (x5 : (⟨S32x64, .f32⟩ : BufTy).Contents (Elt Ideal))
  (x6 : (⟨S64, .f32⟩ : BufTy).Contents (Elt Ideal)) (x7 : (⟨S4x128x64, .f32⟩ : BufTy).Contents (Elt Ideal))
  (x8 : (⟨S4x64, .f32⟩ : BufTy).Contents (Elt Ideal)) (x9 : (⟨S4x64x64, .f32⟩ : BufTy).Contents (Elt Ideal))
  (x10 : (⟨S4x64, .f32⟩ : BufTy).Contents (Elt Ideal))

/-! ### Round 0 -/

theorem dstIdx0 : val_main_v17 (F := Ideal) x2 = Cert.KernelIdeal.Val.startIdx (Cert.KernelIdeal.Val.dstRow x2) := by
  unfold val_main_v17 val_main_v16 val_main_v13 val_main_v15 val_main_v12 val_main_v14 val_main_c val_main_c_0 val_main_v3 val_main_v2
    Cert.KernelIdeal.Val.startIdx Cert.KernelIdeal.Val.dstRow
  rfl

theorem srcIdx0 : val_main_v24 (F := Ideal) x2 = Cert.KernelIdeal.Val.startIdx (Cert.KernelIdeal.Val.srcRow x2) := by
  unfold val_main_v24 val_main_v23 val_main_v20 val_main_v22 val_main_v19 val_main_v21 val_main_c_1 val_main_c_2 val_main_v1 val_main_v0
    Cert.KernelIdeal.Val.startIdx Cert.KernelIdeal.Val.srcRow
  rfl

theorem round0 :
    val_main_v44 (F := Ideal) x0 x1 x2 x3 x4 x5 x6 x7 x8 x9 x10
      = Cert.KernelIdeal.Val.msg0 Cert.KernelIdeal.Val.takeR (val_main_v7 (F := Ideal) x0 x3 x4)
          (val_main_v11 (F := Ideal) x1 x5 x6) x2 x7 x8 x9 x10 := by
  have hcomp : val_main_v44 (F := Ideal) x0 x1 x2 x3 x4 x5 x6 x7 x8 x9 x10
      = refMsg (val_main_v18 (F := Ideal) x0 x2 x3 x4) (val_main_v25 (F := Ideal) x0 x2 x3 x4)
          (val_main_v11 (F := Ideal) x1 x5 x6) (val_main_v29 (F := Ideal) x7) (val_main_v32 (F := Ideal) x8)
          (val_main_v38 (F := Ideal) x9) (val_main_v41 (F := Ideal) x10) := by
    unfold val_main_v44 val_main_v43 val_main_v42 val_main_v39 val_main_v36 val_main_call0_v0 val_main_call0_cst val_main_v35
      val_main_v34 val_main_v33 val_main_v30 val_main_v27 val_main_v26 refMsg
    rfl
  have hd : val_main_v18 (F := Ideal) x0 x2 x3 x4
      = Cert.KernelIdeal.Val.takeR (val_main_v7 (F := Ideal) x0 x3 x4) (Cert.KernelIdeal.Val.dstRow x2) := by
    unfold val_main_v18
    exact gather_eq _ _ _ (dstIdx0 x2)
  have hs : val_main_v25 (F := Ideal) x0 x2 x3 x4
      = Cert.KernelIdeal.Val.takeR (val_main_v7 (F := Ideal) x0 x3 x4) (Cert.KernelIdeal.Val.srcRow x2) := by
    unfold val_main_v25
    exact gather_eq _ _ _ (srcIdx0 x2)
  rw [hcomp, msg_eq _ _ _ _ _ _ _ Cert.KernelIdeal.Gen.slices_S128x64_S64x64_0_0 Cert.KernelIdeal.Gen.slices_S128x64_S64x64_64_0, hd, hs]
  rfl

theorem sum0 :
    val_main_v47 (F := Ideal) x0 x1 x2 x3 x4 x5 x6 x7 x8 x9 x10
      = Cert.KernelIdeal.Val.segSum (Cert.KernelIdeal.Val.dstRow x2) (val_main_v44 (F := Ideal) x0 x1 x2 x3 x4 x5 x6 x7 x8 x9 x10) := by
  unfold val_main_v47 val_main_v45 val_main_cst val_main_v46 val_main_v3 val_main_v2
    Cert.KernelIdeal.Val.segSum Cert.KernelIdeal.Val.dstRow
  rfl

/-! ### Round 1 -/

theorem dstIdx1 : val_main_v53 (F := Ideal) x2 = Cert.KernelIdeal.Val.startIdx (Cert.KernelIdeal.Val.dstRow x2) := by
  unfold val_main_v53 val_main_v52 val_main_v49 val_main_v51 val_main_v48 val_main_v50 val_main_c_3 val_main_c_4 val_main_v3 val_main_v2
    Cert.KernelIdeal.Val.startIdx Cert.KernelIdeal.Val.dstRow
  rfl

theorem srcIdx1 : val_main_v60 (F := Ideal) x2 = Cert.KernelIdeal.Val.startIdx (Cert.KernelIdeal.Val.srcRow x2) := by
  unfold val_main_v60 val_main_v59 val_main_v56 val_main_v58 val_main_v55 val_main_v57 val_main_c_5 val_main_c_6 val_main_v1 val_main_v0
    Cert.KernelIdeal.Val.startIdx Cert.KernelIdeal.Val.srcRow
  rfl

theorem round1 :
    val_main_v80 (F := Ideal) x0 x1 x2 x3 x4 x5 x6 x7 x8 x9 x10
      = Cert.KernelIdeal.Val.msg1 Cert.KernelIdeal.Val.takeR (val_main_v47 (F := Ideal) x0 x1 x2 x3 x4 x5 x6 x7 x8 x9 x10)
          (val_main_v11 (F := Ideal) x1 x5 x6) x2 x7 x8 x9 x10 := by
  have hcomp : val_main_v80 (F := Ideal) x0 x1 x2 x3 x4 x5 x6 x7 x8 x9 x10
      = refMsg (val_main_v54 (F := Ideal) x0 x1 x2 x3 x4 x5 x6 x7 x8 x9 x10) (val_main_v61 (F := Ideal) x0 x1 x2 x3 x4 x5 x6 x7 x8 x9 x10)
          (val_main_v11 (F := Ideal) x1 x5 x6) (val_main_v65 (F := Ideal) x7) (val_main_v68 (F := Ideal) x8)
          (val_main_v74 (F := Ideal) x9) (val_main_v77 (F := Ideal) x10) := by
    unfold val_main_v80 val_main_v79 val_main_v78 val_main_v75 val_main_v72 val_main_call1_v0 val_main_call1_cst val_main_v71
      val_main_v70 val_main_v69 val_main_v66 val_main_v63 val_main_v62 refMsg
    rfl
  have hd : val_main_v54 (F := Ideal) x0 x1 x2 x3 x4 x5 x6 x7 x8 x9 x10
      = Cert.KernelIdeal.Val.takeR (val_main_v47 (F := Ideal) x0 x1 x2 x3 x4 x5 x6 x7 x8 x9 x10) (Cert.KernelIdeal.Val.dstRow x2) := by
    unfold val_main_v54
    exact gather_eq _ _ _ (dstIdx1 x2)
  have hs : val_main_v61 (F := Ideal) x0 x1 x2 x3 x4 x5 x6 x7 x8 x9 x10
      = Cert.KernelIdeal.Val.takeR (val_main_v47 (F := Ideal) x0 x1 x2 x3 x4 x5 x6 x7 x8 x9 x10) (Cert.KernelIdeal.Val.srcRow x2) := by
    unfold val_main_v61
    exact gather_eq _ _ _ (srcIdx1 x2)
  rw [hcomp, msg_eq _ _ _ _ _ _ _ Cert.KernelIdeal.Gen.slices_S128x64_S64x64_0_0 Cert.KernelIdeal.Gen.slices_S128x64_S64x64_64_0, hd, hs]
  rfl

theorem sum1 :
    val_main_v83 (F := Ideal) x0 x1 x2 x3 x4 x5 x6 x7 x8 x9 x10
      = Cert.KernelIdeal.Val.segSum (Cert.KernelIdeal.Val.dstRow x2) (val_main_v80 (F := Ideal) x0 x1 x2 x3 x4 x5 x6 x7 x8 x9 x10) := by
  unfold val_main_v83 val_main_v81 val_main_cst_7 val_main_v82 val_main_v3 val_main_v2
    Cert.KernelIdeal.Val.segSum Cert.KernelIdeal.Val.dstRow
  rfl

/-! ### Round 2 -/

theorem dstIdx2 : val_main_v89 (F := Ideal) x2 = Cert.KernelIdeal.Val.startIdx (Cert.KernelIdeal.Val.dstRow x2) := by
  unfold val_main_v89 val_main_v88 val_main_v85 val_main_v87 val_main_v84 val_main_v86 val_main_c_8 val_main_c_9 val_main_v3 val_main_v2
    Cert.KernelIdeal.Val.startIdx Cert.KernelIdeal.Val.dstRow
  rfl

theorem srcIdx2 : val_main_v96 (F := Ideal) x2 = Cert.KernelIdeal.Val.startIdx (Cert.KernelIdeal.Val.srcRow x2) := by
  unfold val_main_v96 val_main_v95 val_main_v92 val_main_v94 val_main_v91 val_main_v93 val_main_c_10 val_main_c_11 val_main_v1 val_main_v0
    Cert.KernelIdeal.Val.startIdx Cert.KernelIdeal.Val.srcRow
  rfl

theorem round2 :
    val_main_v116 (F := Ideal) x0 x1 x2 x3 x4 x5 x6 x7 x8 x9 x10
      = Cert.KernelIdeal.Val.msg2 Cert.KernelIdeal.Val.takeR (val_main_v83 (F := Ideal) x0 x1 x2 x3 x4 x5 x6 x7 x8 x9 x10)
          (val_main_v11 (F := Ideal) x1 x5 x6) x2 x7 x8 x9 x10 := by
  have hcomp : val_main_v116 (F := Ideal) x0 x1 x2 x3 x4 x5 x6 x7 x8 x9 x10
      = refMsg (val_main_v90 (F := Ideal) x0 x1 x2 x3 x4 x5 x6 x7 x8 x9 x10) (val_main_v97 (F := Ideal) x0 x1 x2 x3 x4 x5 x6 x7 x8 x9 x10)
          (val_main_v11 (F := Ideal) x1 x5 x6) (val_main_v101 (F := Ideal) x7) (val_main_v104 (F := Ideal) x8)
          (val_main_v110 (F := Ideal) x9) (val_main_v113 (F := Ideal) x10) := by
    unfold val_main_v116 val_main_v115 val_main_v114 val_main_v111 val_main_v108 val_main_call2_v0 val_main_call2_cst val_main_v107
      val_main_v106 val_main_v105 val_main_v102 val_main_v99 val_main_v98 refMsg
    rfl
  have hd : val_main_v90 (F := Ideal) x0 x1 x2 x3 x4 x5 x6 x7 x8 x9 x10
      = Cert.KernelIdeal.Val.takeR (val_main_v83 (F := Ideal) x0 x1 x2 x3 x4 x5 x6 x7 x8 x9 x10) (Cert.KernelIdeal.Val.dstRow x2) := by
    unfold val_main_v90
    exact gather_eq _ _ _ (dstIdx2 x2)
  have hs : val_main_v97 (F := Ideal) x0 x1 x2 x3 x4 x5 x6 x7 x8 x9 x10
      = Cert.KernelIdeal.Val.takeR (val_main_v83 (F := Ideal) x0 x1 x2 x3 x4 x5 x6 x7 x8 x9 x10) (Cert.KernelIdeal.Val.srcRow x2) := by
    unfold val_main_v97
    exact gather_eq _ _ _ (srcIdx2 x2)
  rw [hcomp, msg_eq _ _ _ _ _ _ _ Cert.KernelIdeal.Gen.slices_S128x64_S64x64_0_0 Cert.KernelIdeal.Gen.slices_S128x64_S64x64_64_0, hd, hs]
  rfl

theorem sum2 :
    val_main_v119 (F := Ideal) x0 x1 x2 x3 x4 x5 x6 x7 x8 x9 x10
      = Cert.KernelIdeal.Val.segSum (Cert.KernelIdeal.Val.dstRow x2) (val_main_v116 (F := Ideal) x0 x1 x2 x3 x4 x5 x6 x7 x8 x9 x10) := by
  unfold val_main_v119 val_main_v117 val_main_cst_12 val_main_v118 val_main_v3 val_main_v2
    Cert.KernelIdeal.Val.segSum Cert.KernelIdeal.Val.dstRow
  rfl

/-! ### Round 3 -/

theorem dstIdx3 : val_main_v125 (F := Ideal) x2 = Cert.KernelIdeal.Val.startIdx (Cert.KernelIdeal.Val.dstRow x2) := by
  unfold val_main_v125 val_main_v124 val_main_v121 val_main_v123 val_main_v120 val_main_v122 val_main_c_13 val_main_c_14 val_main_v3 val_main_v2
    Cert.KernelIdeal.Val.startIdx Cert.KernelIdeal.Val.dstRow
  rfl

theorem srcIdx3 : val_main_v132 (F := Ideal) x2 = Cert.KernelIdeal.Val.startIdx (Cert.KernelIdeal.Val.srcRow x2) := by
  unfold val_main_v132 val_main_v131 val_main_v128 val_main_v130 val_main_v127 val_main_v129 val_main_c_15 val_main_c_16 val_main_v1 val_main_v0
    Cert.KernelIdeal.Val.startIdx Cert.KernelIdeal.Val.srcRow
  rfl

theorem round3 :
    val_main_v152 (F := Ideal) x0 x1 x2 x3 x4 x5 x6 x7 x8 x9 x10
      = Cert.KernelIdeal.Val.msg3 Cert.KernelIdeal.Val.takeR (val_main_v119 (F := Ideal) x0 x1 x2 x3 x4 x5 x6 x7 x8 x9 x10)
          (val_main_v11 (F := Ideal) x1 x5 x6) x2 x7 x8 x9 x10 := by
  have hcomp : val_main_v152 (F := Ideal) x0 x1 x2 x3 x4 x5 x6 x7 x8 x9 x10
      = refMsg (val_main_v126 (F := Ideal) x0 x1 x2 x3 x4 x5 x6 x7 x8 x9 x10) (val_main_v133 (F := Ideal) x0 x1 x2 x3 x4 x5 x6 x7 x8 x9 x10)
          (val_main_v11 (F := Ideal) x1 x5 x6) (val_main_v137 (F := Ideal) x7) (val_main_v140 (F := Ideal) x8)
          (val_main_v146 (F := Ideal) x9) (val_main_v149 (F := Ideal) x10) := by
    unfold val_main_v152 val_main_v151 val_main_v150 val_main_v147 val_main_v144 val_main_call3_v0 val_main_call3_cst val_main_v143
      val_main_v142 val_main_v141 val_main_v138 val_main_v135 val_main_v134 refMsg
    rfl
  have hd : val_main_v126 (F := Ideal) x0 x1 x2 x3 x4 x5 x6 x7 x8 x9 x10
      = Cert.KernelIdeal.Val.takeR (val_main_v119 (F := Ideal) x0 x1 x2 x3 x4 x5 x6 x7 x8 x9 x10) (Cert.KernelIdeal.Val.dstRow x2) := by
    unfold val_main_v126
    exact gather_eq _ _ _ (dstIdx3 x2)
  have hs : val_main_v133 (F := Ideal) x0 x1 x2 x3 x4 x5 x6 x7 x8 x9 x10
      = Cert.KernelIdeal.Val.takeR (val_main_v119 (F := Ideal) x0 x1 x2 x3 x4 x5 x6 x7 x8 x9 x10) (Cert.KernelIdeal.Val.srcRow x2) := by
    unfold val_main_v133
    exact gather_eq _ _ _ (srcIdx3 x2)
  rw [hcomp, msg_eq _ _ _ _ _ _ _ Cert.KernelIdeal.Gen.slices_S128x64_S64x64_0_0 Cert.KernelIdeal.Gen.slices_S128x64_S64x64_64_0, hd, hs]
  rfl

theorem sum3 :
    val_main_v155 (F := Ideal) x0 x1 x2 x3 x4 x5 x6 x7 x8 x9 x10
      = Cert.KernelIdeal.Val.segSum (Cert.KernelIdeal.Val.dstRow x2) (val_main_v152 (F := Ideal) x0 x1 x2 x3 x4 x5 x6 x7 x8 x9 x10) := by
  unfold val_main_v155 val_main_v153 val_main_cst_17 val_main_v154 val_main_v3 val_main_v2
    Cert.KernelIdeal.Val.segSum Cert.KernelIdeal.Val.dstRow
  rfl

end Rounds

end Cert.ReferenceIdeal.RefVal

end
-- ==== Proof.RefEnds.lean ====
/-
  The reference program's two tables and its final scores, entry by entry.

  The node table is a product over the 128 node features plus a bias row; the edge table is a product over the 32 edge
  features plus a bias row: the affine maps of the common form, read at a row and a column.

  The last stage joins the two gathered rows of an edge side by side into one row of 128 columns, multiplies it by a
  128 × 64 matrix, adds a bias, clamps at zero, multiplies by a 64 × 1 column and adds a one-entry bias. A sum over the
  128 joined columns is the sum over the first 64 (the first gathered row against the matrix's upper half) plus the sum
  over the last 64 (the second gathered row against its lower half); extended-real addition needs no finiteness for that.
  This is proved once over free arrays, then read off the program's own operations, whose two row gathers are the host
  gather at the wrapped start indices of the two rows of the edge index.
-/
import proofs.«418908_j25941602468191_1_alg».proof.Proof.RefRead
import proofs.«418908_j25941602468191_1_alg».proof.Proof.KForm
import proofs.«418908_j25941602468191_1_alg».proof.Proof.Spec
import Idealize.ShloMosaic.Lib.Pipeline.Value
import Idealize.ShloMosaic.Lib.ValueIdx
import Idealize.ShloMosaic.PureOps.Ideal.Laws
import Mathlib.Algebra.BigOperators.Fin

noncomputable section

namespace Cert.ReferenceIdeal.RefVal.Ends

open Cert.ReferenceIdeal Cert.ReferenceIdeal.Gen Cert.ReferenceIdeal.ReadP Idealize.ShloMosaic Idealize.ShloMosaic.ValueIdx

/-! ## Small readings shared by the three theorems -/

/-- A column of the first half of a row of 128 joined columns. -/
def lo (q : Fin 64) : Fin 128 := ⟨q.val, by omega⟩
/-- A column of the second half of a row of 128 joined columns. -/
def hi (q : Fin 64) : Fin 128 := ⟨64 + q.val, by omega⟩

/-- A sum over 128 columns is the sum over the first 64 plus the sum over the last 64. -/
theorem sum128_split (f : Fin 128 → EReal) : ∑ k : Fin 128, f k = (∑ q : Fin 64, f (lo q)) + ∑ q : Fin 64, f (hi q) :=
  Fin.sum_univ_add (a := 64) (b := 64) f

/-- A bias vector viewed as a one-row array, read at its only row. -/
theorem rowOf_apply (b : FVec Ideal S64 .f32) (j : Fin 64) :
    Cert.KernelIdeal.Val.rowOf b (ix2 (0 : Fin 1) j) = b (ix1 j) := by
  unfold Cert.KernelIdeal.Val.rowOf
  exact shapeCast_apply b _ (ix2 (0 : Fin 1) j) (ix1 j)
    (by rewrite [Shape.rowMajor_val_two, Shape.rowMajor_val_one]; show j.val = 0 * 64 + j.val; omega)

/-- A one-entry vector viewed as a 1 × 1 array. -/
theorem oneOf_apply (b : FVec Ideal S1 .f32) (c : Fin 1) :
    shapeCast S1x1 b Cert.KernelIdeal.Gen.shapeCasts_S1_S1x1 (ix2 (0 : Fin 1) c) = b (ix1 (0 : Fin 1)) :=
  shapeCast_apply b _ (ix2 (0 : Fin 1) c) (ix1 (0 : Fin 1))
    (by rewrite [Shape.rowMajor_val_two, Shape.rowMajor_val_one]; show 0 = 0 * 1 + c.val; omega)

/-- The upper half of a 128 × 64 matrix, entry by entry. -/
theorem slice_lo (W : FVec Ideal S128x64 .f32) (q j : Fin 64) :
    extractStridedSlice S64x64 ![0, 0] W Cert.KernelIdeal.Gen.slices_S128x64_S64x64_0_0 (ix2 q j) = W (ix2 (lo q) j) :=
  extractStridedSlice_apply ![0, 0] W _ (ix2 q j) (ix2 (lo q) j) (fun a => by
    match a with
    | ⟨0, _⟩ => show q.val = 0 + q.val; omega
    | ⟨1, _⟩ => show j.val = 0 + j.val; omega)

/-- The lower half of a 128 × 64 matrix, entry by entry. -/
theorem slice_hi (W : FVec Ideal S128x64 .f32) (q j : Fin 64) :
    extractStridedSlice S64x64 ![64, 0] W Cert.KernelIdeal.Gen.slices_S128x64_S64x64_64_0 (ix2 q j) = W (ix2 (hi q) j) :=
  extractStridedSlice_apply ![64, 0] W _ (ix2 q j) (ix2 (hi q) j) (fun a => by
    match a with
    | ⟨0, _⟩ => show 64 + q.val = 64 + q.val; rfl
    | ⟨1, _⟩ => show j.val = 0 + j.val; omega)

/-- Two arrays of 64 columns joined side by side, read in the first half. -/
theorem cat_lo (hs hd : FVec Ideal S800000x64 .f32) (e : Fin 800000) (q : Fin 64) :
    concatenate S800000x128 1 [⟨S800000x64, hs⟩, ⟨S800000x64, hd⟩] concatenates_S800000x64_S800000x64_S800000x128_d1 (ix2 e (lo q))
      = hs (ix2 e q) :=
  concatenate_pair_apply_left (t := S800000x128) 1 hs hd concatenates_S800000x64_S800000x64_S800000x128_d1 (ix2 e (lo q)) rfl (ix2 e q)
    (fun b => by
      match b with
      | ⟨0, _⟩ => rfl
      | ⟨1, _⟩ => rfl)

/-- Two arrays of 64 columns joined side by side, read in the second half. -/
theorem cat_hi (hs hd : FVec Ideal S800000x64 .f32) (e : Fin 800000) (q : Fin 64) :
    concatenate S800000x128 1 [⟨S800000x64, hs⟩, ⟨S800000x64, hd⟩] concatenates_S800000x64_S800000x64_S800000x128_d1 (ix2 e (hi q))
      = hd (ix2 e q) :=
  concatenate_pair_apply_right (t := S800000x128) 1 hs hd concatenates_S800000x64_S800000x64_S800000x128_d1 (ix2 e (hi q)) rfl rfl (ix2 e q)
    (fun b hb => by
      match b with
      | ⟨0, _⟩ => rfl
      | ⟨1, _⟩ => exact absurd rfl hb)
    (Nat.add_comm q.val 64 : q.val + 64 = 64 + q.val)

/-! ## The final scores over free arrays -/

/-- The product of an 800000 × 128 array with a 128 × 64 matrix, entry by entry. -/
theorem dotA_apply (y : FVec Ideal S800000x128 .f32) (W : FVec Ideal S128x64 .f32) (i : S800000x64.Idx) :
    Host.dotGeneral (F := Ideal) dot_S800000x128_S128x64_S800000x64_1_0_0_1_n_n none y W i
      = ∑ k : Fin 128, y (lidx_main_v171 i k) * W (ridx_main_v171 i k) := by
  simp only [Host.dotGeneral]
  rw [Ideal.dotGeneral_apply, ← Equiv.sum_comp (ValueIdx.contrEquiv1 dot_S800000x128_S128x64_S800000x64_1_0_0_1_n_n 128 rfl rfl).symm]
  refine Finset.sum_congr rfl fun k _ => ?_
  have hk := ValueIdx.contrEquiv1_symm_val dot_S800000x128_S128x64_S800000x64_1_0_0_1_n_n 128 rfl rfl k
  have el : dot_S800000x128_S128x64_S800000x64_1_0_0_1_n_n.lhsIdx i ((ValueIdx.contrEquiv1 dot_S800000x128_S128x64_S800000x64_1_0_0_1_n_n 128 rfl rfl).symm k) = lidx_main_v171 i k := funext fun a => Fin.ext (by
    match a with
    | ⟨0, _⟩ => exact lhs_main_v171_0 _ _
    | ⟨1, _⟩ => exact (lhs_main_v171_1 _ _).trans hk)
  have er : dot_S800000x128_S128x64_S800000x64_1_0_0_1_n_n.rhsIdx i ((ValueIdx.contrEquiv1 dot_S800000x128_S128x64_S800000x64_1_0_0_1_n_n 128 rfl rfl).symm k) = ridx_main_v171 i k := funext fun a => Fin.ext (by
    match a with
    | ⟨0, _⟩ => exact (rhs_main_v171_0 _ _).trans hk
    | ⟨1, _⟩ => exact rhs_main_v171_1 _ _)
  rw [el, er]

/-- The product of an 800000 × 64 array with a 64 × 1 column, entry by entry. -/
theorem dotB_apply (y : FVec Ideal S800000x64 .f32) (W : FVec Ideal S64x1 .f32) (i : S800000x1.Idx) :
    Host.dotGeneral (F := Ideal) dot_S800000x64_S64x1_S800000x1_1_0_0_1_n_n none y W i
      = ∑ k : Fin 64, y (lidx_main_v176 i k) * W (ridx_main_v176 i k) := by
  simp only [Host.dotGeneral]
  rw [Ideal.dotGeneral_apply, ← Equiv.sum_comp (ValueIdx.contrEquiv1 dot_S800000x64_S64x1_S800000x1_1_0_0_1_n_n 64 rfl rfl).symm]
  refine Finset.sum_congr rfl fun k _ => ?_
  have hk := ValueIdx.contrEquiv1_symm_val dot_S800000x64_S64x1_S800000x1_1_0_0_1_n_n 64 rfl rfl k
  have el : dot_S800000x64_S64x1_S800000x1_1_0_0_1_n_n.lhsIdx i ((ValueIdx.contrEquiv1 dot_S800000x64_S64x1_S800000x1_1_0_0_1_n_n 64 rfl rfl).symm k) = lidx_main_v176 i k := funext fun a => Fin.ext (by
    match a with
    | ⟨0, _⟩ => exact lhs_main_v176_0 _ _
    | ⟨1, _⟩ => exact (lhs_main_v176_1 _ _).trans hk)
  have er : dot_S800000x64_S64x1_S800000x1_1_0_0_1_n_n.rhsIdx i ((ValueIdx.contrEquiv1 dot_S800000x64_S64x1_S800000x1_1_0_0_1_n_n 64 rfl rfl).symm k) = ridx_main_v176 i k := funext fun a => Fin.ext (by
    match a with
    | ⟨0, _⟩ => exact (rhs_main_v176_0 _ _).trans hk
    | ⟨1, _⟩ => exact rhs_main_v176_1 _ _)
  rw [el, er]

/-- A bias vector of 64 entries spread over all rows, entry by entry. -/
theorem biasA_apply (b1 : FVec Ideal S64 .f32) (e : Fin 800000) (j : Fin 64) :
    broadcastInDim S800000x64 ![0, 1] bcast_S1x64_S800000x64_0_1 (broadcastInDim S1x64 ![1] bcast_S64_S1x64_1 b1) (ix2 e j) = b1 (ix1 j) :=
  (broadcastInDim_apply _ bcast_S1x64_S800000x64_0_1 (broadcastInDim S1x64 ![1] bcast_S64_S1x64_1 b1) (ix2 e j) (ix2 (0 : Fin 1) j)
    (fun a => match a with
      | ⟨0, _⟩ => by show 0 = if (1 : Nat) = 1 then 0 else e.val; rw [if_pos rfl]
      | ⟨1, _⟩ => by show j.val = if (64 : Nat) = 1 then 0 else j.val; rw [if_neg (by decide)])).trans
  (broadcastInDim_apply _ bcast_S64_S1x64_1 b1 (ix2 (0 : Fin 1) j) (ix1 j)
    (fun a => match a with
      | ⟨0, _⟩ => by show j.val = if (64 : Nat) = 1 then 0 else j.val; rw [if_neg (by decide)]))

/-- The one-entry bias spread over all rows, entry by entry. -/
theorem biasB_apply (b2 : FVec Ideal S1 .f32) (e : Fin 800000) (c : Fin 1) :
    broadcastInDim S800000x1 ![0, 1] bcast_S1x1_S800000x1_0_1 (broadcastInDim S1x1 ![1] bcast_S1_S1x1_1 b2) (ix2 e c) = b2 (ix1 (0 : Fin 1)) :=
  (broadcastInDim_apply _ bcast_S1x1_S800000x1_0_1 (broadcastInDim S1x1 ![1] bcast_S1_S1x1_1 b2) (ix2 e c) (ix2 (0 : Fin 1) (0 : Fin 1))
    (fun a => match a with
      | ⟨0, _⟩ => by show 0 = if (1 : Nat) = 1 then 0 else e.val; rw [if_pos rfl]
      | ⟨1, _⟩ => by show 0 = if (1 : Nat) = 1 then 0 else c.val; rw [if_pos rfl])).trans
  (broadcastInDim_apply _ bcast_S1_S1x1_1 b2 (ix2 (0 : Fin 1) (0 : Fin 1)) (ix1 (0 : Fin 1))
    (fun a => match a with
      | ⟨0, _⟩ => by show 0 = if (1 : Nat) = 1 then 0 else 0; rw [if_pos rfl]))

/-- The zero the hidden layer is clamped at, entry by entry. -/
theorem zeroA_apply (i : S800000x64.Idx) :
    broadcastInDim S800000x64 ![] bcast_S_S800000x64 (constant (F := Ideal) S_ .f32 0x00000000#32) i = 0 :=
  (broadcastInDim_apply _ bcast_S_S800000x64 (constant (F := Ideal) S_ .f32 0x00000000#32) i ix0 (fun a => a.elim0)).trans
    Ideal.ofBits_zero_f32

/-- The hidden layer of the reference's last stage, over free arrays: the two gathered rows joined side by side, times the
    128 × 64 matrix, plus the bias, clamped at zero. -/
def hiddenRef (hs hd : FVec Ideal S800000x64 .f32) (W1 : FVec Ideal S128x64 .f32) (b1 : FVec Ideal S64 .f32) :
    FVec Ideal S800000x64 .f32 :=
  maximumf
    (addf
      (Host.dotGeneral (F := Ideal) dot_S800000x128_S128x64_S800000x64_1_0_0_1_n_n none
        (concatenate S800000x128 1 [⟨S800000x64, hs⟩, ⟨S800000x64, hd⟩] concatenates_S800000x64_S800000x64_S800000x128_d1) W1)
      (broadcastInDim S800000x64 ![0, 1] bcast_S1x64_S800000x64_0_1 (broadcastInDim S1x64 ![1] bcast_S64_S1x64_1 b1)))
    (broadcastInDim S800000x64 ![] bcast_S_S800000x64 (constant (F := Ideal) S_ .f32 0x00000000#32))

/-- The reference's last stage before its final flattening, over free arrays: the hidden layer times the 64 × 1 column,
    plus the one-entry bias. -/
def scoreRef (hs hd : FVec Ideal S800000x64 .f32) (W1 : FVec Ideal S128x64 .f32) (b1 : FVec Ideal S64 .f32)
    (W2 : FVec Ideal S64x1 .f32) (b2 : FVec Ideal S1 .f32) : FVec Ideal S800000x1 .f32 :=
  addf
    (Host.dotGeneral (F := Ideal) dot_S800000x64_S64x1_S800000x1_1_0_0_1_n_n none (hiddenRef hs hd W1 b1) W2)
    (broadcastInDim S800000x1 ![0, 1] bcast_S1x1_S800000x1_0_1 (broadcastInDim S1x1 ![1] bcast_S1_S1x1_1 b2))

/-- The hidden layer, entry by entry: the sum over the 128 joined columns splits into the first gathered row against the
    matrix's upper half plus the second gathered row against its lower half. -/
theorem hiddenRef_apply (hs hd : FVec Ideal S800000x64 .f32) (W1 : FVec Ideal S128x64 .f32) (b1 : FVec Ideal S64 .f32)
    (e : Fin 800000) (k : Fin 64) :
    hiddenRef hs hd W1 b1 (ix2 e k)
      = Cert.Spec.scoreHidden hs hd
          (extractStridedSlice S64x64 ![0, 0] W1 Cert.KernelIdeal.Gen.slices_S128x64_S64x64_0_0)
          (extractStridedSlice S64x64 ![64, 0] W1 Cert.KernelIdeal.Gen.slices_S128x64_S64x64_64_0)
          (Cert.KernelIdeal.Val.rowOf b1) e k := by
  have hl : ∀ k' : Fin 128, lidx_main_v171 (ix2 e k) k' = ix2 e k' := fun k' => funext fun a => Fin.ext (by
    match a with
    | ⟨0, _⟩ => rfl
    | ⟨1, _⟩ => rfl)
  have hr : ∀ k' : Fin 128, ridx_main_v171 (ix2 e k) k' = ix2 k' k := fun k' => funext fun a => Fin.ext (by
    match a with
    | ⟨0, _⟩ => rfl
    | ⟨1, _⟩ => rfl)
  unfold hiddenRef Cert.Spec.scoreHidden
  rw [maximumf_apply, addf_apply, dotA_apply, biasA_apply, zeroA_apply, rowOf_apply]
  simp only [hl, hr]
  rw [sum128_split]
  simp only [cat_lo, cat_hi, slice_lo, slice_hi]

/-- The reference's last stage over free arrays is the score map of the common form. -/
theorem score_eq (hs hd : FVec Ideal S800000x64 .f32) (W1 : FVec Ideal S128x64 .f32) (b1 : FVec Ideal S64 .f32)
    (W2 : FVec Ideal S64x1 .f32) (b2 : FVec Ideal S1 .f32) :
    scoreRef hs hd W1 b1 W2 b2
      = Cert.Spec.score hs hd
          (extractStridedSlice S64x64 ![0, 0] W1 Cert.KernelIdeal.Gen.slices_S128x64_S64x64_0_0)
          (extractStridedSlice S64x64 ![64, 0] W1 Cert.KernelIdeal.Gen.slices_S128x64_S64x64_64_0)
          (Cert.KernelIdeal.Val.rowOf b1) W2 (shapeCast S1x1 b2 Cert.KernelIdeal.Gen.shapeCasts_S1_S1x1) := by
  funext i
  obtain ⟨e, c, rfl⟩ : ∃ (e : Fin 800000) (c : Fin 1), i = ix2 e c := ⟨i 0, i 1, eq_ix2 i⟩
  have hl : ∀ k : Fin 64, lidx_main_v176 (ix2 e c) k = ix2 e k := fun k => funext fun a => Fin.ext (by
    match a with
    | ⟨0, _⟩ => rfl
    | ⟨1, _⟩ => rfl)
  have hr : ∀ k : Fin 64, ridx_main_v176 (ix2 e c) k = ix2 k c := fun k => funext fun a => Fin.ext (by
    match a with
    | ⟨0, _⟩ => rfl
    | ⟨1, _⟩ => rfl)
  rw [Cert.Spec.score_ix2]
  unfold scoreRef Cert.Spec.scoreAt
  rw [addf_apply, dotB_apply, biasB_apply, oneOf_apply]
  simp only [hl, hr, hiddenRef_apply]

/-! ## The two tables -/

/-- The reference's node table is the affine map of the node features. -/
theorem node_eq (x0 : FVec Ideal S50000x128 .f32) (x3 : FVec Ideal S128x64 .f32) (x4 : FVec Ideal S64 .f32) :
    val_main_v7 (F := Ideal) x0 x3 x4 = Cert.KernelIdeal.Val.h0 x0 x3 x4 := by
  funext i
  obtain ⟨r, j, rfl⟩ : ∃ (r : Fin 50000) (j : Fin 64), i = ix2 r j := ⟨i 0, i 1, eq_ix2 i⟩
  have hl : ∀ k : Fin 128, lidx_main_v4 (ix2 r j) k = ix2 r k := fun k => funext fun a => Fin.ext (by
    match a with
    | ⟨0, _⟩ => rfl
    | ⟨1, _⟩ => rfl)
  have hr : ∀ k : Fin 128, ridx_main_v4 (ix2 r j) k = ix2 k j := fun k => funext fun a => Fin.ext (by
    match a with
    | ⟨0, _⟩ => rfl
    | ⟨1, _⟩ => rfl)
  have hb : idx_main_v5 (idx_main_v6 (ix2 r j)) = ix1 j := funext fun a => Fin.ext (by
    match a with
    | ⟨0, _⟩ => rfl)
  rw [val_main_v7_apply, val_main_v4_apply, val_main_v6_apply, val_main_v5_apply,
    Cert.KernelIdeal.Val.h0, Cert.Spec.node_ix2]
  unfold Cert.Spec.nodeAt
  rw [rowOf_apply]
  simp only [hl, hr, hb, Ideal.addf_def]

/-- The reference's edge table is the affine map of the edge features. -/
theorem edge_eq (x1 : FVec Ideal S800000x32 .f32) (x5 : FVec Ideal S32x64 .f32) (x6 : FVec Ideal S64 .f32) :
    val_main_v11 (F := Ideal) x1 x5 x6 = Cert.KernelIdeal.Val.eaTab x1 x5 x6 := by
  funext i
  obtain ⟨e, j, rfl⟩ : ∃ (e : Fin 800000) (j : Fin 64), i = ix2 e j := ⟨i 0, i 1, eq_ix2 i⟩
  have hl : ∀ k : Fin 32, lidx_main_v8 (ix2 e j) k = ix2 e k := fun k => funext fun a => Fin.ext (by
    match a with
    | ⟨0, _⟩ => rfl
    | ⟨1, _⟩ => rfl)
  have hr : ∀ k : Fin 32, ridx_main_v8 (ix2 e j) k = ix2 k j := fun k => funext fun a => Fin.ext (by
    match a with
    | ⟨0, _⟩ => rfl
    | ⟨1, _⟩ => rfl)
  have hb : idx_main_v9 (idx_main_v10 (ix2 e j)) = ix1 j := funext fun a => Fin.ext (by
    match a with
    | ⟨0, _⟩ => rfl)
  rw [val_main_v11_apply, val_main_v8_apply, val_main_v10_apply, val_main_v9_apply,
    Cert.KernelIdeal.Val.eaTab, Cert.Spec.edge_ix2]
  unfold Cert.Spec.edgeAt
  rw [rowOf_apply]
  simp only [hl, hr, hb, Ideal.addf_def]

/-! ## The final scores of the program -/

/-- The reference's result: the scores of the common form, from the last node table gathered along the two rows of the edge
    index by the host gather, flattened to one entry per edge. -/
theorem final_eq
    (x0 : FVec Ideal S50000x128 .f32) (x1 : FVec Ideal S800000x32 .f32) (x2 : IVec S2x800000 32) (x3 : FVec Ideal S128x64 .f32)
    (x4 : FVec Ideal S64 .f32) (x5 : FVec Ideal S32x64 .f32) (x6 : FVec Ideal S64 .f32) (x7 : FVec Ideal S4x128x64 .f32)
    (x8 : FVec Ideal S4x64 .f32) (x9 : FVec Ideal S4x64x64 .f32) (x10 : FVec Ideal S4x64 .f32) (x11 : FVec Ideal S128x64 .f32)
    (x12 : FVec Ideal S64 .f32) (x13 : FVec Ideal S64x1 .f32) (x14 : FVec Ideal S1 .f32) :
    val_main_v180 (F := Ideal) x0 x1 x2 x3 x4 x5 x6 x7 x8 x9 x10 x11 x12 x13 x14
      = shapeCast S800000
          (Cert.KernelIdeal.Val.scoreCol Cert.KernelIdeal.Val.takeR
            (val_main_v155 (F := Ideal) x0 x1 x2 x3 x4 x5 x6 x7 x8 x9 x10) x2 x11 x12 x13 x14)
          Cert.KernelIdeal.Gen.shapeCasts_S800000x1_S800000 := by
  have hs : val_main_v162 (F := Ideal) x0 x1 x2 x3 x4 x5 x6 x7 x8 x9 x10
      = Cert.KernelIdeal.Val.takeR (val_main_v155 (F := Ideal) x0 x1 x2 x3 x4 x5 x6 x7 x8 x9 x10) (Cert.KernelIdeal.Val.srcRow x2) := rfl
  have hd : val_main_v169 (F := Ideal) x0 x1 x2 x3 x4 x5 x6 x7 x8 x9 x10
      = Cert.KernelIdeal.Val.takeR (val_main_v155 (F := Ideal) x0 x1 x2 x3 x4 x5 x6 x7 x8 x9 x10) (Cert.KernelIdeal.Val.dstRow x2) := rfl
  have h : val_main_v179 (F := Ideal) x0 x1 x2 x3 x4 x5 x6 x7 x8 x9 x10 x11 x12 x13 x14
      = scoreRef (val_main_v162 (F := Ideal) x0 x1 x2 x3 x4 x5 x6 x7 x8 x9 x10) (val_main_v169 (F := Ideal) x0 x1 x2 x3 x4 x5 x6 x7 x8 x9 x10) x11 x12 x13 x14 := rfl
  unfold val_main_v180
  rw [h, hs, hd, score_eq]
  rfl

end Cert.ReferenceIdeal.RefVal.Ends

end
-- ==== Proof.RefValue.lean ====
/-
  The idealized reference program's result, as the same function of its arguments as the kernel program's.  Boundary
  by boundary its run leaves the per-operation stages; its two tables, its four rounds (each a gather at both index rows,
  the per-edge map, the sum at the destinations) and its final scores are, stage by stage, the composition
  `resultWith` with the plain row gather.  Its argument buffers end as launched.
-/
import proofs.«418908_j25941602468191_1_alg».proof.Proof.RefChainHead
import proofs.«418908_j25941602468191_1_alg».proof.Proof.RefChainL0
import proofs.«418908_j25941602468191_1_alg».proof.Proof.RefChainL1
import proofs.«418908_j25941602468191_1_alg».proof.Proof.RefChainL2
import proofs.«418908_j25941602468191_1_alg».proof.Proof.RefChainL3
import proofs.«418908_j25941602468191_1_alg».proof.Proof.RefChainFin
import proofs.«418908_j25941602468191_1_alg».proof.Proof.RefArgs
import proofs.«418908_j25941602468191_1_alg».proof.Proof.RefMsg
import proofs.«418908_j25941602468191_1_alg».proof.Proof.RefEnds

set_option maxRecDepth 16384

noncomputable section

namespace Cert.ReferenceIdeal.RefVal

open Idealize.ShloMosaic Idealize.ShloMosaic.TcCoe Idealize.SL.Sem Cert.ReferenceIdeal Cert.ReferenceIdeal.ReadP
open Cert.ReferenceIdeal.RefVal.Ends (node_eq edge_eq final_eq)

variable (m : (ℓ : Loc nD τ sig) → Buf (Elt Ideal) ℓ)

/-- The result buffer's last contents. -/
theorem ref_result (c : Dev nD) :
    R6 m c (Proc.devRef .tc main_v180) = Cert.KernelIdeal.Val.resultWith Cert.KernelIdeal.Val.takeR (xAt m c main_arg0) (xAt m c main_arg1) (xAt m c main_arg2) (xAt m c main_arg3) (xAt m c main_arg4) (xAt m c main_arg5) (xAt m c main_arg6) (xAt m c main_arg7) (xAt m c main_arg8) (xAt m c main_arg9) (xAt m c main_arg10) (xAt m c main_arg11) (xAt m c main_arg12) (xAt m c main_arg13) (xAt m c main_arg14) := by
  obtain ⟨h1, hL1⟩ := refHead m c
  obtain ⟨h2, hL2⟩ := refL0 m c h1 hL1
  obtain ⟨h3, hL3⟩ := refL1 m c h2 hL2
  obtain ⟨h4, hL4⟩ := refL2 m c h3 hL3
  obtain ⟨h5, hL5⟩ := refL3 m c h4 hL4
  rw [refFin m c h5 hL5, final_eq, sum3, round3, sum2, round2, sum1, round1, sum0, round0, node_eq, edge_eq]
  rfl

/-- The reference's run: it terminates, nothing faulting, with the result at `resultWith takeR` of the launch contents
    of its arguments, and the arguments as launched. -/
theorem ref_run (ρ : Dev nD → PrngReg) :
    θ_run defs (onTc (τ := τ) (main (F := Ideal))) ⟨m, fun _ => 0, ρ⟩ fun r => ∀ c : Dev nD,
      r.2.mem ((c.tc : Thread nD τ).loc main_v180) = Cert.KernelIdeal.Val.resultWith Cert.KernelIdeal.Val.takeR (xAt m c main_arg0) (xAt m c main_arg1) (xAt m c main_arg2) (xAt m c main_arg3) (xAt m c main_arg4) (xAt m c main_arg5) (xAt m c main_arg6) (xAt m c main_arg7) (xAt m c main_arg8) (xAt m c main_arg9) (xAt m c main_arg10) (xAt m c main_arg11) (xAt m c main_arg12) (xAt m c main_arg13) (xAt m c main_arg14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c => ⟨(h c main_v180).trans (ref_result m c),
      (h c main_arg0).trans (R6_arg0 m c),
      (h c main_arg1).trans (R6_arg1 m c),
      (h c main_arg2).trans (R6_arg2 m c),
      (h c main_arg3).trans (R6_arg3 m c),
      (h c main_arg4).trans (R6_arg4 m c),
      (h c main_arg5).trans (R6_arg5 m c),
      (h c main_arg6).trans (R6_arg6 m c),
      (h c main_arg7).trans (R6_arg7 m c),
      (h c main_arg8).trans (R6_arg8 m c),
      (h c main_arg9).trans (R6_arg9 m c),
      (h c main_arg10).trans (R6_arg10 m c),
      (h c main_arg11).trans (R6_arg11 m c),
      (h c main_arg12).trans (R6_arg12 m c),
      (h c main_arg13).trans (R6_arg13 m c),
      (h c main_arg14).trans (R6_arg14 m c)⟩) (run_raw m ρ)

end Cert.ReferenceIdeal.RefVal

end
-- ==== Proof.IndexRange.lean ====
/-
  The index-range facts.  The precondition's last two conjuncts say that every entry of the edge index is a node id in
  [0, 50000).  Under that fact the row gather's wrapped index is the index itself, it lies in [0, 49999], the gather's
  in-range mask is all ones, and the kernel program's row gather never takes its fill branch: it is the plain gather.
-/
import proofs.«418908_j25941602468191_1_alg».proof.Pre_finite_inputs
import proofs.«418908_j25941602468191_1_alg».proof.Proof.Gen.Pre_finite_inputs
import proofs.«418908_j25941602468191_1_alg».proof.Proof.KForm
import Idealize.ShloMosaic.Lib.ReduceAll
import Idealize.ShloMosaic.Lib.StableHlo.Predicate
import Idealize.ShloMosaic.Lib.ValueIdx

noncomputable section

namespace Cert.KernelIdeal.Val

open Idealize.ShloMosaic Cert.KernelIdeal

/-! ## A reduction by `and` whose lanes are all one is one -/

/-- A left fold by `and` from 1 over lanes that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    show l.foldl (fun r n => IntOp.andi r (f n)) (IntOp.andi 1#1 (f a)) = 1#1
    rw [IntOp.andi_eq_one.2 ⟨rfl, hf a⟩]
    exact foldl_andi_ones f hf l

/-- A `stablehlo.reduce` by `and` from 1 of an operand that is 1 everywhere is 1 everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_ones x hx _

/-- A select whose mask is 1 everywhere is its first branch. -/
theorem select_of_ones {s : Shape} {α : Type} (c : IVec s 1) (a b : s.Idx → α) (hc : ∀ i, c i = 1#1) : select c a b = a := by
  funext i
  show Scalar.select (c i) (a i) (b i) = a i
  rw [hc i]
  exact ValueIdx.select_one _ _

/-- Both operands of a lane of an `and` that is 1 are 1. -/
theorem andi_apply_eq_one {s : Shape} (x y : IVec s 1) (i : s.Idx) (h : andi x y i = 1#1) : x i = 1#1 ∧ y i = 1#1 :=
  IntOp.andi_eq_one.1 h

/-- A nonnegative word is not wrapped: the lane `idx < 0` is not 1, so the select keeps the word. -/
theorem wrap_of_nonneg (w : BitVec 32) (h0 : (0 : Int) ≤ w.toInt) :
    Scalar.select (IntOp.cmpi .slt w 0#32) (IntOp.addi w 50000#32) w = w := by
  have hc : ¬ IntOp.cmpi .slt w 0#32 = 1#1 := by
    rw [IntOp.cmpi_slt, show (0#32 : BitVec 32).toInt = 0 from by decide]; omega
  rw [ValueIdx.eq_zero_of_ne_one hc]
  exact ValueIdx.select_zero _ _

/-! ## The precondition decoded: every entry of the edge index is a node id -/

/-- The last two conjuncts of the precondition, each a `jnp.all`, read at an entry of the edge index. -/
theorem range_of_pre (a0 : FVec Ideal S50000x128 .f32) (a1 : FVec Ideal S800000x32 .f32) (a2 : IVec S2x800000 32) (a3 : FVec Ideal S128x64 .f32) (a4 : FVec Ideal S64 .f32) (a5 : FVec Ideal S32x64 .f32) (a6 : FVec Ideal S64 .f32) (a7 : FVec Ideal S4x128x64 .f32) (a8 : FVec Ideal S4x64 .f32) (a9 : FVec Ideal S4x64x64 .f32) (a10 : FVec Ideal S4x64 .f32) (a11 : FVec Ideal S128x64 .f32) (a12 : FVec Ideal S64 .f32) (a13 : FVec Ideal S64x1 .f32) (a14 : FVec Ideal S1 .f32)
    (h : Cert.Pre_finite_inputs.fn (F := Ideal) a0 a1 a2 a3 a4 a5 a6 a7 a8 a9 a10 a11 a12 a13 a14 = fun _ => 1#1) :
    ∀ i : S2x800000.Idx, (0 : Int) ≤ (a2 i).toInt ∧ (a2 i).toInt < 50000 := by
  intro i
  haveI : Subsingleton Cert.Pre_finite_inputs.S_.Idx := ⟨fun a b => funext fun d => d.elim0⟩
  have e := congrFun h ValueIdx.ix0
  dsimp only [Cert.Pre_finite_inputs.fn, Cert.Pre_finite_inputs.fn_part1, Cert.Pre_finite_inputs.fn_part2,
    Cert.Pre_finite_inputs.fn_part3, Cert.Pre_finite_inputs.fn_part4] at e
  obtain ⟨e1, hB⟩ := andi_apply_eq_one _ _ _ e
  obtain ⟨-, hA⟩ := andi_apply_eq_one _ _ _ e1
  have h0 : IntOp.cmpi .sge (a2 i) 0#32 = 1#1 := Host.reduce_andi_all _ _ _ _ _ hA i
  have h1 : IntOp.cmpi .slt (a2 i) 50000#32 = 1#1 := Host.reduce_andi_all _ _ _ _ _ hB i
  rw [IntOp.cmpi_sge, show (0#32 : BitVec 32).toInt = 0 from by decide] at h0
  rw [IntOp.cmpi_slt, show (50000#32 : BitVec 32).toInt = 50000 from by decide] at h1
  exact ⟨h0, h1⟩

/-! ## The wrapped index, the in-range mask and the row gather under the range fact -/

/-- An entry of the start-index column is the wrapped entry of the index row at some position. -/
theorem startIdx_apply (idx : IVec S800000 32) (i : S800000x1.Idx) :
    ∃ k : S800000.Idx, startIdx idx i = Scalar.select (IntOp.cmpi .slt (idx k) 0#32) (IntOp.addi (idx k) 50000#32) (idx k) :=
  ⟨_, rfl⟩

/-- With every entry of the index row in [0, 50000), so is every entry of the start-index column. -/
theorem startIdx_range (idx : IVec S800000 32) (hr : ∀ k : S800000.Idx, (0 : Int) ≤ (idx k).toInt ∧ (idx k).toInt < 50000)
    (i : S800000x1.Idx) : (0 : Int) ≤ (startIdx idx i).toInt ∧ (startIdx idx i).toInt < 50000 := by
  obtain ⟨k, e⟩ := startIdx_apply idx i
  rw [e, wrap_of_nonneg _ (hr k).1]
  exact hr k

/-- With every entry of the index row in [0, 50000), the in-range mask is 1 at every row. -/
theorem inRange_eq_one (idx : IVec S800000 32) (hr : ∀ k : S800000.Idx, (0 : Int) ≤ (idx k).toInt ∧ (idx k).toInt < 50000)
    (j : S800000.Idx) : inRange idx j = 1#1 := by
  unfold inRange
  refine reduce_andi_ones _ _ _ _ (fun i => ?_) (fun _ => rfl) j
  obtain ⟨h0, h1⟩ := startIdx_range idx hr i
  show IntOp.andi (IntOp.cmpi .sge (startIdx idx i) 0#32) (IntOp.cmpi .sle (startIdx idx i) 49999#32) = 1#1
  refine IntOp.andi_eq_one.2 ⟨IntOp.cmpi_sge.2 ?_, IntOp.cmpi_sle.2 ?_⟩
  · rw [show (0#32 : BitVec 32).toInt = 0 from by decide]; exact h0
  · rw [show (49999#32 : BitVec 32).toInt = 49999 from by decide]; omega

/-- With every entry of the index row in [0, 50000), the kernel program's row gather is the plain gather. -/
theorem takeK_eq_takeR (h : FVec Ideal S50000x64 .f32) (idx : IVec S800000 32)
    (hr : ∀ k : S800000.Idx, (0 : Int) ≤ (idx k).toInt ∧ (idx k).toInt < 50000) : takeK h idx = takeR h idx := by
  unfold takeK
  refine select_of_ones _ _ _ (fun i => ?_)
  unfold broadcastInDim
  exact inRange_eq_one idx hr _

/-- An entry of row 0 of the edge index is an entry of the edge index. -/
theorem srcRow_range (a2 : IVec S2x800000 32) (hr : ∀ i : S2x800000.Idx, (0 : Int) ≤ (a2 i).toInt ∧ (a2 i).toInt < 50000)
    (k : S800000.Idx) : (0 : Int) ≤ (srcRow a2 k).toInt ∧ (srcRow a2 k).toInt < 50000 := by
  unfold srcRow shapeCast extractStridedSlice
  exact hr _

/-- An entry of row 1 of the edge index is an entry of the edge index. -/
theorem dstRow_range (a2 : IVec S2x800000 32) (hr : ∀ i : S2x800000.Idx, (0 : Int) ≤ (a2 i).toInt ∧ (a2 i).toInt < 50000)
    (k : S800000.Idx) : (0 : Int) ≤ (dstRow a2 k).toInt ∧ (dstRow a2 k).toInt < 50000 := by
  unfold dstRow shapeCast extractStridedSlice
  exact hr _

theorem takeK_srcRow (h : FVec Ideal S50000x64 .f32) (a2 : IVec S2x800000 32)
    (hr : ∀ i : S2x800000.Idx, (0 : Int) ≤ (a2 i).toInt ∧ (a2 i).toInt < 50000) : takeK h (srcRow a2) = takeR h (srcRow a2) :=
  takeK_eq_takeR h (srcRow a2) (srcRow_range a2 hr)

theorem takeK_dstRow (h : FVec Ideal S50000x64 .f32) (a2 : IVec S2x800000 32)
    (hr : ∀ i : S2x800000.Idx, (0 : Int) ≤ (a2 i).toInt ∧ (a2 i).toInt < 50000) : takeK h (dstRow a2) = takeR h (dstRow a2) :=
  takeK_eq_takeR h (dstRow a2) (dstRow_range a2 hr)

end Cert.KernelIdeal.Val

end
-- ==== Proof.lean ====
/-
  The certificate of the edge-scoring network: a Pallas program of seven kernel launches (two affine embeddings, four
  rounds of per-edge messages, one per-edge score) among host gathers and segment sums, against its plain jnp reference.

  Over the extended reals both programs compute one function of the arguments.  Each launch's output array is read off
  its generated frame as one whole-array function — every sum explicit, the bf16 roundings gone — and the host
  operations between the launches are carried as they are printed; the reference's run is read operation by operation
  into the same composition, its 128-term products split into the kernel's two 64-term halves (addition of extended
  reals is commutative and associative, so no finiteness is used).  The two programs gather rows differently: the
  kernel's gather fills rows whose index is out of range, the reference's does not.  Under the precondition every entry
  of the edge index is a row of the node table, the fill never happens, and the two gathers agree on both index rows.
-/
import proofs.«418908_j25941602468191_1_alg».proof.Defs
import proofs.«418908_j25941602468191_1_alg».proof.Proof.Gen.Kernel
import proofs.«418908_j25941602468191_1_alg».proof.Proof.Gen.Kernel.Frame
import proofs.«418908_j25941602468191_1_alg».proof.Proof.Gen.KernelIdeal
import proofs.«418908_j25941602468191_1_alg».proof.Proof.Gen.KernelIdeal.Frame
import proofs.«418908_j25941602468191_1_alg».proof.Proof.Gen.ReferenceIdeal
import proofs.«418908_j25941602468191_1_alg».proof.Proof.Gen.Pre_finite_inputs
import proofs.«418908_j25941602468191_1_alg».proof.Proof.KernelRun
import proofs.«418908_j25941602468191_1_alg».proof.Proof.KernelValue
import proofs.«418908_j25941602468191_1_alg».proof.Proof.RefValue
import proofs.«418908_j25941602468191_1_alg».proof.Proof.IndexRange
import Idealize.ShloMosaic.Adequacy
import Idealize.ShloMosaic.Init

noncomputable section

namespace Cert.Proof

open Idealize.ShloMosaic Idealize.ShloMosaic.TcCoe Idealize.SL.Sem

/-- The three frames: the two kernel programs by their generated frame certificates, the reference by its run with the
    result dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefVal.ref_run m ρ)

/-- Both idealized programs end with the result at one function of the arguments: the kernel's run ends at the
    composition with the filling gather, which under the index range is the composition with the plain gather; the
    reference's run ends at the latter, of arguments that agree. -/
theorem algebraic : Cert.algebraic_KernelIdeal_ReferenceIdeal := by
  intro m ρ m' ρ' hpre hagree
  refine ⟨fun c => Cert.KernelIdeal.Val.resultWith Cert.KernelIdeal.Val.takeR (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · refine (θ_run Cert.KernelIdeal.defs _ _).mono (fun r h c => ⟨(h c).1.trans ?_, (h c).2⟩) (Cert.KernelIdeal.Gen.run_result (F := Ideal) m ρ)
    have hr := Cert.KernelIdeal.Val.range_of_pre _ _ _ _ _ _ _ _ _ _ _ _ _ _ _ (hpre c)
    exact (Cert.KernelIdeal.Val.kernel_value m ρ c).trans
      (Cert.KernelIdeal.Val.resultWith_congr _ _ _ _ _ _ _ _ _ _ _ _ _ _ _ _ _
        (fun h => Cert.KernelIdeal.Val.takeK_srcRow h _ hr) (fun h => Cert.KernelIdeal.Val.takeK_dstRow h _ hr))
  · refine (θ_run Cert.ReferenceIdeal.defs _ _).mono (fun r h c => ⟨(h c).1.trans ?_, (h c).2⟩) (Cert.ReferenceIdeal.RefVal.ref_run m' ρ')
    obtain ⟨h0, h1, h2, h3, h4, h5, h6, h7, h8, h9, h10, h11, h12, h13, h14⟩ := hagree c
    show Cert.KernelIdeal.Val.resultWith Cert.KernelIdeal.Val.takeR (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) = _
    rw [h0, h1, h2, h3, h4, h5, h6, h7, h8, h9, h10, h11, h12, h13, h14]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
